-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x255 : Shape := ⟨2, ![32768, 255]⟩
abbrev S1023x256 : Shape := ⟨2, ![1023, 256]⟩
abbrev S1x2303 : Shape := ⟨2, ![1, 2303]⟩
abbrev S1 : Shape := ⟨1, ![1]⟩
abbrev S_ : Shape := ⟨0, ![]⟩

class Facts : Prop where
  bcast_S_S32768x255 : S_.BroadcastsInDim S32768x255 (![] : Fin 0 → Fin S32768x255.rank)
  reducesTo_S32768x255_S_d0_1 : S32768x255.ReducesTo [0, 1] S_
  h_S_ : 0 < S_.numel
  bcast_S_S1023x256 : S_.BroadcastsInDim S1023x256 (![] : Fin 0 → Fin S1023x256.rank)
  reducesTo_S1023x256_S_d0_1 : S1023x256.ReducesTo [0, 1] S_
  bcast_S_S1x2303 : S_.BroadcastsInDim S1x2303 (![] : Fin 0 → Fin S1x2303.rank)
  reducesTo_S1x2303_S_d0_1 : S1x2303.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32768x255 .f32) (main_arg1 : FVec F S1023x256 .f32) (main_arg2 : FVec F S1x2303 .f32) (main_arg3 : FVec F S1 .f32) : IVec S_ 1 :=
  let main_v0 : FVec F S32768x255 .f32 := Host.absf main_arg0
  let main_cst : FVec F S_ .f32 := constant S_ .f32 0x7F800000#32
  let main_v1 : FVec F S32768x255 .f32 := broadcastInDim S32768x255 ![] bcast_S_S32768x255 main_cst
  let main_v2 : IVec S32768x255 1 := cmpf .olt main_v0 main_v1
  let main_c : IVec S_ 1 := constantI S_ 1 1#1
  let main_v3 : IVec S_ 1 := (fun x v => Host.reduce IntOp.andi x v reducesTo_S32768x255_S_d0_1 h_S_) main_v2 main_c
  let main_v4 : FVec F S1023x256 .f32 := Host.absf main_arg1
  let main_cst_0 : FVec F S_ .f32 := constant S_ .f32 0x7F800000#32
  let main_v5 : FVec F S1023x256 .f32 := broadcastInDim S1023x256 ![] bcast_S_S1023x256 main_cst_0
  let main_v6 : IVec S1023x256 1 := cmpf .olt main_v4 main_v5
  let main_c_1 : IVec S_ 1 := constantI S_ 1 1#1
  let main_v7 : IVec S_ 1 := (fun x v => Host.reduce IntOp.andi x v reducesTo_S1023x256_S_d0_1 h_S_) main_v6 main_c_1
  let main_v8 : IVec S_ 1 := andi main_v3 main_v7
  let main_v9 : FVec F S1x2303 .f32 := Host.absf main_arg2
  let main_cst_2 : FVec F S_ .f32 := constant S_ .f32 0x7F800000#32
  let main_v10 : FVec F S1x2303 .f32 := broadcastInDim S1x2303 ![] bcast_S_S1x2303 main_cst_2
  let main_v11 : IVec S1x2303 1 := cmpf .olt main_v9 main_v10
  let main_c_3 : IVec S_ 1 := constantI S_ 1 1#1
  let main_v12 : IVec S_ 1 := (fun x v => Host.reduce IntOp.andi x v reducesTo_S1x2303_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32768x255 : Shape := ⟨2, ![32768, 255]⟩
abbrev S1023x256 : Shape := ⟨2, ![1023, 256]⟩
abbrev S1x2303 : Shape := ⟨2, ![1, 2303]⟩
abbrev S1 : Shape := ⟨1, ![1]⟩
abbrev S32768x1 : Shape := ⟨2, ![32768, 1]⟩
abbrev S1024x255 : Shape := ⟨2, ![1024, 255]⟩
abbrev S1024x1 : Shape := ⟨2, ![1024, 1]⟩
abbrev S1024x256 : Shape := ⟨2, ![1024, 256]⟩
abbrev S1024x1023 : Shape := ⟨2, ![1024, 1023]⟩
abbrev S1x256 : Shape := ⟨2, ![1, 256]⟩
abbrev S1024 : Shape := ⟨1, ![1024]⟩
abbrev S1x1 : Shape := ⟨2, ![1, 1]⟩
abbrev S1024x1x1 : Shape := ⟨3, ![1024, 1, 1]⟩
abbrev S1024x1x2 : Shape := ⟨3, ![1024, 1, 2]⟩
abbrev S1024x2 : Shape := ⟨2, ![1024, 2]⟩
abbrev S1x2 : Shape := ⟨2, ![1, 2]⟩
abbrev S1024x2x1 : Shape := ⟨3, ![1024, 2, 1]⟩
abbrev S1024x2x2 : Shape := ⟨3, ![1024, 2, 2]⟩
abbrev S1024x4 : Shape := ⟨2, ![1024, 4]⟩
abbrev S1x4 : Shape := ⟨2, ![1, 4]⟩
abbrev S1024x4x1 : Shape := ⟨3, ![1024, 4, 1]⟩
abbrev S1024x4x2 : Shape := ⟨3, ![1024, 4, 2]⟩
abbrev S1024x8 : Shape := ⟨2, ![1024, 8]⟩
abbrev S1x8 : Shape := ⟨2, ![1, 8]⟩
abbrev S1024x8x1 : Shape := ⟨3, ![1024, 8, 1]⟩
abbrev S1024x8x2 : Shape := ⟨3, ![1024, 8, 2]⟩
abbrev S1024x16 : Shape := ⟨2, ![1024, 16]⟩
abbrev S1x16 : Shape := ⟨2, ![1, 16]⟩
abbrev S1024x16x1 : Shape := ⟨3, ![1024, 16, 1]⟩
abbrev S1024x16x2 : Shape := ⟨3, ![1024, 16, 2]⟩
abbrev S1024x32 : Shape := ⟨2, ![1024, 32]⟩
abbrev S1x32 : Shape := ⟨2, ![1, 32]⟩
abbrev S1024x32x1 : Shape := ⟨3, ![1024, 32, 1]⟩
abbrev S1024x32x2 : Shape := ⟨3, ![1024, 32, 2]⟩
abbrev S1024x64 : Shape := ⟨2, ![1024, 64]⟩
abbrev S1x64 : Shape := ⟨2, ![1, 64]⟩
abbrev S1024x64x1 : Shape := ⟨3, ![1024, 64, 1]⟩
abbrev S1024x64x2 : Shape := ⟨3, ![1024, 64, 2]⟩
abbrev S1024x128 : Shape := ⟨2, ![1024, 128]⟩
abbrev S1x128 : Shape := ⟨2, ![1, 128]⟩
abbrev S1024x128x1 : Shape := ⟨3, ![1024, 128, 1]⟩
abbrev S1024x128x2 : Shape := ⟨3, ![1024, 128, 2]⟩
abbrev S1024x256x1 : Shape := ⟨3, ![1024, 256, 1]⟩
abbrev S1024x256x2 : Shape := ⟨3, ![1024, 256, 2]⟩
abbrev S1024x512 : Shape := ⟨2, ![1024, 512]⟩
abbrev S1x512 : Shape := ⟨2, ![1, 512]⟩
abbrev S1024x512x1 : Shape := ⟨3, ![1024, 512, 1]⟩
abbrev S1024x512x2 : Shape := ⟨3, ![1024, 512, 2]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x255, .f32⟩
  | .hbm, ⟨1, _⟩ => ⟨S1023x256, .f32⟩
  | .hbm, ⟨2, _⟩ => ⟨S1x2303, .f32⟩
  | .hbm, ⟨3, _⟩ => ⟨S1, .f32⟩
  | .hbm, ⟨4, _⟩ => ⟨S32768x1, .f32⟩
  | .local _ .vmem, ⟨0, _⟩ => ⟨S1024x255, .f32⟩
  | .local _ .vmem, ⟨1, _⟩ => ⟨S1024x255, .f32⟩
  | .local _ .vmem, ⟨2, _⟩ => ⟨S1023x256, .f32⟩
  | .local _ .vmem, ⟨3, _⟩ => ⟨S1x2303, .f32⟩
  | .local _ .vmem, ⟨4, _⟩ => ⟨S1, .f32⟩
  | .local _ .vmem, ⟨5, _⟩ => ⟨S1024x1, .f32⟩
  | .local _ .vmem, ⟨6, _⟩ => ⟨S1024x1, .f32⟩
  | _, _ => ⟨S32768x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x255 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1023x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2303 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x255_S1024x255_0_0 : ∀ a, (![0, 0] : Fin 2 → Nat) a + S1024x255.size a ≤ S1024x255.size a
  h_S1024x255 : 0 < S1024x255.numel
  concatenates_S1024x255_S1024x1_S1024x256_d1 : Shape.Concatenates [S1024x255, S1024x1] S1024x256 1
  bitsLt_bf16_f32 : FTy.bits .bf16 < FTy.bits .f32
  inb_S1023x256_S1023x256_0_0 : ∀ a, (![0, 0] : Fin 2 → Nat) a + S1023x256.size a ≤ S1023x256.size a
  h_S1023x256 : 0 < S1023x256.numel
  inb_S1x2303_S1x2303_0_0 : ∀ a, (![0, 0] : Fin 2 → Nat) a + S1x2303.size a ≤ S1x2303.size a
  h_S1x2303 : 0 < S1x2303.numel
  inb_S1_S1_0 : ∀ a, (![0] : Fin 1 → Nat) a + S1.size a ≤ S1.size a
  h_S1 : 0 < S1.numel
  slices_S1x2303_o0_0_S1x256 : S1x2303.Slices ![0, 0] S1x256
  broadcasts_S1x256_S1024x256 : S1x256.Broadcasts S1024x256
  reduces_S1024x256_S1024 : S1024x256.Reduces [1] S1024
  shapeCasts_S1024_S1024x1 : S1024.ShapeCasts S1024x1
  slices_S1x2303_o0_256_S1x1 : S1x2303.Slices ![0, 256] S1x1
  broadcasts_S1x1_S1024x1 : S1x1.Broadcasts S1024x1
  reduces_S1024x1_S1024 : S1024x1.Reduces [1] S1024
  slices_S1024x1023_o0_0_S1024x1 : S1024x1023.Slices ![0, 0] S1024x1
  shapeCasts_S1024x1_S1024x1x1 : S1024x1.ShapeCasts S1024x1x1
  concatenates_S1024x1x1_S1024x1x1_S1024x1x2_d2 : Shape.Concatenates [S1024x1x1, S1024x1x1] S1024x1x2 2
  shapeCasts_S1024x1x2_S1024x2 : S1024x1x2.ShapeCasts S1024x2
  slices_S1x2303_o0_257_S1x2 : S1x2303.Slices ![0, 257] S1x2
  broadcasts_S1x2_S1024x2 : S1x2.Broadcasts S1024x2
  reduces_S1024x2_S1024 : S1024x2.Reduces [1] S1024
  slices_S1024x1023_o0_1_S1024x2 : S1024x1023.Slices ![0, 1] S1024x2
  shapeCasts_S1024x2_S1024x2x1 : S1024x2.ShapeCasts S1024x2x1
  concatenates_S1024x2x1_S1024x2x1_S1024x2x2_d2 : Shape.Concatenates [S1024x2x1, S1024x2x1] S1024x2x2 2
  shapeCasts_S1024x2x2_S1024x4 : S1024x2x2.ShapeCasts S1024x4
  slices_S1x2303_o0_259_S1x4 : S1x2303.Slices ![0, 259] S1x4
  broadcasts_S1x4_S1024x4 : S1x4.Broadcasts S1024x4
  reduces_S1024x4_S1024 : S1024x4.Reduces [1] S1024
  slices_S1024x1023_o0_3_S1024x4 : S1024x1023.Slices ![0, 3] S1024x4
  shapeCasts_S1024x4_S1024x4x1 : S1024x4.ShapeCasts S1024x4x1
  concatenates_S1024x4x1_S1024x4x1_S1024x4x2_d2 : Shape.Concatenates [S1024x4x1, S1024x4x1] S1024x4x2 2
  shapeCasts_S1024x4x2_S1024x8 : S1024x4x2.ShapeCasts S1024x8
  slices_S1x2303_o0_263_S1x8 : S1x2303.Slices ![0, 263] S1x8
  broadcasts_S1x8_S1024x8 : S1x8.Broadcasts S1024x8
  reduces_S1024x8_S1024 : S1024x8.Reduces [1] S1024
  slices_S1024x1023_o0_7_S1024x8 : S1024x1023.Slices ![0, 7] S1024x8
  shapeCasts_S1024x8_S1024x8x1 : S1024x8.ShapeCasts S1024x8x1
  concatenates_S1024x8x1_S1024x8x1_S1024x8x2_d2 : Shape.Concatenates [S1024x8x1, S1024x8x1] S1024x8x2 2
  shapeCasts_S1024x8x2_S1024x16 : S1024x8x2.ShapeCasts S1024x16
  slices_S1x2303_o0_271_S1x16 : S1x2303.Slices ![0, 271] S1x16
  broadcasts_S1x16_S1024x16 : S1x16.Broadcasts S1024x16
  reduces_S1024x16_S1024 : S1024x16.Reduces [1] S1024
  slices_S1024x1023_o0_15_S1024x16 : S1024x1023.Slices ![0, 15] S1024x16
  shapeCasts_S1024x16_S1024x16x1 : S1024x16.ShapeCasts S1024x16x1
  concatenates_S1024x16x1_S1024x16x1_S1024x16x2_d2 : Shape.Concatenates [S1024x16x1, S1024x16x1] S1024x16x2 2
  shapeCasts_S1024x16x2_S1024x32 : S1024x16x2.ShapeCasts S1024x32
  slices_S1x2303_o0_287_S1x32 : S1x2303.Slices ![0, 287] S1x32
  broadcasts_S1x32_S1024x32 : S1x32.Broadcasts S1024x32
  reduces_S1024x32_S1024 : S1024x32.Reduces [1] S1024
  slices_S1024x1023_o0_31_S1024x32 : S1024x1023.Slices ![0, 31] S1024x32
  shapeCasts_S1024x32_S1024x32x1 : S1024x32.ShapeCasts S1024x32x1
  concatenates_S1024x32x1_S1024x32x1_S1024x32x2_d2 : Shape.Concatenates [S1024x32x1, S1024x32x1] S1024x32x2 2
  shapeCasts_S1024x32x2_S1024x64 : S1024x32x2.ShapeCasts S1024x64
  slices_S1x2303_o0_319_S1x64 : S1x2303.Slices ![0, 319] S1x64
  broadcasts_S1x64_S1024x64 : S1x64.Broadcasts S1024x64
  reduces_S1024x64_S1024 : S1024x64.Reduces [1] S1024
  slices_S1024x1023_o0_63_S1024x64 : S1024x1023.Slices ![0, 63] S1024x64
  shapeCasts_S1024x64_S1024x64x1 : S1024x64.ShapeCasts S1024x64x1
  concatenates_S1024x64x1_S1024x64x1_S1024x64x2_d2 : Shape.Concatenates [S1024x64x1, S1024x64x1] S1024x64x2 2
  shapeCasts_S1024x64x2_S1024x128 : S1024x64x2.ShapeCasts S1024x128
  slices_S1x2303_o0_383_S1x128 : S1x2303.Slices ![0, 383] S1x128
  broadcasts_S1x128_S1024x128 : S1x128.Broadcasts S1024x128
  reduces_S1024x128_S1024 : S1024x128.Reduces [1] S1024
  slices_S1024x1023_o0_127_S1024x128 : S1024x1023.Slices ![0, 127] S1024x128
  shapeCasts_S1024x128_S1024x128x1 : S1024x128.ShapeCasts S1024x128x1
  concatenates_S1024x128x1_S1024x128x1_S1024x128x2_d2 : Shape.Concatenates [S1024x128x1, S1024x128x1] S1024x128x2 2
  shapeCasts_S1024x128x2_S1024x256 : S1024x128x2.ShapeCasts S1024x256
  slices_S1x2303_o0_511_S1x256 : S1x2303.Slices ![0, 511] S1x256
  slices_S1024x1023_o0_255_S1024x256 : S1024x1023.Slices ![0, 255] S1024x256
  shapeCasts_S1024x256_S1024x256x1 : S1024x256.ShapeCasts S1024x256x1
  concatenates_S1024x256x1_S1024x256x1_S1024x256x2_d2 : Shape.Concatenates [S1024x256x1, S1024x256x1] S1024x256x2 2
  shapeCasts_S1024x256x2_S1024x512 : S1024x256x2.ShapeCasts S1024x512
  slices_S1x2303_o0_767_S1x512 : S1x2303.Slices ![0, 767] S1x512
  broadcasts_S1x512_S1024x512 : S1x512.Broadcasts S1024x512
  reduces_S1024x512_S1024 : S1024x512.Reduces [1] S1024
  slices_S1024x1023_o0_511_S1024x512 : S1024x1023.Slices ![0, 511] S1024x512
  shapeCasts_S1024x512_S1024x512x1 : S1024x512.ShapeCasts S1024x512x1
  concatenates_S1024x512x1_S1024x512x1_S1024x512x2_d2 : Shape.Concatenates [S1024x512x1, S1024x512x1] S1024x512x2 2
  shapeCasts_S1024x512x2_S1024x1024 : S1024x512x2.ShapeCasts S1024x1024
  slices_S1x2303_o0_1279_S1x1024 : S1x2303.Slices ![0, 1279] S1x1024
  broadcasts_S1x1024_S1024x1024 : S1x1024.Broadcasts S1024x1024
  reduces_S1024x1024_S1024 : S1024x1024.Reduces [1] S1024
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  dot_S1024x256_S1023x256_S1024x1023_1_1_0_0_n_n_wf : DotDims.WF S1024x256 S1023x256 S1024x1023 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x255.size a ≤ S32768x255.size a
  hwx0_0 : ∀ i : grid0.Coords, EltTy.bits .f32 = 32 ∨ (Rect.block (s := S32768x255) S1024x255.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1023x256.size a ≤ S1023x256.size a
  hwx0_1 : ∀ i : grid0.Coords, EltTy.bits .f32 = 32 ∨ (Rect.block (s := S1023x256) S1023x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2303.size a ≤ S1x2303.size a
  hwx0_2 : ∀ i : grid0.Coords, EltTy.bits .f32 = 32 ∨ (Rect.block (s := S1x2303) S1x2303.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S32768x1.size a
  hwx0_4 : ∀ i : grid0.Coords, EltTy.bits .f32 = 32 ∨ (Rect.block (s := S32768x1) S1024x1.size (cc0_transform_4 i) (hinb0_4 i)).WholeWords (EltTy.packing .f32)

variable [Facts₀]

def dot_S1024x256_S1023x256_S1024x1023_1_1_0_0_n_n : DotDims S1024x256 S1023x256 S1024x1023 where
  lhsContracting := [1]
  rhsContracting := [1]
  lhsNonContracting := [0]
  rhsNonContracting := [0]
  lhsBatch := []
  rhsBatch := []
  wf := dot_S1024x256_S1023x256_S1024x1023_1_1_0_0_n_n_wf

abbrev win0_0 : Pipeline.Window sig grid0 :=
  Pipeline.Window.ofSpec (Memref.whole main_arg0) S1024x255.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1023x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2303.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x255 : Shape := ⟨2, ![32768, 255]⟩
abbrev S1023x256 : Shape := ⟨2, ![1023, 256]⟩
abbrev S1x2303 : Shape := ⟨2, ![1, 2303]⟩
abbrev S1 : Shape := ⟨1, ![1]⟩
abbrev S2 : Shape := ⟨1, ![2]⟩
abbrev S1x2 : Shape := ⟨2, ![1, 2]⟩
abbrev S4 : Shape := ⟨1, ![4]⟩
abbrev S1x4 : Shape := ⟨2, ![1, 4]⟩
abbrev S8 : Shape := ⟨1, ![8]⟩
abbrev S1x8 : Shape := ⟨2, ![1, 8]⟩
abbrev S16 : Shape := ⟨1, ![16]⟩
abbrev S1x16 : Shape := ⟨2, ![1, 16]⟩
abbrev S32 : Shape := ⟨1, ![32]⟩
abbrev S1x32 : Shape := ⟨2, ![1, 32]⟩
abbrev S64 : Shape := ⟨1, ![64]⟩
abbrev S1x64 : Shape := ⟨2, ![1, 64]⟩
abbrev S128 : Shape := ⟨1, ![128]⟩
abbrev S1x128 : Shape := ⟨2, ![1, 128]⟩
abbrev S256 : Shape := ⟨1, ![256]⟩
abbrev S1x256 : Shape := ⟨2, ![1, 256]⟩
abbrev S512 : Shape := ⟨1, ![512]⟩
abbrev S1x512 : Shape := ⟨2, ![1, 512]⟩
abbrev S1024 : Shape := ⟨1, ![1024]⟩
abbrev S1x1024 : Shape := ⟨2, ![1, 1024]⟩
abbrev S_ : Shape := ⟨0, ![]⟩
abbrev S32768x1 : Shape := ⟨2, ![32768, 1]⟩
abbrev S32768x256 : Shape := ⟨2, ![32768, 256]⟩
abbrev S256x1023 : Shape := ⟨2, ![256, 1023]⟩
abbrev S32768x1023 : Shape := ⟨2, ![32768, 1023]⟩
abbrev S2x1 : Shape := ⟨2, ![2, 1]⟩
abbrev S32768x2 : Shape := ⟨2, ![32768, 2]⟩
abbrev S4x1 : Shape := ⟨2, ![4, 1]⟩
abbrev S32768x4 : Shape := ⟨2, ![32768, 4]⟩
abbrev S8x1 : Shape := ⟨2, ![8, 1]⟩
abbrev S32768x8 : Shape := ⟨2, ![32768, 8]⟩
abbrev S16x1 : Shape := ⟨2, ![16, 1]⟩
abbrev S32768x16 : Shape := ⟨2, ![32768, 16]⟩
abbrev S32x1 : Shape := ⟨2, ![32, 1]⟩
abbrev S32768x32 : Shape := ⟨2, ![32768, 32]⟩
abbrev S64x1 : Shape := ⟨2, ![64, 1]⟩
abbrev S32768x64 : Shape := ⟨2, ![32768, 64]⟩
abbrev S128x1 : Shape := ⟨2, ![128, 1]⟩
abbrev S32768x128 : Shape := ⟨2, ![32768, 128]⟩
abbrev S256x1 : Shape := ⟨2, ![256, 1]⟩
abbrev S512x1 : Shape := ⟨2, ![512, 1]⟩
abbrev S32768x512 : Shape := ⟨2, ![32768, 512]⟩
abbrev S1024x1 : Shape := ⟨2, ![1024, 1]⟩
abbrev S32768x1024 : Shape := ⟨2, ![32768, 1024]⟩
abbrev S32768x2047 : Shape := ⟨2, ![32768, 2047]⟩
abbrev S32768x2303 : Shape := ⟨2, ![32768, 2303]⟩
abbrev S2303x1 : Shape := ⟨2, ![2303, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S32768x255, .f32⟩
  | 1 => ⟨S1023x256, .f32⟩
  | 2 => ⟨S1x2303, .f32⟩
  | 3 => ⟨S1, .f32⟩
  | 4 => ⟨S2, .i32⟩
  | 5 => ⟨S2, .i1⟩
  | 6 => ⟨S2, .f32⟩
  | 7 => ⟨S1x2, .f32⟩
  | 8 => ⟨S2, .i32⟩
  | 9 => ⟨S2, .i1⟩
  | 10 => ⟨S4, .i32⟩
  | 11 => ⟨S4, .i1⟩
  | 12 => ⟨S4, .f32⟩
  | 13 => ⟨S1x4, .f32⟩
  | 14 => ⟨S4, .i32⟩
  | 15 => ⟨S4, .i1⟩
  | 16 => ⟨S8, .i32⟩
  | 17 => ⟨S8, .i1⟩
  | 18 => ⟨S8, .f32⟩
  | 19 => ⟨S1x8, .f32⟩
  | 20 => ⟨S8, .i32⟩
  | 21 => ⟨S8, .i1⟩
  | 22 => ⟨S16, .i32⟩
  | 23 => ⟨S16, .i1⟩
  | 24 => ⟨S16, .f32⟩
  | 25 => ⟨S1x16, .f32⟩
  | 26 => ⟨S16, .i32⟩
  | 27 => ⟨S16, .i1⟩
  | 28 => ⟨S32, .i32⟩
  | 29 => ⟨S32, .i1⟩
  | 30 => ⟨S32, .f32⟩
  | 31 => ⟨S1x32, .f32⟩
  | 32 => ⟨S32, .i32⟩
  | 33 => ⟨S32, .i1⟩
  | 34 => ⟨S64, .i32⟩
  | 35 => ⟨S64, .i1⟩
  | 36 => ⟨S64, .f32⟩
  | 37 => ⟨S1x64, .f32⟩
  | 38 => ⟨S64, .i32⟩
  | 39 => ⟨S64, .i1⟩
  | 40 => ⟨S128, .i32⟩
  | 41 => ⟨S128, .i1⟩
  | 42 => ⟨S128, .f32⟩
  | 43 => ⟨S1x128, .f32⟩
  | 44 => ⟨S128, .i32⟩
  | 45 => ⟨S128, .i1⟩
  | 46 => ⟨S256, .i32⟩
  | 47 => ⟨S256, .i1⟩
  | 48 => ⟨S256, .f32⟩
  | 49 => ⟨S1x256, .f32⟩
  | 50 => ⟨S256, .i32⟩
  | 51 => ⟨S256, .i1⟩
  | 52 => ⟨S512, .i32⟩
  | 53 => ⟨S512, .i1⟩
  | 54 => ⟨S512, .f32⟩
  | 55 => ⟨S1x512, .f32⟩
  | 56 => ⟨S512, .i32⟩
  | 57 => ⟨S512, .i1⟩
  | 58 => ⟨S1024, .i32⟩
  | 59 => ⟨S1024, .i1⟩
  | 60 => ⟨S1024, .f32⟩
  | 61 => ⟨S1x1024, .f32⟩
  | 62 => ⟨S1024, .i32⟩
  | 63 => ⟨S1024, .i1⟩
  | 64 => ⟨S_, .f32⟩
  | 65 => ⟨S32768x1, .f32⟩
  | 66 => ⟨S32768x256, .f32⟩
  | 67 => ⟨S256x1023, .f32⟩
  | 68 => ⟨S32768x1023, .f32⟩
  | 69 => ⟨S_, .f32⟩
  | 70 => ⟨S32768x1, .f32⟩
  | 71 => ⟨S_, .i32⟩
  | 72 => ⟨S2, .i32⟩
  | 73 => ⟨S2, .i32⟩
  | 74 => ⟨S2, .i32⟩
  | 75 => ⟨S2x1, .i32⟩
  | 76 => ⟨S32768x2, .f32⟩
  | 77 => ⟨S32768x2, .f32⟩
  | 78 => ⟨S32768x2, .f32⟩
  | 79 => ⟨S_, .i32⟩
  | 80 => ⟨S2, .i32⟩
  | 81 => ⟨S2, .i32⟩
  | 82 => ⟨S2, .i32⟩
  | 83 => ⟨S2x1, .i32⟩
  | 84 => ⟨S32768x2, .f32⟩
  | 85 => ⟨S32768x2, .f32⟩
  | 86 => ⟨S_, .i32⟩
  | 87 => ⟨S4, .i32⟩
  | 88 => ⟨S4, .i32⟩
  | 89 => ⟨S4, .i32⟩
  | 90 => ⟨S4x1, .i32⟩
  | 91 => ⟨S32768x4, .f32⟩
  | 92 => ⟨S32768x4, .f32⟩
  | 93 => ⟨S32768x4, .f32⟩
  | 94 => ⟨S_, .i32⟩
  | 95 => ⟨S4, .i32⟩
  | 96 => ⟨S4, .i32⟩
  | 97 => ⟨S4, .i32⟩
  | 98 => ⟨S4x1, .i32⟩
  | 99 => ⟨S32768x4, .f32⟩
  | 100 => ⟨S32768x4, .f32⟩
  | 101 => ⟨S_, .i32⟩
  | 102 => ⟨S8, .i32⟩
  | 103 => ⟨S8, .i32⟩
  | 104 => ⟨S8, .i32⟩
  | 105 => ⟨S8x1, .i32⟩
  | 106 => ⟨S32768x8, .f32⟩
  | 107 => ⟨S32768x8, .f32⟩
  | 108 => ⟨S32768x8, .f32⟩
  | 109 => ⟨S_, .i32⟩
  | 110 => ⟨S8, .i32⟩
  | 111 => ⟨S8, .i32⟩
  | 112 => ⟨S8, .i32⟩
  | 113 => ⟨S8x1, .i32⟩
  | 114 => ⟨S32768x8, .f32⟩
  | 115 => ⟨S32768x8, .f32⟩
  | 116 => ⟨S_, .i32⟩
  | 117 => ⟨S16, .i32⟩
  | 118 => ⟨S16, .i32⟩
  | 119 => ⟨S16, .i32⟩
  | 120 => ⟨S16x1, .i32⟩
  | 121 => ⟨S32768x16, .f32⟩
  | 122 => ⟨S32768x16, .f32⟩
  | 123 => ⟨S32768x16, .f32⟩
  | 124 => ⟨S_, .i32⟩
  | 125 => ⟨S16, .i32⟩
  | 126 => ⟨S16, .i32⟩
  | 127 => ⟨S16, .i32⟩
  | _ => ⟨S32768x255, .f32⟩

abbrev hbmTy0_1 (i : Nat) : BufTy := match i % 128 with
  | 0 => ⟨S16x1, .i32⟩
  | 1 => ⟨S32768x16, .f32⟩
  | 2 => ⟨S32768x16, .f32⟩
  | 3 => ⟨S_, .i32⟩
  | 4 => ⟨S32, .i32⟩
  | 5 => ⟨S32, .i32⟩
  | 6 => ⟨S32, .i32⟩
  | 7 => ⟨S32x1, .i32⟩
  | 8 => ⟨S32768x32, .f32⟩
  | 9 => ⟨S32768x32, .f32⟩
  | 10 => ⟨S32768x32, .f32⟩
  | 11 => ⟨S_, .i32⟩
  | 12 => ⟨S32, .i32⟩
  | 13 => ⟨S32, .i32⟩
  | 14 => ⟨S32, .i32⟩
  | 15 => ⟨S32x1, .i32⟩
  | 16 => ⟨S32768x32, .f32⟩
  | 17 => ⟨S32768x32, .f32⟩
  | 18 => ⟨S_, .i32⟩
  | 19 => ⟨S64, .i32⟩
  | 20 => ⟨S64, .i32⟩
  | 21 => ⟨S64, .i32⟩
  | 22 => ⟨S64x1, .i32⟩
  | 23 => ⟨S32768x64, .f32⟩
  | 24 => ⟨S32768x64, .f32⟩
  | 25 => ⟨S32768x64, .f32⟩
  | 26 => ⟨S_, .i32⟩
  | 27 => ⟨S64, .i32⟩
  | 28 => ⟨S64, .i32⟩
  | 29 => ⟨S64, .i32⟩
  | 30 => ⟨S64x1, .i32⟩
  | 31 => ⟨S32768x64, .f32⟩
  | 32 => ⟨S32768x64, .f32⟩
  | 33 => ⟨S_, .i32⟩
  | 34 => ⟨S128, .i32⟩
  | 35 => ⟨S128, .i32⟩
  | 36 => ⟨S128, .i32⟩
  | 37 => ⟨S128x1, .i32⟩
  | 38 => ⟨S32768x128, .f32⟩
  | 39 => ⟨S32768x128, .f32⟩
  | 40 => ⟨S32768x128, .f32⟩
  | 41 => ⟨S_, .i32⟩
  | 42 => ⟨S128, .i32⟩
  | 43 => ⟨S128, .i32⟩
  | 44 => ⟨S128, .i32⟩
  | 45 => ⟨S128x1, .i32⟩
  | 46 => ⟨S32768x128, .f32⟩
  | 47 => ⟨S32768x128, .f32⟩
  | 48 => ⟨S_, .i32⟩
  | 49 => ⟨S256, .i32⟩
  | 50 => ⟨S256, .i32⟩
  | 51 => ⟨S256, .i32⟩
  | 52 => ⟨S256x1, .i32⟩
  | 53 => ⟨S32768x256, .f32⟩
  | 54 => ⟨S32768x256, .f32⟩
  | 55 => ⟨S32768x256, .f32⟩
  | 56 => ⟨S_, .i32⟩
  | 57 => ⟨S256, .i32⟩
  | 58 => ⟨S256, .i32⟩
  | 59 => ⟨S256, .i32⟩
  | 60 => ⟨S256x1, .i32⟩
  | 61 => ⟨S32768x256, .f32⟩
  | 62 => ⟨S32768x256, .f32⟩
  | 63 => ⟨S_, .i32⟩
  | 64 => ⟨S512, .i32⟩
  | 65 => ⟨S512, .i32⟩
  | 66 => ⟨S512, .i32⟩
  | 67 => ⟨S512x1, .i32⟩
  | 68 => ⟨S32768x512, .f32⟩
  | 69 => ⟨S32768x512, .f32⟩
  | 70 => ⟨S32768x512, .f32⟩
  | 71 => ⟨S_, .i32⟩
  | 72 => ⟨S512, .i32⟩
  | 73 => ⟨S512, .i32⟩
  | 74 => ⟨S512, .i32⟩
  | 75 => ⟨S512x1, .i32⟩
  | 76 => ⟨S32768x512, .f32⟩
  | 77 => ⟨S32768x512, .f32⟩
  | 78 => ⟨S_, .i32⟩
  | 79 => ⟨S1024, .i32⟩
  | 80 => ⟨S1024, .i32⟩
  | 81 => ⟨S1024, .i32⟩
  | 82 => ⟨S1024x1, .i32⟩
  | 83 => ⟨S32768x1024, .f32⟩
  | 84 => ⟨S32768x1024, .f32⟩
  | 85 => ⟨S32768x1024, .f32⟩
  | 86 => ⟨S_, .i32⟩
  | 87 => ⟨S1024, .i32⟩
  | 88 => ⟨S1024, .i32⟩
  | 89 => ⟨S1024, .i32⟩
  | 90 => ⟨S1024x1, .i32⟩
  | 91 => ⟨S32768x1024, .f32⟩
  | 92 => ⟨S32768x1024, .f32⟩
  | 93 => ⟨S32768x2047, .f32⟩
  | 94 => ⟨S_, .f32⟩
  | 95 => ⟨S_, .f32⟩
  | 96 => ⟨S_, .f32⟩
  | 97 => ⟨S32768x2047, .f32⟩
  | 98 => ⟨S32768x2047, .f32⟩
  | 99 => ⟨S_, .f32⟩
  | 100 => ⟨S32768x2047, .f32⟩
  | 101 => ⟨S32768x2047, .f32⟩
  | 102 => ⟨S32768x2303, .f32⟩
  | 103 => ⟨S2303x1, .f32⟩
  | 104 => ⟨S32768x1, .f32⟩
  | 105 => ⟨S1x1, .f32⟩
  | 106 => ⟨S32768x1, .f32⟩
  | 107 => ⟨S32768x1, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S_, .f32⟩
  | 114 => ⟨S32768x1, .f32⟩
  | 115 => ⟨S32768x1, .f32⟩
  | _ => ⟨S32768x255, .f32⟩

abbrev hbmTy (i : Nat) : BufTy := match i / 128 with
  | 0 => hbmTy0_0 i
  | 1 => hbmTy0_1 i
  | _ => ⟨S32768x255, .f32⟩

abbrev bufTy : (tb : Table) → Fin (tcTables nBuf tb) → BufTy
  | .hbm, ⟨i, _⟩ => hbmTy i
  | _, _ => ⟨S32768x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_cst_5 : Ref sig .tc := ⟨.hbm, 12, rfl⟩
abbrev main_v1 : Ref sig .tc := ⟨.hbm, 13, rfl⟩
abbrev main_c_6 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_cst_10 : Ref sig .tc := ⟨.hbm, 18, rfl⟩
abbrev main_v2 : Ref sig .tc := ⟨.hbm, 19, rfl⟩
abbrev main_c_11 : Ref sig .tc := ⟨.hbm, 20, rfl⟩
abbrev main_c_12 : Ref sig .tc := ⟨.hbm, 21, rfl⟩
abbrev main_c_13 : Ref sig .tc := ⟨.hbm, 22, rfl⟩
abbrev main_c_14 : Ref sig .tc := ⟨.hbm, 23, rfl⟩
abbrev main_cst_15 : Ref sig .tc := ⟨.hbm, 24, rfl⟩
abbrev main_v3 : Ref sig .tc := ⟨.hbm, 25, rfl⟩
abbrev main_c_16 : Ref sig .tc := ⟨.hbm, 26, rfl⟩
abbrev main_c_17 : Ref sig .tc := ⟨.hbm, 27, rfl⟩
abbrev main_c_18 : Ref sig .tc := ⟨.hbm, 28, rfl⟩
abbrev main_c_19 : Ref sig .tc := ⟨.hbm, 29, rfl⟩
abbrev main_cst_20 : Ref sig .tc := ⟨.hbm, 30, rfl⟩
abbrev main_v4 : Ref sig .tc := ⟨.hbm, 31, rfl⟩
abbrev main_c_21 : Ref sig .tc := ⟨.hbm, 32, rfl⟩
abbrev main_c_22 : Ref sig .tc := ⟨.hbm, 33, rfl⟩
abbrev main_c_23 : Ref sig .tc := ⟨.hbm, 34, rfl⟩
abbrev main_c_24 : Ref sig .tc := ⟨.hbm, 35, rfl⟩
abbrev main_cst_25 : Ref sig .tc := ⟨.hbm, 36, rfl⟩
abbrev main_v5 : Ref sig .tc := ⟨.hbm, 37, rfl⟩
abbrev main_c_26 : Ref sig .tc := ⟨.hbm, 38, rfl⟩
abbrev main_c_27 : Ref sig .tc := ⟨.hbm, 39, rfl⟩
abbrev main_c_28 : Ref sig .tc := ⟨.hbm, 40, rfl⟩
abbrev main_c_29 : Ref sig .tc := ⟨.hbm, 41, rfl⟩
abbrev main_cst_30 : Ref sig .tc := ⟨.hbm, 42, rfl⟩
abbrev main_v6 : Ref sig .tc := ⟨.hbm, 43, rfl⟩
abbrev main_c_31 : Ref sig .tc := ⟨.hbm, 44, rfl⟩
abbrev main_c_32 : Ref sig .tc := ⟨.hbm, 45, rfl⟩
abbrev main_c_33 : Ref sig .tc := ⟨.hbm, 46, rfl⟩
abbrev main_c_34 : Ref sig .tc := ⟨.hbm, 47, rfl⟩
abbrev main_cst_35 : Ref sig .tc := ⟨.hbm, 48, rfl⟩
abbrev main_v7 : Ref sig .tc := ⟨.hbm, 49, rfl⟩
abbrev main_c_36 : Ref sig .tc := ⟨.hbm, 50, rfl⟩
abbrev main_c_37 : Ref sig .tc := ⟨.hbm, 51, rfl⟩
abbrev main_c_38 : Ref sig .tc := ⟨.hbm, 52, rfl⟩
abbrev main_c_39 : Ref sig .tc := ⟨.hbm, 53, rfl⟩
abbrev main_cst_40 : Ref sig .tc := ⟨.hbm, 54, rfl⟩
abbrev main_v8 : Ref sig .tc := ⟨.hbm, 55, rfl⟩
abbrev main_c_41 : Ref sig .tc := ⟨.hbm, 56, rfl⟩
abbrev main_c_42 : Ref sig .tc := ⟨.hbm, 57, rfl⟩
abbrev main_c_43 : Ref sig .tc := ⟨.hbm, 58, rfl⟩
abbrev main_c_44 : Ref sig .tc := ⟨.hbm, 59, rfl⟩
abbrev main_cst_45 : Ref sig .tc := ⟨.hbm, 60, rfl⟩
abbrev main_v9 : Ref sig .tc := ⟨.hbm, 61, rfl⟩
abbrev main_c_46 : Ref sig .tc := ⟨.hbm, 62, rfl⟩
abbrev main_c_47 : Ref sig .tc := ⟨.hbm, 63, rfl⟩
abbrev main_cst_48 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_49 : Ref sig .tc := ⟨.hbm, 69, rfl⟩
abbrev main_v14 : Ref sig .tc := ⟨.hbm, 70, rfl⟩
abbrev main_c_50 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_c_51 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_52 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_c_53 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_c_54 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_55 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_c_56 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_c_57 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_c_58 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_59 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_c_60 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_c_61 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_c_62 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_c_63 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_c_64 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_c_65 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_66 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_c_67 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_c_68 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_c_69 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_70 : Ref sig .tc := ⟨.hbm, 222, rfl⟩
abbrev main_cst_71 : Ref sig .tc := ⟨.hbm, 223, rfl⟩
abbrev main_call0_v0 : Ref sig .tc := ⟨.hbm, 224, rfl⟩
abbrev main_call0_v1 : Ref sig .tc := ⟨.hbm, 225, rfl⟩
abbrev main_call0_v2 : Ref sig .tc := ⟨.hbm, 226, rfl⟩
abbrev main_call0_v3 : Ref sig .tc := ⟨.hbm, 227, rfl⟩
abbrev main_call0_v4 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_72 : Ref sig .tc := ⟨.hbm, 238, rfl⟩
abbrev main_v155 : Ref sig .tc := ⟨.hbm, 239, rfl⟩
abbrev main_v156 : Ref sig .tc := ⟨.hbm, 240, rfl⟩
abbrev main_cst_73 : Ref sig .tc := ⟨.hbm, 241, rfl⟩
abbrev main_v157 : Ref sig .tc := ⟨.hbm, 242, rfl⟩
abbrev main_v158 : Ref sig .tc := ⟨.hbm, 243, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S4_S1x4_1 : S4.BroadcastsInDim S1x4 (![1] : Fin 1 → Fin S1x4.rank)
  bcast_S8_S1x8_1 : S8.BroadcastsInDim S1x8 (![1] : Fin 1 → Fin S1x8.rank)
  bcast_S16_S1x16_1 : S16.BroadcastsInDim S1x16 (![1] : Fin 1 → Fin S1x16.rank)
  bcast_S32_S1x32_1 : S32.BroadcastsInDim S1x32 (![1] : Fin 1 → Fin S1x32.rank)
  bcast_S64_S1x64_1 : S64.BroadcastsInDim S1x64 (![1] : Fin 1 → Fin S1x64.rank)
  bcast_S128_S1x128_1 : S128.BroadcastsInDim S1x128 (![1] : Fin 1 → Fin S1x128.rank)
  bcast_S256_S1x256_1 : S256.BroadcastsInDim S1x256 (![1] : Fin 1 → Fin S1x256.rank)
  bcast_S512_S1x512_1 : S512.BroadcastsInDim S1x512 (![1] : Fin 1 → Fin S1x512.rank)
  bcast_S1024_S1x1024_1 : S1024.BroadcastsInDim S1x1024 (![1] : Fin 1 → Fin S1x1024.rank)
  bcast_S_S32768x1 : S_.BroadcastsInDim S32768x1 (![] : Fin 0 → Fin S32768x1.rank)
  concatenates_S32768x255_S32768x1_S32768x256_d1 : Shape.Concatenates [S32768x255, S32768x1] S32768x256 1
  transposes_S1023x256_S256x1023_1_0 : S1023x256.Transposes [1, 0] S256x1023
  bcast_S_S2 : S_.BroadcastsInDim S2 (![] : Fin 0 → Fin S2.rank)
  bcast_S2_S2x1_0 : S2.BroadcastsInDim S2x1 (![0] : Fin 1 → Fin S2x1.rank)
  bcast_S1x2_S32768x2_0_1 : S1x2.BroadcastsInDim S32768x2 (![0, 1] : Fin 2 → Fin S32768x2.rank)
  bcast_S_S4 : S_.BroadcastsInDim S4 (![] : Fin 0 → Fin S4.rank)
  bcast_S4_S4x1_0 : S4.BroadcastsInDim S4x1 (![0] : Fin 1 → Fin S4x1.rank)
  bcast_S1x4_S32768x4_0_1 : S1x4.BroadcastsInDim S32768x4 (![0, 1] : Fin 2 → Fin S32768x4.rank)
  bcast_S_S8 : S_.BroadcastsInDim S8 (![] : Fin 0 → Fin S8.rank)
  bcast_S8_S8x1_0 : S8.BroadcastsInDim S8x1 (![0] : Fin 1 → Fin S8x1.rank)
  bcast_S1x8_S32768x8_0_1 : S1x8.BroadcastsInDim S32768x8 (![0, 1] : Fin 2 → Fin S32768x8.rank)
  bcast_S_S16 : S_.BroadcastsInDim S16 (![] : Fin 0 → Fin S16.rank)
  bcast_S16_S16x1_0 : S16.BroadcastsInDim S16x1 (![0] : Fin 1 → Fin S16x1.rank)
  bcast_S1x16_S32768x16_0_1 : S1x16.BroadcastsInDim S32768x16 (![0, 1] : Fin 2 → Fin S32768x16.rank)
  bcast_S_S32 : S_.BroadcastsInDim S32 (![] : Fin 0 → Fin S32.rank)
  bcast_S32_S32x1_0 : S32.BroadcastsInDim S32x1 (![0] : Fin 1 → Fin S32x1.rank)
  bcast_S1x32_S32768x32_0_1 : S1x32.BroadcastsInDim S32768x32 (![0, 1] : Fin 2 → Fin S32768x32.rank)
  bcast_S_S64 : S_.BroadcastsInDim S64 (![] : Fin 0 → Fin S64.rank)
  bcast_S64_S64x1_0 : S64.BroadcastsInDim S64x1 (![0] : Fin 1 → Fin S64x1.rank)
  bcast_S1x64_S32768x64_0_1 : S1x64.BroadcastsInDim S32768x64 (![0, 1] : Fin 2 → Fin S32768x64.rank)
  bcast_S_S128 : S_.BroadcastsInDim S128 (![] : Fin 0 → Fin S128.rank)
  bcast_S128_S128x1_0 : S128.BroadcastsInDim S128x1 (![0] : Fin 1 → Fin S128x1.rank)
  bcast_S1x128_S32768x128_0_1 : S1x128.BroadcastsInDim S32768x128 (![0, 1] : Fin 2 → Fin S32768x128.rank)
  bcast_S_S256 : S_.BroadcastsInDim S256 (![] : Fin 0 → Fin S256.rank)
  bcast_S256_S256x1_0 : S256.BroadcastsInDim S256x1 (![0] : Fin 1 → Fin S256x1.rank)
  bcast_S1x256_S32768x256_0_1 : S1x256.BroadcastsInDim S32768x256 (![0, 1] : Fin 2 → Fin S32768x256.rank)
  bcast_S_S512 : S_.BroadcastsInDim S512 (![] : Fin 0 → Fin S512.rank)
  bcast_S512_S512x1_0 : S512.BroadcastsInDim S512x1 (![0] : Fin 1 → Fin S512x1.rank)
  bcast_S1x512_S32768x512_0_1 : S1x512.BroadcastsInDim S32768x512 (![0, 1] : Fin 2 → Fin S32768x512.rank)
  bcast_S_S1024 : S_.BroadcastsInDim S1024 (![] : Fin 0 → Fin S1024.rank)
  bcast_S1024_S1024x1_0 : S1024.BroadcastsInDim S1024x1 (![0] : Fin 1 → Fin S1024x1.rank)
  bcast_S1x1024_S32768x1024_0_1 : S1x1024.BroadcastsInDim S32768x1024 (![0, 1] : Fin 2 → Fin S32768x1024.rank)
  concatenates_S32768x1_S32768x2_S32768x4_S32768x8_S32768x16_S32768x32_S32768x64_S32768x128_S32768x256_S32768x512_S32768x1024_S32768x2047_d1 : Shape.Concatenates [S32768x1, S32768x2, S32768x4, S32768x8, S32768x16, S32768x32, S32768x64, S32768x128, S32768x256, S32768x512, S32768x1024] S32768x2047 1
  bcast_S_S32768x2047 : S_.BroadcastsInDim S32768x2047 (![] : Fin 0 → Fin S32768x2047.rank)
  concatenates_S32768x256_S32768x2047_S32768x2303_d1 : Shape.Concatenates [S32768x256, S32768x2047] S32768x2303 1
  transposes_S1x2303_S2303x1_1_0 : S1x2303.Transposes [1, 0] S2303x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x256_S256x1023_S32768x1023_1_0_0_1_n_n_wf : DotDims.WF S32768x256 S256x1023 S32768x1023 [1] [0] [0] [1] [] []
  gather_S32768x1023_S2x1_S32768x2_0_1_n_n_1_1_327681_wf : GatherDims.WF S32768x1023 S2x1 S32768x2 [0] [1] [] [1] [] 1 ![32768, 1]
  gather_S32768x1_S2x1_S32768x2_0_1_n_n_1_1_327681_wf : GatherDims.WF S32768x1 S2x1 S32768x2 [0] [1] [] [1] [] 1 ![32768, 1]
  gather_S32768x1023_S4x1_S32768x4_0_1_n_n_1_1_327681_wf : GatherDims.WF S32768x1023 S4x1 S32768x4 [0] [1] [] [1] [] 1 ![32768, 1]
  gather_S32768x2_S4x1_S32768x4_0_1_n_n_1_1_327681_wf : GatherDims.WF S32768x2 S4x1 S32768x4 [0] [1] [] [1] [] 1 ![32768, 1]
  gather_S32768x1023_S8x1_S32768x8_0_1_n_n_1_1_327681_wf : GatherDims.WF S32768x1023 S8x1 S32768x8 [0] [1] [] [1] [] 1 ![32768, 1]
  gather_S32768x4_S8x1_S32768x8_0_1_n_n_1_1_327681_wf : GatherDims.WF S32768x4 S8x1 S32768x8 [0] [1] [] [1] [] 1 ![32768, 1]
  gather_S32768x1023_S16x1_S32768x16_0_1_n_n_1_1_327681_wf : GatherDims.WF S32768x1023 S16x1 S32768x16 [0] [1] [] [1] [] 1 ![32768, 1]
  gather_S32768x8_S16x1_S32768x16_0_1_n_n_1_1_327681_wf : GatherDims.WF S32768x8 S16x1 S32768x16 [0] [1] [] [1] [] 1 ![32768, 1]
  gather_S32768x1023_S32x1_S32768x32_0_1_n_n_1_1_327681_wf : GatherDims.WF S32768x1023 S32x1 S32768x32 [0] [1] [] [1] [] 1 ![32768, 1]
  gather_S32768x16_S32x1_S32768x32_0_1_n_n_1_1_327681_wf : GatherDims.WF S32768x16 S32x1 S32768x32 [0] [1] [] [1] [] 1 ![32768, 1]
  gather_S32768x1023_S64x1_S32768x64_0_1_n_n_1_1_327681_wf : GatherDims.WF S32768x1023 S64x1 S32768x64 [0] [1] [] [1] [] 1 ![32768, 1]
  gather_S32768x32_S64x1_S32768x64_0_1_n_n_1_1_327681_wf : GatherDims.WF S32768x32 S64x1 S32768x64 [0] [1] [] [1] [] 1 ![32768, 1]
  gather_S32768x1023_S128x1_S32768x128_0_1_n_n_1_1_327681_wf : GatherDims.WF S32768x1023 S128x1 S32768x128 [0] [1] [] [1] [] 1 ![32768, 1]
  gather_S32768x64_S128x1_S32768x128_0_1_n_n_1_1_327681_wf : GatherDims.WF S32768x64 S128x1 S32768x128 [0] [1] [] [1] [] 1 ![32768, 1]
  gather_S32768x1023_S256x1_S32768x256_0_1_n_n_1_1_327681_wf : GatherDims.WF S32768x1023 S256x1 S32768x256 [0] [1] [] [1] [] 1 ![32768, 1]
  gather_S32768x128_S256x1_S32768x256_0_1_n_n_1_1_327681_wf : GatherDims.WF S32768x128 S256x1 S32768x256 [0] [1] [] [1] [] 1 ![32768, 1]
  gather_S32768x1023_S512x1_S32768x512_0_1_n_n_1_1_327681_wf : GatherDims.WF S32768x1023 S512x1 S32768x512 [0] [1] [] [1] [] 1 ![32768, 1]
  gather_S32768x256_S512x1_S32768x512_0_1_n_n_1_1_327681_wf : GatherDims.WF S32768x256 S512x1 S32768x512 [0] [1] [] [1] [] 1 ![32768, 1]
  gather_S32768x1023_S1024x1_S32768x1024_0_1_n_n_1_1_327681_wf : GatherDims.WF S32768x1023 S1024x1 S32768x1024 [0] [1] [] [1] [] 1 ![32768, 1]
  gather_S32768x512_S1024x1_S32768x1024_0_1_n_n_1_1_327681_wf : GatherDims.WF S32768x512 S1024x1 S32768x1024 [0] [1] [] [1] [] 1 ![32768, 1]
  dot_S32768x2303_S2303x1_S32768x1_1_0_0_1_n_n_wf : DotDims.WF S32768x2303 S2303x1 S32768x1 [1] [0] [0] [1] [] []

variable [Facts₀]

def dot_S32768x256_S256x1023_S32768x1023_1_0_0_1_n_n : DotDims S32768x256 S256x1023 S32768x1023 where
  lhsContracting := [1]
  rhsContracting := [0]
  lhsNonContracting := [0]
  rhsNonContracting := [1]
  lhsBatch := []
  rhsBatch := []
  wf := dot_S32768x256_S256x1023_S32768x1023_1_0_0_1_n_n_wf
def gather_S32768x1023_S2x1_S32768x2_0_1_n_n_1_1_327681 : GatherDims S32768x1023 S2x1 S32768x2 where
  offsetDims := [0]
  collapsedSliceDims := [1]
  operandBatchingDims := []
  startIndicesBatchingDims := []
  startIndexMap := [1]
  indexVectorDim := 1
  sliceSizes := ![32768, 1]
  wf := gather_S32768x1023_S2x1_S32768x2_0_1_n_n_1_1_327681_wf
def gather_S32768x1_S2x1_S32768x2_0_1_n_n_1_1_327681 : GatherDims S32768x1 S2x1 S32768x2 where
  offsetDims := [0]
  collapsedSliceDims := [1]
  operandBatchingDims := []
  startIndicesBatchingDims := []
  startIndexMap := [1]
  indexVectorDim := 1
  sliceSizes := ![32768, 1]
  wf := gather_S32768x1_S2x1_S32768x2_0_1_n_n_1_1_327681_wf
def gather_S32768x1023_S4x1_S32768x4_0_1_n_n_1_1_327681 : GatherDims S32768x1023 S4x1 S32768x4 where
  offsetDims := [0]
  collapsedSliceDims := [1]
  operandBatchingDims := []
  startIndicesBatchingDims := []
  startIndexMap := [1]
  indexVectorDim := 1
  sliceSizes := ![32768, 1]
  wf := gather_S32768x1023_S4x1_S32768x4_0_1_n_n_1_1_327681_wf
def gather_S32768x2_S4x1_S32768x4_0_1_n_n_1_1_327681 : GatherDims S32768x2 S4x1 S32768x4 where
  offsetDims := [0]
  collapsedSliceDims := [1]
  operandBatchingDims := []
  startIndicesBatchingDims := []
  startIndexMap := [1]
  indexVectorDim := 1
  sliceSizes := ![32768, 1]
  wf := gather_S32768x2_S4x1_S32768x4_0_1_n_n_1_1_327681_wf
def gather_S32768x1023_S8x1_S32768x8_0_1_n_n_1_1_327681 : GatherDims S32768x1023 S8x1 S32768x8 where
  offsetDims := [0]
  collapsedSliceDims := [1]
  operandBatchingDims := []
  startIndicesBatchingDims := []
  startIndexMap := [1]
  indexVectorDim := 1
  sliceSizes := ![32768, 1]
  wf := gather_S32768x1023_S8x1_S32768x8_0_1_n_n_1_1_327681_wf
def gather_S32768x4_S8x1_S32768x8_0_1_n_n_1_1_327681 : GatherDims S32768x4 S8x1 S32768x8 where
  offsetDims := [0]
  collapsedSliceDims := [1]
  operandBatchingDims := []
  startIndicesBatchingDims := []
  startIndexMap := [1]
  indexVectorDim := 1
  sliceSizes := ![32768, 1]
  wf := gather_S32768x4_S8x1_S32768x8_0_1_n_n_1_1_327681_wf
def gather_S32768x1023_S16x1_S32768x16_0_1_n_n_1_1_327681 : GatherDims S32768x1023 S16x1 S32768x16 where
  offsetDims := [0]
  collapsedSliceDims := [1]
  operandBatchingDims := []
  startIndicesBatchingDims := []
  startIndexMap := [1]
  indexVectorDim := 1
  sliceSizes := ![32768, 1]
  wf := gather_S32768x1023_S16x1_S32768x16_0_1_n_n_1_1_327681_wf
def gather_S32768x8_S16x1_S32768x16_0_1_n_n_1_1_327681 : GatherDims S32768x8 S16x1 S32768x16 where
  offsetDims := [0]
  collapsedSliceDims := [1]
  operandBatchingDims := []
  startIndicesBatchingDims := []
  startIndexMap := [1]
  indexVectorDim := 1
  sliceSizes := ![32768, 1]
  wf := gather_S32768x8_S16x1_S32768x16_0_1_n_n_1_1_327681_wf
def gather_S32768x1023_S32x1_S32768x32_0_1_n_n_1_1_327681 : GatherDims S32768x1023 S32x1 S32768x32 where
  offsetDims := [0]
  collapsedSliceDims := [1]
  operandBatchingDims := []
  startIndicesBatchingDims := []
  startIndexMap := [1]
  indexVectorDim := 1
  sliceSizes := ![32768, 1]
  wf := gather_S32768x1023_S32x1_S32768x32_0_1_n_n_1_1_327681_wf
def gather_S32768x16_S32x1_S32768x32_0_1_n_n_1_1_327681 : GatherDims S32768x16 S32x1 S32768x32 where
  offsetDims := [0]
  collapsedSliceDims := [1]
  operandBatchingDims := []
  startIndicesBatchingDims := []
  startIndexMap := [1]
  indexVectorDim := 1
  sliceSizes := ![32768, 1]
  wf := gather_S32768x16_S32x1_S32768x32_0_1_n_n_1_1_327681_wf
def gather_S32768x1023_S64x1_S32768x64_0_1_n_n_1_1_327681 : GatherDims S32768x1023 S64x1 S32768x64 where
  offsetDims := [0]
  collapsedSliceDims := [1]
  operandBatchingDims := []
  startIndicesBatchingDims := []
  startIndexMap := [1]
  indexVectorDim := 1
  sliceSizes := ![32768, 1]
  wf := gather_S32768x1023_S64x1_S32768x64_0_1_n_n_1_1_327681_wf
def gather_S32768x32_S64x1_S32768x64_0_1_n_n_1_1_327681 : GatherDims S32768x32 S64x1 S32768x64 where
  offsetDims := [0]
  collapsedSliceDims := [1]
  operandBatchingDims := []
  startIndicesBatchingDims := []
  startIndexMap := [1]
  indexVectorDim := 1
  sliceSizes := ![32768, 1]
  wf := gather_S32768x32_S64x1_S32768x64_0_1_n_n_1_1_327681_wf
def gather_S32768x1023_S128x1_S32768x128_0_1_n_n_1_1_327681 : GatherDims S32768x1023 S128x1 S32768x128 where
  offsetDims := [0]
  collapsedSliceDims := [1]
  operandBatchingDims := []
  startIndicesBatchingDims := []
  startIndexMap := [1]
  indexVectorDim := 1
  sliceSizes := ![32768, 1]
  wf := gather_S32768x1023_S128x1_S32768x128_0_1_n_n_1_1_327681_wf
def gather_S32768x64_S128x1_S32768x128_0_1_n_n_1_1_327681 : GatherDims S32768x64 S128x1 S32768x128 where
  offsetDims := [0]
  collapsedSliceDims := [1]
  operandBatchingDims := []
  startIndicesBatchingDims := []
  startIndexMap := [1]
  indexVectorDim := 1
  sliceSizes := ![32768, 1]
  wf := gather_S32768x64_S128x1_S32768x128_0_1_n_n_1_1_327681_wf
def gather_S32768x1023_S256x1_S32768x256_0_1_n_n_1_1_327681 : GatherDims S32768x1023 S256x1 S32768x256 where
  offsetDims := [0]
  collapsedSliceDims := [1]
  operandBatchingDims := []
  startIndicesBatchingDims := []
  startIndexMap := [1]
  indexVectorDim := 1
  sliceSizes := ![32768, 1]
  wf := gather_S32768x1023_S256x1_S32768x256_0_1_n_n_1_1_327681_wf
def gather_S32768x128_S256x1_S32768x256_0_1_n_n_1_1_327681 : GatherDims S32768x128 S256x1 S32768x256 where
  offsetDims := [0]
  collapsedSliceDims := [1]
  operandBatchingDims := []
  startIndicesBatchingDims := []
  startIndexMap := [1]
  indexVectorDim := 1
  sliceSizes := ![32768, 1]
  wf := gather_S32768x128_S256x1_S32768x256_0_1_n_n_1_1_327681_wf
def gather_S32768x1023_S512x1_S32768x512_0_1_n_n_1_1_327681 : GatherDims S32768x1023 S512x1 S32768x512 where
  offsetDims := [0]
  collapsedSliceDims := [1]
  operandBatchingDims := []
  startIndicesBatchingDims := []
  startIndexMap := [1]
  indexVectorDim := 1
  sliceSizes := ![32768, 1]
  wf := gather_S32768x1023_S512x1_S32768x512_0_1_n_n_1_1_327681_wf
def gather_S32768x256_S512x1_S32768x512_0_1_n_n_1_1_327681 : GatherDims S32768x256 S512x1 S32768x512 where
  offsetDims := [0]
  collapsedSliceDims := [1]
  operandBatchingDims := []
  startIndicesBatchingDims := []
  startIndexMap := [1]
  indexVectorDim := 1
  sliceSizes := ![32768, 1]
  wf := gather_S32768x256_S512x1_S32768x512_0_1_n_n_1_1_327681_wf
def gather_S32768x1023_S1024x1_S32768x1024_0_1_n_n_1_1_327681 : GatherDims S32768x1023 S1024x1 S32768x1024 where
  offsetDims := [0]
  collapsedSliceDims := [1]
  operandBatchingDims := []
  startIndicesBatchingDims := []
  startIndexMap := [1]
  indexVectorDim := 1
  sliceSizes := ![32768, 1]
  wf := gather_S32768x1023_S1024x1_S32768x1024_0_1_n_n_1_1_327681_wf
def gather_S32768x512_S1024x1_S32768x1024_0_1_n_n_1_1_327681 : GatherDims S32768x512 S1024x1 S32768x1024 where
  offsetDims := [0]
  collapsedSliceDims := [1]
  operandBatchingDims := []
  startIndicesBatchingDims := []
  startIndexMap := [1]
  indexVectorDim := 1
  sliceSizes := ![32768, 1]
  wf := gather_S32768x512_S1024x1_S32768x1024_0_1_n_n_1_1_327681_wf
def dot_S32768x2303_S2303x1_S32768x1_1_0_0_1_n_n : DotDims S32768x2303 S2303x1 S32768x1 where
  lhsContracting := [1]
  rhsContracting := [0]
  lhsNonContracting := [0]
  rhsNonContracting := [1]
  lhsBatch := []
  rhsBatch := []
  wf := dot_S32768x2303_S2303x1_S32768x1_1_0_0_1_n_n_wf

class Facts : Prop extends Facts₀ where

variable [Facts]
-- ==== Proof.Tree.lean ====
/-
  The mathematics of the two programs, over natural-number coordinates.

  A row of 255 features gets a bias column of ones (`xrow`); its scores against the 1023 split nodes of a
  complete binary tree of depth 10 are the products with the nodes' weight rows (`xa`).  Node `j` of level
  `l` (heap order: node `2^l - 1 + j`) has the path value `qv l j`: the root has 1, a left child (even `j`)
  the minimum of its parent's value and the parent's score, a right child (odd `j`) the minimum of the
  parent's value and the negated score.  The logit is the row's dot product with the first 256 weights plus,
  level by level, the clipped path values against the weights that follow, plus the bias; the result is its
  logistic.  The kernel adds the levels one after the other; the reference lays the row and the 2047 clipped
  path values side by side and takes one dot product over all 2303 columns: `logit_ref` is the regrouping
  of that sum (commutativity and associativity only, true on the extended reals).
-/
import Idealize.ShloMosaic.PureOps.Ideal.Laws
import Idealize.ShloMosaic.Lib.ValueIdx

noncomputable section

namespace Cert.Tree

open Idealize.ShloMosaic Idealize.ShloMosaic.ValueIdx

/-- A matrix read at natural-number coordinates (zero outside its extents). -/
def nat2 {a b : ℕ} (v : (⟨2, ![a, b]⟩ : Shape).Idx → EReal) (r c : ℕ) : EReal :=
  if h : r < a ∧ c < b then v (ix2 ⟨r, h.1⟩ ⟨c, h.2⟩) else 0

theorem nat2_val {a b : ℕ} (v : (⟨2, ![a, b]⟩ : Shape).Idx → EReal) (r : Fin a) (c : Fin b) :
    nat2 v r.val c.val = v (ix2 r c) := by
  unfold nat2; rw [dif_pos ⟨r.isLt, c.isLt⟩]

/-- A vector read at a natural-number coordinate (zero outside its extent). -/
def nat1 {a : ℕ} (v : (⟨1, ![a]⟩ : Shape).Idx → EReal) (r : ℕ) : EReal :=
  if h : r < a then v (ix1 ⟨r, h⟩) else 0

theorem nat1_val {a : ℕ} (v : (⟨1, ![a]⟩ : Shape).Idx → EReal) (r : Fin a) : nat1 v r.val = v (ix1 r) := by
  unfold nat1; rw [dif_pos r.isLt]

/-- A feature row with its bias column: the 255 inputs, then one. -/
def xrow (xr : ℕ → EReal) (k : ℕ) : EReal := if k < 255 then xr k else 1

/-- The score of split node `s` on a row: the row, bias column included, against the node's weights. -/
def xa (xr : ℕ → EReal) (A : ℕ → ℕ → EReal) (s : ℕ) : EReal := ∑ k ∈ Finset.range 256, xrow xr k * A s k

/-- The path value of node `j` of level `l` (heap node `2^l - 1 + j`) from the split scores `sc`. -/
def qv (sc : ℕ → EReal) : ℕ → ℕ → EReal
  | 0, _ => 1
  | l + 1, j => min (qv sc l (j / 2)) (if j % 2 = 0 then sc (2 ^ l - 1 + j / 2) else -(sc (2 ^ l - 1 + j / 2)))

theorem qv_zero (sc : ℕ → EReal) (j : ℕ) : qv sc 0 j = 1 := rfl

theorem qv_succ (sc : ℕ → EReal) (l j : ℕ) :
    qv sc (l + 1) j = min (qv sc l (j / 2)) (if j % 2 = 0 then sc (2 ^ l - 1 + j / 2) else -(sc (2 ^ l - 1 + j / 2))) := rfl

/-- A value clipped to the unit interval. -/
def clip (v : EReal) : EReal := min 1 (max 0 v)

/-- Level `l`'s share of the logit: its clipped path values against the weights at columns `256 + 2^l - 1 + j`. -/
def lvl (sc w : ℕ → EReal) (l : ℕ) : EReal :=
  ∑ j ∈ Finset.range (2 ^ l), clip (qv sc l j) * w (256 + (2 ^ l - 1) + j)

/-- The logit of a row `x` (bias column included) with split scores `sc`, weights `w` and bias `b`. -/
def logit (x sc w : ℕ → EReal) (b : EReal) : EReal :=
  (∑ k ∈ Finset.range 256, x k * w k) + (∑ l ∈ Finset.range 11, lvl sc w l) + b

/-- The result for a row: the logistic of its logit. -/
def outRow (xr : ℕ → EReal) (A : ℕ → ℕ → EReal) (w : ℕ → EReal) (b : EReal) : EReal :=
  Ideal.logistic (logit (xrow xr) (xa xr A) w b)

/-- The nodes of a complete binary tree of `n` levels in heap order, summed level by level. -/
theorem sum_tree (g : ℕ → EReal) : ∀ n : ℕ,
    ∑ c ∈ Finset.range (2 ^ n - 1), g c = ∑ l ∈ Finset.range n, ∑ j ∈ Finset.range (2 ^ l), g (2 ^ l - 1 + j)
  | 0 => by simp
  | n + 1 => by
    have h2 : 2 ^ (n + 1) = 2 * 2 ^ n := by ring
    have h1 : 1 ≤ 2 ^ n := Nat.one_le_two_pow
    have h : 2 ^ (n + 1) - 1 = (2 ^ n - 1) + 2 ^ n := by omega
    rw [h, Finset.sum_range_add, sum_tree g n, Finset.sum_range_succ]

/-- The kernel adds the row's part, then the eleven levels one after the other, then the bias. -/
theorem logit_chain (sx b : EReal) (L : ℕ → EReal) :
    ((((((((((((sx + L 0) + L 1) + L 2) + L 3) + L 4) + L 5) + L 6) + L 7) + L 8) + L 9) + L 10) + b)
      = sx + (∑ l ∈ Finset.range 11, L l) + b := by
  simp only [Finset.sum_range_succ, Finset.sum_range_zero, zero_add, add_assoc]

/-- The reference's one dot product over the 2303 columns — the row, then the clipped path values in heap
    order — is the logit. -/
theorem logit_ref (f x sc w : ℕ → EReal) (b : EReal) (hx : ∀ k, k < 256 → f k = x k)
    (hz : ∀ l, l < 11 → ∀ j, j < 2 ^ l → f (256 + (2 ^ l - 1 + j)) = clip (qv sc l j)) :
    (∑ k ∈ Finset.range 2303, f k * w k) + b = logit x sc w b := by
  unfold logit lvl
  have h : (2303 : ℕ) = 256 + (2 ^ 11 - 1) := by norm_num
  rw [h, Finset.sum_range_add, sum_tree]
  congr 1; congr 1
  · exact Finset.sum_congr rfl fun k hk => by rw [hx k (Finset.mem_range.mp hk)]
  · refine Finset.sum_congr rfl fun l hl => Finset.sum_congr rfl fun j hj => ?_
    rw [hz l (Finset.mem_range.mp hl) j (Finset.mem_range.mp hj), Nat.add_assoc]

end Cert.Tree

end
-- ==== Proof.TreeK.lean ====
/-
  The kernel's operations on one level of the tree, read at an index, for any sizes: the interleaving of the two
  children's values (two shape casts around a concatenation along a new last axis), a lane sum of a block against
  a broadcast slice of the weight row, and the bias column appended to a block.
-/
import proofs.«154722_j25271587570083_1_alg».proof.Proof.Tree
import Idealize.ShloMosaic.Lib.ValueLayout
import Idealize.ShloMosaic.Lib.Pipeline.Value
import Idealize.ShloMosaic.PureOps.Ideal.Laws

noncomputable section

namespace Cert.TreeK

open Idealize.ShloMosaic Idealize.ShloMosaic.ValueIdx Cert.Tree

/-- The word of `1.0` denotes one. -/
theorem ofBits_one : Ideal.ofBits .f32 0x3F800000#32 = 1 := by
  simp [Ideal.ofBits, Ideal.ieee, -EReal.coe_mul]; norm_num

/-- The word of `-1.0` denotes minus one. -/
theorem ofBits_neg_one : Ideal.ofBits .f32 0xBF800000#32 = -1 := by
  simp [Ideal.ofBits, Ideal.ieee, -EReal.coe_mul]; norm_num

/-- ONE LEVEL OF THE TREE in the kernel: from the parents' path values `prev` (level `l`, `n = 2^l` columns) and the
    split scores `sc`, the children's values in heap order — the left children `min prev score` and the right
    children `min prev (0 - score)`, each given a trailing unit axis, laid side by side along it and flattened —
    are the path values of level `l + 1`. -/
theorem kstep {R n m C : ℕ} (l off : ℕ) (hn : n = 2 ^ l) (hm : m = 2 * n) (hoff : off = 2 ^ l - 1)
    (sc : FVec Ideal ⟨2, ![R, C]⟩ .f32) (prev : FVec Ideal ⟨2, ![R, n]⟩ .f32)
    (hs : (⟨2, ![R, C]⟩ : Shape).Slices ![0, off] ⟨2, ![R, n]⟩)
    (h1 : (⟨2, ![R, n]⟩ : Shape).ShapeCasts ⟨3, ![R, n, 1]⟩)
    (hc : Shape.Concatenates [(⟨3, ![R, n, 1]⟩ : Shape), ⟨3, ![R, n, 1]⟩] ⟨3, ![R, n, 2]⟩ 2)
    (h2 : (⟨3, ![R, n, 2]⟩ : Shape).ShapeCasts ⟨2, ![R, m]⟩)
    (r : Fin R) (scr : ℕ → EReal) (hsc : ∀ s : Fin C, sc (ix2 r s) = scr s.val)
    (hprev : ∀ i : Fin n, prev (ix2 r i) = qv scr l i.val) (j : Fin m) :
    shapeCast ⟨2, ![R, m]⟩
      (concatenate ⟨3, ![R, n, 2]⟩ 2
        [⟨⟨3, ![R, n, 1]⟩, shapeCast ⟨3, ![R, n, 1]⟩
            (minimumf prev (extractStridedSlice ⟨2, ![R, n]⟩ ![0, off] sc hs)) h1⟩,
         ⟨⟨3, ![R, n, 1]⟩, shapeCast ⟨3, ![R, n, 1]⟩
            (minimumf prev (subf (broadcast ⟨2, ![R, n]⟩ (Scalar.ofBits .f32 0x00000000#32 : Ideal .f32))
              (extractStridedSlice ⟨2, ![R, n]⟩ ![0, off] sc hs))) h1⟩] hc) h2 (ix2 r j)
      = qv scr (l + 1) j.val := by
  subst hoff
  have hi : j.val / 2 < n := by have := j.isLt; omega
  have hp2 : j.val % 2 < 2 := Nat.mod_lt _ (by decide)
  have hC : 2 ^ l - 1 + n ≤ C := hs.2 1
  have hoffi : 2 ^ l - 1 + j.val / 2 < C := by omega
  rw [qv_succ]
  -- the flattened position `j` of row `r` is child `j % 2` of parent `j / 2`
  refine (shapeCast_apply _ h2 (ix2 r j) (ix3 r ⟨j.val / 2, hi⟩ ⟨j.val % 2, hp2⟩) ?_).trans ?_
  · rw [Shape.rowMajor_val_three, Shape.rowMajor_val_two]
    show (r.val * n + j.val / 2) * 2 + j.val % 2 = r.val * m + j.val
    have e : r.val * m = (r.val * n) * 2 := by rw [hm]; ring
    omega
  by_cases hp : j.val % 2 = 0
  · rw [if_pos hp]
    refine (concatenate_pair_apply_left (t := ⟨3, ![R, n, 2]⟩) (s₁ := ⟨3, ![R, n, 1]⟩) (s₂ := ⟨3, ![R, n, 1]⟩) (2 : Fin 3) _ _ hc
      (ix3 r ⟨j.val / 2, hi⟩ ⟨j.val % 2, hp2⟩) rfl (ix3 r ⟨j.val / 2, hi⟩ (0 : Fin 1)) ?_).trans ?_
    · intro b
      match b with
      | ⟨0, _⟩ => rfl
      | ⟨1, _⟩ => rfl
      | ⟨2, _⟩ => exact hp.symm
    refine (shapeCast_apply _ h1 (ix3 r ⟨j.val / 2, hi⟩ (0 : Fin 1)) (ix2 r ⟨j.val / 2, hi⟩) ?_).trans ?_
    · rw [Shape.rowMajor_val_three, Shape.rowMajor_val_two]
      show r.val * n + j.val / 2 = (r.val * n + j.val / 2) * 1 + 0
      omega
    show min (prev (ix2 r ⟨j.val / 2, hi⟩)) (extractStridedSlice _ _ sc hs (ix2 r ⟨j.val / 2, hi⟩)) = _
    rw [hprev ⟨j.val / 2, hi⟩, slice2_axis1_apply _ sc hs r ⟨j.val / 2, hi⟩ ⟨2 ^ l - 1 + j.val / 2, hoffi⟩ rfl,
      hsc ⟨2 ^ l - 1 + j.val / 2, hoffi⟩]
  · rw [if_neg hp]
    refine (concatenate_pair_apply_right (t := ⟨3, ![R, n, 2]⟩) (s₁ := ⟨3, ![R, n, 1]⟩) (s₂ := ⟨3, ![R, n, 1]⟩) (2 : Fin 3) _ _ hc
      (ix3 r ⟨j.val / 2, hi⟩ ⟨j.val % 2, hp2⟩) rfl rfl (ix3 r ⟨j.val / 2, hi⟩ (0 : Fin 1)) ?_ ?_).trans ?_
    · intro b hb
      match b, hb with
      | ⟨0, _⟩, _ => rfl
      | ⟨1, _⟩, _ => rfl
      | ⟨2, _⟩, hb => exact absurd rfl hb
    · show 0 + 1 = j.val % 2
      omega
    refine (shapeCast_apply _ h1 (ix3 r ⟨j.val / 2, hi⟩ (0 : Fin 1)) (ix2 r ⟨j.val / 2, hi⟩) ?_).trans ?_
    · rw [Shape.rowMajor_val_three, Shape.rowMajor_val_two]
      show r.val * n + j.val / 2 = (r.val * n + j.val / 2) * 1 + 0
      omega
    show min (prev (ix2 r ⟨j.val / 2, hi⟩))
      (Ideal.ofBits .f32 0x00000000#32 - extractStridedSlice _ _ sc hs (ix2 r ⟨j.val / 2, hi⟩)) = _
    rw [hprev ⟨j.val / 2, hi⟩, slice2_axis1_apply _ sc hs r ⟨j.val / 2, hi⟩ ⟨2 ^ l - 1 + j.val / 2, hoffi⟩ rfl,
      hsc ⟨2 ^ l - 1 + j.val / 2, hoffi⟩, Ideal.ofBits_zero_f32, zero_sub]

/-- A LANE SUM AGAINST THE WEIGHT ROW: a block whose row `r` reads `a k` at column `k`, times the weight row's
    columns from `off` broadcast over the rows, summed along the lanes and given a trailing unit axis, is at row `r`
    the sum of `a k` times weight `off + k`. -/
theorem kdot_sum {R n T : ℕ} (off : ℕ) (av : FVec Ideal ⟨2, ![R, n]⟩ .f32) (wv : FVec Ideal ⟨2, ![1, T]⟩ .f32)
    (hs : (⟨2, ![1, T]⟩ : Shape).Slices ![0, off] ⟨2, ![1, n]⟩)
    (hb : (⟨2, ![1, n]⟩ : Shape).Broadcasts ⟨2, ![R, n]⟩)
    (hr : (⟨2, ![R, n]⟩ : Shape).Reduces [1] ⟨1, ![R]⟩) (hφ : FKind.Formats .f32)
    (hacc : (0x00000000#32 : BitVec (FTy.bits .f32)) = FKind.add.neutral .f32 hφ)
    (hsc : (⟨1, ![R]⟩ : Shape).ShapeCasts ⟨2, ![R, 1]⟩)
    (r : Fin R) (a : ℕ → EReal) (ha : ∀ k : Fin n, av (ix2 r k) = a k.val) :
    shapeCast ⟨2, ![R, 1]⟩
      (multiReduction .add [1] ⟨1, ![R]⟩
        (mulf av (broadcastTo ⟨2, ![R, n]⟩ (extractStridedSlice ⟨2, ![1, n]⟩ ![0, off] wv hs) hb))
        0x00000000#32 hr hφ hacc) hsc (ix2 r (0 : Fin 1))
      = ∑ k ∈ Finset.range n, a k * nat2 wv 0 (off + k) := by
  have hT : off + n ≤ T := hs.2 1
  refine (shapeCast_apply _ hsc (ix2 r (0 : Fin 1)) (ix1 r) ?_).trans ?_
  · rw [Shape.rowMajor_val_one, Shape.rowMajor_val_two]
    show r.val = r.val * 1 + 0
    omega
  refine (Ideal.multiReduction_add_single _ _ hr hφ hacc (ix1 r)).trans ?_
  rw [Finset.sum_range]
  show ∑ k : Fin n, _ = ∑ k : Fin n, _
  refine Finset.sum_congr rfl fun k _ => ?_
  -- the row's index with the lane coordinate put back
  have hl : hr.lift (ix1 r) k = ix2 r k := by
    funext c
    match c with
    | ⟨0, _⟩ => exact Fin.ext rfl
    | ⟨1, _⟩ => exact Fin.ext rfl
  rw [hl]
  show av (ix2 r k) * broadcastTo _ (extractStridedSlice _ _ wv hs) hb (ix2 r k) = _
  rw [ha k, broadcastTo_1b_ab_apply, slice2_axis1_apply _ wv hs (0 : Fin 1) k ⟨off + k.val, by have := k.isLt; omega⟩ rfl]
  exact congrArg (a k.val * ·) (nat2_val wv (0 : Fin 1) ⟨off + k.val, by have := k.isLt; omega⟩).symm

/-- LEVEL `l`'S SHARE OF THE LOGIT in the kernel: the level's path values clipped to the unit interval
    (`min 1 (max 0 ·)`), times the weight row's columns from `256 + 2^l - 1`, summed along the lanes. -/
theorem klevel_sum {R n T : ℕ} (l off : ℕ) (hn : n = 2 ^ l) (hoff : off = 256 + (2 ^ l - 1))
    (Lv : FVec Ideal ⟨2, ![R, n]⟩ .f32) (wv : FVec Ideal ⟨2, ![1, T]⟩ .f32)
    (hs : (⟨2, ![1, T]⟩ : Shape).Slices ![0, off] ⟨2, ![1, n]⟩)
    (hb : (⟨2, ![1, n]⟩ : Shape).Broadcasts ⟨2, ![R, n]⟩)
    (hr : (⟨2, ![R, n]⟩ : Shape).Reduces [1] ⟨1, ![R]⟩) (hφ : FKind.Formats .f32)
    (hacc : (0x00000000#32 : BitVec (FTy.bits .f32)) = FKind.add.neutral .f32 hφ)
    (hsc : (⟨1, ![R]⟩ : Shape).ShapeCasts ⟨2, ![R, 1]⟩)
    (r : Fin R) (scr : ℕ → EReal) (hLv : ∀ j : Fin n, Lv (ix2 r j) = qv scr l j.val) :
    shapeCast ⟨2, ![R, 1]⟩
      (multiReduction .add [1] ⟨1, ![R]⟩
        (mulf (minimumf (broadcast ⟨2, ![R, n]⟩ (Scalar.ofBits .f32 0x3F800000#32 : Ideal .f32))
                (maximumf (broadcast ⟨2, ![R, n]⟩ (Scalar.ofBits .f32 0x00000000#32 : Ideal .f32)) Lv))
              (broadcastTo ⟨2, ![R, n]⟩ (extractStridedSlice ⟨2, ![1, n]⟩ ![0, off] wv hs) hb))
        0x00000000#32 hr hφ hacc) hsc (ix2 r (0 : Fin 1))
      = lvl scr (nat2 wv 0) l := by
  refine (kdot_sum off _ wv hs hb hr hφ hacc hsc r (fun k => clip (qv scr l k)) fun k => ?_).trans ?_
  · show min (Ideal.ofBits .f32 0x3F800000#32) (max (Ideal.ofBits .f32 0x00000000#32) (Lv (ix2 r k))) = _
    rw [ofBits_one, Ideal.ofBits_zero_f32, hLv k]
    rfl
  · subst hn hoff
    rfl

/-- THE BIAS COLUMN: a block of `n` columns with a column of ones appended reads, at column `k`, the block's
    entry when `k < n` and one at the last column. -/
theorem kconcat_ones {R n m : ℕ} (hm : m = n + 1) (x0 : FVec Ideal ⟨2, ![R, n]⟩ .f32)
    (hc : Shape.Concatenates [(⟨2, ![R, n]⟩ : Shape), ⟨2, ![R, 1]⟩] ⟨2, ![R, m]⟩ 1) (r : Fin R) (k : Fin m) :
    concatenate ⟨2, ![R, m]⟩ 1
      [⟨⟨2, ![R, n]⟩, x0⟩, ⟨⟨2, ![R, 1]⟩, broadcast ⟨2, ![R, 1]⟩ (Scalar.ofBits .f32 0x3F800000#32 : Ideal .f32)⟩] hc (ix2 r k)
      = if k.val < n then nat2 x0 r.val k.val else 1 := by
  by_cases hk : k.val < n
  · rw [if_pos hk]
    refine (concatenate_pair_apply_left (t := ⟨2, ![R, m]⟩) (s₁ := ⟨2, ![R, n]⟩) (s₂ := ⟨2, ![R, 1]⟩) (1 : Fin 2) x0 _ hc
      (ix2 r k) rfl (ix2 r ⟨k.val, hk⟩) ?_).trans ?_
    · intro b
      match b with
      | ⟨0, _⟩ => rfl
      | ⟨1, _⟩ => rfl
    · exact (nat2_val x0 r ⟨k.val, hk⟩).symm
  · rw [if_neg hk]
    refine (concatenate_pair_apply_right (t := ⟨2, ![R, m]⟩) (s₁ := ⟨2, ![R, n]⟩) (s₂ := ⟨2, ![R, 1]⟩) (1 : Fin 2) x0 _ hc
      (ix2 r k) rfl rfl (ix2 r (0 : Fin 1)) ?_ ?_).trans ?_
    · intro b hb
      match b, hb with
      | ⟨0, _⟩, _ => rfl
      | ⟨1, _⟩, hb => exact absurd rfl hb
    · show 0 + n = k.val
      have := k.isLt
      omega
    · exact ofBits_one

end Cert.TreeK

end
-- ==== Proof.KVal.lean ====
/-
  The kernel's value at an index: the block the kernel body leaves, read at row `p`, is the logistic of the
  row's logit.  The payloads are read one after the other: the row with its column of ones, the 1023 split
  scores as sums over the 256 columns, the ten levels of path values each from the one before, the logit's
  partial sums level by level, and last the bias and the logistic.
-/
import proofs.«154722_j25271587570083_1_alg».proof.Proof.Gen.KernelIdeal.Frame
import proofs.«154722_j25271587570083_1_alg».proof.Proof.TreeK

noncomputable section

namespace Cert.KernelIdeal.KVal

open Idealize.ShloMosaic Idealize.ShloMosaic.ValueIdx Cert.Tree Cert.KernelIdeal Cert.KernelIdeal.Gen

/-! ## The row with its column of ones, and the split scores -/

/-- The row block with the column of ones appended reads, at `(r, k)`, the row `r` extended by one. -/
theorem pay2_apply (x0 : Vec Ideal S1024x255 .f32) (r : Fin 1024) (k : Fin 256) :
    k0_pay2 x0 (ix2 r k) = xrow (nat2 x0 r.val) k.val := by
  unfold k0_pay2
  exact Cert.TreeK.kconcat_ones rfl x0 _ r k

/-- The left operand's row coordinate is the output's row. -/
theorem lhs_0 (i : S1024x1023.Idx) (q : dot_S1024x256_S1023x256_S1024x1023_1_1_0_0_n_n.contr.Idx) :
    (dot_S1024x256_S1023x256_S1024x1023_1_1_0_0_n_n.lhsIdx i q 0).val = (i 0).val := by
  unfold DotDims.lhsIdx
  rw [dif_neg (show ¬(0 : Fin S1024x256.rank) ∈ dot_S1024x256_S1023x256_S1024x1023_1_1_0_0_n_n.lhsBatch by decide),
    dif_pos (show (0 : Fin S1024x256.rank) ∈ dot_S1024x256_S1023x256_S1024x1023_1_1_0_0_n_n.lhsNonContracting by decide)]
  rfl

/-- The left operand's column coordinate is the contraction position. -/
theorem lhs_1 (i : S1024x1023.Idx) (q : dot_S1024x256_S1023x256_S1024x1023_1_1_0_0_n_n.contr.Idx) :
    (dot_S1024x256_S1023x256_S1024x1023_1_1_0_0_n_n.lhsIdx i q 1).val = (q ⟨0, by decide⟩).val :=
  dot_S1024x256_S1023x256_S1024x1023_1_1_0_0_n_n.lhsIdx_val_of_single rfl i q

/-- The right operand's row coordinate is the output's column. -/
theorem rhs_0 (i : S1024x1023.Idx) (q : dot_S1024x256_S1023x256_S1024x1023_1_1_0_0_n_n.contr.Idx) :
    (dot_S1024x256_S1023x256_S1024x1023_1_1_0_0_n_n.rhsIdx i q 0).val = (i 1).val := by
  unfold DotDims.rhsIdx
  rw [dif_neg (show ¬(0 : Fin S1023x256.rank) ∈ dot_S1024x256_S1023x256_S1024x1023_1_1_0_0_n_n.rhsBatch by decide),
    dif_pos (show (0 : Fin S1023x256.rank) ∈ dot_S1024x256_S1023x256_S1024x1023_1_1_0_0_n_n.rhsNonContracting by decide)]
  rfl

/-- The right operand's column coordinate is the contraction position. -/
theorem rhs_1 (i : S1024x1023.Idx) (q : dot_S1024x256_S1023x256_S1024x1023_1_1_0_0_n_n.contr.Idx) :
    (dot_S1024x256_S1023x256_S1024x1023_1_1_0_0_n_n.rhsIdx i q 1).val = (q ⟨0, by decide⟩).val :=
  dot_S1024x256_S1023x256_S1024x1023_1_1_0_0_n_n.rhsIdx_val_of_single rfl i q

/-- The scores: the product of the extended rows with the nodes' weight rows, contracted over the 256 columns,
    reads at `(r, s)` the score of node `s` on row `r`. -/
theorem pay3_apply (x0 : Vec Ideal S1024x255 .f32) (x1 : Vec Ideal S1023x256 .f32) (r : Fin 1024) (s : Fin 1023) :
    k0_pay3 x0 x1 (ix2 r s) = xa (nat2 x0 r.val) (nat2 x1) s.val := by
  unfold k0_pay3
  refine (Ideal.matmul_constant_zero_apply dot_S1024x256_S1023x256_S1024x1023_1_1_0_0_n_n none _ _ (ix2 r s)).trans ?_
  rw [← Equiv.sum_comp (contrEquiv1 dot_S1024x256_S1023x256_S1024x1023_1_1_0_0_n_n 256 rfl rfl).symm]
  unfold xa
  rw [← Fin.sum_univ_eq_sum_range (fun k => xrow (nat2 x0 r.val) k * nat2 x1 s.val k) 256]
  refine Finset.sum_congr rfl fun k _ => ?_
  have hk := contrEquiv1_symm_val dot_S1024x256_S1023x256_S1024x1023_1_1_0_0_n_n 256 rfl rfl k
  have el : dot_S1024x256_S1023x256_S1024x1023_1_1_0_0_n_n.lhsIdx (ix2 r s)
      ((contrEquiv1 dot_S1024x256_S1023x256_S1024x1023_1_1_0_0_n_n 256 rfl rfl).symm k) = ix2 r k :=
    funext fun a => Fin.ext (by
      match a with
      | ⟨0, _⟩ => exact lhs_0 _ _
      | ⟨1, _⟩ => exact (lhs_1 _ _).trans hk)
  have er : dot_S1024x256_S1023x256_S1024x1023_1_1_0_0_n_n.rhsIdx (ix2 r s)
      ((contrEquiv1 dot_S1024x256_S1023x256_S1024x1023_1_1_0_0_n_n 256 rfl rfl).symm k) = ix2 s k :=
    funext fun a => Fin.ext (by
      match a with
      | ⟨0, _⟩ => exact rhs_0 _ _
      | ⟨1, _⟩ => exact (rhs_1 _ _).trans hk)
  rw [el, er]
  show k0_pay2 x0 (ix2 r k) * x1 (ix2 s k) = _
  rw [pay2_apply, nat2_val]

/-! ## The ten levels of path values -/

/-- The broadcast of one is the root's path value. -/
theorem pay4_apply (r : Fin 1024) (scr : ℕ → EReal) (i : Fin 1) :
    (k0_pay4 (F := Ideal)) (ix2 r i) = qv scr 0 i.val :=
  Cert.TreeK.ofBits_one

/-- Level 1 from the root. -/
theorem level1 (x0 : Vec Ideal S1024x255 .f32) (x1 : Vec Ideal S1023x256 .f32) (r : Fin 1024) (scr : ℕ → EReal)
    (hsc : ∀ s : Fin 1023, k0_pay3 x0 x1 (ix2 r s) = scr s.val) (j : Fin 2) :
    k0_pay6 x0 x1 (ix2 r j) = qv scr 1 j.val := by
  unfold k0_pay6
  exact Cert.TreeK.kstep 0 0 rfl rfl rfl (k0_pay3 x0 x1) (k0_pay4 (F := Ideal)) _ _ _ _ r scr hsc (pay4_apply r scr) j

/-- Level 2 from level 1. -/
theorem level2 (v6 : FVec Ideal S1024x1023 .f32) (v33 : FVec Ideal S1024x2 .f32) (r : Fin 1024) (scr : ℕ → EReal)
    (hsc : ∀ s : Fin 1023, v6 (ix2 r s) = scr s.val) (h1 : ∀ i : Fin 2, v33 (ix2 r i) = qv scr 1 i.val) (j : Fin 4) :
    k0_pay8 v6 v33 (ix2 r j) = qv scr 2 j.val := by
  unfold k0_pay8
  exact Cert.TreeK.kstep 1 1 rfl rfl rfl v6 v33 _ _ _ _ r scr hsc h1 j

/-- Level 3 from level 2. -/
theorem level3 (v6 : FVec Ideal S1024x1023 .f32) (v33 : FVec Ideal S1024x2 .f32) (r : Fin 1024) (scr : ℕ → EReal)
    (hsc : ∀ s : Fin 1023, v6 (ix2 r s) = scr s.val) (h1 : ∀ i : Fin 2, v33 (ix2 r i) = qv scr 1 i.val) (j : Fin 8) :
    k0_pay9 v6 v33 (ix2 r j) = qv scr 3 j.val := by
  unfold k0_pay9
  exact Cert.TreeK.kstep 2 3 rfl rfl rfl v6 (k0_pay8 v6 v33) _ _ _ _ r scr hsc (level2 v6 v33 r scr hsc h1) j

/-- Level 4 from level 3. -/
theorem level4 (v6 : FVec Ideal S1024x1023 .f32) (v33 : FVec Ideal S1024x2 .f32) (r : Fin 1024) (scr : ℕ → EReal)
    (hsc : ∀ s : Fin 1023, v6 (ix2 r s) = scr s.val) (h1 : ∀ i : Fin 2, v33 (ix2 r i) = qv scr 1 i.val) (j : Fin 16) :
    k0_pay11 v6 v33 (ix2 r j) = qv scr 4 j.val := by
  unfold k0_pay11
  exact Cert.TreeK.kstep 3 7 rfl rfl rfl v6 (k0_pay9 v6 v33) _ _ _ _ r scr hsc (level3 v6 v33 r scr hsc h1) j

/-- Level 5 from level 4. -/
theorem level5 (v6 : FVec Ideal S1024x1023 .f32) (v90 : FVec Ideal S1024x16 .f32) (r : Fin 1024) (scr : ℕ → EReal)
    (hsc : ∀ s : Fin 1023, v6 (ix2 r s) = scr s.val) (h4 : ∀ i : Fin 16, v90 (ix2 r i) = qv scr 4 i.val) (j : Fin 32) :
    k0_pay12 v6 v90 (ix2 r j) = qv scr 5 j.val := by
  unfold k0_pay12
  exact Cert.TreeK.kstep 4 15 rfl rfl rfl v6 v90 _ _ _ _ r scr hsc h4 j

/-- Level 6 from level 5. -/
theorem level6 (v6 : FVec Ideal S1024x1023 .f32) (v90 : FVec Ideal S1024x16 .f32) (r : Fin 1024) (scr : ℕ → EReal)
    (hsc : ∀ s : Fin 1023, v6 (ix2 r s) = scr s.val) (h4 : ∀ i : Fin 16, v90 (ix2 r i) = qv scr 4 i.val) (j : Fin 64) :
    k0_pay13 v6 v90 (ix2 r j) = qv scr 6 j.val := by
  unfold k0_pay13
  exact Cert.TreeK.kstep 5 31 rfl rfl rfl v6 (k0_pay12 v6 v90) _ _ _ _ r scr hsc (level5 v6 v90 r scr hsc h4) j

/-- Level 7 from level 6: the left children's minimum and the slice of the scores arrive already formed. -/
theorem level7 (v6 : FVec Ideal S1024x1023 .f32) (v90 : FVec Ideal S1024x16 .f32) (r : Fin 1024) (scr : ℕ → EReal)
    (hsc : ∀ s : Fin 1023, v6 (ix2 r s) = scr s.val) (h4 : ∀ i : Fin 16, v90 (ix2 r i) = qv scr 4 i.val) (j : Fin 128) :
    k0_pay17 (k0_pay13 v6 v90) (k0_pay15 v6) (k0_pay16 v6 v90) (ix2 r j) = qv scr 7 j.val := by
  unfold k0_pay17 k0_pay16 k0_pay15
  exact Cert.TreeK.kstep 6 63 rfl rfl rfl v6 (k0_pay13 v6 v90) _ _ _ _ r scr hsc (level6 v6 v90 r scr hsc h4) j

/-- Level 8 from level 7. -/
theorem level8 (v6 : FVec Ideal S1024x1023 .f32) (v128 v139 v140 : FVec Ideal S1024x64 .f32) (r : Fin 1024) (scr : ℕ → EReal)
    (hsc : ∀ s : Fin 1023, v6 (ix2 r s) = scr s.val)
    (h7 : ∀ i : Fin 128, k0_pay17 v128 v139 v140 (ix2 r i) = qv scr 7 i.val) (j : Fin 256) :
    k0_pay18 v6 v128 v139 v140 (ix2 r j) = qv scr 8 j.val := by
  unfold k0_pay18
  exact Cert.TreeK.kstep 7 127 rfl rfl rfl v6 (k0_pay17 v128 v139 v140) _ _ _ _ r scr hsc h7 j

/-- Level 9 from level 8. -/
theorem level9 (v6 : FVec Ideal S1024x1023 .f32) (v128 v139 v140 : FVec Ideal S1024x64 .f32) (r : Fin 1024) (scr : ℕ → EReal)
    (hsc : ∀ s : Fin 1023, v6 (ix2 r s) = scr s.val)
    (h7 : ∀ i : Fin 128, k0_pay17 v128 v139 v140 (ix2 r i) = qv scr 7 i.val) (j : Fin 512) :
    k0_pay20 v6 v128 v139 v140 (ix2 r j) = qv scr 9 j.val := by
  unfold k0_pay20
  exact Cert.TreeK.kstep 8 255 rfl rfl rfl v6 (k0_pay18 v6 v128 v139 v140) _ _ _ _ r scr hsc
    (level8 v6 v128 v139 v140 r scr hsc h7) j

/-! ## The logit's partial sums -/

/-- The row's share and the root's: the extended row against the first 256 weights, plus level 0. -/
theorem acc0 (x0 : Vec Ideal S1024x255 .f32) (x2 : Vec Ideal S1x2303 .f32) (r : Fin 1024) (scr : ℕ → EReal) :
    k0_pay5 x0 x2 (ix2 r (0 : Fin 1))
      = (∑ k ∈ Finset.range 256, xrow (nat2 x0 r.val) k * nat2 x2 0 k) + lvl scr (nat2 x2 0) 0 := by
  unfold k0_pay5
  show _ + _ = _
  refine congrArg₂ (· + ·) ?_ ?_
  · refine (Cert.TreeK.kdot_sum 0 (k0_pay2 x0) x2 _ _ _ _ _ _ r (xrow (nat2 x0 r.val)) (pay2_apply x0 r)).trans ?_
    simp only [Nat.zero_add]
  · exact Cert.TreeK.klevel_sum 0 256 rfl rfl (k0_pay4 (F := Ideal)) x2 _ _ _ _ _ _ r scr (pay4_apply r scr)

/-- Levels 1 to 3 added to what came before. -/
theorem acc3 (x0 : Vec Ideal S1024x255 .f32) (x1 : Vec Ideal S1023x256 .f32) (x2 : Vec Ideal S1x2303 .f32)
    (v6 : FVec Ideal S1024x1023 .f32) (v24 : FVec Ideal S1024x1 .f32) (r : Fin 1024) (scr : ℕ → EReal)
    (hsc : ∀ s : Fin 1023, v6 (ix2 r s) = scr s.val)
    (h1 : ∀ i : Fin 2, k0_pay6 x0 x1 (ix2 r i) = qv scr 1 i.val) :
    k0_pay10 v6 x2 v24 (k0_pay6 x0 x1) (k0_pay7 x0 x1 x2) (ix2 r (0 : Fin 1))
      = v24 (ix2 r (0 : Fin 1)) + lvl scr (nat2 x2 0) 1 + lvl scr (nat2 x2 0) 2 + lvl scr (nat2 x2 0) 3 := by
  unfold k0_pay10 k0_pay7
  show _ + _ + _ + _ = _
  refine congrArg₂ (· + ·) (congrArg₂ (· + ·) (congrArg₂ (· + ·) rfl ?_) ?_) ?_
  · exact Cert.TreeK.klevel_sum 1 257 rfl rfl (k0_pay6 x0 x1) x2 _ _ _ _ _ _ r scr h1
  · exact Cert.TreeK.klevel_sum 2 259 rfl rfl (k0_pay8 v6 (k0_pay6 x0 x1)) x2 _ _ _ _ _ _ r scr
      (level2 v6 _ r scr hsc h1)
  · exact Cert.TreeK.klevel_sum 3 263 rfl rfl (k0_pay9 v6 (k0_pay6 x0 x1)) x2 _ _ _ _ _ _ r scr
      (level3 v6 _ r scr hsc h1)

/-- Levels 4 to 6 added to what came before. -/
theorem acc6 (x2 : Vec Ideal S1x2303 .f32) (v6 : FVec Ideal S1024x1023 .f32) (v81 : FVec Ideal S1024x1 .f32)
    (v90 : FVec Ideal S1024x16 .f32) (r : Fin 1024) (scr : ℕ → EReal)
    (hsc : ∀ s : Fin 1023, v6 (ix2 r s) = scr s.val)
    (h4 : ∀ i : Fin 16, v90 (ix2 r i) = qv scr 4 i.val) :
    k0_pay14 v6 x2 v81 v90 (Scalar.ofBits .f32 0x00000000#32) (ix2 r (0 : Fin 1))
      = v81 (ix2 r (0 : Fin 1)) + lvl scr (nat2 x2 0) 4 + lvl scr (nat2 x2 0) 5 + lvl scr (nat2 x2 0) 6 := by
  unfold k0_pay14
  show _ + _ + _ + _ = _
  refine congrArg₂ (· + ·) (congrArg₂ (· + ·) (congrArg₂ (· + ·) rfl ?_) ?_) ?_
  · exact Cert.TreeK.klevel_sum 4 271 rfl rfl v90 x2 _ _ _ _ _ _ r scr h4
  · exact Cert.TreeK.klevel_sum 5 287 rfl rfl (k0_pay12 v6 v90) x2 _ _ _ _ _ _ r scr (level5 v6 v90 r scr hsc h4)
  · exact Cert.TreeK.klevel_sum 6 319 rfl rfl (k0_pay13 v6 v90) x2 _ _ _ _ _ _ r scr (level6 v6 v90 r scr hsc h4)

/-- Levels 7 and 8 added to what came before. -/
theorem acc8 (x2 : Vec Ideal S1x2303 .f32) (v6 : FVec Ideal S1024x1023 .f32) (v128 v139 v140 : FVec Ideal S1024x64 .f32)
    (v138 : FVec Ideal S1024x1 .f32) (r : Fin 1024) (scr : ℕ → EReal)
    (hsc : ∀ s : Fin 1023, v6 (ix2 r s) = scr s.val)
    (h7 : ∀ i : Fin 128, k0_pay17 v128 v139 v140 (ix2 r i) = qv scr 7 i.val) :
    k0_pay19 v6 x2 v128 v138 v139 v140 (ix2 r (0 : Fin 1))
      = v138 (ix2 r (0 : Fin 1)) + lvl scr (nat2 x2 0) 7 + lvl scr (nat2 x2 0) 8 := by
  unfold k0_pay19
  show _ + _ + _ = _
  refine congrArg₂ (· + ·) (congrArg₂ (· + ·) rfl ?_) ?_
  · exact Cert.TreeK.klevel_sum 7 383 rfl rfl (k0_pay17 v128 v139 v140) x2 _ _ _ _ _ _ r scr h7
  · exact Cert.TreeK.klevel_sum 8 511 rfl rfl (k0_pay18 v6 v128 v139 v140) x2 _ _ _ _ _ _ r scr
      (level8 v6 v128 v139 v140 r scr hsc h7)

/-! ## The last two levels, the bias and the logistic -/

/-- The bias, given a leading unit axis and broadcast over the rows, reads the bias at every row. -/
theorem bias_apply (x3 : Vec Ideal S1 .f32) (r : Fin 1024) :
    broadcastTo S1024x1 (shapeCast S1x1 x3 shapeCasts_S1_S1x1) broadcasts_S1x1_S1024x1 (ix2 r (0 : Fin 1))
      = x3 (ix1 (0 : Fin 1)) :=
  (broadcastTo_1b_ab_apply _ _ r 0).trans (shapeCast_a_1a_apply x3 _ 0 0)

/-- Levels 9 and 10 and the bias added to what came before, and the logistic of the sum. -/
theorem pay1_apply (x2 : Vec Ideal S1x2303 .f32) (x3 : Vec Ideal S1 .f32) (v6 : FVec Ideal S1024x1023 .f32)
    (v128 v139 v140 : FVec Ideal S1024x64 .f32) (v176 : FVec Ideal S1024x1 .f32) (r : Fin 1024) (scr : ℕ → EReal)
    (hsc : ∀ s : Fin 1023, v6 (ix2 r s) = scr s.val)
    (h7 : ∀ i : Fin 128, k0_pay17 v128 v139 v140 (ix2 r i) = qv scr 7 i.val) :
    k0_pay1 v6 x2 x3 v176 (k0_pay20 v6 v128 v139 v140) (k0_pay21 v6 v128 v139 v140) (ix2 r (0 : Fin 1))
      = Ideal.logistic (v176 (ix2 r (0 : Fin 1)) + lvl scr (nat2 x2 0) 9 + lvl scr (nat2 x2 0) 10 + x3 (ix1 (0 : Fin 1))) := by
  unfold k0_pay1 k0_pay21
  show Ideal.logistic (_ + _ + _ + _) = _
  refine congrArg Ideal.logistic (congrArg₂ (· + ·) (congrArg₂ (· + ·) (congrArg₂ (· + ·) rfl ?_) ?_) ?_)
  · exact Cert.TreeK.klevel_sum 9 767 rfl rfl (k0_pay20 v6 v128 v139 v140) x2 _ _ _ _ _ _ r scr
      (level9 v6 v128 v139 v140 r scr hsc h7)
  · exact Cert.TreeK.klevel_sum 10 1279 rfl rfl _ x2 _ _ _ _ _ _ r scr
      (fun j => Cert.TreeK.kstep 9 511 rfl rfl rfl v6 (k0_pay20 v6 v128 v139 v140) _ _ _ _ r scr hsc
        (level9 v6 v128 v139 v140 r scr hsc h7) j)
  · exact bias_apply x3 r

/-! ## The block at a row -/

/-- The offsets of a whole rank-2 block are zero. -/
theorem zeros2 : (![0, 0] : Fin 2 → Nat) = fun _ => 0 :=
  funext fun a => by match a with | ⟨0, _⟩ => rfl | ⟨1, _⟩ => rfl

/-- The offset of a whole rank-1 block is zero. -/
theorem zeros1 : (![0] : Fin 1 → Nat) = fun _ => 0 :=
  funext fun a => by match a with | ⟨0, _⟩ => rfl

/-- THE KERNEL'S VALUE AT ROW `p`: the logistic of the row's logit. -/
theorem out_apply (x0 : Vec Ideal S1024x255 .f32) (x1 : Vec Ideal S1023x256 .f32) (x2 : Vec Ideal S1x2303 .f32)
    (x3 : Vec Ideal S1 .f32) (p : Fin 1024) :
    Gen.out0_4 x0 x1 x2 x3 (ix2 p (0 : Fin 1))
      = Cert.Tree.outRow (Cert.Tree.nat2 x0 p.val) (Cert.Tree.nat2 x1) (Cert.Tree.nat2 x2 0) (x3 (ix1 (0 : Fin 1))) := by
  unfold Gen.out0_4
  rw [View.canon_unit_zero (S := S1024x1) zeros2]
  simp only [View.ld_unit_zero (S := S1024x255) zeros2, View.ld_unit_zero (S := S1023x256) zeros2,
    View.ld_unit_zero (S := S1x2303) zeros2, View.ld_unit_zero (S := S1) zeros1]
  have hsc := pay3_apply x0 x1 p
  have h1 := level1 x0 x1 p _ hsc
  have h4 := level4 (k0_pay3 x0 x1) (k0_pay6 x0 x1) p _ hsc h1
  have h7 := level7 (k0_pay3 x0 x1) (k0_pay11 (k0_pay3 x0 x1) (k0_pay6 x0 x1)) p _ hsc h4
  rw [pay1_apply x2 x3 (k0_pay3 x0 x1) _ _ _ _ p _ hsc h7, acc8 x2 (k0_pay3 x0 x1) _ _ _ _ p _ hsc h7,
    acc6 x2 (k0_pay3 x0 x1) _ _ p _ hsc h4, acc3 x0 x1 x2 (k0_pay3 x0 x1) _ p _ hsc h1,
    acc0 x0 x2 p (xa (nat2 x0 p.val) (nat2 x1))]
  unfold outRow logit
  exact congrArg Ideal.logistic (logit_chain _ _ (lvl (xa (nat2 x0 p.val) (nat2 x1)) (nat2 x2 0)))

end Cert.KernelIdeal.KVal

end
-- ==== Proof.KBlocks.lean ====
/-
  From blocks to the array.  Grid point `t` of the 32 handles rows `1024 t … 1024 t + 1023`: its feature block is
  those rows of the feature array, the split weights, the weight row and the bias are whole at every point, and
  the point writes back block `t` of the result column.  Row `p` of what a point computes depends on row `p` of its
  feature block only, so what point `t` writes back is block `t` of ONE function `G` of the argument arrays, row by
  row; the 32 blocks tile the result array, which therefore ends holding `G`.
-/
import proofs.«154722_j25271587570083_1_alg».proof.Proof.Gen.KernelIdeal.Value
import proofs.«154722_j25271587570083_1_alg».proof.Proof.KVal
import proofs.«154722_j25271587570083_1_alg».proof.Proof.Tree

noncomputable section

namespace Cert.KernelIdeal.KBlocks

open Cert.KernelIdeal Cert.KernelIdeal.Gen Idealize.ShloMosaic Idealize.ShloMosaic.TcCoe Idealize.SL.Sem
open Idealize.ShloMosaic.ValueIdx Cert.Tree
open Idealize.ShloMosaic.Pipeline (Dat)

/-- The result column as one function of the argument arrays: row `i`'s logistic of its logit. -/
def G (a0 : S32768x255.Idx → Elt Ideal .f32) (a1 : S1023x256.Idx → Elt Ideal .f32) (a2 : S1x2303.Idx → Elt Ideal .f32)
    (a3 : S1.Idx → Elt Ideal .f32) : S32768x1.Idx → Elt Ideal .f32 :=
  fun i => outRow (nat2 a0 (i 0).val) (nat2 a1) (nat2 a2 0) (a3 (ix1 (0 : Fin 1)))

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature window and the result window sit at block row `t`, the
    other three windows at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of point `t`'s feature block is row `1024 t + p` of the feature array. -/
theorem xblk_row (c : Dev nD) (t : Fin cfg0.N) (p : Fin 1024) (g : Fin 32768) (hg : g.val = t.val * 1024 + p.val) :
    nat2 (iblk m c 0 t) p.val = nat2 (V m c main_arg0) g.val := by
  funext k
  unfold nat2
  by_cases hk : k < 255
  · rw [dif_pos ⟨p.isLt, hk⟩, dif_pos ⟨g.isLt, hk⟩]
    show V m c main_arg0 (((cfg0.win 0).blk t).view.emb (ix2 ⟨p.val, p.isLt⟩ ⟨k, hk⟩)) = V m c main_arg0 (ix2 ⟨g.val, g.isLt⟩ ⟨k, hk⟩)
    refine congrArg (V m c main_arg0) (funext fun a => Fin.ext ?_)
    obtain ⟨e0, e1, -⟩ := idx_facts t
    match a with
    | ⟨0, _⟩ => show win0_0.index t (0 : Fin 2) * 1024 + 1 * p.val = g.val; omega
    | ⟨1, _⟩ => show win0_0.index t (1 : Fin 2) * 255 + 1 * k = k; omega
  · rw [dif_neg (fun h => hk h.2), dif_neg (fun h => hk h.2)]

/-- The split weights' block is the whole array at every point. -/
theorem ablk (c : Dev nD) (t : Fin cfg0.N) : iblk m c 1 t = V m c main_arg1 := by
  funext y
  show V m c main_arg1 (((cfg0.win 1).blk t).view.emb y) = V m c main_arg1 y
  refine congrArg (V m c main_arg1) (funext fun a => Fin.ext ?_)
  obtain ⟨-, -, e0, e1, -⟩ := idx_facts t
  match a with
  | ⟨0, _⟩ => show win0_1.index t (0 : Fin 2) * 1023 + 1 * (y 0).val = (y 0).val; omega
  | ⟨1, _⟩ => show win0_1.index t (1 : Fin 2) * 256 + 1 * (y 1).val = (y 1).val; omega

/-- The weight row's block is the whole array at every point. -/
theorem wblk (c : Dev nD) (t : Fin cfg0.N) : iblk m c 2 t = V m c main_arg2 := by
  funext y
  show V m c main_arg2 (((cfg0.win 2).blk t).view.emb y) = V m c main_arg2 y
  refine congrArg (V m c main_arg2) (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 2303 + 1 * (y 1).val = (y 1).val; omega

/-- The bias's block is the whole array at every point. -/
theorem bblk (c : Dev nD) (t : Fin cfg0.N) : iblk m c 3 t = V m c main_arg3 := by
  funext y
  show V m c main_arg3 (((cfg0.win 3).blk t).view.emb y) = V m c main_arg3 y
  refine congrArg (V m c main_arg3) (funext fun a => Fin.ext ?_)
  obtain ⟨-, -, -, -, -, -, e0, -⟩ := idx_facts t
  match a with
  | ⟨0, _⟩ => show win0_3.index t (0 : Fin 1) * 1 + 1 * (y 0).val = (y 0).val; omega

/-- WHAT POINT `t` WRITES BACK is block `t` of `G` of the argument arrays. -/
theorem flushed_eq (c : Dev nD) (t : Fin cfg0.N) :
    (dats m 0 c).flushed 4 t
      = ((cfg0.win 4).blk t).view.read (Elt Ideal) (G (V m c main_arg0) (V m c main_arg1) (V m c main_arg2) (V m c main_arg3)) := by
  rw [Value.flushed4]
  funext j
  obtain ⟨p, q, rfl⟩ : ∃ (p : Fin 1024) (q : Fin 1), j = ix2 p q := ⟨j 0, j 1, eq_ix2 j⟩
  obtain rfl : q = 0 := Subsingleton.elim _ _
  show out0_4 (iblk m c 0 t) (iblk m c 1 t) (iblk m c 2 t) (iblk m c 3 t) (ix2 p (0 : Fin 1))
    = G (V m c main_arg0) (V m c main_arg1) (V m c main_arg2) (V m c main_arg3) (((cfg0.win 4).blk t).view.emb (ix2 p (0 : Fin 1)))
  refine (KVal.out_apply (iblk m c 0 t) (iblk m c 1 t) (iblk m c 2 t) (iblk m c 3 t) p).trans ?_
  obtain ⟨-, -, -, -, -, -, -, e0, e1⟩ := idx_facts t
  have hN : cfg0.N = 32 := N_0
  have ht : t.val < 32 := hN ▸ t.isLt
  have hg : t.val * 1024 + p.val < 32768 := by have := p.isLt; omega
  have hrow : ((((cfg0.win 4).blk t).view.emb (ix2 p (0 : Fin 1))) 0).val = t.val * 1024 + p.val := by
    show win0_4.index t (0 : Fin 2) * 1024 + 1 * p.val = _
    omega
  unfold G
  rw [hrow, xblk_row m c t p ⟨t.val * 1024 + p.val, hg⟩ rfl, ablk, wblk, bblk]

/-- Every row of the result column is in some point's block: the point `row / 1024`. -/
theorem cover (i : S32768x1.Idx) : ∃ t : Fin cfg0.N, (cfg0.win 4).flush t = true ∧ i ∈ ((cfg0.win 4).blk t).view.set := by
  have hN : cfg0.N = 32 := N_0
  have hi0 : (i 0).val < 32768 := (i 0).isLt
  have hi1 : (i 1).val < 1 := (i 1).isLt
  have ht : (i 0).val / 1024 < cfg0.N := by rw [hN]; omega
  obtain ⟨t, htv⟩ : ∃ t : Fin cfg0.N, t.val = (i 0).val / 1024 := ⟨⟨_, ht⟩, rfl⟩
  refine ⟨t, flush0_4 t, ?_⟩
  show i ∈ ((View.whole main_v0).slice (win0_4.rect t)).set
  rw [View.set_slice_whole, Rect.mem_set_unit]
  obtain ⟨-, -, -, -, -, -, -, e0, e1⟩ := idx_facts t
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- THE RESULT ARRAY after the run is `G` of the argument arrays. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-- The kernel's run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KBlocks

end
-- ==== Proof.RefOps.lean ====
/-
  The reference program's @main as a table: its 240 host operations in order, window by window (`opsK` is the list of
  window K's operations, each the operation of one printed statement, a called function's operations inline over
  the call's buffer record), the reference each writes (`wlK`), that what each touches is a TensorCore reference and
  that none leaves its result undetermined, and the contents every buffer ends at (`Vf V`, the fold of the whole line
  from contents `V`).
-/
import proofs.«154722_j25271587570083_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.SL.Sem Idealize.ShloMosaic.StableHlo

variable {F : FTy → Type} [FloatOps F]

set_option maxRecDepth 8192 in
set_option maxHeartbeats 4000000 in
/-- The operations 1 … 60 of 240: window `main_part0`. -/
abbrev ops0 : List (HloOp τ sig (Elt F)) :=
  [ StableHlo.nullary main_c (constantI S2 32 0#32),
    StableHlo.nullary main_c_0 (constantI S2 1 0#1),
    StableHlo.nullary main_cst (fun i => FloatOps.ofBits .f32 (lit0 (S2.rowMajor i))),
    StableHlo.unary main_cst main_v0 (broadcastInDim S1x2 ![1] bcast_S2_S1x2_1 : (⟨S2, .f32⟩ : BufTy).Contents (Elt F) → (⟨S1x2, .f32⟩ : BufTy).Contents (Elt F)),
    StableHlo.nullary main_c_1 (constantI S2 32 0#32),
    StableHlo.nullary main_c_2 (constantI S2 1 0#1),
    StableHlo.nullary main_c_3 (fun i => lit1 (S4.rowMajor i)),
    StableHlo.nullary main_c_4 (constantI S4 1 0#1),
    StableHlo.nullary main_cst_5 (fun i => FloatOps.ofBits .f32 (lit2 (S4.rowMajor i))),
    StableHlo.unary main_cst_5 main_v1 (broadcastInDim S1x4 ![1] bcast_S4_S1x4_1 : (⟨S4, .f32⟩ : BufTy).Contents (Elt F) → (⟨S1x4, .f32⟩ : BufTy).Contents (Elt F)),
    StableHlo.nullary main_c_6 (fun i => lit3 (S4.rowMajor i)),
    StableHlo.nullary main_c_7 (constantI S4 1 0#1),
    StableHlo.nullary main_c_8 (fun i => lit4 (S8.rowMajor i)),
    StableHlo.nullary main_c_9 (constantI S8 1 0#1),
    StableHlo.nullary main_cst_10 (fun i => FloatOps.ofBits .f32 (lit5 (S8.rowMajor i))),
    StableHlo.unary main_cst_10 main_v2 (broadcastInDim S1x8 ![1] bcast_S8_S1x8_1 : (⟨S8, .f32⟩ : BufTy).Contents (Elt F) → (⟨S1x8, .f32⟩ : BufTy).Contents (Elt F)),
    StableHlo.nullary main_c_11 (fun i => lit6 (S8.rowMajor i)),
    StableHlo.nullary main_c_12 (constantI S8 1 0#1),
    StableHlo.nullary main_c_13 (fun i => lit7 (S16.rowMajor i)),
    StableHlo.nullary main_c_14 (constantI S16 1 0#1),
    StableHlo.nullary main_cst_15 (fun i => FloatOps.ofBits .f32 (lit8 (S16.rowMajor i))),
    StableHlo.unary main_cst_15 main_v3 (broadcastInDim S1x16 ![1] bcast_S16_S1x16_1 : (⟨S16, .f32⟩ : BufTy).Contents (Elt F) → (⟨S1x16, .f32⟩ : BufTy).Contents (Elt F)),
    StableHlo.nullary main_c_16 (fun i => lit9 (S16.rowMajor i)),
    StableHlo.nullary main_c_17 (constantI S16 1 0#1),
    StableHlo.nullary main_c_18 (fun i => lit10 (S32.rowMajor i)),
    StableHlo.nullary main_c_19 (constantI S32 1 0#1),
    StableHlo.nullary main_cst_20 (fun i => FloatOps.ofBits .f32 (lit11 (S32.rowMajor i))),
    StableHlo.unary main_cst_20 main_v4 (broadcastInDim S1x32 ![1] bcast_S32_S1x32_1 : (⟨S32, .f32⟩ : BufTy).Contents (Elt F) → (⟨S1x32, .f32⟩ : BufTy).Contents (Elt F)),
    StableHlo.nullary main_c_21 (fun i => lit12 (S32.rowMajor i)),
    StableHlo.nullary main_c_22 (constantI S32 1 0#1),
    StableHlo.nullary main_c_23 (fun i => lit13 (S64.rowMajor i)),
    StableHlo.nullary main_c_24 (constantI S64 1 0#1),
    StableHlo.nullary main_cst_25 (fun i => FloatOps.ofBits .f32 (lit14 (S64.rowMajor i))),
    StableHlo.unary main_cst_25 main_v5 (broadcastInDim S1x64 ![1] bcast_S64_S1x64_1 : (⟨S64, .f32⟩ : BufTy).Contents (Elt F) → (⟨S1x64, .f32⟩ : BufTy).Contents (Elt F)),
    StableHlo.nullary main_c_26 (fun i => lit15 (S64.rowMajor i)),
    StableHlo.nullary main_c_27 (constantI S64 1 0#1),
    StableHlo.nullary main_c_28 (fun i => lit16 (S128.rowMajor i)),
    StableHlo.nullary main_c_29 (constantI S128 1 0#1),
    StableHlo.nullary main_cst_30 (fun i => FloatOps.ofBits .f32 (lit17 (S128.rowMajor i))),
    StableHlo.unary main_cst_30 main_v6 (broadcastInDim S1x128 ![1] bcast_S128_S1x128_1 : (⟨S128, .f32⟩ : BufTy).Contents (Elt F) → (⟨S1x128, .f32⟩ : BufTy).Contents (Elt F)),
    StableHlo.nullary main_c_31 (fun i => lit18 (S128.rowMajor i)),
    StableHlo.nullary main_c_32 (constantI S128 1 0#1),
    StableHlo.nullary main_c_33 (fun i => lit19 (S256.rowMajor i)),
    StableHlo.nullary main_c_34 (constantI S256 1 0#1),
    StableHlo.nullary main_cst_35 (fun i => FloatOps.ofBits .f32 (lit20 (S256.rowMajor i))),
    StableHlo.unary main_cst_35 main_v7 (broadcastInDim S1x256 ![1] bcast_S256_S1x256_1 : (⟨S256, .f32⟩ : BufTy).Contents (Elt F) → (⟨S1x256, .f32⟩ : BufTy).Contents (Elt F)),
    StableHlo.nullary main_c_36 (fun i => lit21 (S256.rowMajor i)),
    StableHlo.nullary main_c_37 (constantI S256 1 0#1),
    StableHlo.nullary main_c_38 (fun i => lit22 (S512.rowMajor i)),
    StableHlo.nullary main_c_39 (constantI S512 1 0#1),
    StableHlo.nullary main_cst_40 (fun i => FloatOps.ofBits .f32 (lit23 (S512.rowMajor i))),
    StableHlo.unary main_cst_40 main_v8 (broadcastInDim S1x512 ![1] bcast_S512_S1x512_1 : (⟨S512, .f32⟩ : BufTy).Contents (Elt F) → (⟨S1x512, .f32⟩ : BufTy).Contents (Elt F)),
    StableHlo.nullary main_c_41 (fun i => lit24 (S512.rowMajor i)),
    StableHlo.nullary main_c_42 (constantI S512 1 0#1),
    StableHlo.nullary main_c_43 (fun i => lit25 (S1024.rowMajor i)),
    StableHlo.nullary main_c_44 (constantI S1024 1 0#1),
    StableHlo.nullary main_cst_45 (fun i => FloatOps.ofBits .f32 (lit26 (S1024.rowMajor i))),
    StableHlo.unary main_cst_45 main_v9 (broadcastInDim S1x1024 ![1] bcast_S1024_S1x1024_1 : (⟨S1024, .f32⟩ : BufTy).Contents (Elt F) → (⟨S1x1024, .f32⟩ : BufTy).Contents (Elt F)),
    StableHlo.nullary main_c_46 (fun i => lit27 (S1024.rowMajor i)),
    StableHlo.nullary main_c_47 (constantI S1024 1 0#1) ]

set_option maxRecDepth 8192 in
set_option maxHeartbeats 4000000 in
/-- The operations 61 … 120 of 240: window `main_part1`. -/
abbrev ops1 : List (HloOp τ sig (Elt F)) :=
  [ StableHlo.nullary main_cst_48 (constant S_ .f32 0x3F800000#32),
    StableHlo.unary main_cst_48 main_v10 (broadcastInDim S32768x1 ![] bcast_S_S32768x1 : (⟨S_, .f32⟩ : BufTy).Contents (Elt F) → (⟨S32768x1, .f32⟩ : BufTy).Contents (Elt F)),
    StableHlo.binary main_arg0 main_v10 main_v11 ((fun a b => concatenate S32768x256 1 [⟨S32768x255, a⟩, ⟨S32768x1, b⟩] concatenates_S32768x255_S32768x1_S32768x256_d1) : (⟨S32768x255, .f32⟩ : BufTy).Contents (Elt F) → (⟨S32768x1, .f32⟩ : BufTy).Contents (Elt F) → (⟨S32768x256, .f32⟩ : BufTy).Contents (Elt F)),
    StableHlo.unary main_arg1 main_v12 ((transpose S256x1023 [1, 0] · transposes_S1023x256_S256x1023_1_0) : (⟨S1023x256, .f32⟩ : BufTy).Contents (Elt F) → (⟨S256x1023, .f32⟩ : BufTy).Contents (Elt F)),
    StableHlo.binary main_v11 main_v12 main_v13 ((fun l r => Host.dotGeneral dot_S32768x256_S256x1023_S32768x1023_1_0_0_1_n_n none l r) : (⟨S32768x256, .f32⟩ : BufTy).Contents (Elt F) → (⟨S256x1023, .f32⟩ : BufTy).Contents (Elt F) → (⟨S32768x1023, .f32⟩ : BufTy).Contents (Elt F)),
    StableHlo.nullary main_cst_49 (constant S_ .f32 0x3F800000#32),
    StableHlo.unary main_cst_49 main_v14 (broadcastInDim S32768x1 ![] bcast_S_S32768x1 : (⟨S_, .f32⟩ : BufTy).Contents (Elt F) → (⟨S32768x1, .f32⟩ : BufTy).Contents (Elt F)),
    StableHlo.nullary main_c_50 (constantI S_ 32 1023#32),
    StableHlo.unary main_c_50 main_v15 (broadcastInDim S2 ![] bcast_S_S2 : (⟨S_, .i32⟩ : BufTy).Contents (Elt F) → (⟨S2, .i32⟩ : BufTy).Contents (Elt F)),
    StableHlo.binary main_c main_v15 main_v16 (addi : (⟨S2, .i32⟩ : BufTy).Contents (Elt F) → (⟨S2, .i32⟩ : BufTy).Contents (Elt F) → (⟨S2, .i32⟩ : BufTy).Contents (Elt F)),
    StableHlo.ternary main_c_0 main_v16 main_c main_v17 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v17 main_v18 (broadcastInDim S2x1 ![0] bcast_S2_S2x1_0 : (⟨S2, .i32⟩ : BufTy).Contents (Elt F) → (⟨S2x1, .i32⟩ : BufTy).Contents (Elt F)),
    StableHlo.binary main_v13 main_v18 main_v19 ((fun x i => Host.gather gather_S32768x1023_S2x1_S32768x2_0_1_n_n_1_1_327681 x i) : (⟨S32768x1023, .f32⟩ : BufTy).Contents (Elt F) → (⟨S2x1, .i32⟩ : BufTy).Contents (Elt F) → (⟨S32768x2, .f32⟩ : BufTy).Contents (Elt F)),
    StableHlo.unary main_v0 main_v20 (broadcastInDim S32768x2 ![0, 1] bcast_S1x2_S32768x2_0_1 : (⟨S1x2, .f32⟩ : BufTy).Contents (Elt F) → (⟨S32768x2, .f32⟩ : BufTy).Contents (Elt F)),
    StableHlo.binary main_v19 main_v20 main_v21 (mulf : (⟨S32768x2, .f32⟩ : BufTy).Contents (Elt F) → (⟨S32768x2, .f32⟩ : BufTy).Contents (Elt F) → (⟨S32768x2, .f32⟩ : BufTy).Contents (Elt F)),
    StableHlo.nullary main_c_51 (constantI S_ 32 1#32),
    StableHlo.unary main_c_51 main_v22 (broadcastInDim S2 ![] bcast_S_S2 : (⟨S_, .i32⟩ : BufTy).Contents (Elt F) → (⟨S2, .i32⟩ : BufTy).Contents (Elt F)),
    StableHlo.binary main_c_1 main_v22 main_v23 (addi : (⟨S2, .i32⟩ : BufTy).Contents (Elt F) → (⟨S2, .i32⟩ : BufTy).Contents (Elt F) → (⟨S2, .i32⟩ : BufTy).Contents (Elt F)),
    StableHlo.ternary main_c_2 main_v23 main_c_1 main_v24 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v24 main_v25 (broadcastInDim S2x1 ![0] bcast_S2_S2x1_0 : (⟨S2, .i32⟩ : BufTy).Contents (Elt F) → (⟨S2x1, .i32⟩ : BufTy).Contents (Elt F)),
    StableHlo.binary main_v14 main_v25 main_v26 ((fun x i => Host.gather gather_S32768x1_S2x1_S32768x2_0_1_n_n_1_1_327681 x i) : (⟨S32768x1, .f32⟩ : BufTy).Contents (Elt F) → (⟨S2x1, .i32⟩ : BufTy).Contents (Elt F) → (⟨S32768x2, .f32⟩ : BufTy).Contents (Elt F)),
    StableHlo.binary main_v26 main_v21 main_v27 (minimumf : (⟨S32768x2, .f32⟩ : BufTy).Contents (Elt F) → (⟨S32768x2, .f32⟩ : BufTy).Contents (Elt F) → (⟨S32768x2, .f32⟩ : BufTy).Contents (Elt F)),
    StableHlo.nullary main_c_52 (constantI S_ 32 1023#32),
    StableHlo.unary main_c_52 main_v28 (broadcastInDim S4 ![] bcast_S_S4 : (⟨S_, .i32⟩ : BufTy).Contents (Elt F) → (⟨S4, .i32⟩ : BufTy).Contents (Elt F)),
    StableHlo.binary main_c_3 main_v28 main_v29 (addi : (⟨S4, .i32⟩ : BufTy).Contents (Elt F) → (⟨S4, .i32⟩ : BufTy).Contents (Elt F) → (⟨S4, .i32⟩ : BufTy).Contents (Elt F)),
    StableHlo.ternary main_c_4 main_v29 main_c_3 main_v30 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v30 main_v31 (broadcastInDim S4x1 ![0] bcast_S4_S4x1_0 : (⟨S4, .i32⟩ : BufTy).Contents (Elt F) → (⟨S4x1, .i32⟩ : BufTy).Contents (Elt F)),
    StableHlo.binary main_v13 main_v31 main_v32 ((fun x i => Host.gather gather_S32768x1023_S4x1_S32768x4_0_1_n_n_1_1_327681 x i) : (⟨S32768x1023, .f32⟩ : BufTy).Contents (Elt F) → (⟨S4x1, .i32⟩ : BufTy).Contents (Elt F) → (⟨S32768x4, .f32⟩ : BufTy).Contents (Elt F)),
    StableHlo.unary main_v1 main_v33 (broadcastInDim S32768x4 ![0, 1] bcast_S1x4_S32768x4_0_1 : (⟨S1x4, .f32⟩ : BufTy).Contents (Elt F) → (⟨S32768x4, .f32⟩ : BufTy).Contents (Elt F)),
    StableHlo.binary main_v32 main_v33 main_v34 (mulf : (⟨S32768x4, .f32⟩ : BufTy).Contents (Elt F) → (⟨S32768x4, .f32⟩ : BufTy).Contents (Elt F) → (⟨S32768x4, .f32⟩ : BufTy).Contents (Elt F)),
    StableHlo.nullary main_c_53 (constantI S_ 32 2#32),
    StableHlo.unary main_c_53 main_v35 (broadcastInDim S4 ![] bcast_S_S4 : (⟨S_, .i32⟩ : BufTy).Contents (Elt F) → (⟨S4, .i32⟩ : BufTy).Contents (Elt F)),
    StableHlo.binary main_c_6 main_v35 main_v36 (addi : (⟨S4, .i32⟩ : BufTy).Contents (Elt F) → (⟨S4, .i32⟩ : BufTy).Contents (Elt F) → (⟨S4, .i32⟩ : BufTy).Contents (Elt F)),
    StableHlo.ternary main_c_7 main_v36 main_c_6 main_v37 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v37 main_v38 (broadcastInDim S4x1 ![0] bcast_S4_S4x1_0 : (⟨S4, .i32⟩ : BufTy).Contents (Elt F) → (⟨S4x1, .i32⟩ : BufTy).Contents (Elt F)),
    StableHlo.binary main_v27 main_v38 main_v39 ((fun x i => Host.gather gather_S32768x2_S4x1_S32768x4_0_1_n_n_1_1_327681 x i) : (⟨S32768x2, .f32⟩ : BufTy).Contents (Elt F) → (⟨S4x1, .i32⟩ : BufTy).Contents (Elt F) → (⟨S32768x4, .f32⟩ : BufTy).Contents (Elt F)),
    StableHlo.binary main_v39 main_v34 main_v40 (minimumf : (⟨S32768x4, .f32⟩ : BufTy).Contents (Elt F) → (⟨S32768x4, .f32⟩ : BufTy).Contents (Elt F) → (⟨S32768x4, .f32⟩ : BufTy).Contents (Elt F)),
    StableHlo.nullary main_c_54 (constantI S_ 32 1023#32),
    StableHlo.unary main_c_54 main_v41 (broadcastInDim S8 ![] bcast_S_S8 : (⟨S_, .i32⟩ : BufTy).Contents (Elt F) → (⟨S8, .i32⟩ : BufTy).Contents (Elt F)),
    StableHlo.binary main_c_8 main_v41 main_v42 (addi : (⟨S8, .i32⟩ : BufTy).Contents (Elt F) → (⟨S8, .i32⟩ : BufTy).Contents (Elt F) → (⟨S8, .i32⟩ : BufTy).Contents (Elt F)),
    StableHlo.ternary main_c_9 main_v42 main_c_8 main_v43 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v43 main_v44 (broadcastInDim S8x1 ![0] bcast_S8_S8x1_0 : (⟨S8, .i32⟩ : BufTy).Contents (Elt F) → (⟨S8x1, .i32⟩ : BufTy).Contents (Elt F)),
    StableHlo.binary main_v13 main_v44 main_v45 ((fun x i => Host.gather gather_S32768x1023_S8x1_S32768x8_0_1_n_n_1_1_327681 x i) : (⟨S32768x1023, .f32⟩ : BufTy).Contents (Elt F) → (⟨S8x1, .i32⟩ : BufTy).Contents (Elt F) → (⟨S32768x8, .f32⟩ : BufTy).Contents (Elt F)),
    StableHlo.unary main_v2 main_v46 (broadcastInDim S32768x8 ![0, 1] bcast_S1x8_S32768x8_0_1 : (⟨S1x8, .f32⟩ : BufTy).Contents (Elt F) → (⟨S32768x8, .f32⟩ : BufTy).Contents (Elt F)),
    StableHlo.binary main_v45 main_v46 main_v47 (mulf : (⟨S32768x8, .f32⟩ : BufTy).Contents (Elt F) → (⟨S32768x8, .f32⟩ : BufTy).Contents (Elt F) → (⟨S32768x8, .f32⟩ : BufTy).Contents (Elt F)),
    StableHlo.nullary main_c_55 (constantI S_ 32 4#32),
    StableHlo.unary main_c_55 main_v48 (broadcastInDim S8 ![] bcast_S_S8 : (⟨S_, .i32⟩ : BufTy).Contents (Elt F) → (⟨S8, .i32⟩ : BufTy).Contents (Elt F)),
    StableHlo.binary main_c_11 main_v48 main_v49 (addi : (⟨S8, .i32⟩ : BufTy).Contents (Elt F) → (⟨S8, .i32⟩ : BufTy).Contents (Elt F) → (⟨S8, .i32⟩ : BufTy).Contents (Elt F)),
    StableHlo.ternary main_c_12 main_v49 main_c_11 main_v50 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v50 main_v51 (broadcastInDim S8x1 ![0] bcast_S8_S8x1_0 : (⟨S8, .i32⟩ : BufTy).Contents (Elt F) → (⟨S8x1, .i32⟩ : BufTy).Contents (Elt F)),
    StableHlo.binary main_v40 main_v51 main_v52 ((fun x i => Host.gather gather_S32768x4_S8x1_S32768x8_0_1_n_n_1_1_327681 x i) : (⟨S32768x4, .f32⟩ : BufTy).Contents (Elt F) → (⟨S8x1, .i32⟩ : BufTy).Contents (Elt F) → (⟨S32768x8, .f32⟩ : BufTy).Contents (Elt F)),
    StableHlo.binary main_v52 main_v47 main_v53 (minimumf : (⟨S32768x8, .f32⟩ : BufTy).Contents (Elt F) → (⟨S32768x8, .f32⟩ : BufTy).Contents (Elt F) → (⟨S32768x8, .f32⟩ : BufTy).Contents (Elt F)),
    StableHlo.nullary main_c_56 (constantI S_ 32 1023#32),
    StableHlo.unary main_c_56 main_v54 (broadcastInDim S16 ![] bcast_S_S16 : (⟨S_, .i32⟩ : BufTy).Contents (Elt F) → (⟨S16, .i32⟩ : BufTy).Contents (Elt F)),
    StableHlo.binary main_c_13 main_v54 main_v55 (addi : (⟨S16, .i32⟩ : BufTy).Contents (Elt F) → (⟨S16, .i32⟩ : BufTy).Contents (Elt F) → (⟨S16, .i32⟩ : BufTy).Contents (Elt F)),
    StableHlo.ternary main_c_14 main_v55 main_c_13 main_v56 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v56 main_v57 (broadcastInDim S16x1 ![0] bcast_S16_S16x1_0 : (⟨S16, .i32⟩ : BufTy).Contents (Elt F) → (⟨S16x1, .i32⟩ : BufTy).Contents (Elt F)),
    StableHlo.binary main_v13 main_v57 main_v58 ((fun x i => Host.gather gather_S32768x1023_S16x1_S32768x16_0_1_n_n_1_1_327681 x i) : (⟨S32768x1023, .f32⟩ : BufTy).Contents (Elt F) → (⟨S16x1, .i32⟩ : BufTy).Contents (Elt F) → (⟨S32768x16, .f32⟩ : BufTy).Contents (Elt F)),
    StableHlo.unary main_v3 main_v59 (broadcastInDim S32768x16 ![0, 1] bcast_S1x16_S32768x16_0_1 : (⟨S1x16, .f32⟩ : BufTy).Contents (Elt F) → (⟨S32768x16, .f32⟩ : BufTy).Contents (Elt F)),
    StableHlo.binary main_v58 main_v59 main_v60 (mulf : (⟨S32768x16, .f32⟩ : BufTy).Contents (Elt F) → (⟨S32768x16, .f32⟩ : BufTy).Contents (Elt F) → (⟨S32768x16, .f32⟩ : BufTy).Contents (Elt F)) ]

set_option maxRecDepth 8192 in
set_option maxHeartbeats 4000000 in
/-- The operations 121 … 180 of 240: window `main_part2`. -/
abbrev ops2 : List (HloOp τ sig (Elt F)) :=
  [ StableHlo.nullary main_c_57 (constantI S_ 32 8#32),
    StableHlo.unary main_c_57 main_v61 (broadcastInDim S16 ![] bcast_S_S16 : (⟨S_, .i32⟩ : BufTy).Contents (Elt F) → (⟨S16, .i32⟩ : BufTy).Contents (Elt F)),
    StableHlo.binary main_c_16 main_v61 main_v62 (addi : (⟨S16, .i32⟩ : BufTy).Contents (Elt F) → (⟨S16, .i32⟩ : BufTy).Contents (Elt F) → (⟨S16, .i32⟩ : BufTy).Contents (Elt F)),
    StableHlo.ternary main_c_17 main_v62 main_c_16 main_v63 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v63 main_v64 (broadcastInDim S16x1 ![0] bcast_S16_S16x1_0 : (⟨S16, .i32⟩ : BufTy).Contents (Elt F) → (⟨S16x1, .i32⟩ : BufTy).Contents (Elt F)),
    StableHlo.binary main_v53 main_v64 main_v65 ((fun x i => Host.gather gather_S32768x8_S16x1_S32768x16_0_1_n_n_1_1_327681 x i) : (⟨S32768x8, .f32⟩ : BufTy).Contents (Elt F) → (⟨S16x1, .i32⟩ : BufTy).Contents (Elt F) → (⟨S32768x16, .f32⟩ : BufTy).Contents (Elt F)),
    StableHlo.binary main_v65 main_v60 main_v66 (minimumf : (⟨S32768x16, .f32⟩ : BufTy).Contents (Elt F) → (⟨S32768x16, .f32⟩ : BufTy).Contents (Elt F) → (⟨S32768x16, .f32⟩ : BufTy).Contents (Elt F)),
    StableHlo.nullary main_c_58 (constantI S_ 32 1023#32),
    StableHlo.unary main_c_58 main_v67 (broadcastInDim S32 ![] bcast_S_S32 : (⟨S_, .i32⟩ : BufTy).Contents (Elt F) → (⟨S32, .i32⟩ : BufTy).Contents (Elt F)),
    StableHlo.binary main_c_18 main_v67 main_v68 (addi : (⟨S32, .i32⟩ : BufTy).Contents (Elt F) → (⟨S32, .i32⟩ : BufTy).Contents (Elt F) → (⟨S32, .i32⟩ : BufTy).Contents (Elt F)),
    StableHlo.ternary main_c_19 main_v68 main_c_18 main_v69 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v69 main_v70 (broadcastInDim S32x1 ![0] bcast_S32_S32x1_0 : (⟨S32, .i32⟩ : BufTy).Contents (Elt F) → (⟨S32x1, .i32⟩ : BufTy).Contents (Elt F)),
    StableHlo.binary main_v13 main_v70 main_v71 ((fun x i => Host.gather gather_S32768x1023_S32x1_S32768x32_0_1_n_n_1_1_327681 x i) : (⟨S32768x1023, .f32⟩ : BufTy).Contents (Elt F) → (⟨S32x1, .i32⟩ : BufTy).Contents (Elt F) → (⟨S32768x32, .f32⟩ : BufTy).Contents (Elt F)),
    StableHlo.unary main_v4 main_v72 (broadcastInDim S32768x32 ![0, 1] bcast_S1x32_S32768x32_0_1 : (⟨S1x32, .f32⟩ : BufTy).Contents (Elt F) → (⟨S32768x32, .f32⟩ : BufTy).Contents (Elt F)),
    StableHlo.binary main_v71 main_v72 main_v73 (mulf : (⟨S32768x32, .f32⟩ : BufTy).Contents (Elt F) → (⟨S32768x32, .f32⟩ : BufTy).Contents (Elt F) → (⟨S32768x32, .f32⟩ : BufTy).Contents (Elt F)),
    StableHlo.nullary main_c_59 (constantI S_ 32 16#32),
    StableHlo.unary main_c_59 main_v74 (broadcastInDim S32 ![] bcast_S_S32 : (⟨S_, .i32⟩ : BufTy).Contents (Elt F) → (⟨S32, .i32⟩ : BufTy).Contents (Elt F)),
    StableHlo.binary main_c_21 main_v74 main_v75 (addi : (⟨S32, .i32⟩ : BufTy).Contents (Elt F) → (⟨S32, .i32⟩ : BufTy).Contents (Elt F) → (⟨S32, .i32⟩ : BufTy).Contents (Elt F)),
    StableHlo.ternary main_c_22 main_v75 main_c_21 main_v76 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v76 main_v77 (broadcastInDim S32x1 ![0] bcast_S32_S32x1_0 : (⟨S32, .i32⟩ : BufTy).Contents (Elt F) → (⟨S32x1, .i32⟩ : BufTy).Contents (Elt F)),
    StableHlo.binary main_v66 main_v77 main_v78 ((fun x i => Host.gather gather_S32768x16_S32x1_S32768x32_0_1_n_n_1_1_327681 x i) : (⟨S32768x16, .f32⟩ : BufTy).Contents (Elt F) → (⟨S32x1, .i32⟩ : BufTy).Contents (Elt F) → (⟨S32768x32, .f32⟩ : BufTy).Contents (Elt F)),
    StableHlo.binary main_v78 main_v73 main_v79 (minimumf : (⟨S32768x32, .f32⟩ : BufTy).Contents (Elt F) → (⟨S32768x32, .f32⟩ : BufTy).Contents (Elt F) → (⟨S32768x32, .f32⟩ : BufTy).Contents (Elt F)),
    StableHlo.nullary main_c_60 (constantI S_ 32 1023#32),
    StableHlo.unary main_c_60 main_v80 (broadcastInDim S64 ![] bcast_S_S64 : (⟨S_, .i32⟩ : BufTy).Contents (Elt F) → (⟨S64, .i32⟩ : BufTy).Contents (Elt F)),
    StableHlo.binary main_c_23 main_v80 main_v81 (addi : (⟨S64, .i32⟩ : BufTy).Contents (Elt F) → (⟨S64, .i32⟩ : BufTy).Contents (Elt F) → (⟨S64, .i32⟩ : BufTy).Contents (Elt F)),
    StableHlo.ternary main_c_24 main_v81 main_c_23 main_v82 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v82 main_v83 (broadcastInDim S64x1 ![0] bcast_S64_S64x1_0 : (⟨S64, .i32⟩ : BufTy).Contents (Elt F) → (⟨S64x1, .i32⟩ : BufTy).Contents (Elt F)),
    StableHlo.binary main_v13 main_v83 main_v84 ((fun x i => Host.gather gather_S32768x1023_S64x1_S32768x64_0_1_n_n_1_1_327681 x i) : (⟨S32768x1023, .f32⟩ : BufTy).Contents (Elt F) → (⟨S64x1, .i32⟩ : BufTy).Contents (Elt F) → (⟨S32768x64, .f32⟩ : BufTy).Contents (Elt F)),
    StableHlo.unary main_v5 main_v85 (broadcastInDim S32768x64 ![0, 1] bcast_S1x64_S32768x64_0_1 : (⟨S1x64, .f32⟩ : BufTy).Contents (Elt F) → (⟨S32768x64, .f32⟩ : BufTy).Contents (Elt F)),
    StableHlo.binary main_v84 main_v85 main_v86 (mulf : (⟨S32768x64, .f32⟩ : BufTy).Contents (Elt F) → (⟨S32768x64, .f32⟩ : BufTy).Contents (Elt F) → (⟨S32768x64, .f32⟩ : BufTy).Contents (Elt F)),
    StableHlo.nullary main_c_61 (constantI S_ 32 32#32),
    StableHlo.unary main_c_61 main_v87 (broadcastInDim S64 ![] bcast_S_S64 : (⟨S_, .i32⟩ : BufTy).Contents (Elt F) → (⟨S64, .i32⟩ : BufTy).Contents (Elt F)),
    StableHlo.binary main_c_26 main_v87 main_v88 (addi : (⟨S64, .i32⟩ : BufTy).Contents (Elt F) → (⟨S64, .i32⟩ : BufTy).Contents (Elt F) → (⟨S64, .i32⟩ : BufTy).Contents (Elt F)),
    StableHlo.ternary main_c_27 main_v88 main_c_26 main_v89 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v89 main_v90 (broadcastInDim S64x1 ![0] bcast_S64_S64x1_0 : (⟨S64, .i32⟩ : BufTy).Contents (Elt F) → (⟨S64x1, .i32⟩ : BufTy).Contents (Elt F)),
    StableHlo.binary main_v79 main_v90 main_v91 ((fun x i => Host.gather gather_S32768x32_S64x1_S32768x64_0_1_n_n_1_1_327681 x i) : (⟨S32768x32, .f32⟩ : BufTy).Contents (Elt F) → (⟨S64x1, .i32⟩ : BufTy).Contents (Elt F) → (⟨S32768x64, .f32⟩ : BufTy).Contents (Elt F)),
    StableHlo.binary main_v91 main_v86 main_v92 (minimumf : (⟨S32768x64, .f32⟩ : BufTy).Contents (Elt F) → (⟨S32768x64, .f32⟩ : BufTy).Contents (Elt F) → (⟨S32768x64, .f32⟩ : BufTy).Contents (Elt F)),
    StableHlo.nullary main_c_62 (constantI S_ 32 1023#32),
    StableHlo.unary main_c_62 main_v93 (broadcastInDim S128 ![] bcast_S_S128 : (⟨S_, .i32⟩ : BufTy).Contents (Elt F) → (⟨S128, .i32⟩ : BufTy).Contents (Elt F)),
    StableHlo.binary main_c_28 main_v93 main_v94 (addi : (⟨S128, .i32⟩ : BufTy).Contents (Elt F) → (⟨S128, .i32⟩ : BufTy).Contents (Elt F) → (⟨S128, .i32⟩ : BufTy).Contents (Elt F)),
    StableHlo.ternary main_c_29 main_v94 main_c_28 main_v95 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v95 main_v96 (broadcastInDim S128x1 ![0] bcast_S128_S128x1_0 : (⟨S128, .i32⟩ : BufTy).Contents (Elt F) → (⟨S128x1, .i32⟩ : BufTy).Contents (Elt F)),
    StableHlo.binary main_v13 main_v96 main_v97 ((fun x i => Host.gather gather_S32768x1023_S128x1_S32768x128_0_1_n_n_1_1_327681 x i) : (⟨S32768x1023, .f32⟩ : BufTy).Contents (Elt F) → (⟨S128x1, .i32⟩ : BufTy).Contents (Elt F) → (⟨S32768x128, .f32⟩ : BufTy).Contents (Elt F)),
    StableHlo.unary main_v6 main_v98 (broadcastInDim S32768x128 ![0, 1] bcast_S1x128_S32768x128_0_1 : (⟨S1x128, .f32⟩ : BufTy).Contents (Elt F) → (⟨S32768x128, .f32⟩ : BufTy).Contents (Elt F)),
    StableHlo.binary main_v97 main_v98 main_v99 (mulf : (⟨S32768x128, .f32⟩ : BufTy).Contents (Elt F) → (⟨S32768x128, .f32⟩ : BufTy).Contents (Elt F) → (⟨S32768x128, .f32⟩ : BufTy).Contents (Elt F)),
    StableHlo.nullary main_c_63 (constantI S_ 32 64#32),
    StableHlo.unary main_c_63 main_v100 (broadcastInDim S128 ![] bcast_S_S128 : (⟨S_, .i32⟩ : BufTy).Contents (Elt F) → (⟨S128, .i32⟩ : BufTy).Contents (Elt F)),
    StableHlo.binary main_c_31 main_v100 main_v101 (addi : (⟨S128, .i32⟩ : BufTy).Contents (Elt F) → (⟨S128, .i32⟩ : BufTy).Contents (Elt F) → (⟨S128, .i32⟩ : BufTy).Contents (Elt F)),
    StableHlo.ternary main_c_32 main_v101 main_c_31 main_v102 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v102 main_v103 (broadcastInDim S128x1 ![0] bcast_S128_S128x1_0 : (⟨S128, .i32⟩ : BufTy).Contents (Elt F) → (⟨S128x1, .i32⟩ : BufTy).Contents (Elt F)),
    StableHlo.binary main_v92 main_v103 main_v104 ((fun x i => Host.gather gather_S32768x64_S128x1_S32768x128_0_1_n_n_1_1_327681 x i) : (⟨S32768x64, .f32⟩ : BufTy).Contents (Elt F) → (⟨S128x1, .i32⟩ : BufTy).Contents (Elt F) → (⟨S32768x128, .f32⟩ : BufTy).Contents (Elt F)),
    StableHlo.binary main_v104 main_v99 main_v105 (minimumf : (⟨S32768x128, .f32⟩ : BufTy).Contents (Elt F) → (⟨S32768x128, .f32⟩ : BufTy).Contents (Elt F) → (⟨S32768x128, .f32⟩ : BufTy).Contents (Elt F)),
    StableHlo.nullary main_c_64 (constantI S_ 32 1023#32),
    StableHlo.unary main_c_64 main_v106 (broadcastInDim S256 ![] bcast_S_S256 : (⟨S_, .i32⟩ : BufTy).Contents (Elt F) → (⟨S256, .i32⟩ : BufTy).Contents (Elt F)),
    StableHlo.binary main_c_33 main_v106 main_v107 (addi : (⟨S256, .i32⟩ : BufTy).Contents (Elt F) → (⟨S256, .i32⟩ : BufTy).Contents (Elt F) → (⟨S256, .i32⟩ : BufTy).Contents (Elt F)),
    StableHlo.ternary main_c_34 main_v107 main_c_33 main_v108 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v108 main_v109 (broadcastInDim S256x1 ![0] bcast_S256_S256x1_0 : (⟨S256, .i32⟩ : BufTy).Contents (Elt F) → (⟨S256x1, .i32⟩ : BufTy).Contents (Elt F)),
    StableHlo.binary main_v13 main_v109 main_v110 ((fun x i => Host.gather gather_S32768x1023_S256x1_S32768x256_0_1_n_n_1_1_327681 x i) : (⟨S32768x1023, .f32⟩ : BufTy).Contents (Elt F) → (⟨S256x1, .i32⟩ : BufTy).Contents (Elt F) → (⟨S32768x256, .f32⟩ : BufTy).Contents (Elt F)),
    StableHlo.unary main_v7 main_v111 (broadcastInDim S32768x256 ![0, 1] bcast_S1x256_S32768x256_0_1 : (⟨S1x256, .f32⟩ : BufTy).Contents (Elt F) → (⟨S32768x256, .f32⟩ : BufTy).Contents (Elt F)),
    StableHlo.binary main_v110 main_v111 main_v112 (mulf : (⟨S32768x256, .f32⟩ : BufTy).Contents (Elt F) → (⟨S32768x256, .f32⟩ : BufTy).Contents (Elt F) → (⟨S32768x256, .f32⟩ : BufTy).Contents (Elt F)) ]

set_option maxRecDepth 8192 in
set_option maxHeartbeats 4000000 in
/-- The operations 181 … 240 of 240: window `main_part3`. -/
abbrev ops3 : List (HloOp τ sig (Elt F)) :=
  [ StableHlo.nullary main_c_65 (constantI S_ 32 128#32),
    StableHlo.unary main_c_65 main_v113 (broadcastInDim S256 ![] bcast_S_S256 : (⟨S_, .i32⟩ : BufTy).Contents (Elt F) → (⟨S256, .i32⟩ : BufTy).Contents (Elt F)),
    StableHlo.binary main_c_36 main_v113 main_v114 (addi : (⟨S256, .i32⟩ : BufTy).Contents (Elt F) → (⟨S256, .i32⟩ : BufTy).Contents (Elt F) → (⟨S256, .i32⟩ : BufTy).Contents (Elt F)),
    StableHlo.ternary main_c_37 main_v114 main_c_36 main_v115 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v115 main_v116 (broadcastInDim S256x1 ![0] bcast_S256_S256x1_0 : (⟨S256, .i32⟩ : BufTy).Contents (Elt F) → (⟨S256x1, .i32⟩ : BufTy).Contents (Elt F)),
    StableHlo.binary main_v105 main_v116 main_v117 ((fun x i => Host.gather gather_S32768x128_S256x1_S32768x256_0_1_n_n_1_1_327681 x i) : (⟨S32768x128, .f32⟩ : BufTy).Contents (Elt F) → (⟨S256x1, .i32⟩ : BufTy).Contents (Elt F) → (⟨S32768x256, .f32⟩ : BufTy).Contents (Elt F)),
    StableHlo.binary main_v117 main_v112 main_v118 (minimumf : (⟨S32768x256, .f32⟩ : BufTy).Contents (Elt F) → (⟨S32768x256, .f32⟩ : BufTy).Contents (Elt F) → (⟨S32768x256, .f32⟩ : BufTy).Contents (Elt F)),
    StableHlo.nullary main_c_66 (constantI S_ 32 1023#32),
    StableHlo.unary main_c_66 main_v119 (broadcastInDim S512 ![] bcast_S_S512 : (⟨S_, .i32⟩ : BufTy).Contents (Elt F) → (⟨S512, .i32⟩ : BufTy).Contents (Elt F)),
    StableHlo.binary main_c_38 main_v119 main_v120 (addi : (⟨S512, .i32⟩ : BufTy).Contents (Elt F) → (⟨S512, .i32⟩ : BufTy).Contents (Elt F) → (⟨S512, .i32⟩ : BufTy).Contents (Elt F)),
    StableHlo.ternary main_c_39 main_v120 main_c_38 main_v121 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v121 main_v122 (broadcastInDim S512x1 ![0] bcast_S512_S512x1_0 : (⟨S512, .i32⟩ : BufTy).Contents (Elt F) → (⟨S512x1, .i32⟩ : BufTy).Contents (Elt F)),
    StableHlo.binary main_v13 main_v122 main_v123 ((fun x i => Host.gather gather_S32768x1023_S512x1_S32768x512_0_1_n_n_1_1_327681 x i) : (⟨S32768x1023, .f32⟩ : BufTy).Contents (Elt F) → (⟨S512x1, .i32⟩ : BufTy).Contents (Elt F) → (⟨S32768x512, .f32⟩ : BufTy).Contents (Elt F)),
    StableHlo.unary main_v8 main_v124 (broadcastInDim S32768x512 ![0, 1] bcast_S1x512_S32768x512_0_1 : (⟨S1x512, .f32⟩ : BufTy).Contents (Elt F) → (⟨S32768x512, .f32⟩ : BufTy).Contents (Elt F)),
    StableHlo.binary main_v123 main_v124 main_v125 (mulf : (⟨S32768x512, .f32⟩ : BufTy).Contents (Elt F) → (⟨S32768x512, .f32⟩ : BufTy).Contents (Elt F) → (⟨S32768x512, .f32⟩ : BufTy).Contents (Elt F)),
    StableHlo.nullary main_c_67 (constantI S_ 32 256#32),
    StableHlo.unary main_c_67 main_v126 (broadcastInDim S512 ![] bcast_S_S512 : (⟨S_, .i32⟩ : BufTy).Contents (Elt F) → (⟨S512, .i32⟩ : BufTy).Contents (Elt F)),
    StableHlo.binary main_c_41 main_v126 main_v127 (addi : (⟨S512, .i32⟩ : BufTy).Contents (Elt F) → (⟨S512, .i32⟩ : BufTy).Contents (Elt F) → (⟨S512, .i32⟩ : BufTy).Contents (Elt F)),
    StableHlo.ternary main_c_42 main_v127 main_c_41 main_v128 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v128 main_v129 (broadcastInDim S512x1 ![0] bcast_S512_S512x1_0 : (⟨S512, .i32⟩ : BufTy).Contents (Elt F) → (⟨S512x1, .i32⟩ : BufTy).Contents (Elt F)),
    StableHlo.binary main_v118 main_v129 main_v130 ((fun x i => Host.gather gather_S32768x256_S512x1_S32768x512_0_1_n_n_1_1_327681 x i) : (⟨S32768x256, .f32⟩ : BufTy).Contents (Elt F) → (⟨S512x1, .i32⟩ : BufTy).Contents (Elt F) → (⟨S32768x512, .f32⟩ : BufTy).Contents (Elt F)),
    StableHlo.binary main_v130 main_v125 main_v131 (minimumf : (⟨S32768x512, .f32⟩ : BufTy).Contents (Elt F) → (⟨S32768x512, .f32⟩ : BufTy).Contents (Elt F) → (⟨S32768x512, .f32⟩ : BufTy).Contents (Elt F)),
    StableHlo.nullary main_c_68 (constantI S_ 32 1023#32),
    StableHlo.unary main_c_68 main_v132 (broadcastInDim S1024 ![] bcast_S_S1024 : (⟨S_, .i32⟩ : BufTy).Contents (Elt F) → (⟨S1024, .i32⟩ : BufTy).Contents (Elt F)),
    StableHlo.binary main_c_43 main_v132 main_v133 (addi : (⟨S1024, .i32⟩ : BufTy).Contents (Elt F) → (⟨S1024, .i32⟩ : BufTy).Contents (Elt F) → (⟨S1024, .i32⟩ : BufTy).Contents (Elt F)),
    StableHlo.ternary main_c_44 main_v133 main_c_43 main_v134 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v134 main_v135 (broadcastInDim S1024x1 ![0] bcast_S1024_S1024x1_0 : (⟨S1024, .i32⟩ : BufTy).Contents (Elt F) → (⟨S1024x1, .i32⟩ : BufTy).Contents (Elt F)),
    StableHlo.binary main_v13 main_v135 main_v136 ((fun x i => Host.gather gather_S32768x1023_S1024x1_S32768x1024_0_1_n_n_1_1_327681 x i) : (⟨S32768x1023, .f32⟩ : BufTy).Contents (Elt F) → (⟨S1024x1, .i32⟩ : BufTy).Contents (Elt F) → (⟨S32768x1024, .f32⟩ : BufTy).Contents (Elt F)),
    StableHlo.unary main_v9 main_v137 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v136 main_v137 main_v138 (mulf : (⟨S32768x1024, .f32⟩ : BufTy).Contents (Elt F) → (⟨S32768x1024, .f32⟩ : BufTy).Contents (Elt F) → (⟨S32768x1024, .f32⟩ : BufTy).Contents (Elt F)),
    StableHlo.nullary main_c_69 (constantI S_ 32 512#32),
    StableHlo.unary main_c_69 main_v139 (broadcastInDim S1024 ![] bcast_S_S1024 : (⟨S_, .i32⟩ : BufTy).Contents (Elt F) → (⟨S1024, .i32⟩ : BufTy).Contents (Elt F)),
    StableHlo.binary main_c_46 main_v139 main_v140 (addi : (⟨S1024, .i32⟩ : BufTy).Contents (Elt F) → (⟨S1024, .i32⟩ : BufTy).Contents (Elt F) → (⟨S1024, .i32⟩ : BufTy).Contents (Elt F)),
    StableHlo.ternary main_c_47 main_v140 main_c_46 main_v141 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v141 main_v142 (broadcastInDim S1024x1 ![0] bcast_S1024_S1024x1_0 : (⟨S1024, .i32⟩ : BufTy).Contents (Elt F) → (⟨S1024x1, .i32⟩ : BufTy).Contents (Elt F)),
    StableHlo.binary main_v131 main_v142 main_v143 ((fun x i => Host.gather gather_S32768x512_S1024x1_S32768x1024_0_1_n_n_1_1_327681 x i) : (⟨S32768x512, .f32⟩ : BufTy).Contents (Elt F) → (⟨S1024x1, .i32⟩ : BufTy).Contents (Elt F) → (⟨S32768x1024, .f32⟩ : BufTy).Contents (Elt F)),
    StableHlo.binary main_v143 main_v138 main_v144 (minimumf : (⟨S32768x1024, .f32⟩ : BufTy).Contents (Elt F) → (⟨S32768x1024, .f32⟩ : BufTy).Contents (Elt F) → (⟨S32768x1024, .f32⟩ : BufTy).Contents (Elt F)),
    StableHlo.nary ![main_v14, main_v27, main_v40, main_v53, main_v66, main_v79, main_v92, main_v105, main_v118, main_v131, main_v144] main_v145 (fun u => concatenate S32768x2047 1 [⟨S32768x1, u 0⟩, ⟨S32768x2, u 1⟩, ⟨S32768x4, u 2⟩, ⟨S32768x8, u 3⟩, ⟨S32768x16, u 4⟩, ⟨S32768x32, u 5⟩, ⟨S32768x64, u 6⟩, ⟨S32768x128, u 7⟩, ⟨S32768x256, u 8⟩, ⟨S32768x512, u 9⟩, ⟨S32768x1024, u 10⟩] concatenates_S32768x1_S32768x2_S32768x4_S32768x8_S32768x16_S32768x32_S32768x64_S32768x128_S32768x256_S32768x512_S32768x1024_S32768x2047_d1),
    StableHlo.nullary main_cst_70 (constant S_ .f32 0x00000000#32),
    StableHlo.nullary main_cst_71 (constant S_ .f32 0x3F800000#32),
    StableHlo.TRef.unary (.of main_cst_70 : StableHlo.TRef sig ⟨S_, .f32⟩) main_call0.v0 id,
    StableHlo.TRef.unary main_call0.v0 main_call0.v1 (broadcastInDim S32768x2047 ![] bcast_S_S32768x2047),
    StableHlo.TRef.binary main_call0.v1 (.of main_v145 : StableHlo.TRef sig ⟨S32768x2047, .f32⟩) main_call0.v2 maximumf,
    StableHlo.TRef.unary (.of main_cst_71 : StableHlo.TRef sig ⟨S_, .f32⟩) main_call0.v3 id,
    StableHlo.TRef.unary main_call0.v3 main_call0.v4 (broadcastInDim S32768x2047 ![] bcast_S_S32768x2047),
    StableHlo.TRef.binary main_call0.v4 main_call0.v2 main_call0.v5 minimumf,
    StableHlo.binary main_v11 main_v146 main_v147 ((fun a b => concatenate S32768x2303 1 [⟨S32768x256, a⟩, ⟨S32768x2047, b⟩] concatenates_S32768x256_S32768x2047_S32768x2303_d1) : (⟨S32768x256, .f32⟩ : BufTy).Contents (Elt F) → (⟨S32768x2047, .f32⟩ : BufTy).Contents (Elt F) → (⟨S32768x2303, .f32⟩ : BufTy).Contents (Elt F)),
    StableHlo.unary main_arg2 main_v148 ((transpose S2303x1 [1, 0] · transposes_S1x2303_S2303x1_1_0) : (⟨S1x2303, .f32⟩ : BufTy).Contents (Elt F) → (⟨S2303x1, .f32⟩ : BufTy).Contents (Elt F)),
    StableHlo.binary main_v147 main_v148 main_v149 ((fun l r => Host.dotGeneral dot_S32768x2303_S2303x1_S32768x1_1_0_0_1_n_n none l r) : (⟨S32768x2303, .f32⟩ : BufTy).Contents (Elt F) → (⟨S2303x1, .f32⟩ : BufTy).Contents (Elt F) → (⟨S32768x1, .f32⟩ : BufTy).Contents (Elt F)),
    StableHlo.unary main_arg3 main_v150 (broadcastInDim S1x1 ![1] bcast_S1_S1x1_1 : (⟨S1, .f32⟩ : BufTy).Contents (Elt F) → (⟨S1x1, .f32⟩ : BufTy).Contents (Elt F)),
    StableHlo.unary main_v150 main_v151 (broadcastInDim S32768x1 ![0, 1] bcast_S1x1_S32768x1_0_1 : (⟨S1x1, .f32⟩ : BufTy).Contents (Elt F) → (⟨S32768x1, .f32⟩ : BufTy).Contents (Elt F)),
    StableHlo.binary main_v149 main_v151 main_v152 (addf : (⟨S32768x1, .f32⟩ : BufTy).Contents (Elt F) → (⟨S32768x1, .f32⟩ : BufTy).Contents (Elt F) → (⟨S32768x1, .f32⟩ : BufTy).Contents (Elt F)),
    StableHlo.unary main_v152 main_v153 (Host.negf : (⟨S32768x1, .f32⟩ : BufTy).Contents (Elt F) → (⟨S32768x1, .f32⟩ : BufTy).Contents (Elt F)),
    StableHlo.unary main_v153 main_v154 (Host.exp : (⟨S32768x1, .f32⟩ : BufTy).Contents (Elt F) → (⟨S32768x1, .f32⟩ : BufTy).Contents (Elt F)),
    StableHlo.nullary main_cst_72 (constant S_ .f32 0x3F800000#32),
    StableHlo.unary main_cst_72 main_v155 (broadcastInDim S32768x1 ![] bcast_S_S32768x1 : (⟨S_, .f32⟩ : BufTy).Contents (Elt F) → (⟨S32768x1, .f32⟩ : BufTy).Contents (Elt F)),
    StableHlo.binary main_v155 main_v154 main_v156 (addf : (⟨S32768x1, .f32⟩ : BufTy).Contents (Elt F) → (⟨S32768x1, .f32⟩ : BufTy).Contents (Elt F) → (⟨S32768x1, .f32⟩ : BufTy).Contents (Elt F)),
    StableHlo.nullary main_cst_73 (constant S_ .f32 0x3F800000#32),
    StableHlo.unary main_cst_73 main_v157 (broadcastInDim S32768x1 ![] bcast_S_S32768x1 : (⟨S_, .f32⟩ : BufTy).Contents (Elt F) → (⟨S32768x1, .f32⟩ : BufTy).Contents (Elt F)),
    StableHlo.binary main_v157 main_v156 main_v158 (Host.divf : (⟨S32768x1, .f32⟩ : BufTy).Contents (Elt F) → (⟨S32768x1, .f32⟩ : BufTy).Contents (Elt F) → (⟨S32768x1, .f32⟩ : BufTy).Contents (Elt F)) ]

/-- @main's operations, in order. -/
abbrev ops : List (HloOp τ sig (Elt F)) :=
  ops0 ++ (ops1 ++ (ops2 ++ (ops3)))

/-- The reference each operation of `ops0` writes, in order. -/
abbrev wl0 : List (Ref sig .tc) :=
  [ main_c, main_c_0, main_cst, main_v0, main_c_1, main_c_2, main_c_3, main_c_4, main_cst_5, main_v1, main_c_6, main_c_7,
    main_c_8, main_c_9, main_cst_10, main_v2, main_c_11, main_c_12, main_c_13, main_c_14, main_cst_15, main_v3, main_c_16, main_c_17,
    main_c_18, main_c_19, main_cst_20, main_v4, main_c_21, main_c_22, main_c_23, main_c_24, main_cst_25, main_v5, main_c_26, main_c_27,
    main_c_28, main_c_29, main_cst_30, main_v6, main_c_31, main_c_32, main_c_33, main_c_34, main_cst_35, main_v7, main_c_36, main_c_37,
    main_c_38, main_c_39, main_cst_40, main_v8, main_c_41, main_c_42, main_c_43, main_c_44, main_cst_45, main_v9, main_c_46, main_c_47 ]

/-- The reference each operation of `ops1` writes, in order. -/
abbrev wl1 : List (Ref sig .tc) :=
  [ main_cst_48, main_v10, main_v11, main_v12, main_v13, main_cst_49, main_v14, main_c_50, main_v15, main_v16, main_v17, main_v18,
    main_v19, main_v20, main_v21, main_c_51, main_v22, main_v23, main_v24, main_v25, main_v26, main_v27, main_c_52, main_v28,
    main_v29, main_v30, main_v31, main_v32, main_v33, main_v34, main_c_53, main_v35, main_v36, main_v37, main_v38, main_v39,
    main_v40, main_c_54, main_v41, main_v42, main_v43, main_v44, main_v45, main_v46, main_v47, main_c_55, main_v48, main_v49,
    main_v50, main_v51, main_v52, main_v53, main_c_56, main_v54, main_v55, main_v56, main_v57, main_v58, main_v59, main_v60 ]

/-- The reference each operation of `ops2` writes, in order. -/
abbrev wl2 : List (Ref sig .tc) :=
  [ main_c_57, main_v61, main_v62, main_v63, main_v64, main_v65, main_v66, main_c_58, main_v67, main_v68, main_v69, main_v70,
    main_v71, main_v72, main_v73, main_c_59, main_v74, main_v75, main_v76, main_v77, main_v78, main_v79, main_c_60, main_v80,
    main_v81, main_v82, main_v83, main_v84, main_v85, main_v86, main_c_61, main_v87, main_v88, main_v89, main_v90, main_v91,
    main_v92, main_c_62, main_v93, main_v94, main_v95, main_v96, main_v97, main_v98, main_v99, main_c_63, main_v100, main_v101,
    main_v102, main_v103, main_v104, main_v105, main_c_64, main_v106, main_v107, main_v108, main_v109, main_v110, main_v111, main_v112 ]

/-- The reference each operation of `ops3` writes, in order. -/
abbrev wl3 : List (Ref sig .tc) :=
  [ main_c_65, main_v113, main_v114, main_v115, main_v116, main_v117, main_v118, main_c_66, main_v119, main_v120, main_v121, main_v122,
    main_v123, main_v124, main_v125, main_c_67, main_v126, main_v127, main_v128, main_v129, main_v130, main_v131, main_c_68, main_v132,
    main_v133, main_v134, main_v135, main_v136, main_v137, main_v138, main_c_69, main_v139, main_v140, main_v141, main_v142, main_v143,
    main_v144, main_v145, main_cst_70, main_cst_71, main_call0_v0, main_call0_v1, main_call0_v2, main_call0_v3, main_call0_v4, main_v146, main_v147, main_v148,
    main_v149, main_v150, main_v151, main_v152, main_v153, main_v154, main_cst_72, main_v155, main_v156, main_cst_73, main_v157, main_v158 ]

/-- The reference each operation of @main writes, in order. -/
abbrev wl : List (Ref sig .tc) :=
  wl0 ++ (wl1 ++ (wl2 ++ (wl3)))

set_option maxRecDepth 8192 in
theorem writes0_eq : (ops0 (F := F)).map (·.writes) = wl0.map fun r => ({Proc.devRef .tc r} : Finset (DevRef τ sig)) := rfl
set_option maxRecDepth 8192 in
theorem writes1_eq : (ops1 (F := F)).map (·.writes) = wl1.map fun r => ({Proc.devRef .tc r} : Finset (DevRef τ sig)) := rfl
set_option maxRecDepth 8192 in
theorem writes2_eq : (ops2 (F := F)).map (·.writes) = wl2.map fun r => ({Proc.devRef .tc r} : Finset (DevRef τ sig)) := rfl
set_option maxRecDepth 8192 in
theorem writes3_eq : (ops3 (F := F)).map (·.writes) = wl3.map fun r => ({Proc.devRef .tc r} : Finset (DevRef τ sig)) := rfl

/-- Operation by operation, what `ops` writes is what `wl` lists. -/
theorem writes_eq : (ops (F := F)).map (·.writes) = wl.map fun r => ({Proc.devRef .tc r} : Finset (DevRef τ sig)) := by
  simp only [ops, wl, List.map_append, writes0_eq, writes1_eq, writes2_eq, writes3_eq]

set_option maxRecDepth 8192 in
theorem ops0_sub : (ops0 : List (HloOp τ sig (Elt F))).Forall fun op => op.bufs ⊆ tcRefs τ sig :=
  ⟨nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub .., nullary_bufs_sub .., nullary_bufs_sub .., nullary_bufs_sub .., unary_bufs_sub .., nullary_bufs_sub .., nullary_bufs_sub ..⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub ..⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., binary_bufs_sub .., binary_bufs_sub .., nary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- What every buffer holds once @main's operations have run in order from contents `V`. -/
def Vf (V : Valuation τ sig (Elt F)) : Valuation τ sig (Elt F) := after ops V

end Cert.ReferenceIdeal.Run

end
-- ==== Proof.RefRun.lean ====
/-
  The reference program's run. @main is the straight line `ops` of host operations: window by window it is the
  line of that window's operations (the called function's body unfolded at its call, sequencing reassociated), and
  the four windows in a row are the concatenated line. The signature scopes no TensorCore buffer and no semaphore,
  every operation touches TensorCore references only and none leaves its result undetermined, so from any memory
  with zero counters every weakly fair execution terminates with each TensorCore buffer at the fold of the
  operations over the launch contents: `Vf (launchContents m c)`.
-/
import proofs.«154722_j25271587570083_1_alg».proof.Proof.RefOps

noncomputable section

namespace Cert.ReferenceIdeal.Run

open Cert.ReferenceIdeal Cert.ReferenceIdeal.Gen Idealize.ShloMosaic Idealize.SL.Sem Idealize.ShloMosaic.StableHlo

variable {F : FTy → Type} [FloatOps F]

set_option maxRecDepth 8192 in
set_option maxHeartbeats 4000000 in
/-- The first window is the line of its operations. -/
theorem main_part0_eq (c : Dev nD) : main_part0 (F := F) c = seq ops0 := rfl

set_option maxRecDepth 8192 in
set_option maxHeartbeats 4000000 in
/-- The second window is the line of its operations. -/
theorem main_part1_eq (c : Dev nD) : main_part1 (F := F) c = seq ops1 := rfl

set_option maxRecDepth 8192 in
set_option maxHeartbeats 4000000 in
/-- The third window is the line of its operations. -/
theorem main_part2_eq (c : Dev nD) : main_part2 (F := F) c = seq ops2 := rfl

set_option maxRecDepth 8192 in
set_option maxHeartbeats 4000000 in
/-- The last window is the line of its operations: the called function's definition unfolded at its call and its
    buffer record at the fields, both sides are the same chain of steps once sequencing is reassociated. -/
theorem main_part3_eq (c : Dev nD) : main_part3 (F := F) c = seq ops3 := by
  simp only [main_part3, fn_clip.body, seq, bind_assoc, pure_bind]

/-- @main is the line of all its operations: the windows in a row are the concatenated line. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation of @main determines its result: window by window. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of
    @main terminates, and every final state has each TensorCore buffer at the final valuation of the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = Vf (launchContents m c) (Proc.devRef .tc b) :=
  run_seq scopedRefs_eq scopedSems_eq defs main (fun _ => ops) main_eq (fun _ => ops_sub) m ρ (fun _ => ops_fresh)

end Cert.ReferenceIdeal.Run

end
-- ==== Proof.LibSsa.lean ====
/-
  Reading a straight line of StableHLO operations in single-assignment order.

  A line `ops` whose operations each write one reference, listed in order by `wl` (hypothesis `hW`), is in
  single-assignment order at position `k` when the reference written there is written by no later operation and
  the references read there are written by no operation from `k` on. Then the FINAL valuation `after ops V`
  satisfies that operation's own equation: the result's final contents are the operation's function of the
  operands' final contents. One lemma per builder (`ssa_nullary`, `ssa_unary`, `ssa_binary`, `ssa_ternary`,
  `ssa_nary`), and `ssa_keep` for a reference the line never writes. At a literal line the position fact closes
  by `rfl` and the membership facts by `decide`.
-/
import Idealize.ShloMosaic.Lib.StableHlo.Run

namespace Idealize.ShloMosaic.StableHlo.Ssa

variable {τ : Topo} {sig : RefSig} {Val : EltTy → Type}

/-- The fold of a line cut in two: the second part run from what the first part leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The fold cut at position `k`. -/
theorem after_split (ops : List (HloOp τ sig Val)) (V : Valuation τ sig Val) (k : Nat) :
    after ops V = after (ops.drop k) (after (ops.take k) V) := by
  conv_lhs => rw [← List.take_append_drop k ops]
  exact after_app _ _ V

/-- The fold opened at the operation standing at position `k`: the operations before it, then it, then the rest. -/
theorem after_at (ops : List (HloOp τ sig Val)) (V : Valuation τ sig Val) (k : Nat) (op : HloOp τ sig Val)
    (hk : ops[k]? = some op) :
    after ops V = after (ops.drop (k + 1)) (op.result (after (ops.take k) V)) := by
  obtain ⟨h, rfl⟩ := List.getElem?_eq_some_iff.mp hk
  rw [after_split ops V k, List.drop_eq_getElem_cons h, after_cons]

section Table

variable {ops : List (HloOp τ sig Val)} {wl : List (Ref sig .tc)}

/-- The table of written references, restricted to the operations from position `j` on. -/
theorem writes_drop
    (hW : ops.map (·.writes) = wl.map fun r => ({Proc.devRef .tc r} : Finset (DevRef τ sig))) (j : Nat) :
    (ops.drop j).map (·.writes) = (wl.drop j).map fun r => ({Proc.devRef .tc r} : Finset (DevRef τ sig)) := by
  rw [List.map_drop, hW, ← List.map_drop]

/-- A reference not listed from position `j` on is written by no operation from position `j` on. -/
theorem not_mem_writes
    (hW : ops.map (·.writes) = wl.map fun r => ({Proc.devRef .tc r} : Finset (DevRef τ sig)))
    {j : Nat} {r : Ref sig .tc} (hr : r ∉ wl.drop j) :
    ∀ op ∈ ops.drop j, (Proc.devRef .tc r : DevRef τ sig) ∉ op.writes := by
  intro op hop hmem
  have h1 : op.writes ∈ (ops.drop j).map (·.writes) := List.mem_map.mpr ⟨op, hop, rfl⟩
  rw [writes_drop hW j] at h1
  obtain ⟨y, hy, he⟩ := List.mem_map.mp h1
  rw [← he, Finset.mem_singleton] at hmem
  exact hr (Proc.devRef_injective _ hmem ▸ hy)

/-- A reference not listed from position `j` on keeps its contents through the operations from position `j` on. -/
theorem after_drop_keep
    (hW : ops.map (·.writes) = wl.map fun r => ({Proc.devRef .tc r} : Finset (DevRef τ sig)))
    (V : Valuation τ sig Val) {j : Nat} {r : Ref sig .tc} (hr : r ∉ wl.drop j) :
    after (ops.drop j) V (Proc.devRef .tc r) = V (Proc.devRef .tc r) :=
  after_of_forall_not_mem _ V (not_mem_writes hW hr)

/-- A reference the line never writes holds at the end what it held at the start. -/
theorem ssa_keep
    (hW : ops.map (·.writes) = wl.map fun r => ({Proc.devRef .tc r} : Finset (DevRef τ sig)))
    (V : Valuation τ sig Val) (r : Ref sig .tc) (hr : r ∉ wl) :
    after ops V (Proc.devRef .tc r) = V (Proc.devRef .tc r) := by
  have h := after_drop_keep hW V (j := 0) (r := r) (by rwa [List.drop_zero])
  rwa [List.drop_zero] at h

/-- A reference not written from position `k` on holds at the end what it held before the operation at `k`. -/
theorem ssa_read
    (hW : ops.map (·.writes) = wl.map fun r => ({Proc.devRef .tc r} : Finset (DevRef τ sig)))
    (V : Valuation τ sig Val) (k : Nat) {r : Ref sig .tc} (hr : r ∉ wl.drop k) :
    after ops V (Proc.devRef .tc r) = after (ops.take k) V (Proc.devRef .tc r) := by
  rw [after_split ops V k]
  exact after_drop_keep hW _ hr

/-- The final contents of the reference the operation at position `k` writes, when no later operation writes it:
    what that operation left there. -/
theorem ssa_result
    (hW : ops.map (·.writes) = wl.map fun r => ({Proc.devRef .tc r} : Finset (DevRef τ sig)))
    (V : Valuation τ sig Val) (k : Nat) (op : HloOp τ sig Val) (hk : ops[k]? = some op)
    {y : Ref sig .tc} (hy' : y ∉ wl.drop (k + 1)) :
    after ops V (Proc.devRef .tc y) = op.result (after (ops.take k) V) (Proc.devRef .tc y) := by
  rw [after_at ops V k op hk]
  exact after_drop_keep hW _ hy'

/-- A `nullary` operation at position `k` whose result no later operation writes: the result ends at its value. -/
theorem ssa_nullary
    (hW : ops.map (·.writes) = wl.map fun r => ({Proc.devRef .tc r} : Finset (DevRef τ sig)))
    (V : Valuation τ sig Val) (k : Nat) (y : Ref sig .tc) (v : y.ty.Contents Val) (hy)
    (hk : ops[k]? = some (nullary y v hy)) (hy' : y ∉ wl.drop (k + 1)) :
    after ops V (Proc.devRef .tc y) = v :=
  (ssa_result hW V k _ hk hy').trans (nullary_result y v hy _)

/-- A `unary` operation at position `k`, its result written by no later operation and its operand by none from
    `k` on: the result ends at the function of the operand's final contents. -/
theorem ssa_unary
    (hW : ops.map (·.writes) = wl.map fun r => ({Proc.devRef .tc r} : Finset (DevRef τ sig)))
    (V : Valuation τ sig Val) (k : Nat) (x y : Ref sig .tc) (f : x.ty.Contents Val → y.ty.Contents Val) (hx hy)
    (hk : ops[k]? = some (unary x y f hx hy)) (hy' : y ∉ wl.drop (k + 1)) (hx' : x ∉ wl.drop k) :
    after ops V (Proc.devRef .tc y) = f (after ops V (Proc.devRef .tc x)) :=
  ((ssa_result hW V k _ hk hy').trans (unary_result x y f hx hy _)).trans
    (congrArg f (ssa_read hW V k hx').symm)

/-- A `binary` operation at position `k`, its result written by no later operation and its operands by none from
    `k` on: the result ends at the function of the operands' final contents. -/
theorem ssa_binary
    (hW : ops.map (·.writes) = wl.map fun r => ({Proc.devRef .tc r} : Finset (DevRef τ sig)))
    (V : Valuation τ sig Val) (k : Nat) (a b y : Ref sig .tc)
    (f : a.ty.Contents Val → b.ty.Contents Val → y.ty.Contents Val) (ha hb hy)
    (hk : ops[k]? = some (binary a b y f ha hb hy))
    (hy' : y ∉ wl.drop (k + 1)) (ha' : a ∉ wl.drop k) (hb' : b ∉ wl.drop k) :
    after ops V (Proc.devRef .tc y) = f (after ops V (Proc.devRef .tc a)) (after ops V (Proc.devRef .tc b)) :=
  ((ssa_result hW V k _ hk hy').trans (binary_result a b y f ha hb hy _)).trans
    (congrArg₂ f (ssa_read hW V k ha').symm (ssa_read hW V k hb').symm)

/-- A `ternary` operation at position `k`, its result written by no later operation and its operands by none from
    `k` on: the result ends at the function of the operands' final contents. -/
theorem ssa_ternary
    (hW : ops.map (·.writes) = wl.map fun r => ({Proc.devRef .tc r} : Finset (DevRef τ sig)))
    (V : Valuation τ sig Val) (k : Nat) (c a b y : Ref sig .tc)
    (f : c.ty.Contents Val → a.ty.Contents Val → b.ty.Contents Val → y.ty.Contents Val) (hc ha hb hy)
    (hk : ops[k]? = some (ternary c a b y f hc ha hb hy))
    (hy' : y ∉ wl.drop (k + 1)) (hc' : c ∉ wl.drop k) (ha' : a ∉ wl.drop k) (hb' : b ∉ wl.drop k) :
    after ops V (Proc.devRef .tc y)
      = f (after ops V (Proc.devRef .tc c)) (after ops V (Proc.devRef .tc a)) (after ops V (Proc.devRef .tc b)) := by
  refine ((ssa_result hW V k _ hk hy').trans (ternary_result c a b y f hc ha hb hy _)).trans ?_
  rw [← ssa_read hW V k hc']
  exact congrArg₂ _ (ssa_read hW V k ha').symm (ssa_read hW V k hb').symm

/-- An `nary` operation at position `k`, its result written by no later operation and none of its operands by any
    from `k` on: the result ends at the function of the family of the operands' final contents. -/
theorem ssa_nary
    (hW : ops.map (·.writes) = wl.map fun r => ({Proc.devRef .tc r} : Finset (DevRef τ sig)))
    (V : Valuation τ sig Val) (k : Nat) {n : Nat} (xs : Fin n → Ref sig .tc) (y : Ref sig .tc)
    (f : ((i : Fin n) → (xs i).ty.Contents Val) → y.ty.Contents Val) (hxs hy)
    (hk : ops[k]? = some (nary xs y f hxs hy))
    (hy' : y ∉ wl.drop (k + 1)) (hxs' : ∀ i, xs i ∉ wl.drop k) :
    after ops V (Proc.devRef .tc y) = f (fun i => after ops V (Proc.devRef .tc (xs i))) :=
  ((ssa_result hW V k _ hk hy').trans (nary_result xs y f hxs hy _)).trans
    (congrArg f (funext fun i => (ssa_read hW V k (hxs' i)).symm))

end Table

end Idealize.ShloMosaic.StableHlo.Ssa
-- ==== Proof.RefEqs.lean ====
/-
  The equations of every operation of @main's 240 on the final valuation: `e_‹buffer›` says
  that the buffer ends at its operation's printed function of what the operands END at. @main's line is in
  single-assignment order, so each is the single-assignment lemma for the operation's builder at the operation's
  position: the operation is the list's entry there, its result is written by no later operation, its operands
  by none from there on.
-/
import proofs.«154722_j25271587570083_1_alg».proof.Proof.RefOps
import proofs.«154722_j25271587570083_1_alg».proof.Proof.LibSsa

noncomputable section

namespace Cert.ReferenceIdeal.Run

open Cert.ReferenceIdeal Cert.ReferenceIdeal.Gen Idealize.ShloMosaic Idealize.SL.Sem Idealize.ShloMosaic.StableHlo

variable {F : FTy → Type} [FloatOps F]

set_option maxRecDepth 8192 in
theorem e_main_c (V : Valuation τ sig (Elt F)) :
    Vf V (Proc.devRef .tc main_c) = ((constantI S2 32 0#32) : main_c.ty.Contents (Elt F)) := by
  have h := Ssa.ssa_nullary writes_eq V 0 main_c _ _ rfl (by decide)
  exact h

set_option maxRecDepth 8192 in
theorem e_main_c_0 (V : Valuation τ sig (Elt F)) :
    Vf V (Proc.devRef .tc main_c_0) = ((constantI S2 1 0#1) : main_c_0.ty.Contents (Elt F)) := by
  have h := Ssa.ssa_nullary writes_eq V 1 main_c_0 _ _ rfl (by decide)
  exact h

set_option maxRecDepth 8192 in
theorem e_main_cst (V : Valuation τ sig (Elt F)) :
    Vf V (Proc.devRef .tc main_cst) = ((fun i => FloatOps.ofBits .f32 (lit0 (S2.rowMajor i))) : main_cst.ty.Contents (Elt F)) := by
  have h := Ssa.ssa_nullary writes_eq V 2 main_cst _ _ rfl (by decide)
  exact h

set_option maxRecDepth 8192 in
theorem e_main_v0 (V : Valuation τ sig (Elt F)) :
    Vf V (Proc.devRef .tc main_v0) = (broadcastInDim S1x2 ![1] bcast_S2_S1x2_1 : (⟨S2, .f32⟩ : BufTy).Contents (Elt F) → (⟨S1x2, .f32⟩ : BufTy).Contents (Elt F)) (Vf V (Proc.devRef .tc main_cst)) := by
  have h := Ssa.ssa_unary writes_eq V 3 main_cst main_v0 _ _ _ rfl (by decide) (by decide)
  exact h

set_option maxRecDepth 8192 in
theorem e_main_c_1 (V : Valuation τ sig (Elt F)) :
    Vf V (Proc.devRef .tc main_c_1) = ((constantI S2 32 0#32) : main_c_1.ty.Contents (Elt F)) := by
  have h := Ssa.ssa_nullary writes_eq V 4 main_c_1 _ _ rfl (by decide)
  exact h

set_option maxRecDepth 8192 in
theorem e_main_c_2 (V : Valuation τ sig (Elt F)) :
    Vf V (Proc.devRef .tc main_c_2) = ((constantI S2 1 0#1) : main_c_2.ty.Contents (Elt F)) := by
  have h := Ssa.ssa_nullary writes_eq V 5 main_c_2 _ _ rfl (by decide)
  exact h

set_option maxRecDepth 8192 in
theorem e_main_c_3 (V : Valuation τ sig (Elt F)) :
    Vf V (Proc.devRef .tc main_c_3) = ((fun i => lit1 (S4.rowMajor i)) : main_c_3.ty.Contents (Elt F)) := by
  have h := Ssa.ssa_nullary writes_eq V 6 main_c_3 _ _ rfl (by decide)
  exact h

set_option maxRecDepth 8192 in
theorem e_main_c_4 (V : Valuation τ sig (Elt F)) :
    Vf V (Proc.devRef .tc main_c_4) = ((constantI S4 1 0#1) : main_c_4.ty.Contents (Elt F)) := by
  have h := Ssa.ssa_nullary writes_eq V 7 main_c_4 _ _ rfl (by decide)
  exact h

set_option maxRecDepth 8192 in
theorem e_main_cst_5 (V : Valuation τ sig (Elt F)) :
    Vf V (Proc.devRef .tc main_cst_5) = ((fun i => FloatOps.ofBits .f32 (lit2 (S4.rowMajor i))) : main_cst_5.ty.Contents (Elt F)) := by
  have h := Ssa.ssa_nullary writes_eq V 8 main_cst_5 _ _ rfl (by decide)
  exact h

set_option maxRecDepth 8192 in
theorem e_main_v1 (V : Valuation τ sig (Elt F)) :
    Vf V (Proc.devRef .tc main_v1) = (broadcastInDim S1x4 ![1] bcast_S4_S1x4_1 : (⟨S4, .f32⟩ : BufTy).Contents (Elt F) → (⟨S1x4, .f32⟩ : BufTy).Contents (Elt F)) (Vf V (Proc.devRef .tc main_cst_5)) := by
  have h := Ssa.ssa_unary writes_eq V 9 main_cst_5 main_v1 _ _ _ rfl (by decide) (by decide)
  exact h

set_option maxRecDepth 8192 in
theorem e_main_c_6 (V : Valuation τ sig (Elt F)) :
    Vf V (Proc.devRef .tc main_c_6) = ((fun i => lit3 (S4.rowMajor i)) : main_c_6.ty.Contents (Elt F)) := by
  have h := Ssa.ssa_nullary writes_eq V 10 main_c_6 _ _ rfl (by decide)
  exact h

set_option maxRecDepth 8192 in
theorem e_main_c_7 (V : Valuation τ sig (Elt F)) :
    Vf V (Proc.devRef .tc main_c_7) = ((constantI S4 1 0#1) : main_c_7.ty.Contents (Elt F)) := by
  have h := Ssa.ssa_nullary writes_eq V 11 main_c_7 _ _ rfl (by decide)
  exact h

set_option maxRecDepth 8192 in
theorem e_main_c_8 (V : Valuation τ sig (Elt F)) :
    Vf V (Proc.devRef .tc main_c_8) = ((fun i => lit4 (S8.rowMajor i)) : main_c_8.ty.Contents (Elt F)) := by
  have h := Ssa.ssa_nullary writes_eq V 12 main_c_8 _ _ rfl (by decide)
  exact h

set_option maxRecDepth 8192 in
theorem e_main_c_9 (V : Valuation τ sig (Elt F)) :
    Vf V (Proc.devRef .tc main_c_9) = ((constantI S8 1 0#1) : main_c_9.ty.Contents (Elt F)) := by
  have h := Ssa.ssa_nullary writes_eq V 13 main_c_9 _ _ rfl (by decide)
  exact h

set_option maxRecDepth 8192 in
theorem e_main_cst_10 (V : Valuation τ sig (Elt F)) :
    Vf V (Proc.devRef .tc main_cst_10) = ((fun i => FloatOps.ofBits .f32 (lit5 (S8.rowMajor i))) : main_cst_10.ty.Contents (Elt F)) := by
  have h := Ssa.ssa_nullary writes_eq V 14 main_cst_10 _ _ rfl (by decide)
  exact h

set_option maxRecDepth 8192 in
theorem e_main_v2 (V : Valuation τ sig (Elt F)) :
    Vf V (Proc.devRef .tc main_v2) = (broadcastInDim S1x8 ![1] bcast_S8_S1x8_1 : (⟨S8, .f32⟩ : BufTy).Contents (Elt F) → (⟨S1x8, .f32⟩ : BufTy).Contents (Elt F)) (Vf V (Proc.devRef .tc main_cst_10)) := by
  have h := Ssa.ssa_unary writes_eq V 15 main_cst_10 main_v2 _ _ _ rfl (by decide) (by decide)
  exact h

set_option maxRecDepth 8192 in
theorem e_main_c_11 (V : Valuation τ sig (Elt F)) :
    Vf V (Proc.devRef .tc main_c_11) = ((fun i => lit6 (S8.rowMajor i)) : main_c_11.ty.Contents (Elt F)) := by
  have h := Ssa.ssa_nullary writes_eq V 16 main_c_11 _ _ rfl (by decide)
  exact h

set_option maxRecDepth 8192 in
theorem e_main_c_12 (V : Valuation τ sig (Elt F)) :
    Vf V (Proc.devRef .tc main_c_12) = ((constantI S8 1 0#1) : main_c_12.ty.Contents (Elt F)) := by
  have h := Ssa.ssa_nullary writes_eq V 17 main_c_12 _ _ rfl (by decide)
  exact h

set_option maxRecDepth 8192 in
theorem e_main_c_13 (V : Valuation τ sig (Elt F)) :
    Vf V (Proc.devRef .tc main_c_13) = ((fun i => lit7 (S16.rowMajor i)) : main_c_13.ty.Contents (Elt F)) := by
  have h := Ssa.ssa_nullary writes_eq V 18 main_c_13 _ _ rfl (by decide)
  exact h

set_option maxRecDepth 8192 in
theorem e_main_c_14 (V : Valuation τ sig (Elt F)) :
    Vf V (Proc.devRef .tc main_c_14) = ((constantI S16 1 0#1) : main_c_14.ty.Contents (Elt F)) := by
  have h := Ssa.ssa_nullary writes_eq V 19 main_c_14 _ _ rfl (by decide)
  exact h

set_option maxRecDepth 8192 in
theorem e_main_cst_15 (V : Valuation τ sig (Elt F)) :
    Vf V (Proc.devRef .tc main_cst_15) = ((fun i => FloatOps.ofBits .f32 (lit8 (S16.rowMajor i))) : main_cst_15.ty.Contents (Elt F)) := by
  have h := Ssa.ssa_nullary writes_eq V 20 main_cst_15 _ _ rfl (by decide)
  exact h

set_option maxRecDepth 8192 in
theorem e_main_v3 (V : Valuation τ sig (Elt F)) :
    Vf V (Proc.devRef .tc main_v3) = (broadcastInDim S1x16 ![1] bcast_S16_S1x16_1 : (⟨S16, .f32⟩ : BufTy).Contents (Elt F) → (⟨S1x16, .f32⟩ : BufTy).Contents (Elt F)) (Vf V (Proc.devRef .tc main_cst_15)) := by
  have h := Ssa.ssa_unary writes_eq V 21 main_cst_15 main_v3 _ _ _ rfl (by decide) (by decide)
  exact h

set_option maxRecDepth 8192 in
theorem e_main_c_16 (V : Valuation τ sig (Elt F)) :
    Vf V (Proc.devRef .tc main_c_16) = ((fun i => lit9 (S16.rowMajor i)) : main_c_16.ty.Contents (Elt F)) := by
  have h := Ssa.ssa_nullary writes_eq V 22 main_c_16 _ _ rfl (by decide)
  exact h

set_option maxRecDepth 8192 in
theorem e_main_c_17 (V : Valuation τ sig (Elt F)) :
    Vf V (Proc.devRef .tc main_c_17) = ((constantI S16 1 0#1) : main_c_17.ty.Contents (Elt F)) := by
  have h := Ssa.ssa_nullary writes_eq V 23 main_c_17 _ _ rfl (by decide)
  exact h

set_option maxRecDepth 8192 in
theorem e_main_c_18 (V : Valuation τ sig (Elt F)) :
    Vf V (Proc.devRef .tc main_c_18) = ((fun i => lit10 (S32.rowMajor i)) : main_c_18.ty.Contents (Elt F)) := by
  have h := Ssa.ssa_nullary writes_eq V 24 main_c_18 _ _ rfl (by decide)
  exact h

set_option maxRecDepth 8192 in
theorem e_main_c_19 (V : Valuation τ sig (Elt F)) :
    Vf V (Proc.devRef .tc main_c_19) = ((constantI S32 1 0#1) : main_c_19.ty.Contents (Elt F)) := by
  have h := Ssa.ssa_nullary writes_eq V 25 main_c_19 _ _ rfl (by decide)
  exact h

set_option maxRecDepth 8192 in
theorem e_main_cst_20 (V : Valuation τ sig (Elt F)) :
    Vf V (Proc.devRef .tc main_cst_20) = ((fun i => FloatOps.ofBits .f32 (lit11 (S32.rowMajor i))) : main_cst_20.ty.Contents (Elt F)) := by
  have h := Ssa.ssa_nullary writes_eq V 26 main_cst_20 _ _ rfl (by decide)
  exact h

set_option maxRecDepth 8192 in
theorem e_main_v4 (V : Valuation τ sig (Elt F)) :
    Vf V (Proc.devRef .tc main_v4) = (broadcastInDim S1x32 ![1] bcast_S32_S1x32_1 : (⟨S32, .f32⟩ : BufTy).Contents (Elt F) → (⟨S1x32, .f32⟩ : BufTy).Contents (Elt F)) (Vf V (Proc.devRef .tc main_cst_20)) := by
  have h := Ssa.ssa_unary writes_eq V 27 main_cst_20 main_v4 _ _ _ rfl (by decide) (by decide)
  exact h

set_option maxRecDepth 8192 in
theorem e_main_c_21 (V : Valuation τ sig (Elt F)) :
    Vf V (Proc.devRef .tc main_c_21) = ((fun i => lit12 (S32.rowMajor i)) : main_c_21.ty.Contents (Elt F)) := by
  have h := Ssa.ssa_nullary writes_eq V 28 main_c_21 _ _ rfl (by decide)
  exact h

set_option maxRecDepth 8192 in
theorem e_main_c_22 (V : Valuation τ sig (Elt F)) :
    Vf V (Proc.devRef .tc main_c_22) = ((constantI S32 1 0#1) : main_c_22.ty.Contents (Elt F)) := by
  have h := Ssa.ssa_nullary writes_eq V 29 main_c_22 _ _ rfl (by decide)
  exact h

set_option maxRecDepth 8192 in
theorem e_main_c_23 (V : Valuation τ sig (Elt F)) :
    Vf V (Proc.devRef .tc main_c_23) = ((fun i => lit13 (S64.rowMajor i)) : main_c_23.ty.Contents (Elt F)) := by
  have h := Ssa.ssa_nullary writes_eq V 30 main_c_23 _ _ rfl (by decide)
  exact h

set_option maxRecDepth 8192 in
theorem e_main_c_24 (V : Valuation τ sig (Elt F)) :
    Vf V (Proc.devRef .tc main_c_24) = ((constantI S64 1 0#1) : main_c_24.ty.Contents (Elt F)) := by
  have h := Ssa.ssa_nullary writes_eq V 31 main_c_24 _ _ rfl (by decide)
  exact h

set_option maxRecDepth 8192 in
theorem e_main_cst_25 (V : Valuation τ sig (Elt F)) :
    Vf V (Proc.devRef .tc main_cst_25) = ((fun i => FloatOps.ofBits .f32 (lit14 (S64.rowMajor i))) : main_cst_25.ty.Contents (Elt F)) := by
  have h := Ssa.ssa_nullary writes_eq V 32 main_cst_25 _ _ rfl (by decide)
  exact h

set_option maxRecDepth 8192 in
theorem e_main_v5 (V : Valuation τ sig (Elt F)) :
    Vf V (Proc.devRef .tc main_v5) = (broadcastInDim S1x64 ![1] bcast_S64_S1x64_1 : (⟨S64, .f32⟩ : BufTy).Contents (Elt F) → (⟨S1x64, .f32⟩ : BufTy).Contents (Elt F)) (Vf V (Proc.devRef .tc main_cst_25)) := by
  have h := Ssa.ssa_unary writes_eq V 33 main_cst_25 main_v5 _ _ _ rfl (by decide) (by decide)
  exact h

set_option maxRecDepth 8192 in
theorem e_main_c_26 (V : Valuation τ sig (Elt F)) :
    Vf V (Proc.devRef .tc main_c_26) = ((fun i => lit15 (S64.rowMajor i)) : main_c_26.ty.Contents (Elt F)) := by
  have h := Ssa.ssa_nullary writes_eq V 34 main_c_26 _ _ rfl (by decide)
  exact h

set_option maxRecDepth 8192 in
theorem e_main_c_27 (V : Valuation τ sig (Elt F)) :
    Vf V (Proc.devRef .tc main_c_27) = ((constantI S64 1 0#1) : main_c_27.ty.Contents (Elt F)) := by
  have h := Ssa.ssa_nullary writes_eq V 35 main_c_27 _ _ rfl (by decide)
  exact h

set_option maxRecDepth 8192 in
theorem e_main_c_28 (V : Valuation τ sig (Elt F)) :
    Vf V (Proc.devRef .tc main_c_28) = ((fun i => lit16 (S128.rowMajor i)) : main_c_28.ty.Contents (Elt F)) := by
  have h := Ssa.ssa_nullary writes_eq V 36 main_c_28 _ _ rfl (by decide)
  exact h

set_option maxRecDepth 8192 in
theorem e_main_c_29 (V : Valuation τ sig (Elt F)) :
    Vf V (Proc.devRef .tc main_c_29) = ((constantI S128 1 0#1) : main_c_29.ty.Contents (Elt F)) := by
  have h := Ssa.ssa_nullary writes_eq V 37 main_c_29 _ _ rfl (by decide)
  exact h

set_option maxRecDepth 8192 in
theorem e_main_cst_30 (V : Valuation τ sig (Elt F)) :
    Vf V (Proc.devRef .tc main_cst_30) = ((fun i => FloatOps.ofBits .f32 (lit17 (S128.rowMajor i))) : main_cst_30.ty.Contents (Elt F)) := by
  have h := Ssa.ssa_nullary writes_eq V 38 main_cst_30 _ _ rfl (by decide)
  exact h

set_option maxRecDepth 8192 in
theorem e_main_v6 (V : Valuation τ sig (Elt F)) :
    Vf V (Proc.devRef .tc main_v6) = (broadcastInDim S1x128 ![1] bcast_S128_S1x128_1 : (⟨S128, .f32⟩ : BufTy).Contents (Elt F) → (⟨S1x128, .f32⟩ : BufTy).Contents (Elt F)) (Vf V (Proc.devRef .tc main_cst_30)) := by
  have h := Ssa.ssa_unary writes_eq V 39 main_cst_30 main_v6 _ _ _ rfl (by decide) (by decide)
  exact h

set_option maxRecDepth 8192 in
theorem e_main_c_31 (V : Valuation τ sig (Elt F)) :
    Vf V (Proc.devRef .tc main_c_31) = ((fun i => lit18 (S128.rowMajor i)) : main_c_31.ty.Contents (Elt F)) := by
  have h := Ssa.ssa_nullary writes_eq V 40 main_c_31 _ _ rfl (by decide)
  exact h

set_option maxRecDepth 8192 in
theorem e_main_c_32 (V : Valuation τ sig (Elt F)) :
    Vf V (Proc.devRef .tc main_c_32) = ((constantI S128 1 0#1) : main_c_32.ty.Contents (Elt F)) := by
  have h := Ssa.ssa_nullary writes_eq V 41 main_c_32 _ _ rfl (by decide)
  exact h

set_option maxRecDepth 8192 in
theorem e_main_c_33 (V : Valuation τ sig (Elt F)) :
    Vf V (Proc.devRef .tc main_c_33) = ((fun i => lit19 (S256.rowMajor i)) : main_c_33.ty.Contents (Elt F)) := by
  have h := Ssa.ssa_nullary writes_eq V 42 main_c_33 _ _ rfl (by decide)
  exact h

set_option maxRecDepth 8192 in
theorem e_main_c_34 (V : Valuation τ sig (Elt F)) :
    Vf V (Proc.devRef .tc main_c_34) = ((constantI S256 1 0#1) : main_c_34.ty.Contents (Elt F)) := by
  have h := Ssa.ssa_nullary writes_eq V 43 main_c_34 _ _ rfl (by decide)
  exact h

set_option maxRecDepth 8192 in
theorem e_main_cst_35 (V : Valuation τ sig (Elt F)) :
    Vf V (Proc.devRef .tc main_cst_35) = ((fun i => FloatOps.ofBits .f32 (lit20 (S256.rowMajor i))) : main_cst_35.ty.Contents (Elt F)) := by
  have h := Ssa.ssa_nullary writes_eq V 44 main_cst_35 _ _ rfl (by decide)
  exact h

set_option maxRecDepth 8192 in
theorem e_main_v7 (V : Valuation τ sig (Elt F)) :
    Vf V (Proc.devRef .tc main_v7) = (broadcastInDim S1x256 ![1] bcast_S256_S1x256_1 : (⟨S256, .f32⟩ : BufTy).Contents (Elt F) → (⟨S1x256, .f32⟩ : BufTy).Contents (Elt F)) (Vf V (Proc.devRef .tc main_cst_35)) := by
  have h := Ssa.ssa_unary writes_eq V 45 main_cst_35 main_v7 _ _ _ rfl (by decide) (by decide)
  exact h

set_option maxRecDepth 8192 in
theorem e_main_c_36 (V : Valuation τ sig (Elt F)) :
    Vf V (Proc.devRef .tc main_c_36) = ((fun i => lit21 (S256.rowMajor i)) : main_c_36.ty.Contents (Elt F)) := by
  have h := Ssa.ssa_nullary writes_eq V 46 main_c_36 _ _ rfl (by decide)
  exact h

set_option maxRecDepth 8192 in
theorem e_main_c_37 (V : Valuation τ sig (Elt F)) :
    Vf V (Proc.devRef .tc main_c_37) = ((constantI S256 1 0#1) : main_c_37.ty.Contents (Elt F)) := by
  have h := Ssa.ssa_nullary writes_eq V 47 main_c_37 _ _ rfl (by decide)
  exact h

set_option maxRecDepth 8192 in
theorem e_main_c_38 (V : Valuation τ sig (Elt F)) :
    Vf V (Proc.devRef .tc main_c_38) = ((fun i => lit22 (S512.rowMajor i)) : main_c_38.ty.Contents (Elt F)) := by
  have h := Ssa.ssa_nullary writes_eq V 48 main_c_38 _ _ rfl (by decide)
  exact h

set_option maxRecDepth 8192 in
theorem e_main_c_39 (V : Valuation τ sig (Elt F)) :
    Vf V (Proc.devRef .tc main_c_39) = ((constantI S512 1 0#1) : main_c_39.ty.Contents (Elt F)) := by
  have h := Ssa.ssa_nullary writes_eq V 49 main_c_39 _ _ rfl (by decide)
  exact h

set_option maxRecDepth 8192 in
theorem e_main_cst_40 (V : Valuation τ sig (Elt F)) :
    Vf V (Proc.devRef .tc main_cst_40) = ((fun i => FloatOps.ofBits .f32 (lit23 (S512.rowMajor i))) : main_cst_40.ty.Contents (Elt F)) := by
  have h := Ssa.ssa_nullary writes_eq V 50 main_cst_40 _ _ rfl (by decide)
  exact h

set_option maxRecDepth 8192 in
theorem e_main_v8 (V : Valuation τ sig (Elt F)) :
    Vf V (Proc.devRef .tc main_v8) = (broadcastInDim S1x512 ![1] bcast_S512_S1x512_1 : (⟨S512, .f32⟩ : BufTy).Contents (Elt F) → (⟨S1x512, .f32⟩ : BufTy).Contents (Elt F)) (Vf V (Proc.devRef .tc main_cst_40)) := by
  have h := Ssa.ssa_unary writes_eq V 51 main_cst_40 main_v8 _ _ _ rfl (by decide) (by decide)
  exact h

set_option maxRecDepth 8192 in
theorem e_main_c_41 (V : Valuation τ sig (Elt F)) :
    Vf V (Proc.devRef .tc main_c_41) = ((fun i => lit24 (S512.rowMajor i)) : main_c_41.ty.Contents (Elt F)) := by
  have h := Ssa.ssa_nullary writes_eq V 52 main_c_41 _ _ rfl (by decide)
  exact h

set_option maxRecDepth 8192 in
theorem e_main_c_42 (V : Valuation τ sig (Elt F)) :
    Vf V (Proc.devRef .tc main_c_42) = ((constantI S512 1 0#1) : main_c_42.ty.Contents (Elt F)) := by
  have h := Ssa.ssa_nullary writes_eq V 53 main_c_42 _ _ rfl (by decide)
  exact h

set_option maxRecDepth 8192 in
theorem e_main_c_43 (V : Valuation τ sig (Elt F)) :
    Vf V (Proc.devRef .tc main_c_43) = ((fun i => lit25 (S1024.rowMajor i)) : main_c_43.ty.Contents (Elt F)) := by
  have h := Ssa.ssa_nullary writes_eq V 54 main_c_43 _ _ rfl (by decide)
  exact h

set_option maxRecDepth 8192 in
theorem e_main_c_44 (V : Valuation τ sig (Elt F)) :
    Vf V (Proc.devRef .tc main_c_44) = ((constantI S1024 1 0#1) : main_c_44.ty.Contents (Elt F)) := by
  have h := Ssa.ssa_nullary writes_eq V 55 main_c_44 _ _ rfl (by decide)
  exact h

set_option maxRecDepth 8192 in
theorem e_main_cst_45 (V : Valuation τ sig (Elt F)) :
    Vf V (Proc.devRef .tc main_cst_45) = ((fun i => FloatOps.ofBits .f32 (lit26 (S1024.rowMajor i))) : main_cst_45.ty.Contents (Elt F)) := by
  have h := Ssa.ssa_nullary writes_eq V 56 main_cst_45 _ _ rfl (by decide)
  exact h

set_option maxRecDepth 8192 in
theorem e_main_v9 (V : Valuation τ sig (Elt F)) :
    Vf V (Proc.devRef .tc main_v9) = (broadcastInDim S1x1024 ![1] bcast_S1024_S1x1024_1 : (⟨S1024, .f32⟩ : BufTy).Contents (Elt F) → (⟨S1x1024, .f32⟩ : BufTy).Contents (Elt F)) (Vf V (Proc.devRef .tc main_cst_45)) := by
  have h := Ssa.ssa_unary writes_eq V 57 main_cst_45 main_v9 _ _ _ rfl (by decide) (by decide)
  exact h

set_option maxRecDepth 8192 in
theorem e_main_c_46 (V : Valuation τ sig (Elt F)) :
    Vf V (Proc.devRef .tc main_c_46) = ((fun i => lit27 (S1024.rowMajor i)) : main_c_46.ty.Contents (Elt F)) := by
  have h := Ssa.ssa_nullary writes_eq V 58 main_c_46 _ _ rfl (by decide)
  exact h

set_option maxRecDepth 8192 in
theorem e_main_c_47 (V : Valuation τ sig (Elt F)) :
    Vf V (Proc.devRef .tc main_c_47) = ((constantI S1024 1 0#1) : main_c_47.ty.Contents (Elt F)) := by
  have h := Ssa.ssa_nullary writes_eq V 59 main_c_47 _ _ rfl (by decide)
  exact h

set_option maxRecDepth 8192 in
theorem e_main_cst_48 (V : Valuation τ sig (Elt F)) :
    Vf V (Proc.devRef .tc main_cst_48) = ((constant S_ .f32 0x3F800000#32) : main_cst_48.ty.Contents (Elt F)) := by
  have h := Ssa.ssa_nullary writes_eq V 60 main_cst_48 _ _ rfl (by decide)
  exact h

set_option maxRecDepth 8192 in
theorem e_main_v10 (V : Valuation τ sig (Elt F)) :
    Vf V (Proc.devRef .tc main_v10) = (broadcastInDim S32768x1 ![] bcast_S_S32768x1 : (⟨S_, .f32⟩ : BufTy).Contents (Elt F) → (⟨S32768x1, .f32⟩ : BufTy).Contents (Elt F)) (Vf V (Proc.devRef .tc main_cst_48)) := by
  have h := Ssa.ssa_unary writes_eq V 61 main_cst_48 main_v10 _ _ _ rfl (by decide) (by decide)
  exact h

set_option maxRecDepth 8192 in
theorem e_main_v11 (V : Valuation τ sig (Elt F)) :
    Vf V (Proc.devRef .tc main_v11) = ((fun a b => concatenate S32768x256 1 [⟨S32768x255, a⟩, ⟨S32768x1, b⟩] concatenates_S32768x255_S32768x1_S32768x256_d1) : (⟨S32768x255, .f32⟩ : BufTy).Contents (Elt F) → (⟨S32768x1, .f32⟩ : BufTy).Contents (Elt F) → (⟨S32768x256, .f32⟩ : BufTy).Contents (Elt F)) (Vf V (Proc.devRef .tc main_arg0)) (Vf V (Proc.devRef .tc main_v10)) := by
  have h := Ssa.ssa_binary writes_eq V 62 main_arg0 main_v10 main_v11 _ _ _ _ rfl (by decide) (by decide) (by decide)
  exact h

set_option maxRecDepth 8192 in
theorem e_main_v12 (V : Valuation τ sig (Elt F)) :
    Vf V (Proc.devRef .tc main_v12) = ((transpose S256x1023 [1, 0] · transposes_S1023x256_S256x1023_1_0) : (⟨S1023x256, .f32⟩ : BufTy).Contents (Elt F) → (⟨S256x1023, .f32⟩ : BufTy).Contents (Elt F)) (Vf V (Proc.devRef .tc main_arg1)) := by
  have h := Ssa.ssa_unary writes_eq V 63 main_arg1 main_v12 _ _ _ rfl (by decide) (by decide)
  exact h

set_option maxRecDepth 8192 in
theorem e_main_v13 (V : Valuation τ sig (Elt F)) :
    Vf V (Proc.devRef .tc main_v13) = ((fun l r => Host.dotGeneral dot_S32768x256_S256x1023_S32768x1023_1_0_0_1_n_n none l r) : (⟨S32768x256, .f32⟩ : BufTy).Contents (Elt F) → (⟨S256x1023, .f32⟩ : BufTy).Contents (Elt F) → (⟨S32768x1023, .f32⟩ : BufTy).Contents (Elt F)) (Vf V (Proc.devRef .tc main_v11)) (Vf V (Proc.devRef .tc main_v12)) := by
  have h := Ssa.ssa_binary writes_eq V 64 main_v11 main_v12 main_v13 _ _ _ _ rfl (by decide) (by decide) (by decide)
  exact h

set_option maxRecDepth 8192 in
theorem e_main_cst_49 (V : Valuation τ sig (Elt F)) :
    Vf V (Proc.devRef .tc main_cst_49) = ((constant S_ .f32 0x3F800000#32) : main_cst_49.ty.Contents (Elt F)) := by
  have h := Ssa.ssa_nullary writes_eq V 65 main_cst_49 _ _ rfl (by decide)
  exact h

set_option maxRecDepth 8192 in
theorem e_main_v14 (V : Valuation τ sig (Elt F)) :
    Vf V (Proc.devRef .tc main_v14) = (broadcastInDim S32768x1 ![] bcast_S_S32768x1 : (⟨S_, .f32⟩ : BufTy).Contents (Elt F) → (⟨S32768x1, .f32⟩ : BufTy).Contents (Elt F)) (Vf V (Proc.devRef .tc main_cst_49)) := by
  have h := Ssa.ssa_unary writes_eq V 66 main_cst_49 main_v14 _ _ _ rfl (by decide) (by decide)
  exact h

set_option maxRecDepth 8192 in
theorem e_main_c_50 (V : Valuation τ sig (Elt F)) :
    Vf V (Proc.devRef .tc main_c_50) = ((constantI S_ 32 1023#32) : main_c_50.ty.Contents (Elt F)) := by
  have h := Ssa.ssa_nullary writes_eq V 67 main_c_50 _ _ rfl (by decide)
  exact h

set_option maxRecDepth 8192 in
theorem e_main_v15 (V : Valuation τ sig (Elt F)) :
    Vf V (Proc.devRef .tc main_v15) = (broadcastInDim S2 ![] bcast_S_S2 : (⟨S_, .i32⟩ : BufTy).Contents (Elt F) → (⟨S2, .i32⟩ : BufTy).Contents (Elt F)) (Vf V (Proc.devRef .tc main_c_50)) := by
  have h := Ssa.ssa_unary writes_eq V 68 main_c_50 main_v15 _ _ _ rfl (by decide) (by decide)
  exact h

set_option maxRecDepth 8192 in
theorem e_main_v16 (V : Valuation τ sig (Elt F)) :
    Vf V (Proc.devRef .tc main_v16) = (addi : (⟨S2, .i32⟩ : BufTy).Contents (Elt F) → (⟨S2, .i32⟩ : BufTy).Contents (Elt F) → (⟨S2, .i32⟩ : BufTy).Contents (Elt F)) (Vf V (Proc.devRef .tc main_c)) (Vf V (Proc.devRef .tc main_v15)) := by
  have h := Ssa.ssa_binary writes_eq V 69 main_c main_v15 main_v16 _ _ _ _ rfl (by decide) (by decide) (by decide)
  exact h

set_option maxRecDepth 8192 in
theorem e_main_v17 (V : Valuation τ sig (Elt F)) :
    Vf V (Proc.devRef .tc main_v17) = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (Vf V (Proc.devRef .tc main_c_0)) (Vf V (Proc.devRef .tc main_v16)) (Vf V (Proc.devRef .tc main_c)) := by
  have h := Ssa.ssa_ternary writes_eq V 70 main_c_0 main_v16 main_c main_v17 _ _ _ _ _ rfl (by decide) (by decide) (by decide) (by decide)
  exact h

set_option maxRecDepth 8192 in
theorem e_main_v18 (V : Valuation τ sig (Elt F)) :
    Vf V (Proc.devRef .tc main_v18) = (broadcastInDim S2x1 ![0] bcast_S2_S2x1_0 : (⟨S2, .i32⟩ : BufTy).Contents (Elt F) → (⟨S2x1, .i32⟩ : BufTy).Contents (Elt F)) (Vf V (Proc.devRef .tc main_v17)) := by
  have h := Ssa.ssa_unary writes_eq V 71 main_v17 main_v18 _ _ _ rfl (by decide) (by decide)
  exact h

set_option maxRecDepth 8192 in
theorem e_main_v19 (V : Valuation τ sig (Elt F)) :
    Vf V (Proc.devRef .tc main_v19) = ((fun x i => Host.gather gather_S32768x1023_S2x1_S32768x2_0_1_n_n_1_1_327681 x i) : (⟨S32768x1023, .f32⟩ : BufTy).Contents (Elt F) → (⟨S2x1, .i32⟩ : BufTy).Contents (Elt F) → (⟨S32768x2, .f32⟩ : BufTy).Contents (Elt F)) (Vf V (Proc.devRef .tc main_v13)) (Vf V (Proc.devRef .tc main_v18)) := by
  have h := Ssa.ssa_binary writes_eq V 72 main_v13 main_v18 main_v19 _ _ _ _ rfl (by decide) (by decide) (by decide)
  exact h

set_option maxRecDepth 8192 in
theorem e_main_v20 (V : Valuation τ sig (Elt F)) :
    Vf V (Proc.devRef .tc main_v20) = (broadcastInDim S32768x2 ![0, 1] bcast_S1x2_S32768x2_0_1 : (⟨S1x2, .f32⟩ : BufTy).Contents (Elt F) → (⟨S32768x2, .f32⟩ : BufTy).Contents (Elt F)) (Vf V (Proc.devRef .tc main_v0)) := by
  have h := Ssa.ssa_unary writes_eq V 73 main_v0 main_v20 _ _ _ rfl (by decide) (by decide)
  exact h

set_option maxRecDepth 8192 in
theorem e_main_v21 (V : Valuation τ sig (Elt F)) :
    Vf V (Proc.devRef .tc main_v21) = (mulf : (⟨S32768x2, .f32⟩ : BufTy).Contents (Elt F) → (⟨S32768x2, .f32⟩ : BufTy).Contents (Elt F) → (⟨S32768x2, .f32⟩ : BufTy).Contents (Elt F)) (Vf V (Proc.devRef .tc main_v19)) (Vf V (Proc.devRef .tc main_v20)) := by
  have h := Ssa.ssa_binary writes_eq V 74 main_v19 main_v20 main_v21 _ _ _ _ rfl (by decide) (by decide) (by decide)
  exact h

set_option maxRecDepth 8192 in
theorem e_main_c_51 (V : Valuation τ sig (Elt F)) :
    Vf V (Proc.devRef .tc main_c_51) = ((constantI S_ 32 1#32) : main_c_51.ty.Contents (Elt F)) := by
  have h := Ssa.ssa_nullary writes_eq V 75 main_c_51 _ _ rfl (by decide)
  exact h

set_option maxRecDepth 8192 in
theorem e_main_v22 (V : Valuation τ sig (Elt F)) :
    Vf V (Proc.devRef .tc main_v22) = (broadcastInDim S2 ![] bcast_S_S2 : (⟨S_, .i32⟩ : BufTy).Contents (Elt F) → (⟨S2, .i32⟩ : BufTy).Contents (Elt F)) (Vf V (Proc.devRef .tc main_c_51)) := by
  have h := Ssa.ssa_unary writes_eq V 76 main_c_51 main_v22 _ _ _ rfl (by decide) (by decide)
  exact h

set_option maxRecDepth 8192 in
theorem e_main_v23 (V : Valuation τ sig (Elt F)) :
    Vf V (Proc.devRef .tc main_v23) = (addi : (⟨S2, .i32⟩ : BufTy).Contents (Elt F) → (⟨S2, .i32⟩ : BufTy).Contents (Elt F) → (⟨S2, .i32⟩ : BufTy).Contents (Elt F)) (Vf V (Proc.devRef .tc main_c_1)) (Vf V (Proc.devRef .tc main_v22)) := by
  have h := Ssa.ssa_binary writes_eq V 77 main_c_1 main_v22 main_v23 _ _ _ _ rfl (by decide) (by decide) (by decide)
  exact h

set_option maxRecDepth 8192 in
theorem e_main_v24 (V : Valuation τ sig (Elt F)) :
    Vf V (Proc.devRef .tc main_v24) = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (Vf V (Proc.devRef .tc main_c_2)) (Vf V (Proc.devRef .tc main_v23)) (Vf V (Proc.devRef .tc main_c_1)) := by
  have h := Ssa.ssa_ternary writes_eq V 78 main_c_2 main_v23 main_c_1 main_v24 _ _ _ _ _ rfl (by decide) (by decide) (by decide) (by decide)
  exact h

set_option maxRecDepth 8192 in
theorem e_main_v25 (V : Valuation τ sig (Elt F)) :
    Vf V (Proc.devRef .tc main_v25) = (broadcastInDim S2x1 ![0] bcast_S2_S2x1_0 : (⟨S2, .i32⟩ : BufTy).Contents (Elt F) → (⟨S2x1, .i32⟩ : BufTy).Contents (Elt F)) (Vf V (Proc.devRef .tc main_v24)) := by
  have h := Ssa.ssa_unary writes_eq V 79 main_v24 main_v25 _ _ _ rfl (by decide) (by decide)
  exact h

set_option maxRecDepth 8192 in
theorem e_main_v26 (V : Valuation τ sig (Elt F)) :
    Vf V (Proc.devRef .tc main_v26) = ((fun x i => Host.gather gather_S32768x1_S2x1_S32768x2_0_1_n_n_1_1_327681 x i) : (⟨S32768x1, .f32⟩ : BufTy).Contents (Elt F) → (⟨S2x1, .i32⟩ : BufTy).Contents (Elt F) → (⟨S32768x2, .f32⟩ : BufTy).Contents (Elt F)) (Vf V (Proc.devRef .tc main_v14)) (Vf V (Proc.devRef .tc main_v25)) := by
  have h := Ssa.ssa_binary writes_eq V 80 main_v14 main_v25 main_v26 _ _ _ _ rfl (by decide) (by decide) (by decide)
  exact h

set_option maxRecDepth 8192 in
theorem e_main_v27 (V : Valuation τ sig (Elt F)) :
    Vf V (Proc.devRef .tc main_v27) = (minimumf : (⟨S32768x2, .f32⟩ : BufTy).Contents (Elt F) → (⟨S32768x2, .f32⟩ : BufTy).Contents (Elt F) → (⟨S32768x2, .f32⟩ : BufTy).Contents (Elt F)) (Vf V (Proc.devRef .tc main_v26)) (Vf V (Proc.devRef .tc main_v21)) := by
  have h := Ssa.ssa_binary writes_eq V 81 main_v26 main_v21 main_v27 _ _ _ _ rfl (by decide) (by decide) (by decide)
  exact h

set_option maxRecDepth 8192 in
theorem e_main_c_52 (V : Valuation τ sig (Elt F)) :
    Vf V (Proc.devRef .tc main_c_52) = ((constantI S_ 32 1023#32) : main_c_52.ty.Contents (Elt F)) := by
  have h := Ssa.ssa_nullary writes_eq V 82 main_c_52 _ _ rfl (by decide)
  exact h

set_option maxRecDepth 8192 in
theorem e_main_v28 (V : Valuation τ sig (Elt F)) :
    Vf V (Proc.devRef .tc main_v28) = (broadcastInDim S4 ![] bcast_S_S4 : (⟨S_, .i32⟩ : BufTy).Contents (Elt F) → (⟨S4, .i32⟩ : BufTy).Contents (Elt F)) (Vf V (Proc.devRef .tc main_c_52)) := by
  have h := Ssa.ssa_unary writes_eq V 83 main_c_52 main_v28 _ _ _ rfl (by decide) (by decide)
  exact h

set_option maxRecDepth 8192 in
theorem e_main_v29 (V : Valuation τ sig (Elt F)) :
    Vf V (Proc.devRef .tc main_v29) = (addi : (⟨S4, .i32⟩ : BufTy).Contents (Elt F) → (⟨S4, .i32⟩ : BufTy).Contents (Elt F) → (⟨S4, .i32⟩ : BufTy).Contents (Elt F)) (Vf V (Proc.devRef .tc main_c_3)) (Vf V (Proc.devRef .tc main_v28)) := by
  have h := Ssa.ssa_binary writes_eq V 84 main_c_3 main_v28 main_v29 _ _ _ _ rfl (by decide) (by decide) (by decide)
  exact h

set_option maxRecDepth 8192 in
theorem e_main_v30 (V : Valuation τ sig (Elt F)) :
    Vf V (Proc.devRef .tc main_v30) = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (Vf V (Proc.devRef .tc main_c_4)) (Vf V (Proc.devRef .tc main_v29)) (Vf V (Proc.devRef .tc main_c_3)) := by
  have h := Ssa.ssa_ternary writes_eq V 85 main_c_4 main_v29 main_c_3 main_v30 _ _ _ _ _ rfl (by decide) (by decide) (by decide) (by decide)
  exact h

set_option maxRecDepth 8192 in
theorem e_main_v31 (V : Valuation τ sig (Elt F)) :
    Vf V (Proc.devRef .tc main_v31) = (broadcastInDim S4x1 ![0] bcast_S4_S4x1_0 : (⟨S4, .i32⟩ : BufTy).Contents (Elt F) → (⟨S4x1, .i32⟩ : BufTy).Contents (Elt F)) (Vf V (Proc.devRef .tc main_v30)) := by
  have h := Ssa.ssa_unary writes_eq V 86 main_v30 main_v31 _ _ _ rfl (by decide) (by decide)
  exact h

set_option maxRecDepth 8192 in
theorem e_main_v32 (V : Valuation τ sig (Elt F)) :
    Vf V (Proc.devRef .tc main_v32) = ((fun x i => Host.gather gather_S32768x1023_S4x1_S32768x4_0_1_n_n_1_1_327681 x i) : (⟨S32768x1023, .f32⟩ : BufTy).Contents (Elt F) → (⟨S4x1, .i32⟩ : BufTy).Contents (Elt F) → (⟨S32768x4, .f32⟩ : BufTy).Contents (Elt F)) (Vf V (Proc.devRef .tc main_v13)) (Vf V (Proc.devRef .tc main_v31)) := by
  have h := Ssa.ssa_binary writes_eq V 87 main_v13 main_v31 main_v32 _ _ _ _ rfl (by decide) (by decide) (by decide)
  exact h

set_option maxRecDepth 8192 in
theorem e_main_v33 (V : Valuation τ sig (Elt F)) :
    Vf V (Proc.devRef .tc main_v33) = (broadcastInDim S32768x4 ![0, 1] bcast_S1x4_S32768x4_0_1 : (⟨S1x4, .f32⟩ : BufTy).Contents (Elt F) → (⟨S32768x4, .f32⟩ : BufTy).Contents (Elt F)) (Vf V (Proc.devRef .tc main_v1)) := by
  have h := Ssa.ssa_unary writes_eq V 88 main_v1 main_v33 _ _ _ rfl (by decide) (by decide)
  exact h

set_option maxRecDepth 8192 in
theorem e_main_v34 (V : Valuation τ sig (Elt F)) :
    Vf V (Proc.devRef .tc main_v34) = (mulf : (⟨S32768x4, .f32⟩ : BufTy).Contents (Elt F) → (⟨S32768x4, .f32⟩ : BufTy).Contents (Elt F) → (⟨S32768x4, .f32⟩ : BufTy).Contents (Elt F)) (Vf V (Proc.devRef .tc main_v32)) (Vf V (Proc.devRef .tc main_v33)) := by
  have h := Ssa.ssa_binary writes_eq V 89 main_v32 main_v33 main_v34 _ _ _ _ rfl (by decide) (by decide) (by decide)
  exact h

set_option maxRecDepth 8192 in
theorem e_main_c_53 (V : Valuation τ sig (Elt F)) :
    Vf V (Proc.devRef .tc main_c_53) = ((constantI S_ 32 2#32) : main_c_53.ty.Contents (Elt F)) := by
  have h := Ssa.ssa_nullary writes_eq V 90 main_c_53 _ _ rfl (by decide)
  exact h

set_option maxRecDepth 8192 in
theorem e_main_v35 (V : Valuation τ sig (Elt F)) :
    Vf V (Proc.devRef .tc main_v35) = (broadcastInDim S4 ![] bcast_S_S4 : (⟨S_, .i32⟩ : BufTy).Contents (Elt F) → (⟨S4, .i32⟩ : BufTy).Contents (Elt F)) (Vf V (Proc.devRef .tc main_c_53)) := by
  have h := Ssa.ssa_unary writes_eq V 91 main_c_53 main_v35 _ _ _ rfl (by decide) (by decide)
  exact h

set_option maxRecDepth 8192 in
theorem e_main_v36 (V : Valuation τ sig (Elt F)) :
    Vf V (Proc.devRef .tc main_v36) = (addi : (⟨S4, .i32⟩ : BufTy).Contents (Elt F) → (⟨S4, .i32⟩ : BufTy).Contents (Elt F) → (⟨S4, .i32⟩ : BufTy).Contents (Elt F)) (Vf V (Proc.devRef .tc main_c_6)) (Vf V (Proc.devRef .tc main_v35)) := by
  have h := Ssa.ssa_binary writes_eq V 92 main_c_6 main_v35 main_v36 _ _ _ _ rfl (by decide) (by decide) (by decide)
  exact h

set_option maxRecDepth 8192 in
theorem e_main_v37 (V : Valuation τ sig (Elt F)) :
    Vf V (Proc.devRef .tc main_v37) = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (Vf V (Proc.devRef .tc main_c_7)) (Vf V (Proc.devRef .tc main_v36)) (Vf V (Proc.devRef .tc main_c_6)) := by
  have h := Ssa.ssa_ternary writes_eq V 93 main_c_7 main_v36 main_c_6 main_v37 _ _ _ _ _ rfl (by decide) (by decide) (by decide) (by decide)
  exact h

set_option maxRecDepth 8192 in
theorem e_main_v38 (V : Valuation τ sig (Elt F)) :
    Vf V (Proc.devRef .tc main_v38) = (broadcastInDim S4x1 ![0] bcast_S4_S4x1_0 : (⟨S4, .i32⟩ : BufTy).Contents (Elt F) → (⟨S4x1, .i32⟩ : BufTy).Contents (Elt F)) (Vf V (Proc.devRef .tc main_v37)) := by
  have h := Ssa.ssa_unary writes_eq V 94 main_v37 main_v38 _ _ _ rfl (by decide) (by decide)
  exact h

set_option maxRecDepth 8192 in
theorem e_main_v39 (V : Valuation τ sig (Elt F)) :
    Vf V (Proc.devRef .tc main_v39) = ((fun x i => Host.gather gather_S32768x2_S4x1_S32768x4_0_1_n_n_1_1_327681 x i) : (⟨S32768x2, .f32⟩ : BufTy).Contents (Elt F) → (⟨S4x1, .i32⟩ : BufTy).Contents (Elt F) → (⟨S32768x4, .f32⟩ : BufTy).Contents (Elt F)) (Vf V (Proc.devRef .tc main_v27)) (Vf V (Proc.devRef .tc main_v38)) := by
  have h := Ssa.ssa_binary writes_eq V 95 main_v27 main_v38 main_v39 _ _ _ _ rfl (by decide) (by decide) (by decide)
  exact h

set_option maxRecDepth 8192 in
theorem e_main_v40 (V : Valuation τ sig (Elt F)) :
    Vf V (Proc.devRef .tc main_v40) = (minimumf : (⟨S32768x4, .f32⟩ : BufTy).Contents (Elt F) → (⟨S32768x4, .f32⟩ : BufTy).Contents (Elt F) → (⟨S32768x4, .f32⟩ : BufTy).Contents (Elt F)) (Vf V (Proc.devRef .tc main_v39)) (Vf V (Proc.devRef .tc main_v34)) := by
  have h := Ssa.ssa_binary writes_eq V 96 main_v39 main_v34 main_v40 _ _ _ _ rfl (by decide) (by decide) (by decide)
  exact h

set_option maxRecDepth 8192 in
theorem e_main_c_54 (V : Valuation τ sig (Elt F)) :
    Vf V (Proc.devRef .tc main_c_54) = ((constantI S_ 32 1023#32) : main_c_54.ty.Contents (Elt F)) := by
  have h := Ssa.ssa_nullary writes_eq V 97 main_c_54 _ _ rfl (by decide)
  exact h

set_option maxRecDepth 8192 in
theorem e_main_v41 (V : Valuation τ sig (Elt F)) :
    Vf V (Proc.devRef .tc main_v41) = (broadcastInDim S8 ![] bcast_S_S8 : (⟨S_, .i32⟩ : BufTy).Contents (Elt F) → (⟨S8, .i32⟩ : BufTy).Contents (Elt F)) (Vf V (Proc.devRef .tc main_c_54)) := by
  have h := Ssa.ssa_unary writes_eq V 98 main_c_54 main_v41 _ _ _ rfl (by decide) (by decide)
  exact h

set_option maxRecDepth 8192 in
theorem e_main_v42 (V : Valuation τ sig (Elt F)) :
    Vf V (Proc.devRef .tc main_v42) = (addi : (⟨S8, .i32⟩ : BufTy).Contents (Elt F) → (⟨S8, .i32⟩ : BufTy).Contents (Elt F) → (⟨S8, .i32⟩ : BufTy).Contents (Elt F)) (Vf V (Proc.devRef .tc main_c_8)) (Vf V (Proc.devRef .tc main_v41)) := by
  have h := Ssa.ssa_binary writes_eq V 99 main_c_8 main_v41 main_v42 _ _ _ _ rfl (by decide) (by decide) (by decide)
  exact h

set_option maxRecDepth 8192 in
theorem e_main_v43 (V : Valuation τ sig (Elt F)) :
    Vf V (Proc.devRef .tc main_v43) = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (Vf V (Proc.devRef .tc main_c_9)) (Vf V (Proc.devRef .tc main_v42)) (Vf V (Proc.devRef .tc main_c_8)) := by
  have h := Ssa.ssa_ternary writes_eq V 100 main_c_9 main_v42 main_c_8 main_v43 _ _ _ _ _ rfl (by decide) (by decide) (by decide) (by decide)
  exact h

set_option maxRecDepth 8192 in
theorem e_main_v44 (V : Valuation τ sig (Elt F)) :
    Vf V (Proc.devRef .tc main_v44) = (broadcastInDim S8x1 ![0] bcast_S8_S8x1_0 : (⟨S8, .i32⟩ : BufTy).Contents (Elt F) → (⟨S8x1, .i32⟩ : BufTy).Contents (Elt F)) (Vf V (Proc.devRef .tc main_v43)) := by
  have h := Ssa.ssa_unary writes_eq V 101 main_v43 main_v44 _ _ _ rfl (by decide) (by decide)
  exact h

set_option maxRecDepth 8192 in
theorem e_main_v45 (V : Valuation τ sig (Elt F)) :
    Vf V (Proc.devRef .tc main_v45) = ((fun x i => Host.gather gather_S32768x1023_S8x1_S32768x8_0_1_n_n_1_1_327681 x i) : (⟨S32768x1023, .f32⟩ : BufTy).Contents (Elt F) → (⟨S8x1, .i32⟩ : BufTy).Contents (Elt F) → (⟨S32768x8, .f32⟩ : BufTy).Contents (Elt F)) (Vf V (Proc.devRef .tc main_v13)) (Vf V (Proc.devRef .tc main_v44)) := by
  have h := Ssa.ssa_binary writes_eq V 102 main_v13 main_v44 main_v45 _ _ _ _ rfl (by decide) (by decide) (by decide)
  exact h

set_option maxRecDepth 8192 in
theorem e_main_v46 (V : Valuation τ sig (Elt F)) :
    Vf V (Proc.devRef .tc main_v46) = (broadcastInDim S32768x8 ![0, 1] bcast_S1x8_S32768x8_0_1 : (⟨S1x8, .f32⟩ : BufTy).Contents (Elt F) → (⟨S32768x8, .f32⟩ : BufTy).Contents (Elt F)) (Vf V (Proc.devRef .tc main_v2)) := by
  have h := Ssa.ssa_unary writes_eq V 103 main_v2 main_v46 _ _ _ rfl (by decide) (by decide)
  exact h

set_option maxRecDepth 8192 in
theorem e_main_v47 (V : Valuation τ sig (Elt F)) :
    Vf V (Proc.devRef .tc main_v47) = (mulf : (⟨S32768x8, .f32⟩ : BufTy).Contents (Elt F) → (⟨S32768x8, .f32⟩ : BufTy).Contents (Elt F) → (⟨S32768x8, .f32⟩ : BufTy).Contents (Elt F)) (Vf V (Proc.devRef .tc main_v45)) (Vf V (Proc.devRef .tc main_v46)) := by
  have h := Ssa.ssa_binary writes_eq V 104 main_v45 main_v46 main_v47 _ _ _ _ rfl (by decide) (by decide) (by decide)
  exact h

set_option maxRecDepth 8192 in
theorem e_main_c_55 (V : Valuation τ sig (Elt F)) :
    Vf V (Proc.devRef .tc main_c_55) = ((constantI S_ 32 4#32) : main_c_55.ty.Contents (Elt F)) := by
  have h := Ssa.ssa_nullary writes_eq V 105 main_c_55 _ _ rfl (by decide)
  exact h

set_option maxRecDepth 8192 in
theorem e_main_v48 (V : Valuation τ sig (Elt F)) :
    Vf V (Proc.devRef .tc main_v48) = (broadcastInDim S8 ![] bcast_S_S8 : (⟨S_, .i32⟩ : BufTy).Contents (Elt F) → (⟨S8, .i32⟩ : BufTy).Contents (Elt F)) (Vf V (Proc.devRef .tc main_c_55)) := by
  have h := Ssa.ssa_unary writes_eq V 106 main_c_55 main_v48 _ _ _ rfl (by decide) (by decide)
  exact h

set_option maxRecDepth 8192 in
theorem e_main_v49 (V : Valuation τ sig (Elt F)) :
    Vf V (Proc.devRef .tc main_v49) = (addi : (⟨S8, .i32⟩ : BufTy).Contents (Elt F) → (⟨S8, .i32⟩ : BufTy).Contents (Elt F) → (⟨S8, .i32⟩ : BufTy).Contents (Elt F)) (Vf V (Proc.devRef .tc main_c_11)) (Vf V (Proc.devRef .tc main_v48)) := by
  have h := Ssa.ssa_binary writes_eq V 107 main_c_11 main_v48 main_v49 _ _ _ _ rfl (by decide) (by decide) (by decide)
  exact h

set_option maxRecDepth 8192 in
theorem e_main_v50 (V : Valuation τ sig (Elt F)) :
    Vf V (Proc.devRef .tc main_v50) = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (Vf V (Proc.devRef .tc main_c_12)) (Vf V (Proc.devRef .tc main_v49)) (Vf V (Proc.devRef .tc main_c_11)) := by
  have h := Ssa.ssa_ternary writes_eq V 108 main_c_12 main_v49 main_c_11 main_v50 _ _ _ _ _ rfl (by decide) (by decide) (by decide) (by decide)
  exact h

set_option maxRecDepth 8192 in
theorem e_main_v51 (V : Valuation τ sig (Elt F)) :
    Vf V (Proc.devRef .tc main_v51) = (broadcastInDim S8x1 ![0] bcast_S8_S8x1_0 : (⟨S8, .i32⟩ : BufTy).Contents (Elt F) → (⟨S8x1, .i32⟩ : BufTy).Contents (Elt F)) (Vf V (Proc.devRef .tc main_v50)) := by
  have h := Ssa.ssa_unary writes_eq V 109 main_v50 main_v51 _ _ _ rfl (by decide) (by decide)
  exact h

set_option maxRecDepth 8192 in
theorem e_main_v52 (V : Valuation τ sig (Elt F)) :
    Vf V (Proc.devRef .tc main_v52) = ((fun x i => Host.gather gather_S32768x4_S8x1_S32768x8_0_1_n_n_1_1_327681 x i) : (⟨S32768x4, .f32⟩ : BufTy).Contents (Elt F) → (⟨S8x1, .i32⟩ : BufTy).Contents (Elt F) → (⟨S32768x8, .f32⟩ : BufTy).Contents (Elt F)) (Vf V (Proc.devRef .tc main_v40)) (Vf V (Proc.devRef .tc main_v51)) := by
  have h := Ssa.ssa_binary writes_eq V 110 main_v40 main_v51 main_v52 _ _ _ _ rfl (by decide) (by decide) (by decide)
  exact h

set_option maxRecDepth 8192 in
theorem e_main_v53 (V : Valuation τ sig (Elt F)) :
    Vf V (Proc.devRef .tc main_v53) = (minimumf : (⟨S32768x8, .f32⟩ : BufTy).Contents (Elt F) → (⟨S32768x8, .f32⟩ : BufTy).Contents (Elt F) → (⟨S32768x8, .f32⟩ : BufTy).Contents (Elt F)) (Vf V (Proc.devRef .tc main_v52)) (Vf V (Proc.devRef .tc main_v47)) := by
  have h := Ssa.ssa_binary writes_eq V 111 main_v52 main_v47 main_v53 _ _ _ _ rfl (by decide) (by decide) (by decide)
  exact h

set_option maxRecDepth 8192 in
theorem e_main_c_56 (V : Valuation τ sig (Elt F)) :
    Vf V (Proc.devRef .tc main_c_56) = ((constantI S_ 32 1023#32) : main_c_56.ty.Contents (Elt F)) := by
  have h := Ssa.ssa_nullary writes_eq V 112 main_c_56 _ _ rfl (by decide)
  exact h

set_option maxRecDepth 8192 in
theorem e_main_v54 (V : Valuation τ sig (Elt F)) :
    Vf V (Proc.devRef .tc main_v54) = (broadcastInDim S16 ![] bcast_S_S16 : (⟨S_, .i32⟩ : BufTy).Contents (Elt F) → (⟨S16, .i32⟩ : BufTy).Contents (Elt F)) (Vf V (Proc.devRef .tc main_c_56)) := by
  have h := Ssa.ssa_unary writes_eq V 113 main_c_56 main_v54 _ _ _ rfl (by decide) (by decide)
  exact h

set_option maxRecDepth 8192 in
theorem e_main_v55 (V : Valuation τ sig (Elt F)) :
    Vf V (Proc.devRef .tc main_v55) = (addi : (⟨S16, .i32⟩ : BufTy).Contents (Elt F) → (⟨S16, .i32⟩ : BufTy).Contents (Elt F) → (⟨S16, .i32⟩ : BufTy).Contents (Elt F)) (Vf V (Proc.devRef .tc main_c_13)) (Vf V (Proc.devRef .tc main_v54)) := by
  have h := Ssa.ssa_binary writes_eq V 114 main_c_13 main_v54 main_v55 _ _ _ _ rfl (by decide) (by decide) (by decide)
  exact h

set_option maxRecDepth 8192 in
theorem e_main_v56 (V : Valuation τ sig (Elt F)) :
    Vf V (Proc.devRef .tc main_v56) = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (Vf V (Proc.devRef .tc main_c_14)) (Vf V (Proc.devRef .tc main_v55)) (Vf V (Proc.devRef .tc main_c_13)) := by
  have h := Ssa.ssa_ternary writes_eq V 115 main_c_14 main_v55 main_c_13 main_v56 _ _ _ _ _ rfl (by decide) (by decide) (by decide) (by decide)
  exact h

set_option maxRecDepth 8192 in
theorem e_main_v57 (V : Valuation τ sig (Elt F)) :
    Vf V (Proc.devRef .tc main_v57) = (broadcastInDim S16x1 ![0] bcast_S16_S16x1_0 : (⟨S16, .i32⟩ : BufTy).Contents (Elt F) → (⟨S16x1, .i32⟩ : BufTy).Contents (Elt F)) (Vf V (Proc.devRef .tc main_v56)) := by
  have h := Ssa.ssa_unary writes_eq V 116 main_v56 main_v57 _ _ _ rfl (by decide) (by decide)
  exact h

set_option maxRecDepth 8192 in
theorem e_main_v58 (V : Valuation τ sig (Elt F)) :
    Vf V (Proc.devRef .tc main_v58) = ((fun x i => Host.gather gather_S32768x1023_S16x1_S32768x16_0_1_n_n_1_1_327681 x i) : (⟨S32768x1023, .f32⟩ : BufTy).Contents (Elt F) → (⟨S16x1, .i32⟩ : BufTy).Contents (Elt F) → (⟨S32768x16, .f32⟩ : BufTy).Contents (Elt F)) (Vf V (Proc.devRef .tc main_v13)) (Vf V (Proc.devRef .tc main_v57)) := by
  have h := Ssa.ssa_binary writes_eq V 117 main_v13 main_v57 main_v58 _ _ _ _ rfl (by decide) (by decide) (by decide)
  exact h

set_option maxRecDepth 8192 in
theorem e_main_v59 (V : Valuation τ sig (Elt F)) :
    Vf V (Proc.devRef .tc main_v59) = (broadcastInDim S32768x16 ![0, 1] bcast_S1x16_S32768x16_0_1 : (⟨S1x16, .f32⟩ : BufTy).Contents (Elt F) → (⟨S32768x16, .f32⟩ : BufTy).Contents (Elt F)) (Vf V (Proc.devRef .tc main_v3)) := by
  have h := Ssa.ssa_unary writes_eq V 118 main_v3 main_v59 _ _ _ rfl (by decide) (by decide)
  exact h

set_option maxRecDepth 8192 in
theorem e_main_v60 (V : Valuation τ sig (Elt F)) :
    Vf V (Proc.devRef .tc main_v60) = (mulf : (⟨S32768x16, .f32⟩ : BufTy).Contents (Elt F) → (⟨S32768x16, .f32⟩ : BufTy).Contents (Elt F) → (⟨S32768x16, .f32⟩ : BufTy).Contents (Elt F)) (Vf V (Proc.devRef .tc main_v58)) (Vf V (Proc.devRef .tc main_v59)) := by
  have h := Ssa.ssa_binary writes_eq V 119 main_v58 main_v59 main_v60 _ _ _ _ rfl (by decide) (by decide) (by decide)
  exact h

set_option maxRecDepth 8192 in
theorem e_main_c_57 (V : Valuation τ sig (Elt F)) :
    Vf V (Proc.devRef .tc main_c_57) = ((constantI S_ 32 8#32) : main_c_57.ty.Contents (Elt F)) := by
  have h := Ssa.ssa_nullary writes_eq V 120 main_c_57 _ _ rfl (by decide)
  exact h

set_option maxRecDepth 8192 in
theorem e_main_v61 (V : Valuation τ sig (Elt F)) :
    Vf V (Proc.devRef .tc main_v61) = (broadcastInDim S16 ![] bcast_S_S16 : (⟨S_, .i32⟩ : BufTy).Contents (Elt F) → (⟨S16, .i32⟩ : BufTy).Contents (Elt F)) (Vf V (Proc.devRef .tc main_c_57)) := by
  have h := Ssa.ssa_unary writes_eq V 121 main_c_57 main_v61 _ _ _ rfl (by decide) (by decide)
  exact h

set_option maxRecDepth 8192 in
theorem e_main_v62 (V : Valuation τ sig (Elt F)) :
    Vf V (Proc.devRef .tc main_v62) = (addi : (⟨S16, .i32⟩ : BufTy).Contents (Elt F) → (⟨S16, .i32⟩ : BufTy).Contents (Elt F) → (⟨S16, .i32⟩ : BufTy).Contents (Elt F)) (Vf V (Proc.devRef .tc main_c_16)) (Vf V (Proc.devRef .tc main_v61)) := by
  have h := Ssa.ssa_binary writes_eq V 122 main_c_16 main_v61 main_v62 _ _ _ _ rfl (by decide) (by decide) (by decide)
  exact h

set_option maxRecDepth 8192 in
theorem e_main_v63 (V : Valuation τ sig (Elt F)) :
    Vf V (Proc.devRef .tc main_v63) = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (Vf V (Proc.devRef .tc main_c_17)) (Vf V (Proc.devRef .tc main_v62)) (Vf V (Proc.devRef .tc main_c_16)) := by
  have h := Ssa.ssa_ternary writes_eq V 123 main_c_17 main_v62 main_c_16 main_v63 _ _ _ _ _ rfl (by decide) (by decide) (by decide) (by decide)
  exact h

set_option maxRecDepth 8192 in
theorem e_main_v64 (V : Valuation τ sig (Elt F)) :
    Vf V (Proc.devRef .tc main_v64) = (broadcastInDim S16x1 ![0] bcast_S16_S16x1_0 : (⟨S16, .i32⟩ : BufTy).Contents (Elt F) → (⟨S16x1, .i32⟩ : BufTy).Contents (Elt F)) (Vf V (Proc.devRef .tc main_v63)) := by
  have h := Ssa.ssa_unary writes_eq V 124 main_v63 main_v64 _ _ _ rfl (by decide) (by decide)
  exact h

set_option maxRecDepth 8192 in
theorem e_main_v65 (V : Valuation τ sig (Elt F)) :
    Vf V (Proc.devRef .tc main_v65) = ((fun x i => Host.gather gather_S32768x8_S16x1_S32768x16_0_1_n_n_1_1_327681 x i) : (⟨S32768x8, .f32⟩ : BufTy).Contents (Elt F) → (⟨S16x1, .i32⟩ : BufTy).Contents (Elt F) → (⟨S32768x16, .f32⟩ : BufTy).Contents (Elt F)) (Vf V (Proc.devRef .tc main_v53)) (Vf V (Proc.devRef .tc main_v64)) := by
  have h := Ssa.ssa_binary writes_eq V 125 main_v53 main_v64 main_v65 _ _ _ _ rfl (by decide) (by decide) (by decide)
  exact h

set_option maxRecDepth 8192 in
theorem e_main_v66 (V : Valuation τ sig (Elt F)) :
    Vf V (Proc.devRef .tc main_v66) = (minimumf : (⟨S32768x16, .f32⟩ : BufTy).Contents (Elt F) → (⟨S32768x16, .f32⟩ : BufTy).Contents (Elt F) → (⟨S32768x16, .f32⟩ : BufTy).Contents (Elt F)) (Vf V (Proc.devRef .tc main_v65)) (Vf V (Proc.devRef .tc main_v60)) := by
  have h := Ssa.ssa_binary writes_eq V 126 main_v65 main_v60 main_v66 _ _ _ _ rfl (by decide) (by decide) (by decide)
  exact h

set_option maxRecDepth 8192 in
theorem e_main_c_58 (V : Valuation τ sig (Elt F)) :
    Vf V (Proc.devRef .tc main_c_58) = ((constantI S_ 32 1023#32) : main_c_58.ty.Contents (Elt F)) := by
  have h := Ssa.ssa_nullary writes_eq V 127 main_c_58 _ _ rfl (by decide)
  exact h

set_option maxRecDepth 8192 in
theorem e_main_v67 (V : Valuation τ sig (Elt F)) :
    Vf V (Proc.devRef .tc main_v67) = (broadcastInDim S32 ![] bcast_S_S32 : (⟨S_, .i32⟩ : BufTy).Contents (Elt F) → (⟨S32, .i32⟩ : BufTy).Contents (Elt F)) (Vf V (Proc.devRef .tc main_c_58)) := by
  have h := Ssa.ssa_unary writes_eq V 128 main_c_58 main_v67 _ _ _ rfl (by decide) (by decide)
  exact h

set_option maxRecDepth 8192 in
theorem e_main_v68 (V : Valuation τ sig (Elt F)) :
    Vf V (Proc.devRef .tc main_v68) = (addi : (⟨S32, .i32⟩ : BufTy).Contents (Elt F) → (⟨S32, .i32⟩ : BufTy).Contents (Elt F) → (⟨S32, .i32⟩ : BufTy).Contents (Elt F)) (Vf V (Proc.devRef .tc main_c_18)) (Vf V (Proc.devRef .tc main_v67)) := by
  have h := Ssa.ssa_binary writes_eq V 129 main_c_18 main_v67 main_v68 _ _ _ _ rfl (by decide) (by decide) (by decide)
  exact h

set_option maxRecDepth 8192 in
theorem e_main_v69 (V : Valuation τ sig (Elt F)) :
    Vf V (Proc.devRef .tc main_v69) = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (Vf V (Proc.devRef .tc main_c_19)) (Vf V (Proc.devRef .tc main_v68)) (Vf V (Proc.devRef .tc main_c_18)) := by
  have h := Ssa.ssa_ternary writes_eq V 130 main_c_19 main_v68 main_c_18 main_v69 _ _ _ _ _ rfl (by decide) (by decide) (by decide) (by decide)
  exact h

set_option maxRecDepth 8192 in
theorem e_main_v70 (V : Valuation τ sig (Elt F)) :
    Vf V (Proc.devRef .tc main_v70) = (broadcastInDim S32x1 ![0] bcast_S32_S32x1_0 : (⟨S32, .i32⟩ : BufTy).Contents (Elt F) → (⟨S32x1, .i32⟩ : BufTy).Contents (Elt F)) (Vf V (Proc.devRef .tc main_v69)) := by
  have h := Ssa.ssa_unary writes_eq V 131 main_v69 main_v70 _ _ _ rfl (by decide) (by decide)
  exact h

set_option maxRecDepth 8192 in
theorem e_main_v71 (V : Valuation τ sig (Elt F)) :
    Vf V (Proc.devRef .tc main_v71) = ((fun x i => Host.gather gather_S32768x1023_S32x1_S32768x32_0_1_n_n_1_1_327681 x i) : (⟨S32768x1023, .f32⟩ : BufTy).Contents (Elt F) → (⟨S32x1, .i32⟩ : BufTy).Contents (Elt F) → (⟨S32768x32, .f32⟩ : BufTy).Contents (Elt F)) (Vf V (Proc.devRef .tc main_v13)) (Vf V (Proc.devRef .tc main_v70)) := by
  have h := Ssa.ssa_binary writes_eq V 132 main_v13 main_v70 main_v71 _ _ _ _ rfl (by decide) (by decide) (by decide)
  exact h

set_option maxRecDepth 8192 in
theorem e_main_v72 (V : Valuation τ sig (Elt F)) :
    Vf V (Proc.devRef .tc main_v72) = (broadcastInDim S32768x32 ![0, 1] bcast_S1x32_S32768x32_0_1 : (⟨S1x32, .f32⟩ : BufTy).Contents (Elt F) → (⟨S32768x32, .f32⟩ : BufTy).Contents (Elt F)) (Vf V (Proc.devRef .tc main_v4)) := by
  have h := Ssa.ssa_unary writes_eq V 133 main_v4 main_v72 _ _ _ rfl (by decide) (by decide)
  exact h

set_option maxRecDepth 8192 in
theorem e_main_v73 (V : Valuation τ sig (Elt F)) :
    Vf V (Proc.devRef .tc main_v73) = (mulf : (⟨S32768x32, .f32⟩ : BufTy).Contents (Elt F) → (⟨S32768x32, .f32⟩ : BufTy).Contents (Elt F) → (⟨S32768x32, .f32⟩ : BufTy).Contents (Elt F)) (Vf V (Proc.devRef .tc main_v71)) (Vf V (Proc.devRef .tc main_v72)) := by
  have h := Ssa.ssa_binary writes_eq V 134 main_v71 main_v72 main_v73 _ _ _ _ rfl (by decide) (by decide) (by decide)
  exact h

set_option maxRecDepth 8192 in
theorem e_main_c_59 (V : Valuation τ sig (Elt F)) :
    Vf V (Proc.devRef .tc main_c_59) = ((constantI S_ 32 16#32) : main_c_59.ty.Contents (Elt F)) := by
  have h := Ssa.ssa_nullary writes_eq V 135 main_c_59 _ _ rfl (by decide)
  exact h

set_option maxRecDepth 8192 in
theorem e_main_v74 (V : Valuation τ sig (Elt F)) :
    Vf V (Proc.devRef .tc main_v74) = (broadcastInDim S32 ![] bcast_S_S32 : (⟨S_, .i32⟩ : BufTy).Contents (Elt F) → (⟨S32, .i32⟩ : BufTy).Contents (Elt F)) (Vf V (Proc.devRef .tc main_c_59)) := by
  have h := Ssa.ssa_unary writes_eq V 136 main_c_59 main_v74 _ _ _ rfl (by decide) (by decide)
  exact h

set_option maxRecDepth 8192 in
theorem e_main_v75 (V : Valuation τ sig (Elt F)) :
    Vf V (Proc.devRef .tc main_v75) = (addi : (⟨S32, .i32⟩ : BufTy).Contents (Elt F) → (⟨S32, .i32⟩ : BufTy).Contents (Elt F) → (⟨S32, .i32⟩ : BufTy).Contents (Elt F)) (Vf V (Proc.devRef .tc main_c_21)) (Vf V (Proc.devRef .tc main_v74)) := by
  have h := Ssa.ssa_binary writes_eq V 137 main_c_21 main_v74 main_v75 _ _ _ _ rfl (by decide) (by decide) (by decide)
  exact h

set_option maxRecDepth 8192 in
theorem e_main_v76 (V : Valuation τ sig (Elt F)) :
    Vf V (Proc.devRef .tc main_v76) = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (Vf V (Proc.devRef .tc main_c_22)) (Vf V (Proc.devRef .tc main_v75)) (Vf V (Proc.devRef .tc main_c_21)) := by
  have h := Ssa.ssa_ternary writes_eq V 138 main_c_22 main_v75 main_c_21 main_v76 _ _ _ _ _ rfl (by decide) (by decide) (by decide) (by decide)
  exact h

set_option maxRecDepth 8192 in
theorem e_main_v77 (V : Valuation τ sig (Elt F)) :
    Vf V (Proc.devRef .tc main_v77) = (broadcastInDim S32x1 ![0] bcast_S32_S32x1_0 : (⟨S32, .i32⟩ : BufTy).Contents (Elt F) → (⟨S32x1, .i32⟩ : BufTy).Contents (Elt F)) (Vf V (Proc.devRef .tc main_v76)) := by
  have h := Ssa.ssa_unary writes_eq V 139 main_v76 main_v77 _ _ _ rfl (by decide) (by decide)
  exact h

set_option maxRecDepth 8192 in
theorem e_main_v78 (V : Valuation τ sig (Elt F)) :
    Vf V (Proc.devRef .tc main_v78) = ((fun x i => Host.gather gather_S32768x16_S32x1_S32768x32_0_1_n_n_1_1_327681 x i) : (⟨S32768x16, .f32⟩ : BufTy).Contents (Elt F) → (⟨S32x1, .i32⟩ : BufTy).Contents (Elt F) → (⟨S32768x32, .f32⟩ : BufTy).Contents (Elt F)) (Vf V (Proc.devRef .tc main_v66)) (Vf V (Proc.devRef .tc main_v77)) := by
  have h := Ssa.ssa_binary writes_eq V 140 main_v66 main_v77 main_v78 _ _ _ _ rfl (by decide) (by decide) (by decide)
  exact h

set_option maxRecDepth 8192 in
theorem e_main_v79 (V : Valuation τ sig (Elt F)) :
    Vf V (Proc.devRef .tc main_v79) = (minimumf : (⟨S32768x32, .f32⟩ : BufTy).Contents (Elt F) → (⟨S32768x32, .f32⟩ : BufTy).Contents (Elt F) → (⟨S32768x32, .f32⟩ : BufTy).Contents (Elt F)) (Vf V (Proc.devRef .tc main_v78)) (Vf V (Proc.devRef .tc main_v73)) := by
  have h := Ssa.ssa_binary writes_eq V 141 main_v78 main_v73 main_v79 _ _ _ _ rfl (by decide) (by decide) (by decide)
  exact h

set_option maxRecDepth 8192 in
theorem e_main_c_60 (V : Valuation τ sig (Elt F)) :
    Vf V (Proc.devRef .tc main_c_60) = ((constantI S_ 32 1023#32) : main_c_60.ty.Contents (Elt F)) := by
  have h := Ssa.ssa_nullary writes_eq V 142 main_c_60 _ _ rfl (by decide)
  exact h

set_option maxRecDepth 8192 in
theorem e_main_v80 (V : Valuation τ sig (Elt F)) :
    Vf V (Proc.devRef .tc main_v80) = (broadcastInDim S64 ![] bcast_S_S64 : (⟨S_, .i32⟩ : BufTy).Contents (Elt F) → (⟨S64, .i32⟩ : BufTy).Contents (Elt F)) (Vf V (Proc.devRef .tc main_c_60)) := by
  have h := Ssa.ssa_unary writes_eq V 143 main_c_60 main_v80 _ _ _ rfl (by decide) (by decide)
  exact h

set_option maxRecDepth 8192 in
theorem e_main_v81 (V : Valuation τ sig (Elt F)) :
    Vf V (Proc.devRef .tc main_v81) = (addi : (⟨S64, .i32⟩ : BufTy).Contents (Elt F) → (⟨S64, .i32⟩ : BufTy).Contents (Elt F) → (⟨S64, .i32⟩ : BufTy).Contents (Elt F)) (Vf V (Proc.devRef .tc main_c_23)) (Vf V (Proc.devRef .tc main_v80)) := by
  have h := Ssa.ssa_binary writes_eq V 144 main_c_23 main_v80 main_v81 _ _ _ _ rfl (by decide) (by decide) (by decide)
  exact h

set_option maxRecDepth 8192 in
theorem e_main_v82 (V : Valuation τ sig (Elt F)) :
    Vf V (Proc.devRef .tc main_v82) = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (Vf V (Proc.devRef .tc main_c_24)) (Vf V (Proc.devRef .tc main_v81)) (Vf V (Proc.devRef .tc main_c_23)) := by
  have h := Ssa.ssa_ternary writes_eq V 145 main_c_24 main_v81 main_c_23 main_v82 _ _ _ _ _ rfl (by decide) (by decide) (by decide) (by decide)
  exact h

set_option maxRecDepth 8192 in
theorem e_main_v83 (V : Valuation τ sig (Elt F)) :
    Vf V (Proc.devRef .tc main_v83) = (broadcastInDim S64x1 ![0] bcast_S64_S64x1_0 : (⟨S64, .i32⟩ : BufTy).Contents (Elt F) → (⟨S64x1, .i32⟩ : BufTy).Contents (Elt F)) (Vf V (Proc.devRef .tc main_v82)) := by
  have h := Ssa.ssa_unary writes_eq V 146 main_v82 main_v83 _ _ _ rfl (by decide) (by decide)
  exact h

set_option maxRecDepth 8192 in
theorem e_main_v84 (V : Valuation τ sig (Elt F)) :
    Vf V (Proc.devRef .tc main_v84) = ((fun x i => Host.gather gather_S32768x1023_S64x1_S32768x64_0_1_n_n_1_1_327681 x i) : (⟨S32768x1023, .f32⟩ : BufTy).Contents (Elt F) → (⟨S64x1, .i32⟩ : BufTy).Contents (Elt F) → (⟨S32768x64, .f32⟩ : BufTy).Contents (Elt F)) (Vf V (Proc.devRef .tc main_v13)) (Vf V (Proc.devRef .tc main_v83)) := by
  have h := Ssa.ssa_binary writes_eq V 147 main_v13 main_v83 main_v84 _ _ _ _ rfl (by decide) (by decide) (by decide)
  exact h

set_option maxRecDepth 8192 in
theorem e_main_v85 (V : Valuation τ sig (Elt F)) :
    Vf V (Proc.devRef .tc main_v85) = (broadcastInDim S32768x64 ![0, 1] bcast_S1x64_S32768x64_0_1 : (⟨S1x64, .f32⟩ : BufTy).Contents (Elt F) → (⟨S32768x64, .f32⟩ : BufTy).Contents (Elt F)) (Vf V (Proc.devRef .tc main_v5)) := by
  have h := Ssa.ssa_unary writes_eq V 148 main_v5 main_v85 _ _ _ rfl (by decide) (by decide)
  exact h

set_option maxRecDepth 8192 in
theorem e_main_v86 (V : Valuation τ sig (Elt F)) :
    Vf V (Proc.devRef .tc main_v86) = (mulf : (⟨S32768x64, .f32⟩ : BufTy).Contents (Elt F) → (⟨S32768x64, .f32⟩ : BufTy).Contents (Elt F) → (⟨S32768x64, .f32⟩ : BufTy).Contents (Elt F)) (Vf V (Proc.devRef .tc main_v84)) (Vf V (Proc.devRef .tc main_v85)) := by
  have h := Ssa.ssa_binary writes_eq V 149 main_v84 main_v85 main_v86 _ _ _ _ rfl (by decide) (by decide) (by decide)
  exact h

set_option maxRecDepth 8192 in
theorem e_main_c_61 (V : Valuation τ sig (Elt F)) :
    Vf V (Proc.devRef .tc main_c_61) = ((constantI S_ 32 32#32) : main_c_61.ty.Contents (Elt F)) := by
  have h := Ssa.ssa_nullary writes_eq V 150 main_c_61 _ _ rfl (by decide)
  exact h

set_option maxRecDepth 8192 in
theorem e_main_v87 (V : Valuation τ sig (Elt F)) :
    Vf V (Proc.devRef .tc main_v87) = (broadcastInDim S64 ![] bcast_S_S64 : (⟨S_, .i32⟩ : BufTy).Contents (Elt F) → (⟨S64, .i32⟩ : BufTy).Contents (Elt F)) (Vf V (Proc.devRef .tc main_c_61)) := by
  have h := Ssa.ssa_unary writes_eq V 151 main_c_61 main_v87 _ _ _ rfl (by decide) (by decide)
  exact h

set_option maxRecDepth 8192 in
theorem e_main_v88 (V : Valuation τ sig (Elt F)) :
    Vf V (Proc.devRef .tc main_v88) = (addi : (⟨S64, .i32⟩ : BufTy).Contents (Elt F) → (⟨S64, .i32⟩ : BufTy).Contents (Elt F) → (⟨S64, .i32⟩ : BufTy).Contents (Elt F)) (Vf V (Proc.devRef .tc main_c_26)) (Vf V (Proc.devRef .tc main_v87)) := by
  have h := Ssa.ssa_binary writes_eq V 152 main_c_26 main_v87 main_v88 _ _ _ _ rfl (by decide) (by decide) (by decide)
  exact h

set_option maxRecDepth 8192 in
theorem e_main_v89 (V : Valuation τ sig (Elt F)) :
    Vf V (Proc.devRef .tc main_v89) = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (Vf V (Proc.devRef .tc main_c_27)) (Vf V (Proc.devRef .tc main_v88)) (Vf V (Proc.devRef .tc main_c_26)) := by
  have h := Ssa.ssa_ternary writes_eq V 153 main_c_27 main_v88 main_c_26 main_v89 _ _ _ _ _ rfl (by decide) (by decide) (by decide) (by decide)
  exact h

set_option maxRecDepth 8192 in
theorem e_main_v90 (V : Valuation τ sig (Elt F)) :
    Vf V (Proc.devRef .tc main_v90) = (broadcastInDim S64x1 ![0] bcast_S64_S64x1_0 : (⟨S64, .i32⟩ : BufTy).Contents (Elt F) → (⟨S64x1, .i32⟩ : BufTy).Contents (Elt F)) (Vf V (Proc.devRef .tc main_v89)) := by
  have h := Ssa.ssa_unary writes_eq V 154 main_v89 main_v90 _ _ _ rfl (by decide) (by decide)
  exact h

set_option maxRecDepth 8192 in
theorem e_main_v91 (V : Valuation τ sig (Elt F)) :
    Vf V (Proc.devRef .tc main_v91) = ((fun x i => Host.gather gather_S32768x32_S64x1_S32768x64_0_1_n_n_1_1_327681 x i) : (⟨S32768x32, .f32⟩ : BufTy).Contents (Elt F) → (⟨S64x1, .i32⟩ : BufTy).Contents (Elt F) → (⟨S32768x64, .f32⟩ : BufTy).Contents (Elt F)) (Vf V (Proc.devRef .tc main_v79)) (Vf V (Proc.devRef .tc main_v90)) := by
  have h := Ssa.ssa_binary writes_eq V 155 main_v79 main_v90 main_v91 _ _ _ _ rfl (by decide) (by decide) (by decide)
  exact h

set_option maxRecDepth 8192 in
theorem e_main_v92 (V : Valuation τ sig (Elt F)) :
    Vf V (Proc.devRef .tc main_v92) = (minimumf : (⟨S32768x64, .f32⟩ : BufTy).Contents (Elt F) → (⟨S32768x64, .f32⟩ : BufTy).Contents (Elt F) → (⟨S32768x64, .f32⟩ : BufTy).Contents (Elt F)) (Vf V (Proc.devRef .tc main_v91)) (Vf V (Proc.devRef .tc main_v86)) := by
  have h := Ssa.ssa_binary writes_eq V 156 main_v91 main_v86 main_v92 _ _ _ _ rfl (by decide) (by decide) (by decide)
  exact h

set_option maxRecDepth 8192 in
theorem e_main_c_62 (V : Valuation τ sig (Elt F)) :
    Vf V (Proc.devRef .tc main_c_62) = ((constantI S_ 32 1023#32) : main_c_62.ty.Contents (Elt F)) := by
  have h := Ssa.ssa_nullary writes_eq V 157 main_c_62 _ _ rfl (by decide)
  exact h

set_option maxRecDepth 8192 in
theorem e_main_v93 (V : Valuation τ sig (Elt F)) :
    Vf V (Proc.devRef .tc main_v93) = (broadcastInDim S128 ![] bcast_S_S128 : (⟨S_, .i32⟩ : BufTy).Contents (Elt F) → (⟨S128, .i32⟩ : BufTy).Contents (Elt F)) (Vf V (Proc.devRef .tc main_c_62)) := by
  have h := Ssa.ssa_unary writes_eq V 158 main_c_62 main_v93 _ _ _ rfl (by decide) (by decide)
  exact h

set_option maxRecDepth 8192 in
theorem e_main_v94 (V : Valuation τ sig (Elt F)) :
    Vf V (Proc.devRef .tc main_v94) = (addi : (⟨S128, .i32⟩ : BufTy).Contents (Elt F) → (⟨S128, .i32⟩ : BufTy).Contents (Elt F) → (⟨S128, .i32⟩ : BufTy).Contents (Elt F)) (Vf V (Proc.devRef .tc main_c_28)) (Vf V (Proc.devRef .tc main_v93)) := by
  have h := Ssa.ssa_binary writes_eq V 159 main_c_28 main_v93 main_v94 _ _ _ _ rfl (by decide) (by decide) (by decide)
  exact h

set_option maxRecDepth 8192 in
theorem e_main_v95 (V : Valuation τ sig (Elt F)) :
    Vf V (Proc.devRef .tc main_v95) = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (Vf V (Proc.devRef .tc main_c_29)) (Vf V (Proc.devRef .tc main_v94)) (Vf V (Proc.devRef .tc main_c_28)) := by
  have h := Ssa.ssa_ternary writes_eq V 160 main_c_29 main_v94 main_c_28 main_v95 _ _ _ _ _ rfl (by decide) (by decide) (by decide) (by decide)
  exact h

set_option maxRecDepth 8192 in
theorem e_main_v96 (V : Valuation τ sig (Elt F)) :
    Vf V (Proc.devRef .tc main_v96) = (broadcastInDim S128x1 ![0] bcast_S128_S128x1_0 : (⟨S128, .i32⟩ : BufTy).Contents (Elt F) → (⟨S128x1, .i32⟩ : BufTy).Contents (Elt F)) (Vf V (Proc.devRef .tc main_v95)) := by
  have h := Ssa.ssa_unary writes_eq V 161 main_v95 main_v96 _ _ _ rfl (by decide) (by decide)
  exact h

set_option maxRecDepth 8192 in
theorem e_main_v97 (V : Valuation τ sig (Elt F)) :
    Vf V (Proc.devRef .tc main_v97) = ((fun x i => Host.gather gather_S32768x1023_S128x1_S32768x128_0_1_n_n_1_1_327681 x i) : (⟨S32768x1023, .f32⟩ : BufTy).Contents (Elt F) → (⟨S128x1, .i32⟩ : BufTy).Contents (Elt F) → (⟨S32768x128, .f32⟩ : BufTy).Contents (Elt F)) (Vf V (Proc.devRef .tc main_v13)) (Vf V (Proc.devRef .tc main_v96)) := by
  have h := Ssa.ssa_binary writes_eq V 162 main_v13 main_v96 main_v97 _ _ _ _ rfl (by decide) (by decide) (by decide)
  exact h

set_option maxRecDepth 8192 in
theorem e_main_v98 (V : Valuation τ sig (Elt F)) :
    Vf V (Proc.devRef .tc main_v98) = (broadcastInDim S32768x128 ![0, 1] bcast_S1x128_S32768x128_0_1 : (⟨S1x128, .f32⟩ : BufTy).Contents (Elt F) → (⟨S32768x128, .f32⟩ : BufTy).Contents (Elt F)) (Vf V (Proc.devRef .tc main_v6)) := by
  have h := Ssa.ssa_unary writes_eq V 163 main_v6 main_v98 _ _ _ rfl (by decide) (by decide)
  exact h

set_option maxRecDepth 8192 in
theorem e_main_v99 (V : Valuation τ sig (Elt F)) :
    Vf V (Proc.devRef .tc main_v99) = (mulf : (⟨S32768x128, .f32⟩ : BufTy).Contents (Elt F) → (⟨S32768x128, .f32⟩ : BufTy).Contents (Elt F) → (⟨S32768x128, .f32⟩ : BufTy).Contents (Elt F)) (Vf V (Proc.devRef .tc main_v97)) (Vf V (Proc.devRef .tc main_v98)) := by
  have h := Ssa.ssa_binary writes_eq V 164 main_v97 main_v98 main_v99 _ _ _ _ rfl (by decide) (by decide) (by decide)
  exact h

set_option maxRecDepth 8192 in
theorem e_main_c_63 (V : Valuation τ sig (Elt F)) :
    Vf V (Proc.devRef .tc main_c_63) = ((constantI S_ 32 64#32) : main_c_63.ty.Contents (Elt F)) := by
  have h := Ssa.ssa_nullary writes_eq V 165 main_c_63 _ _ rfl (by decide)
  exact h

set_option maxRecDepth 8192 in
theorem e_main_v100 (V : Valuation τ sig (Elt F)) :
    Vf V (Proc.devRef .tc main_v100) = (broadcastInDim S128 ![] bcast_S_S128 : (⟨S_, .i32⟩ : BufTy).Contents (Elt F) → (⟨S128, .i32⟩ : BufTy).Contents (Elt F)) (Vf V (Proc.devRef .tc main_c_63)) := by
  have h := Ssa.ssa_unary writes_eq V 166 main_c_63 main_v100 _ _ _ rfl (by decide) (by decide)
  exact h

set_option maxRecDepth 8192 in
theorem e_main_v101 (V : Valuation τ sig (Elt F)) :
    Vf V (Proc.devRef .tc main_v101) = (addi : (⟨S128, .i32⟩ : BufTy).Contents (Elt F) → (⟨S128, .i32⟩ : BufTy).Contents (Elt F) → (⟨S128, .i32⟩ : BufTy).Contents (Elt F)) (Vf V (Proc.devRef .tc main_c_31)) (Vf V (Proc.devRef .tc main_v100)) := by
  have h := Ssa.ssa_binary writes_eq V 167 main_c_31 main_v100 main_v101 _ _ _ _ rfl (by decide) (by decide) (by decide)
  exact h

set_option maxRecDepth 8192 in
theorem e_main_v102 (V : Valuation τ sig (Elt F)) :
    Vf V (Proc.devRef .tc main_v102) = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (Vf V (Proc.devRef .tc main_c_32)) (Vf V (Proc.devRef .tc main_v101)) (Vf V (Proc.devRef .tc main_c_31)) := by
  have h := Ssa.ssa_ternary writes_eq V 168 main_c_32 main_v101 main_c_31 main_v102 _ _ _ _ _ rfl (by decide) (by decide) (by decide) (by decide)
  exact h

set_option maxRecDepth 8192 in
theorem e_main_v103 (V : Valuation τ sig (Elt F)) :
    Vf V (Proc.devRef .tc main_v103) = (broadcastInDim S128x1 ![0] bcast_S128_S128x1_0 : (⟨S128, .i32⟩ : BufTy).Contents (Elt F) → (⟨S128x1, .i32⟩ : BufTy).Contents (Elt F)) (Vf V (Proc.devRef .tc main_v102)) := by
  have h := Ssa.ssa_unary writes_eq V 169 main_v102 main_v103 _ _ _ rfl (by decide) (by decide)
  exact h

set_option maxRecDepth 8192 in
theorem e_main_v104 (V : Valuation τ sig (Elt F)) :
    Vf V (Proc.devRef .tc main_v104) = ((fun x i => Host.gather gather_S32768x64_S128x1_S32768x128_0_1_n_n_1_1_327681 x i) : (⟨S32768x64, .f32⟩ : BufTy).Contents (Elt F) → (⟨S128x1, .i32⟩ : BufTy).Contents (Elt F) → (⟨S32768x128, .f32⟩ : BufTy).Contents (Elt F)) (Vf V (Proc.devRef .tc main_v92)) (Vf V (Proc.devRef .tc main_v103)) := by
  have h := Ssa.ssa_binary writes_eq V 170 main_v92 main_v103 main_v104 _ _ _ _ rfl (by decide) (by decide) (by decide)
  exact h

set_option maxRecDepth 8192 in
theorem e_main_v105 (V : Valuation τ sig (Elt F)) :
    Vf V (Proc.devRef .tc main_v105) = (minimumf : (⟨S32768x128, .f32⟩ : BufTy).Contents (Elt F) → (⟨S32768x128, .f32⟩ : BufTy).Contents (Elt F) → (⟨S32768x128, .f32⟩ : BufTy).Contents (Elt F)) (Vf V (Proc.devRef .tc main_v104)) (Vf V (Proc.devRef .tc main_v99)) := by
  have h := Ssa.ssa_binary writes_eq V 171 main_v104 main_v99 main_v105 _ _ _ _ rfl (by decide) (by decide) (by decide)
  exact h

set_option maxRecDepth 8192 in
theorem e_main_c_64 (V : Valuation τ sig (Elt F)) :
    Vf V (Proc.devRef .tc main_c_64) = ((constantI S_ 32 1023#32) : main_c_64.ty.Contents (Elt F)) := by
  have h := Ssa.ssa_nullary writes_eq V 172 main_c_64 _ _ rfl (by decide)
  exact h

set_option maxRecDepth 8192 in
theorem e_main_v106 (V : Valuation τ sig (Elt F)) :
    Vf V (Proc.devRef .tc main_v106) = (broadcastInDim S256 ![] bcast_S_S256 : (⟨S_, .i32⟩ : BufTy).Contents (Elt F) → (⟨S256, .i32⟩ : BufTy).Contents (Elt F)) (Vf V (Proc.devRef .tc main_c_64)) := by
  have h := Ssa.ssa_unary writes_eq V 173 main_c_64 main_v106 _ _ _ rfl (by decide) (by decide)
  exact h

set_option maxRecDepth 8192 in
theorem e_main_v107 (V : Valuation τ sig (Elt F)) :
    Vf V (Proc.devRef .tc main_v107) = (addi : (⟨S256, .i32⟩ : BufTy).Contents (Elt F) → (⟨S256, .i32⟩ : BufTy).Contents (Elt F) → (⟨S256, .i32⟩ : BufTy).Contents (Elt F)) (Vf V (Proc.devRef .tc main_c_33)) (Vf V (Proc.devRef .tc main_v106)) := by
  have h := Ssa.ssa_binary writes_eq V 174 main_c_33 main_v106 main_v107 _ _ _ _ rfl (by decide) (by decide) (by decide)
  exact h

set_option maxRecDepth 8192 in
theorem e_main_v108 (V : Valuation τ sig (Elt F)) :
    Vf V (Proc.devRef .tc main_v108) = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (Vf V (Proc.devRef .tc main_c_34)) (Vf V (Proc.devRef .tc main_v107)) (Vf V (Proc.devRef .tc main_c_33)) := by
  have h := Ssa.ssa_ternary writes_eq V 175 main_c_34 main_v107 main_c_33 main_v108 _ _ _ _ _ rfl (by decide) (by decide) (by decide) (by decide)
  exact h

set_option maxRecDepth 8192 in
theorem e_main_v109 (V : Valuation τ sig (Elt F)) :
    Vf V (Proc.devRef .tc main_v109) = (broadcastInDim S256x1 ![0] bcast_S256_S256x1_0 : (⟨S256, .i32⟩ : BufTy).Contents (Elt F) → (⟨S256x1, .i32⟩ : BufTy).Contents (Elt F)) (Vf V (Proc.devRef .tc main_v108)) := by
  have h := Ssa.ssa_unary writes_eq V 176 main_v108 main_v109 _ _ _ rfl (by decide) (by decide)
  exact h

set_option maxRecDepth 8192 in
theorem e_main_v110 (V : Valuation τ sig (Elt F)) :
    Vf V (Proc.devRef .tc main_v110) = ((fun x i => Host.gather gather_S32768x1023_S256x1_S32768x256_0_1_n_n_1_1_327681 x i) : (⟨S32768x1023, .f32⟩ : BufTy).Contents (Elt F) → (⟨S256x1, .i32⟩ : BufTy).Contents (Elt F) → (⟨S32768x256, .f32⟩ : BufTy).Contents (Elt F)) (Vf V (Proc.devRef .tc main_v13)) (Vf V (Proc.devRef .tc main_v109)) := by
  have h := Ssa.ssa_binary writes_eq V 177 main_v13 main_v109 main_v110 _ _ _ _ rfl (by decide) (by decide) (by decide)
  exact h

set_option maxRecDepth 8192 in
theorem e_main_v111 (V : Valuation τ sig (Elt F)) :
    Vf V (Proc.devRef .tc main_v111) = (broadcastInDim S32768x256 ![0, 1] bcast_S1x256_S32768x256_0_1 : (⟨S1x256, .f32⟩ : BufTy).Contents (Elt F) → (⟨S32768x256, .f32⟩ : BufTy).Contents (Elt F)) (Vf V (Proc.devRef .tc main_v7)) := by
  have h := Ssa.ssa_unary writes_eq V 178 main_v7 main_v111 _ _ _ rfl (by decide) (by decide)
  exact h

set_option maxRecDepth 8192 in
theorem e_main_v112 (V : Valuation τ sig (Elt F)) :
    Vf V (Proc.devRef .tc main_v112) = (mulf : (⟨S32768x256, .f32⟩ : BufTy).Contents (Elt F) → (⟨S32768x256, .f32⟩ : BufTy).Contents (Elt F) → (⟨S32768x256, .f32⟩ : BufTy).Contents (Elt F)) (Vf V (Proc.devRef .tc main_v110)) (Vf V (Proc.devRef .tc main_v111)) := by
  have h := Ssa.ssa_binary writes_eq V 179 main_v110 main_v111 main_v112 _ _ _ _ rfl (by decide) (by decide) (by decide)
  exact h

set_option maxRecDepth 8192 in
theorem e_main_c_65 (V : Valuation τ sig (Elt F)) :
    Vf V (Proc.devRef .tc main_c_65) = ((constantI S_ 32 128#32) : main_c_65.ty.Contents (Elt F)) := by
  have h := Ssa.ssa_nullary writes_eq V 180 main_c_65 _ _ rfl (by decide)
  exact h

set_option maxRecDepth 8192 in
theorem e_main_v113 (V : Valuation τ sig (Elt F)) :
    Vf V (Proc.devRef .tc main_v113) = (broadcastInDim S256 ![] bcast_S_S256 : (⟨S_, .i32⟩ : BufTy).Contents (Elt F) → (⟨S256, .i32⟩ : BufTy).Contents (Elt F)) (Vf V (Proc.devRef .tc main_c_65)) := by
  have h := Ssa.ssa_unary writes_eq V 181 main_c_65 main_v113 _ _ _ rfl (by decide) (by decide)
  exact h

set_option maxRecDepth 8192 in
theorem e_main_v114 (V : Valuation τ sig (Elt F)) :
    Vf V (Proc.devRef .tc main_v114) = (addi : (⟨S256, .i32⟩ : BufTy).Contents (Elt F) → (⟨S256, .i32⟩ : BufTy).Contents (Elt F) → (⟨S256, .i32⟩ : BufTy).Contents (Elt F)) (Vf V (Proc.devRef .tc main_c_36)) (Vf V (Proc.devRef .tc main_v113)) := by
  have h := Ssa.ssa_binary writes_eq V 182 main_c_36 main_v113 main_v114 _ _ _ _ rfl (by decide) (by decide) (by decide)
  exact h

set_option maxRecDepth 8192 in
theorem e_main_v115 (V : Valuation τ sig (Elt F)) :
    Vf V (Proc.devRef .tc main_v115) = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (Vf V (Proc.devRef .tc main_c_37)) (Vf V (Proc.devRef .tc main_v114)) (Vf V (Proc.devRef .tc main_c_36)) := by
  have h := Ssa.ssa_ternary writes_eq V 183 main_c_37 main_v114 main_c_36 main_v115 _ _ _ _ _ rfl (by decide) (by decide) (by decide) (by decide)
  exact h

set_option maxRecDepth 8192 in
theorem e_main_v116 (V : Valuation τ sig (Elt F)) :
    Vf V (Proc.devRef .tc main_v116) = (broadcastInDim S256x1 ![0] bcast_S256_S256x1_0 : (⟨S256, .i32⟩ : BufTy).Contents (Elt F) → (⟨S256x1, .i32⟩ : BufTy).Contents (Elt F)) (Vf V (Proc.devRef .tc main_v115)) := by
  have h := Ssa.ssa_unary writes_eq V 184 main_v115 main_v116 _ _ _ rfl (by decide) (by decide)
  exact h

set_option maxRecDepth 8192 in
theorem e_main_v117 (V : Valuation τ sig (Elt F)) :
    Vf V (Proc.devRef .tc main_v117) = ((fun x i => Host.gather gather_S32768x128_S256x1_S32768x256_0_1_n_n_1_1_327681 x i) : (⟨S32768x128, .f32⟩ : BufTy).Contents (Elt F) → (⟨S256x1, .i32⟩ : BufTy).Contents (Elt F) → (⟨S32768x256, .f32⟩ : BufTy).Contents (Elt F)) (Vf V (Proc.devRef .tc main_v105)) (Vf V (Proc.devRef .tc main_v116)) := by
  have h := Ssa.ssa_binary writes_eq V 185 main_v105 main_v116 main_v117 _ _ _ _ rfl (by decide) (by decide) (by decide)
  exact h

set_option maxRecDepth 8192 in
theorem e_main_v118 (V : Valuation τ sig (Elt F)) :
    Vf V (Proc.devRef .tc main_v118) = (minimumf : (⟨S32768x256, .f32⟩ : BufTy).Contents (Elt F) → (⟨S32768x256, .f32⟩ : BufTy).Contents (Elt F) → (⟨S32768x256, .f32⟩ : BufTy).Contents (Elt F)) (Vf V (Proc.devRef .tc main_v117)) (Vf V (Proc.devRef .tc main_v112)) := by
  have h := Ssa.ssa_binary writes_eq V 186 main_v117 main_v112 main_v118 _ _ _ _ rfl (by decide) (by decide) (by decide)
  exact h

set_option maxRecDepth 8192 in
theorem e_main_c_66 (V : Valuation τ sig (Elt F)) :
    Vf V (Proc.devRef .tc main_c_66) = ((constantI S_ 32 1023#32) : main_c_66.ty.Contents (Elt F)) := by
  have h := Ssa.ssa_nullary writes_eq V 187 main_c_66 _ _ rfl (by decide)
  exact h

set_option maxRecDepth 8192 in
theorem e_main_v119 (V : Valuation τ sig (Elt F)) :
    Vf V (Proc.devRef .tc main_v119) = (broadcastInDim S512 ![] bcast_S_S512 : (⟨S_, .i32⟩ : BufTy).Contents (Elt F) → (⟨S512, .i32⟩ : BufTy).Contents (Elt F)) (Vf V (Proc.devRef .tc main_c_66)) := by
  have h := Ssa.ssa_unary writes_eq V 188 main_c_66 main_v119 _ _ _ rfl (by decide) (by decide)
  exact h

set_option maxRecDepth 8192 in
theorem e_main_v120 (V : Valuation τ sig (Elt F)) :
    Vf V (Proc.devRef .tc main_v120) = (addi : (⟨S512, .i32⟩ : BufTy).Contents (Elt F) → (⟨S512, .i32⟩ : BufTy).Contents (Elt F) → (⟨S512, .i32⟩ : BufTy).Contents (Elt F)) (Vf V (Proc.devRef .tc main_c_38)) (Vf V (Proc.devRef .tc main_v119)) := by
  have h := Ssa.ssa_binary writes_eq V 189 main_c_38 main_v119 main_v120 _ _ _ _ rfl (by decide) (by decide) (by decide)
  exact h

set_option maxRecDepth 8192 in
theorem e_main_v121 (V : Valuation τ sig (Elt F)) :
    Vf V (Proc.devRef .tc main_v121) = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (Vf V (Proc.devRef .tc main_c_39)) (Vf V (Proc.devRef .tc main_v120)) (Vf V (Proc.devRef .tc main_c_38)) := by
  have h := Ssa.ssa_ternary writes_eq V 190 main_c_39 main_v120 main_c_38 main_v121 _ _ _ _ _ rfl (by decide) (by decide) (by decide) (by decide)
  exact h

set_option maxRecDepth 8192 in
theorem e_main_v122 (V : Valuation τ sig (Elt F)) :
    Vf V (Proc.devRef .tc main_v122) = (broadcastInDim S512x1 ![0] bcast_S512_S512x1_0 : (⟨S512, .i32⟩ : BufTy).Contents (Elt F) → (⟨S512x1, .i32⟩ : BufTy).Contents (Elt F)) (Vf V (Proc.devRef .tc main_v121)) := by
  have h := Ssa.ssa_unary writes_eq V 191 main_v121 main_v122 _ _ _ rfl (by decide) (by decide)
  exact h

set_option maxRecDepth 8192 in
theorem e_main_v123 (V : Valuation τ sig (Elt F)) :
    Vf V (Proc.devRef .tc main_v123) = ((fun x i => Host.gather gather_S32768x1023_S512x1_S32768x512_0_1_n_n_1_1_327681 x i) : (⟨S32768x1023, .f32⟩ : BufTy).Contents (Elt F) → (⟨S512x1, .i32⟩ : BufTy).Contents (Elt F) → (⟨S32768x512, .f32⟩ : BufTy).Contents (Elt F)) (Vf V (Proc.devRef .tc main_v13)) (Vf V (Proc.devRef .tc main_v122)) := by
  have h := Ssa.ssa_binary writes_eq V 192 main_v13 main_v122 main_v123 _ _ _ _ rfl (by decide) (by decide) (by decide)
  exact h

set_option maxRecDepth 8192 in
theorem e_main_v124 (V : Valuation τ sig (Elt F)) :
    Vf V (Proc.devRef .tc main_v124) = (broadcastInDim S32768x512 ![0, 1] bcast_S1x512_S32768x512_0_1 : (⟨S1x512, .f32⟩ : BufTy).Contents (Elt F) → (⟨S32768x512, .f32⟩ : BufTy).Contents (Elt F)) (Vf V (Proc.devRef .tc main_v8)) := by
  have h := Ssa.ssa_unary writes_eq V 193 main_v8 main_v124 _ _ _ rfl (by decide) (by decide)
  exact h

set_option maxRecDepth 8192 in
theorem e_main_v125 (V : Valuation τ sig (Elt F)) :
    Vf V (Proc.devRef .tc main_v125) = (mulf : (⟨S32768x512, .f32⟩ : BufTy).Contents (Elt F) → (⟨S32768x512, .f32⟩ : BufTy).Contents (Elt F) → (⟨S32768x512, .f32⟩ : BufTy).Contents (Elt F)) (Vf V (Proc.devRef .tc main_v123)) (Vf V (Proc.devRef .tc main_v124)) := by
  have h := Ssa.ssa_binary writes_eq V 194 main_v123 main_v124 main_v125 _ _ _ _ rfl (by decide) (by decide) (by decide)
  exact h

set_option maxRecDepth 8192 in
theorem e_main_c_67 (V : Valuation τ sig (Elt F)) :
    Vf V (Proc.devRef .tc main_c_67) = ((constantI S_ 32 256#32) : main_c_67.ty.Contents (Elt F)) := by
  have h := Ssa.ssa_nullary writes_eq V 195 main_c_67 _ _ rfl (by decide)
  exact h

set_option maxRecDepth 8192 in
theorem e_main_v126 (V : Valuation τ sig (Elt F)) :
    Vf V (Proc.devRef .tc main_v126) = (broadcastInDim S512 ![] bcast_S_S512 : (⟨S_, .i32⟩ : BufTy).Contents (Elt F) → (⟨S512, .i32⟩ : BufTy).Contents (Elt F)) (Vf V (Proc.devRef .tc main_c_67)) := by
  have h := Ssa.ssa_unary writes_eq V 196 main_c_67 main_v126 _ _ _ rfl (by decide) (by decide)
  exact h

set_option maxRecDepth 8192 in
theorem e_main_v127 (V : Valuation τ sig (Elt F)) :
    Vf V (Proc.devRef .tc main_v127) = (addi : (⟨S512, .i32⟩ : BufTy).Contents (Elt F) → (⟨S512, .i32⟩ : BufTy).Contents (Elt F) → (⟨S512, .i32⟩ : BufTy).Contents (Elt F)) (Vf V (Proc.devRef .tc main_c_41)) (Vf V (Proc.devRef .tc main_v126)) := by
  have h := Ssa.ssa_binary writes_eq V 197 main_c_41 main_v126 main_v127 _ _ _ _ rfl (by decide) (by decide) (by decide)
  exact h

set_option maxRecDepth 8192 in
theorem e_main_v128 (V : Valuation τ sig (Elt F)) :
    Vf V (Proc.devRef .tc main_v128) = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (Vf V (Proc.devRef .tc main_c_42)) (Vf V (Proc.devRef .tc main_v127)) (Vf V (Proc.devRef .tc main_c_41)) := by
  have h := Ssa.ssa_ternary writes_eq V 198 main_c_42 main_v127 main_c_41 main_v128 _ _ _ _ _ rfl (by decide) (by decide) (by decide) (by decide)
  exact h

set_option maxRecDepth 8192 in
theorem e_main_v129 (V : Valuation τ sig (Elt F)) :
    Vf V (Proc.devRef .tc main_v129) = (broadcastInDim S512x1 ![0] bcast_S512_S512x1_0 : (⟨S512, .i32⟩ : BufTy).Contents (Elt F) → (⟨S512x1, .i32⟩ : BufTy).Contents (Elt F)) (Vf V (Proc.devRef .tc main_v128)) := by
  have h := Ssa.ssa_unary writes_eq V 199 main_v128 main_v129 _ _ _ rfl (by decide) (by decide)
  exact h

set_option maxRecDepth 8192 in
theorem e_main_v130 (V : Valuation τ sig (Elt F)) :
    Vf V (Proc.devRef .tc main_v130) = ((fun x i => Host.gather gather_S32768x256_S512x1_S32768x512_0_1_n_n_1_1_327681 x i) : (⟨S32768x256, .f32⟩ : BufTy).Contents (Elt F) → (⟨S512x1, .i32⟩ : BufTy).Contents (Elt F) → (⟨S32768x512, .f32⟩ : BufTy).Contents (Elt F)) (Vf V (Proc.devRef .tc main_v118)) (Vf V (Proc.devRef .tc main_v129)) := by
  have h := Ssa.ssa_binary writes_eq V 200 main_v118 main_v129 main_v130 _ _ _ _ rfl (by decide) (by decide) (by decide)
  exact h

set_option maxRecDepth 8192 in
theorem e_main_v131 (V : Valuation τ sig (Elt F)) :
    Vf V (Proc.devRef .tc main_v131) = (minimumf : (⟨S32768x512, .f32⟩ : BufTy).Contents (Elt F) → (⟨S32768x512, .f32⟩ : BufTy).Contents (Elt F) → (⟨S32768x512, .f32⟩ : BufTy).Contents (Elt F)) (Vf V (Proc.devRef .tc main_v130)) (Vf V (Proc.devRef .tc main_v125)) := by
  have h := Ssa.ssa_binary writes_eq V 201 main_v130 main_v125 main_v131 _ _ _ _ rfl (by decide) (by decide) (by decide)
  exact h

set_option maxRecDepth 8192 in
theorem e_main_c_68 (V : Valuation τ sig (Elt F)) :
    Vf V (Proc.devRef .tc main_c_68) = ((constantI S_ 32 1023#32) : main_c_68.ty.Contents (Elt F)) := by
  have h := Ssa.ssa_nullary writes_eq V 202 main_c_68 _ _ rfl (by decide)
  exact h

set_option maxRecDepth 8192 in
theorem e_main_v132 (V : Valuation τ sig (Elt F)) :
    Vf V (Proc.devRef .tc main_v132) = (broadcastInDim S1024 ![] bcast_S_S1024 : (⟨S_, .i32⟩ : BufTy).Contents (Elt F) → (⟨S1024, .i32⟩ : BufTy).Contents (Elt F)) (Vf V (Proc.devRef .tc main_c_68)) := by
  have h := Ssa.ssa_unary writes_eq V 203 main_c_68 main_v132 _ _ _ rfl (by decide) (by decide)
  exact h

set_option maxRecDepth 8192 in
theorem e_main_v133 (V : Valuation τ sig (Elt F)) :
    Vf V (Proc.devRef .tc main_v133) = (addi : (⟨S1024, .i32⟩ : BufTy).Contents (Elt F) → (⟨S1024, .i32⟩ : BufTy).Contents (Elt F) → (⟨S1024, .i32⟩ : BufTy).Contents (Elt F)) (Vf V (Proc.devRef .tc main_c_43)) (Vf V (Proc.devRef .tc main_v132)) := by
  have h := Ssa.ssa_binary writes_eq V 204 main_c_43 main_v132 main_v133 _ _ _ _ rfl (by decide) (by decide) (by decide)
  exact h

set_option maxRecDepth 8192 in
theorem e_main_v134 (V : Valuation τ sig (Elt F)) :
    Vf V (Proc.devRef .tc main_v134) = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (Vf V (Proc.devRef .tc main_c_44)) (Vf V (Proc.devRef .tc main_v133)) (Vf V (Proc.devRef .tc main_c_43)) := by
  have h := Ssa.ssa_ternary writes_eq V 205 main_c_44 main_v133 main_c_43 main_v134 _ _ _ _ _ rfl (by decide) (by decide) (by decide) (by decide)
  exact h

set_option maxRecDepth 8192 in
theorem e_main_v135 (V : Valuation τ sig (Elt F)) :
    Vf V (Proc.devRef .tc main_v135) = (broadcastInDim S1024x1 ![0] bcast_S1024_S1024x1_0 : (⟨S1024, .i32⟩ : BufTy).Contents (Elt F) → (⟨S1024x1, .i32⟩ : BufTy).Contents (Elt F)) (Vf V (Proc.devRef .tc main_v134)) := by
  have h := Ssa.ssa_unary writes_eq V 206 main_v134 main_v135 _ _ _ rfl (by decide) (by decide)
  exact h

set_option maxRecDepth 8192 in
theorem e_main_v136 (V : Valuation τ sig (Elt F)) :
    Vf V (Proc.devRef .tc main_v136) = ((fun x i => Host.gather gather_S32768x1023_S1024x1_S32768x1024_0_1_n_n_1_1_327681 x i) : (⟨S32768x1023, .f32⟩ : BufTy).Contents (Elt F) → (⟨S1024x1, .i32⟩ : BufTy).Contents (Elt F) → (⟨S32768x1024, .f32⟩ : BufTy).Contents (Elt F)) (Vf V (Proc.devRef .tc main_v13)) (Vf V (Proc.devRef .tc main_v135)) := by
  have h := Ssa.ssa_binary writes_eq V 207 main_v13 main_v135 main_v136 _ _ _ _ rfl (by decide) (by decide) (by decide)
  exact h

set_option maxRecDepth 8192 in
theorem e_main_v137 (V : Valuation τ sig (Elt F)) :
    Vf V (Proc.devRef .tc main_v137) = (broadcastInDim S32768x1024 ![0, 1] bcast_S1x1024_S32768x1024_0_1 : (⟨S1x1024, .f32⟩ : BufTy).Contents (Elt F) → (⟨S32768x1024, .f32⟩ : BufTy).Contents (Elt F)) (Vf V (Proc.devRef .tc main_v9)) := by
  have h := Ssa.ssa_unary writes_eq V 208 main_v9 main_v137 _ _ _ rfl (by decide) (by decide)
  exact h

set_option maxRecDepth 8192 in
theorem e_main_v138 (V : Valuation τ sig (Elt F)) :
    Vf V (Proc.devRef .tc main_v138) = (mulf : (⟨S32768x1024, .f32⟩ : BufTy).Contents (Elt F) → (⟨S32768x1024, .f32⟩ : BufTy).Contents (Elt F) → (⟨S32768x1024, .f32⟩ : BufTy).Contents (Elt F)) (Vf V (Proc.devRef .tc main_v136)) (Vf V (Proc.devRef .tc main_v137)) := by
  have h := Ssa.ssa_binary writes_eq V 209 main_v136 main_v137 main_v138 _ _ _ _ rfl (by decide) (by decide) (by decide)
  exact h

set_option maxRecDepth 8192 in
theorem e_main_c_69 (V : Valuation τ sig (Elt F)) :
    Vf V (Proc.devRef .tc main_c_69) = ((constantI S_ 32 512#32) : main_c_69.ty.Contents (Elt F)) := by
  have h := Ssa.ssa_nullary writes_eq V 210 main_c_69 _ _ rfl (by decide)
  exact h

set_option maxRecDepth 8192 in
theorem e_main_v139 (V : Valuation τ sig (Elt F)) :
    Vf V (Proc.devRef .tc main_v139) = (broadcastInDim S1024 ![] bcast_S_S1024 : (⟨S_, .i32⟩ : BufTy).Contents (Elt F) → (⟨S1024, .i32⟩ : BufTy).Contents (Elt F)) (Vf V (Proc.devRef .tc main_c_69)) := by
  have h := Ssa.ssa_unary writes_eq V 211 main_c_69 main_v139 _ _ _ rfl (by decide) (by decide)
  exact h

set_option maxRecDepth 8192 in
theorem e_main_v140 (V : Valuation τ sig (Elt F)) :
    Vf V (Proc.devRef .tc main_v140) = (addi : (⟨S1024, .i32⟩ : BufTy).Contents (Elt F) → (⟨S1024, .i32⟩ : BufTy).Contents (Elt F) → (⟨S1024, .i32⟩ : BufTy).Contents (Elt F)) (Vf V (Proc.devRef .tc main_c_46)) (Vf V (Proc.devRef .tc main_v139)) := by
  have h := Ssa.ssa_binary writes_eq V 212 main_c_46 main_v139 main_v140 _ _ _ _ rfl (by decide) (by decide) (by decide)
  exact h

set_option maxRecDepth 8192 in
theorem e_main_v141 (V : Valuation τ sig (Elt F)) :
    Vf V (Proc.devRef .tc main_v141) = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (Vf V (Proc.devRef .tc main_c_47)) (Vf V (Proc.devRef .tc main_v140)) (Vf V (Proc.devRef .tc main_c_46)) := by
  have h := Ssa.ssa_ternary writes_eq V 213 main_c_47 main_v140 main_c_46 main_v141 _ _ _ _ _ rfl (by decide) (by decide) (by decide) (by decide)
  exact h

set_option maxRecDepth 8192 in
theorem e_main_v142 (V : Valuation τ sig (Elt F)) :
    Vf V (Proc.devRef .tc main_v142) = (broadcastInDim S1024x1 ![0] bcast_S1024_S1024x1_0 : (⟨S1024, .i32⟩ : BufTy).Contents (Elt F) → (⟨S1024x1, .i32⟩ : BufTy).Contents (Elt F)) (Vf V (Proc.devRef .tc main_v141)) := by
  have h := Ssa.ssa_unary writes_eq V 214 main_v141 main_v142 _ _ _ rfl (by decide) (by decide)
  exact h

set_option maxRecDepth 8192 in
theorem e_main_v143 (V : Valuation τ sig (Elt F)) :
    Vf V (Proc.devRef .tc main_v143) = ((fun x i => Host.gather gather_S32768x512_S1024x1_S32768x1024_0_1_n_n_1_1_327681 x i) : (⟨S32768x512, .f32⟩ : BufTy).Contents (Elt F) → (⟨S1024x1, .i32⟩ : BufTy).Contents (Elt F) → (⟨S32768x1024, .f32⟩ : BufTy).Contents (Elt F)) (Vf V (Proc.devRef .tc main_v131)) (Vf V (Proc.devRef .tc main_v142)) := by
  have h := Ssa.ssa_binary writes_eq V 215 main_v131 main_v142 main_v143 _ _ _ _ rfl (by decide) (by decide) (by decide)
  exact h

set_option maxRecDepth 8192 in
theorem e_main_v144 (V : Valuation τ sig (Elt F)) :
    Vf V (Proc.devRef .tc main_v144) = (minimumf : (⟨S32768x1024, .f32⟩ : BufTy).Contents (Elt F) → (⟨S32768x1024, .f32⟩ : BufTy).Contents (Elt F) → (⟨S32768x1024, .f32⟩ : BufTy).Contents (Elt F)) (Vf V (Proc.devRef .tc main_v143)) (Vf V (Proc.devRef .tc main_v138)) := by
  have h := Ssa.ssa_binary writes_eq V 216 main_v143 main_v138 main_v144 _ _ _ _ rfl (by decide) (by decide) (by decide)
  exact h

set_option maxRecDepth 8192 in
theorem e_main_v145 (V : Valuation τ sig (Elt F)) :
    Vf V (Proc.devRef .tc main_v145) = concatenate S32768x2047 1 [⟨S32768x1, Vf V (Proc.devRef .tc main_v14)⟩, ⟨S32768x2, Vf V (Proc.devRef .tc main_v27)⟩, ⟨S32768x4, Vf V (Proc.devRef .tc main_v40)⟩, ⟨S32768x8, Vf V (Proc.devRef .tc main_v53)⟩, ⟨S32768x16, Vf V (Proc.devRef .tc main_v66)⟩, ⟨S32768x32, Vf V (Proc.devRef .tc main_v79)⟩, ⟨S32768x64, Vf V (Proc.devRef .tc main_v92)⟩, ⟨S32768x128, Vf V (Proc.devRef .tc main_v105)⟩, ⟨S32768x256, Vf V (Proc.devRef .tc main_v118)⟩, ⟨S32768x512, Vf V (Proc.devRef .tc main_v131)⟩, ⟨S32768x1024, Vf V (Proc.devRef .tc main_v144)⟩] concatenates_S32768x1_S32768x2_S32768x4_S32768x8_S32768x16_S32768x32_S32768x64_S32768x128_S32768x256_S32768x512_S32768x1024_S32768x2047_d1 := by
  have h := Ssa.ssa_nary writes_eq V 217 ![main_v14, main_v27, main_v40, main_v53, main_v66, main_v79, main_v92, main_v105, main_v118, main_v131, main_v144] main_v145 _ _ _ rfl (by decide) (by decide)
  exact h

set_option maxRecDepth 8192 in
theorem e_main_cst_70 (V : Valuation τ sig (Elt F)) :
    Vf V (Proc.devRef .tc main_cst_70) = ((constant S_ .f32 0x00000000#32) : main_cst_70.ty.Contents (Elt F)) := by
  have h := Ssa.ssa_nullary writes_eq V 218 main_cst_70 _ _ rfl (by decide)
  exact h

set_option maxRecDepth 8192 in
theorem e_main_cst_71 (V : Valuation τ sig (Elt F)) :
    Vf V (Proc.devRef .tc main_cst_71) = ((constant S_ .f32 0x3F800000#32) : main_cst_71.ty.Contents (Elt F)) := by
  have h := Ssa.ssa_nullary writes_eq V 219 main_cst_71 _ _ rfl (by decide)
  exact h

set_option maxRecDepth 8192 in
theorem e_main_call0_v0 (V : Valuation τ sig (Elt F)) :
    Vf V (Proc.devRef .tc main_call0_v0) = Vf V (Proc.devRef .tc main_cst_70) := by
  have h := Ssa.ssa_unary writes_eq V 220 main_cst_70 main_call0_v0 _ _ _ rfl (by decide) (by decide)
  exact h

set_option maxRecDepth 8192 in
theorem e_main_call0_v1 (V : Valuation τ sig (Elt F)) :
    Vf V (Proc.devRef .tc main_call0_v1) = (broadcastInDim S32768x2047 ![] bcast_S_S32768x2047 : (⟨S_, .f32⟩ : BufTy).Contents (Elt F) → (⟨S32768x2047, .f32⟩ : BufTy).Contents (Elt F)) (Vf V (Proc.devRef .tc main_call0_v0)) := by
  have h := Ssa.ssa_unary writes_eq V 221 main_call0_v0 main_call0_v1 _ _ _ rfl (by decide) (by decide)
  exact h

set_option maxRecDepth 8192 in
theorem e_main_call0_v2 (V : Valuation τ sig (Elt F)) :
    Vf V (Proc.devRef .tc main_call0_v2) = (maximumf : (⟨S32768x2047, .f32⟩ : BufTy).Contents (Elt F) → (⟨S32768x2047, .f32⟩ : BufTy).Contents (Elt F) → (⟨S32768x2047, .f32⟩ : BufTy).Contents (Elt F)) (Vf V (Proc.devRef .tc main_call0_v1)) (Vf V (Proc.devRef .tc main_v145)) := by
  have h := Ssa.ssa_binary writes_eq V 222 main_call0_v1 main_v145 main_call0_v2 _ _ _ _ rfl (by decide) (by decide) (by decide)
  exact h

set_option maxRecDepth 8192 in
theorem e_main_call0_v3 (V : Valuation τ sig (Elt F)) :
    Vf V (Proc.devRef .tc main_call0_v3) = Vf V (Proc.devRef .tc main_cst_71) := by
  have h := Ssa.ssa_unary writes_eq V 223 main_cst_71 main_call0_v3 _ _ _ rfl (by decide) (by decide)
  exact h

set_option maxRecDepth 8192 in
theorem e_main_call0_v4 (V : Valuation τ sig (Elt F)) :
    Vf V (Proc.devRef .tc main_call0_v4) = (broadcastInDim S32768x2047 ![] bcast_S_S32768x2047 : (⟨S_, .f32⟩ : BufTy).Contents (Elt F) → (⟨S32768x2047, .f32⟩ : BufTy).Contents (Elt F)) (Vf V (Proc.devRef .tc main_call0_v3)) := by
  have h := Ssa.ssa_unary writes_eq V 224 main_call0_v3 main_call0_v4 _ _ _ rfl (by decide) (by decide)
  exact h

set_option maxRecDepth 8192 in
theorem e_main_v146 (V : Valuation τ sig (Elt F)) :
    Vf V (Proc.devRef .tc main_v146) = (minimumf : (⟨S32768x2047, .f32⟩ : BufTy).Contents (Elt F) → (⟨S32768x2047, .f32⟩ : BufTy).Contents (Elt F) → (⟨S32768x2047, .f32⟩ : BufTy).Contents (Elt F)) (Vf V (Proc.devRef .tc main_call0_v4)) (Vf V (Proc.devRef .tc main_call0_v2)) := by
  have h := Ssa.ssa_binary writes_eq V 225 main_call0_v4 main_call0_v2 main_v146 _ _ _ _ rfl (by decide) (by decide) (by decide)
  exact h

set_option maxRecDepth 8192 in
theorem e_main_v147 (V : Valuation τ sig (Elt F)) :
    Vf V (Proc.devRef .tc main_v147) = ((fun a b => concatenate S32768x2303 1 [⟨S32768x256, a⟩, ⟨S32768x2047, b⟩] concatenates_S32768x256_S32768x2047_S32768x2303_d1) : (⟨S32768x256, .f32⟩ : BufTy).Contents (Elt F) → (⟨S32768x2047, .f32⟩ : BufTy).Contents (Elt F) → (⟨S32768x2303, .f32⟩ : BufTy).Contents (Elt F)) (Vf V (Proc.devRef .tc main_v11)) (Vf V (Proc.devRef .tc main_v146)) := by
  have h := Ssa.ssa_binary writes_eq V 226 main_v11 main_v146 main_v147 _ _ _ _ rfl (by decide) (by decide) (by decide)
  exact h

set_option maxRecDepth 8192 in
theorem e_main_v148 (V : Valuation τ sig (Elt F)) :
    Vf V (Proc.devRef .tc main_v148) = ((transpose S2303x1 [1, 0] · transposes_S1x2303_S2303x1_1_0) : (⟨S1x2303, .f32⟩ : BufTy).Contents (Elt F) → (⟨S2303x1, .f32⟩ : BufTy).Contents (Elt F)) (Vf V (Proc.devRef .tc main_arg2)) := by
  have h := Ssa.ssa_unary writes_eq V 227 main_arg2 main_v148 _ _ _ rfl (by decide) (by decide)
  exact h

set_option maxRecDepth 8192 in
theorem e_main_v149 (V : Valuation τ sig (Elt F)) :
    Vf V (Proc.devRef .tc main_v149) = ((fun l r => Host.dotGeneral dot_S32768x2303_S2303x1_S32768x1_1_0_0_1_n_n none l r) : (⟨S32768x2303, .f32⟩ : BufTy).Contents (Elt F) → (⟨S2303x1, .f32⟩ : BufTy).Contents (Elt F) → (⟨S32768x1, .f32⟩ : BufTy).Contents (Elt F)) (Vf V (Proc.devRef .tc main_v147)) (Vf V (Proc.devRef .tc main_v148)) := by
  have h := Ssa.ssa_binary writes_eq V 228 main_v147 main_v148 main_v149 _ _ _ _ rfl (by decide) (by decide) (by decide)
  exact h

set_option maxRecDepth 8192 in
theorem e_main_v150 (V : Valuation τ sig (Elt F)) :
    Vf V (Proc.devRef .tc main_v150) = (broadcastInDim S1x1 ![1] bcast_S1_S1x1_1 : (⟨S1, .f32⟩ : BufTy).Contents (Elt F) → (⟨S1x1, .f32⟩ : BufTy).Contents (Elt F)) (Vf V (Proc.devRef .tc main_arg3)) := by
  have h := Ssa.ssa_unary writes_eq V 229 main_arg3 main_v150 _ _ _ rfl (by decide) (by decide)
  exact h

set_option maxRecDepth 8192 in
theorem e_main_v151 (V : Valuation τ sig (Elt F)) :
    Vf V (Proc.devRef .tc main_v151) = (broadcastInDim S32768x1 ![0, 1] bcast_S1x1_S32768x1_0_1 : (⟨S1x1, .f32⟩ : BufTy).Contents (Elt F) → (⟨S32768x1, .f32⟩ : BufTy).Contents (Elt F)) (Vf V (Proc.devRef .tc main_v150)) := by
  have h := Ssa.ssa_unary writes_eq V 230 main_v150 main_v151 _ _ _ rfl (by decide) (by decide)
  exact h

set_option maxRecDepth 8192 in
theorem e_main_v152 (V : Valuation τ sig (Elt F)) :
    Vf V (Proc.devRef .tc main_v152) = (addf : (⟨S32768x1, .f32⟩ : BufTy).Contents (Elt F) → (⟨S32768x1, .f32⟩ : BufTy).Contents (Elt F) → (⟨S32768x1, .f32⟩ : BufTy).Contents (Elt F)) (Vf V (Proc.devRef .tc main_v149)) (Vf V (Proc.devRef .tc main_v151)) := by
  have h := Ssa.ssa_binary writes_eq V 231 main_v149 main_v151 main_v152 _ _ _ _ rfl (by decide) (by decide) (by decide)
  exact h

set_option maxRecDepth 8192 in
theorem e_main_v153 (V : Valuation τ sig (Elt F)) :
    Vf V (Proc.devRef .tc main_v153) = (Host.negf : (⟨S32768x1, .f32⟩ : BufTy).Contents (Elt F) → (⟨S32768x1, .f32⟩ : BufTy).Contents (Elt F)) (Vf V (Proc.devRef .tc main_v152)) := by
  have h := Ssa.ssa_unary writes_eq V 232 main_v152 main_v153 _ _ _ rfl (by decide) (by decide)
  exact h

set_option maxRecDepth 8192 in
theorem e_main_v154 (V : Valuation τ sig (Elt F)) :
    Vf V (Proc.devRef .tc main_v154) = (Host.exp : (⟨S32768x1, .f32⟩ : BufTy).Contents (Elt F) → (⟨S32768x1, .f32⟩ : BufTy).Contents (Elt F)) (Vf V (Proc.devRef .tc main_v153)) := by
  have h := Ssa.ssa_unary writes_eq V 233 main_v153 main_v154 _ _ _ rfl (by decide) (by decide)
  exact h

set_option maxRecDepth 8192 in
theorem e_main_cst_72 (V : Valuation τ sig (Elt F)) :
    Vf V (Proc.devRef .tc main_cst_72) = ((constant S_ .f32 0x3F800000#32) : main_cst_72.ty.Contents (Elt F)) := by
  have h := Ssa.ssa_nullary writes_eq V 234 main_cst_72 _ _ rfl (by decide)
  exact h

set_option maxRecDepth 8192 in
theorem e_main_v155 (V : Valuation τ sig (Elt F)) :
    Vf V (Proc.devRef .tc main_v155) = (broadcastInDim S32768x1 ![] bcast_S_S32768x1 : (⟨S_, .f32⟩ : BufTy).Contents (Elt F) → (⟨S32768x1, .f32⟩ : BufTy).Contents (Elt F)) (Vf V (Proc.devRef .tc main_cst_72)) := by
  have h := Ssa.ssa_unary writes_eq V 235 main_cst_72 main_v155 _ _ _ rfl (by decide) (by decide)
  exact h

set_option maxRecDepth 8192 in
theorem e_main_v156 (V : Valuation τ sig (Elt F)) :
    Vf V (Proc.devRef .tc main_v156) = (addf : (⟨S32768x1, .f32⟩ : BufTy).Contents (Elt F) → (⟨S32768x1, .f32⟩ : BufTy).Contents (Elt F) → (⟨S32768x1, .f32⟩ : BufTy).Contents (Elt F)) (Vf V (Proc.devRef .tc main_v155)) (Vf V (Proc.devRef .tc main_v154)) := by
  have h := Ssa.ssa_binary writes_eq V 236 main_v155 main_v154 main_v156 _ _ _ _ rfl (by decide) (by decide) (by decide)
  exact h

set_option maxRecDepth 8192 in
theorem e_main_cst_73 (V : Valuation τ sig (Elt F)) :
    Vf V (Proc.devRef .tc main_cst_73) = ((constant S_ .f32 0x3F800000#32) : main_cst_73.ty.Contents (Elt F)) := by
  have h := Ssa.ssa_nullary writes_eq V 237 main_cst_73 _ _ rfl (by decide)
  exact h

set_option maxRecDepth 8192 in
theorem e_main_v157 (V : Valuation τ sig (Elt F)) :
    Vf V (Proc.devRef .tc main_v157) = (broadcastInDim S32768x1 ![] bcast_S_S32768x1 : (⟨S_, .f32⟩ : BufTy).Contents (Elt F) → (⟨S32768x1, .f32⟩ : BufTy).Contents (Elt F)) (Vf V (Proc.devRef .tc main_cst_73)) := by
  have h := Ssa.ssa_unary writes_eq V 238 main_cst_73 main_v157 _ _ _ rfl (by decide) (by decide)
  exact h

set_option maxRecDepth 8192 in
theorem e_main_v158 (V : Valuation τ sig (Elt F)) :
    Vf V (Proc.devRef .tc main_v158) = (Host.divf : (⟨S32768x1, .f32⟩ : BufTy).Contents (Elt F) → (⟨S32768x1, .f32⟩ : BufTy).Contents (Elt F) → (⟨S32768x1, .f32⟩ : BufTy).Contents (Elt F)) (Vf V (Proc.devRef .tc main_v157)) (Vf V (Proc.devRef .tc main_v156)) := by
  have h := Ssa.ssa_binary writes_eq V 239 main_v157 main_v156 main_v158 _ _ _ _ rfl (by decide) (by decide) (by decide)
  exact h

set_option maxRecDepth 8192 in
/-- `main_arg0` is written by no operation: it ends as it began. -/
theorem Vf_main_arg0 (V : Valuation τ sig (Elt F)) : Vf V (Proc.devRef .tc main_arg0) = V (Proc.devRef .tc main_arg0) :=
  Ssa.ssa_keep writes_eq V main_arg0 (by decide)

set_option maxRecDepth 8192 in
/-- `main_arg1` is written by no operation: it ends as it began. -/
theorem Vf_main_arg1 (V : Valuation τ sig (Elt F)) : Vf V (Proc.devRef .tc main_arg1) = V (Proc.devRef .tc main_arg1) :=
  Ssa.ssa_keep writes_eq V main_arg1 (by decide)

set_option maxRecDepth 8192 in
/-- `main_arg2` is written by no operation: it ends as it began. -/
theorem Vf_main_arg2 (V : Valuation τ sig (Elt F)) : Vf V (Proc.devRef .tc main_arg2) = V (Proc.devRef .tc main_arg2) :=
  Ssa.ssa_keep writes_eq V main_arg2 (by decide)

set_option maxRecDepth 8192 in
/-- `main_arg3` is written by no operation: it ends as it began. -/
theorem Vf_main_arg3 (V : Valuation τ sig (Elt F)) : Vf V (Proc.devRef .tc main_arg3) = V (Proc.devRef .tc main_arg3) :=
  Ssa.ssa_keep writes_eq V main_arg3 (by decide)

end Cert.ReferenceIdeal.Run

end
-- ==== Proof.RHead.lean ====
/-
  The reference's head in closed form: the feature rows with a column of ones appended, their scores against the
  split nodes' weight rows (one dot product with the transposed weight matrix), and level 0's column of ones.
-/
import proofs.«154722_j25271587570083_1_alg».proof.Proof.Gen.ReferenceIdeal
import proofs.«154722_j25271587570083_1_alg».proof.Proof.Tree
import Idealize.ShloMosaic.Lib.StackMember
import Idealize.ShloMosaic.Lib.IdealHost
import Idealize.ShloMosaic.Lib.ValueLayout
import Idealize.ShloMosaic.Lib.Pipeline.Value

noncomputable section

namespace Cert.ReferenceIdeal.RHead

open Idealize.ShloMosaic Idealize.ShloMosaic.ValueIdx Cert.Tree Cert.ReferenceIdeal Cert.ReferenceIdeal.Facts₀

variable (X : FVec Ideal S32768x255 .f32) (A : FVec Ideal S1023x256 .f32) (r : Fin 32768)

/-- A scalar one broadcast over a column reads one everywhere. -/
theorem ones_apply (i : S32768x1.Idx) :
    (broadcastInDim S32768x1 ![] bcast_S_S32768x1 (constant (F := Ideal) S_ .f32 0x3F800000#32)) i = 1 := by
  rw [broadcastInDim_scalar_apply, constant_apply, Ideal.ofBits_one_f32]

/-- THE ROW WITH ITS BIAS COLUMN: the 255 features with a column of ones appended read, at row "r", the row's
    features and then one. -/
theorem rx_apply (k : Fin 256) :
    (concatenate S32768x256 1 [⟨S32768x255, X⟩, ⟨S32768x1, broadcastInDim S32768x1 ![] bcast_S_S32768x1
        (constant (F := Ideal) S_ .f32 0x3F800000#32)⟩] concatenates_S32768x255_S32768x1_S32768x256_d1) (ix2 r k)
      = Tree.xrow (Tree.nat2 X r.val) k.val := by
  unfold Tree.xrow
  by_cases hk : k.val < 255
  · rw [if_pos hk]
    refine (concatenate_pair_apply_left (t := S32768x256) (s₁ := S32768x255) (s₂ := S32768x1) (1 : Fin 2) X _
      concatenates_S32768x255_S32768x1_S32768x256_d1 (ix2 r k) rfl (ix2 r (⟨k.val, hk⟩ : Fin 255)) (fun b => by
        match b with
        | ⟨0, _⟩ => rfl
        | ⟨1, _⟩ => rfl)).trans ?_
    exact (Tree.nat2_val X r (⟨k.val, hk⟩ : Fin 255)).symm
  · rw [if_neg hk]
    refine (concatenate_pair_apply_right (t := S32768x256) (s₁ := S32768x255) (s₂ := S32768x1) (1 : Fin 2) X _
      concatenates_S32768x255_S32768x1_S32768x256_d1 (ix2 r k) rfl rfl (ix2 r (0 : Fin 1)) (fun b hb => by
        match b with
        | ⟨0, _⟩ => rfl
        | ⟨1, _⟩ => exact absurd rfl hb) (by
        show 0 + 255 = k.val
        have := k.isLt
        omega)).trans ?_
    exact ones_apply _

/-- THE SPLIT SCORES: a block whose row "r" is the row with its bias column, against the transposed weight matrix,
    reads at "(r, s)" the score of split node "s". -/
theorem rxa_apply (xr : ℕ → EReal) (x : FVec Ideal S32768x256 .f32)
    (hx : ∀ k : Fin 256, x (ix2 r k) = Tree.xrow xr k.val) (s : Fin 1023) :
    Host.dotGeneral dot_S32768x256_S256x1023_S32768x1023_1_0_0_1_n_n none x
      (transpose S256x1023 [1, 0] A transposes_S1023x256_S256x1023_1_0) (ix2 r s)
      = Tree.xa xr (Tree.nat2 A) s.val := by
  have hD : dot_S32768x256_S256x1023_S32768x1023_1_0_0_1_n_n = DotDims.plain 32768 256 1023 := rfl
  unfold Tree.xa
  rw [hD, StackMember.dotGeneral_plain_apply, Finset.sum_range]
  refine Finset.sum_congr rfl fun k _ => ?_
  rw [transpose_ix2_apply, hx, Tree.nat2_val]

/-- LEVEL 0: the column of ones is the root's path value. -/
theorem rq0_apply (scr : ℕ → EReal) (i : Fin 1) :
    (broadcastInDim S32768x1 ![] bcast_S_S32768x1 (constant (F := Ideal) S_ .f32 0x3F800000#32)) (ix2 r i)
      = qv scr 0 i.val := by
  rw [ones_apply, Tree.qv_zero]

end Cert.ReferenceIdeal.RHead

end
-- ==== Proof.TreeR.lean ====
/-
  The reference's operations on one level of the tree, read at an index, for any sizes: a gather of columns by a
  column of start indices, the start indices and the sign row as jnp builds them from constant tables, and the
  level's step `min (parent's value) (parent's score times the child's sign)`.
-/
import proofs.«154722_j25271587570083_1_alg».proof.Proof.TreeK
import Idealize.ShloMosaic.Lib.ValueLayout
import Idealize.ShloMosaic.Lib.Pipeline.Value
import Idealize.ShloMosaic.PureOps.Ideal.Laws

noncomputable section

namespace Cert.TreeR

open Idealize.ShloMosaic Idealize.ShloMosaic.ValueIdx Cert.Tree

variable {α : Type}

/-- The dimension numbers of a gather of COLUMNS: operand `[R, C]`, start indices `[K, 1]` (one column index per
    result column), result `[R, K]`; the row axis is the offset axis, the column axis is collapsed. -/
abbrev colDims (R C K : ℕ)
    (wf : GatherDims.WF ⟨2, ![R, C]⟩ ⟨2, ![K, 1]⟩ ⟨2, ![R, K]⟩ [0] [1] [] [1] [] 1 ![R, 1]) :
    GatherDims ⟨2, ![R, C]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(r, j)`: the operand's row `r` at the column the `j`-th start index names, read
    signed and clamped into `[0, C - 1]`. -/
theorem colGather_apply {R C K w : ℕ} (hC : 0 < C)
    (wf : GatherDims.WF ⟨2, ![R, C]⟩ ⟨2, ![K, 1]⟩ ⟨2, ![R, K]⟩ [0] [1] [] [1] [] 1 ![R, 1])
    (x : (⟨2, ![R, C]⟩ : Shape).Idx → α) (idx : IVec ⟨2, ![K, 1]⟩ w) (r : Fin R) (j : Fin K) :
    Host.gather (colDims R C K wf) x idx (ix2 r j)
      = x (ix2 r ⟨min (idx (ix2 j (0 : Fin 1))).toInt.toNat (C - 1), by omega⟩) := by
  unfold Host.gather
  congr 1
  funext a
  refine Fin.ext ?_
  show (colDims R C K wf).start (ix2 r j) idx a + (colDims R C K wf).batchCoord (ix2 r j) a
      + (colDims R C K wf).offCoord (ix2 r j) a = _
  rw [GatherDims.batchCoord_eq_zero _ _ _ List.not_mem_nil, Nat.add_zero]
  match a with
  | ⟨0, h0⟩ =>
    -- the row axis: not in the start index map (start 0), kept (the offset coordinate is the result's row)
    have hns : (⟨0, h0⟩ : Fin 2) ∉ ([1] : List (Fin 2)) := fun h =>
      absurd (congrArg Fin.val (List.mem_singleton.mp h)) Nat.zero_ne_one
    have hk : (⟨0, h0⟩ : Fin 2) ∈ (colDims R C K wf).sKept :=
      (GatherDims.mem_sKept _ _).mpr ⟨hns, List.not_mem_nil⟩
    unfold GatherDims.start GatherDims.offCoord
    rw [dif_neg hns, dif_pos hk, Nat.zero_add]
    rfl
  | ⟨1, h1⟩ =>
    -- the column axis: collapsed (offset coordinate 0), its start the clamped start index
    have hs : (⟨1, h1⟩ : Fin 2) ∈ (colDims R C K wf).startIndexMap := List.mem_singleton.mpr rfl
    rw [GatherDims.offCoord_eq_zero _ _ _
      (fun h => ((GatherDims.mem_sKept _ _).mp h).1 (List.mem_singleton.mpr rfl)), Nat.add_zero]
    unfold GatherDims.start
    rw [dif_pos hs]
    have hsi : (colDims R C K wf).siIdx (ix2 r j) ⟨List.idxOf (⟨1, h1⟩ : Fin 2) (colDims R C K wf).startIndexMap,
        List.idxOf_lt_length_iff.2 hs⟩ = ix2 j (0 : Fin 1) := by
      funext b; refine Fin.ext ?_
      match b with
      | ⟨0, _⟩ => rfl
      | ⟨1, _⟩ => rfl
    rw [hsi]
    rfl

/-- THE START INDICES as jnp builds them from a table `c` of non-negative indices: `select false (c + K) c`
    (the wrap-around of a negative index, never taken), given a trailing unit axis, reads `c j` at `(j, 0)`. -/
theorem ridx_apply {m : ℕ} (c : IVec ⟨1, ![m]⟩ 32) (K : BitVec 32)
    (hb1 : (⟨0, ![]⟩ : Shape).BroadcastsInDim ⟨1, ![m]⟩ (![] : Fin 0 → Fin 1))
    (hb2 : (⟨1, ![m]⟩ : Shape).BroadcastsInDim ⟨2, ![m, 1]⟩ (![0] : Fin 1 → Fin 2)) (j : Fin m) :
    broadcastInDim ⟨2, ![m, 1]⟩ ![0] hb2
      (select (constantI ⟨1, ![m]⟩ 1 0#1) (addi c (broadcastInDim ⟨1, ![m]⟩ ![] hb1 (constantI ⟨0, ![]⟩ 32 K))) c)
      (ix2 j (0 : Fin 1)) = c (ix1 j) := by
  have hk : ∀ a : Fin 1, ((ix1 j) a).val
      = if (⟨1, ![m]⟩ : Shape).size a = 1 then 0 else ((ix2 j (0 : Fin 1)) ((![0] : Fin 1 → Fin 2) a)).val := by
    intro a
    obtain rfl : a = 0 := Subsingleton.elim _ _
    show j.val = if m = 1 then 0 else j.val
    split
    · next h => have := j.isLt; omega
    · rfl
  rw [broadcastInDim_apply _ hb2 _ _ (ix1 j) hk, select_apply, constantI_apply]
  exact select_zero _ _

/-- THE SIGN ROW broadcast over the rows: a table of `m` signs, given a leading unit axis and broadcast to
    `[R, m]`, reads the table's entry `j` at `(r, j)`. -/
theorem rsign_apply {R m : ℕ} (sgn : (⟨1, ![m]⟩ : Shape).Idx → α)
    (hb1 : (⟨1, ![m]⟩ : Shape).BroadcastsInDim ⟨2, ![1, m]⟩ (![1] : Fin 1 → Fin 2))
    (hb2 : (⟨2, ![1, m]⟩ : Shape).BroadcastsInDim ⟨2, ![R, m]⟩ (![0, 1] : Fin 2 → Fin 2)) (r : Fin R) (j : Fin m) :
    broadcastInDim ⟨2, ![R, m]⟩ ![0, 1] hb2 (broadcastInDim ⟨2, ![1, m]⟩ ![1] hb1 sgn) (ix2 r j) = sgn (ix1 j) := by
  have hk2 : ∀ a : Fin 2, ((ix2 (0 : Fin 1) j) a).val
      = if (⟨2, ![1, m]⟩ : Shape).size a = 1 then 0 else ((ix2 r j) ((![0, 1] : Fin 2 → Fin 2) a)).val := by
    intro a
    match a with
    | ⟨0, _⟩ => exact (if_pos rfl).symm
    | ⟨1, _⟩ =>
      show j.val = if m = 1 then 0 else j.val
      split
      · next h => have := j.isLt; omega
      · rfl
  have hk1 : ∀ a : Fin 1, ((ix1 j) a).val
      = if (⟨1, ![m]⟩ : Shape).size a = 1 then 0 else ((ix2 (0 : Fin 1) j) ((![1] : Fin 1 → Fin 2) a)).val := by
    intro a
    obtain rfl : a = 0 := Subsingleton.elim _ _
    show j.val = if m = 1 then 0 else j.val
    split
    · next h => have := j.isLt; omega
    · rfl
  rw [broadcastInDim_apply _ hb2 _ _ (ix2 (0 : Fin 1) j) hk2, broadcastInDim_apply _ hb1 _ _ (ix1 j) hk1]

/-- ONE LEVEL OF THE TREE in the reference: the parents' path values gathered at `j / 2`, against the parents'
    scores gathered at heap node `2^l - 1 + j / 2` times the child's sign (`+1` for a left child, even `j`; `-1`
    for a right child), are the path values of level `l + 1`. -/
theorem rstep {R n m C : ℕ} (l : ℕ) (hn : n = 2 ^ l) (hm : m = 2 * n) (hC : 2 ^ l - 1 + n ≤ C)
    (wfq : GatherDims.WF ⟨2, ![R, n]⟩ ⟨2, ![m, 1]⟩ ⟨2, ![R, m]⟩ [0] [1] [] [1] [] 1 ![R, 1])
    (wfx : GatherDims.WF ⟨2, ![R, C]⟩ ⟨2, ![m, 1]⟩ ⟨2, ![R, m]⟩ [0] [1] [] [1] [] 1 ![R, 1])
    (sc : FVec Ideal ⟨2, ![R, C]⟩ .f32) (prev : FVec Ideal ⟨2, ![R, n]⟩ .f32)
    (iq ip : IVec ⟨2, ![m, 1]⟩ 32) (sg : FVec Ideal ⟨2, ![R, m]⟩ .f32)
    (r : Fin R) (scr : ℕ → EReal) (hsc : ∀ s : Fin C, sc (ix2 r s) = scr s.val)
    (hprev : ∀ i : Fin n, prev (ix2 r i) = qv scr l i.val)
    (hiq : ∀ j : Fin m, (iq (ix2 j (0 : Fin 1))).toInt.toNat = j.val / 2)
    (hip : ∀ j : Fin m, (ip (ix2 j (0 : Fin 1))).toInt.toNat = 2 ^ l - 1 + j.val / 2)
    (hsg : ∀ j : Fin m, sg (ix2 r j) = if j.val % 2 = 0 then 1 else -1) (j : Fin m) :
    minimumf (Host.gather (colDims R n m wfq) prev iq) (mulf (Host.gather (colDims R C m wfx) sc ip) sg) (ix2 r j)
      = qv scr (l + 1) j.val := by
  have hn0 : 0 < n := by rw [hn]; exact Nat.two_pow_pos l
  have hj : j.val / 2 < n := by have := j.isLt; omega
  have hC0 : 0 < C := by omega
  have hp : 2 ^ l - 1 + j.val / 2 < C := by omega
  -- the parent's path value
  have e1 : Host.gather (colDims R n m wfq) prev iq (ix2 r j) = qv scr l (j.val / 2) := by
    have hf : (⟨min (iq (ix2 j (0 : Fin 1))).toInt.toNat (n - 1), by omega⟩ : Fin n) = ⟨j.val / 2, hj⟩ :=
      Fin.ext (by show min _ _ = _; rw [hiq j]; exact Nat.min_eq_left (by omega))
    rw [colGather_apply hn0 wfq, hf, hprev]
  -- the parent's score
  have e2 : Host.gather (colDims R C m wfx) sc ip (ix2 r j) = scr (2 ^ l - 1 + j.val / 2) := by
    have hf : (⟨min (ip (ix2 j (0 : Fin 1))).toInt.toNat (C - 1), by omega⟩ : Fin C) = ⟨2 ^ l - 1 + j.val / 2, hp⟩ :=
      Fin.ext (by show min _ _ = _; rw [hip j]; exact Nat.min_eq_left (by omega))
    rw [colGather_apply hC0 wfx, hf, hsc]
  rw [minimumf_apply, mulf_apply, e1, e2, hsg j, qv_succ]
  by_cases h : j.val % 2 = 0
  · rw [if_pos h, if_pos h, mul_one]
  · rw [if_neg h, if_neg h, mul_neg_one]

end Cert.TreeR

end
-- ==== Proof.RTables.lean ====
/-
  The constant tables of the reference's ten tree levels, in closed form.

  Level `l` of the tree has `2^l` nodes; node `j` of the level has parent `j / 2` in the level above, which is heap
  node `2^(l-1) - 1 + j / 2`, and is a left child (sign `+1`) when `j` is even and a right child (sign `-1`) when
  `j` is odd.  The reference carries these three facts as literal tables per level: the parents' heap numbers, the
  signs as single-precision words (`0x3F800000` is `1.0`, `0xBF800000` is `-1.0`), and the parents' columns in
  the previous level.  Each table is finite, so each closed form is decided entry by entry.
-/
import proofs.«154722_j25271587570083_1_alg».proof.Proof.Gen.ReferenceIdeal

namespace Cert.ReferenceIdeal.RTables

open Idealize.ShloMosaic Cert.ReferenceIdeal

/-- Level 1: the two children of the root, left then right. -/
theorem sgn_1 : ∀ j : Fin 2, lit0 j = if j.val % 2 = 0 then 0x3F800000#32 else 0xBF800000#32 := by decide

/-- Level 2: node `j`'s parent is heap node `1 + j / 2`. -/
theorem par_2 : ∀ j : Fin 4, (lit1 j).toInt.toNat = 1 + j.val / 2 := by decide
/-- Level 2: node `j` is a left child (`+1`) when `j` is even, a right child (`-1`) when odd. -/
theorem sgn_2 : ∀ j : Fin 4, lit2 j = if j.val % 2 = 0 then 0x3F800000#32 else 0xBF800000#32 := by decide
/-- Level 2: node `j`'s parent is column `j / 2` of level 1. -/
theorem col_2 : ∀ j : Fin 4, (lit3 j).toInt.toNat = j.val / 2 := by decide

/-- Level 3: node `j`'s parent is heap node `3 + j / 2`. -/
theorem par_3 : ∀ j : Fin 8, (lit4 j).toInt.toNat = 3 + j.val / 2 := by decide
/-- Level 3: node `j` is a left child (`+1`) when `j` is even, a right child (`-1`) when odd. -/
theorem sgn_3 : ∀ j : Fin 8, lit5 j = if j.val % 2 = 0 then 0x3F800000#32 else 0xBF800000#32 := by decide
/-- Level 3: node `j`'s parent is column `j / 2` of level 2. -/
theorem col_3 : ∀ j : Fin 8, (lit6 j).toInt.toNat = j.val / 2 := by decide

/-- Level 4: node `j`'s parent is heap node `7 + j / 2`. -/
theorem par_4 : ∀ j : Fin 16, (lit7 j).toInt.toNat = 7 + j.val / 2 := by decide
/-- Level 4: node `j` is a left child (`+1`) when `j` is even, a right child (`-1`) when odd. -/
theorem sgn_4 : ∀ j : Fin 16, lit8 j = if j.val % 2 = 0 then 0x3F800000#32 else 0xBF800000#32 := by decide
/-- Level 4: node `j`'s parent is column `j / 2` of level 3. -/
theorem col_4 : ∀ j : Fin 16, (lit9 j).toInt.toNat = j.val / 2 := by decide

/-- Level 5: node `j`'s parent is heap node `15 + j / 2`. -/
theorem par_5 : ∀ j : Fin 32, (lit10 j).toInt.toNat = 15 + j.val / 2 := by decide +kernel
/-- Level 5: node `j` is a left child (`+1`) when `j` is even, a right child (`-1`) when odd. -/
theorem sgn_5 : ∀ j : Fin 32, lit11 j = if j.val % 2 = 0 then 0x3F800000#32 else 0xBF800000#32 := by decide +kernel
/-- Level 5: node `j`'s parent is column `j / 2` of level 4. -/
theorem col_5 : ∀ j : Fin 32, (lit12 j).toInt.toNat = j.val / 2 := by decide +kernel

/-- Level 6: node `j`'s parent is heap node `31 + j / 2`. -/
theorem par_6 : ∀ j : Fin 64, (lit13 j).toInt.toNat = 31 + j.val / 2 := by decide +kernel
/-- Level 6: node `j` is a left child (`+1`) when `j` is even, a right child (`-1`) when odd. -/
theorem sgn_6 : ∀ j : Fin 64, lit14 j = if j.val % 2 = 0 then 0x3F800000#32 else 0xBF800000#32 := by decide +kernel
/-- Level 6: node `j`'s parent is column `j / 2` of level 5. -/
theorem col_6 : ∀ j : Fin 64, (lit15 j).toInt.toNat = j.val / 2 := by decide +kernel

/-- Level 7: node `j`'s parent is heap node `63 + j / 2`. -/
theorem par_7 : ∀ j : Fin 128, (lit16 j).toInt.toNat = 63 + j.val / 2 := by decide +kernel
/-- Level 7: node `j` is a left child (`+1`) when `j` is even, a right child (`-1`) when odd. -/
theorem sgn_7 : ∀ j : Fin 128, lit17 j = if j.val % 2 = 0 then 0x3F800000#32 else 0xBF800000#32 := by decide +kernel
/-- Level 7: node `j`'s parent is column `j / 2` of level 6. -/
theorem col_7 : ∀ j : Fin 128, (lit18 j).toInt.toNat = j.val / 2 := by decide +kernel

/-- Level 8: node `j`'s parent is heap node `127 + j / 2`. -/
theorem par_8 : ∀ j : Fin 256, (lit19 j).toInt.toNat = 127 + j.val / 2 := by decide +kernel
/-- Level 8: node `j` is a left child (`+1`) when `j` is even, a right child (`-1`) when odd. -/
theorem sgn_8 : ∀ j : Fin 256, lit20 j = if j.val % 2 = 0 then 0x3F800000#32 else 0xBF800000#32 := by decide +kernel
/-- Level 8: node `j`'s parent is column `j / 2` of level 7. -/
theorem col_8 : ∀ j : Fin 256, (lit21 j).toInt.toNat = j.val / 2 := by decide +kernel

/-- Level 9: node `j`'s parent is heap node `255 + j / 2`. -/
theorem par_9 : ∀ j : Fin 512, (lit22 j).toInt.toNat = 255 + j.val / 2 := by decide +kernel
/-- Level 9: node `j` is a left child (`+1`) when `j` is even, a right child (`-1`) when odd. -/
theorem sgn_9 : ∀ j : Fin 512, lit23 j = if j.val % 2 = 0 then 0x3F800000#32 else 0xBF800000#32 := by decide +kernel
/-- Level 9: node `j`'s parent is column `j / 2` of level 8. -/
theorem col_9 : ∀ j : Fin 512, (lit24 j).toInt.toNat = j.val / 2 := by decide +kernel

/-- Level 10: node `j`'s parent is heap node `511 + j / 2`. -/
theorem par_10 : ∀ j : Fin 1024, (lit25 j).toInt.toNat = 511 + j.val / 2 := by decide +kernel
/-- Level 10: node `j` is a left child (`+1`) when `j` is even, a right child (`-1`) when odd. -/
theorem sgn_10 : ∀ j : Fin 1024, lit26 j = if j.val % 2 = 0 then 0x3F800000#32 else 0xBF800000#32 := by decide +kernel
/-- Level 10: node `j`'s parent is column `j / 2` of level 9. -/
theorem col_10 : ∀ j : Fin 1024, (lit27 j).toInt.toNat = j.val / 2 := by decide +kernel

end Cert.ReferenceIdeal.RTables
-- ==== Proof.RLevels.lean ====
/-
  The reference's ten tree levels in closed form.

  Level `l` (`l = 1 … 10`, `2^l` nodes) is computed from the level above and the split scores as
  `minimum (gather previous (j / 2)) (gather scores (2^(l-1) - 1 + j / 2) * sign j)`: the two gathers take their
  column numbers from constant tables (passed through the wrap-around of a negative index, `select false (c + K) c`,
  which is never taken), the signs are a constant row `+1, -1, +1, …` broadcast over the rows.  With the tables'
  closed forms each level is one instance of the general step of the tree: read at row `r` and node `j` it is the
  path value `qv scr l j` of the row's scores `scr`.  Every statement is over variable vectors for the scores and the
  previous level, with the printed operations and constants written out.
-/
import proofs.«154722_j25271587570083_1_alg».proof.Proof.TreeR
import proofs.«154722_j25271587570083_1_alg».proof.Proof.RTables
import proofs.«154722_j25271587570083_1_alg».proof.Proof.Gen.ReferenceIdeal
import Idealize.ShloMosaic.Lib.ValueLayout
import Idealize.ShloMosaic.Lib.Pipeline.Value

noncomputable section

namespace Cert.ReferenceIdeal.RLevels

open Idealize.ShloMosaic Idealize.ShloMosaic.ValueIdx Cert.Tree Cert.ReferenceIdeal
open Cert.ReferenceIdeal.Facts₀ Cert.ReferenceIdeal.Facts

/-- The row-major position of a rank-1 index is its coordinate. -/
theorem rowMajor_ix1 {m : ℕ} (j : Fin m) :
    (⟨1, ![m]⟩ : Shape).rowMajor (ix1 j)
      = ⟨j.val, by have h := ((⟨1, ![m]⟩ : Shape).rowMajor (ix1 j)).isLt; rwa [Shape.rowMajor_val_one] at h⟩ :=
  Fin.ext (Shape.rowMajor_val_one _)

/-- A sign word, `1.0` at an even place and `-1.0` at an odd one, denotes `1` or `-1`. -/
theorem sign_val (b : BitVec 32) (k : ℕ) (h : b = if k % 2 = 0 then 0x3F800000#32 else 0xBF800000#32) :
    Ideal.ofBits .f32 b = if k % 2 = 0 then 1 else -1 := by
  rw [h]
  split
  · exact TreeK.ofBits_one
  · exact TreeK.ofBits_neg_one

/-- LEVEL 1 of the reference (the root's two children, read at row `r`, node `j`): both column tables are the
    constant `0` (the one parent, the root, is column 0 of level 0 and heap node 0), so the level is the minimum of the
    root's value and the root's score times the child's sign: the path value `qv scr 1 j`. -/
theorem rlevel_1 (sc : FVec Ideal S32768x1023 .f32) (prev : FVec Ideal S32768x1 .f32) (r : Fin 32768) (scr : ℕ → EReal)
    (hsc : ∀ s : Fin 1023, sc (ix2 r s) = scr s.val) (hprev : ∀ i : Fin 1, prev (ix2 r i) = qv scr 0 i.val) (j : Fin 2) :
    minimumf
      (Host.gather gather_S32768x1_S2x1_S32768x2_0_1_n_n_1_1_327681 prev
        (broadcastInDim S2x1 ![0] bcast_S2_S2x1_0
          (select (constantI S2 1 0#1)
            (addi (constantI S2 32 0#32) (broadcastInDim S2 ![] bcast_S_S2 (constantI S_ 32 1#32)))
            (constantI S2 32 0#32))))
      (mulf
        (Host.gather gather_S32768x1023_S2x1_S32768x2_0_1_n_n_1_1_327681 sc
          (broadcastInDim S2x1 ![0] bcast_S2_S2x1_0
            (select (constantI S2 1 0#1)
              (addi (constantI S2 32 0#32) (broadcastInDim S2 ![] bcast_S_S2 (constantI S_ 32 1023#32)))
              (constantI S2 32 0#32))))
        (broadcastInDim S32768x2 ![0, 1] bcast_S1x2_S32768x2_0_1
          (broadcastInDim S1x2 ![1] bcast_S2_S1x2_1 (fun i => FloatOps.ofBits .f32 (lit0 (S2.rowMajor i))))))
      (ix2 r j) = qv scr 1 j.val := by
  have h0 : (0#32 : BitVec 32).toInt.toNat = 0 := by decide
  refine TreeR.rstep 0 rfl rfl (by norm_num) gather_S32768x1_S2x1_S32768x2_0_1_n_n_1_1_327681_wf
    gather_S32768x1023_S2x1_S32768x2_0_1_n_n_1_1_327681_wf sc prev _ _ _ r scr hsc hprev ?_ ?_ ?_ j
  · intro j
    rw [TreeR.ridx_apply]
    show (0#32 : BitVec 32).toInt.toNat = j.val / 2
    rw [h0]; omega
  · intro j
    rw [TreeR.ridx_apply]
    show (0#32 : BitVec 32).toInt.toNat = 2 ^ 0 - 1 + j.val / 2
    rw [h0]; omega
  · intro j
    rw [TreeR.rsign_apply, rowMajor_ix1]
    exact sign_val _ _ (RTables.sgn_1 j)

/-- LEVEL 2 of the reference (4 nodes, read at row `r`, node `j`): the minimum of the parents' path values
    (level 1, gathered at columns `j / 2`) and the parents' scores (heap nodes `1 + j / 2`) times the children's
    signs is the path value `qv scr 2 j`. -/
theorem rlevel_2 (sc : FVec Ideal S32768x1023 .f32) (prev : FVec Ideal S32768x2 .f32) (r : Fin 32768) (scr : ℕ → EReal)
    (hsc : ∀ s : Fin 1023, sc (ix2 r s) = scr s.val) (hprev : ∀ i : Fin 2, prev (ix2 r i) = qv scr 1 i.val) (j : Fin 4) :
    minimumf
      (Host.gather gather_S32768x2_S4x1_S32768x4_0_1_n_n_1_1_327681 prev
        (broadcastInDim S4x1 ![0] bcast_S4_S4x1_0
          (select (constantI S4 1 0#1)
            (addi (fun i => lit3 (S4.rowMajor i)) (broadcastInDim S4 ![] bcast_S_S4 (constantI S_ 32 2#32)))
            (fun i => lit3 (S4.rowMajor i)))))
      (mulf
        (Host.gather gather_S32768x1023_S4x1_S32768x4_0_1_n_n_1_1_327681 sc
          (broadcastInDim S4x1 ![0] bcast_S4_S4x1_0
            (select (constantI S4 1 0#1)
              (addi (fun i => lit1 (S4.rowMajor i)) (broadcastInDim S4 ![] bcast_S_S4 (constantI S_ 32 1023#32)))
              (fun i => lit1 (S4.rowMajor i)))))
        (broadcastInDim S32768x4 ![0, 1] bcast_S1x4_S32768x4_0_1
          (broadcastInDim S1x4 ![1] bcast_S4_S1x4_1 (fun i => FloatOps.ofBits .f32 (lit2 (S4.rowMajor i))))))
      (ix2 r j) = qv scr 2 j.val := by
  refine TreeR.rstep 1 rfl rfl (by norm_num) gather_S32768x2_S4x1_S32768x4_0_1_n_n_1_1_327681_wf
    gather_S32768x1023_S4x1_S32768x4_0_1_n_n_1_1_327681_wf sc prev _ _ _ r scr hsc hprev ?_ ?_ ?_ j
  · intro j
    rw [TreeR.ridx_apply, rowMajor_ix1]
    exact RTables.col_2 j
  · intro j
    rw [TreeR.ridx_apply, rowMajor_ix1]
    exact RTables.par_2 j
  · intro j
    rw [TreeR.rsign_apply, rowMajor_ix1]
    exact sign_val _ _ (RTables.sgn_2 j)

/-- LEVEL 3 of the reference (8 nodes, read at row `r`, node `j`): the minimum of the parents' path values
    (level 2, gathered at columns `j / 2`) and the parents' scores (heap nodes `3 + j / 2`) times the children's
    signs is the path value `qv scr 3 j`. -/
theorem rlevel_3 (sc : FVec Ideal S32768x1023 .f32) (prev : FVec Ideal S32768x4 .f32) (r : Fin 32768) (scr : ℕ → EReal)
    (hsc : ∀ s : Fin 1023, sc (ix2 r s) = scr s.val) (hprev : ∀ i : Fin 4, prev (ix2 r i) = qv scr 2 i.val) (j : Fin 8) :
    minimumf
      (Host.gather gather_S32768x4_S8x1_S32768x8_0_1_n_n_1_1_327681 prev
        (broadcastInDim S8x1 ![0] bcast_S8_S8x1_0
          (select (constantI S8 1 0#1)
            (addi (fun i => lit6 (S8.rowMajor i)) (broadcastInDim S8 ![] bcast_S_S8 (constantI S_ 32 4#32)))
            (fun i => lit6 (S8.rowMajor i)))))
      (mulf
        (Host.gather gather_S32768x1023_S8x1_S32768x8_0_1_n_n_1_1_327681 sc
          (broadcastInDim S8x1 ![0] bcast_S8_S8x1_0
            (select (constantI S8 1 0#1)
              (addi (fun i => lit4 (S8.rowMajor i)) (broadcastInDim S8 ![] bcast_S_S8 (constantI S_ 32 1023#32)))
              (fun i => lit4 (S8.rowMajor i)))))
        (broadcastInDim S32768x8 ![0, 1] bcast_S1x8_S32768x8_0_1
          (broadcastInDim S1x8 ![1] bcast_S8_S1x8_1 (fun i => FloatOps.ofBits .f32 (lit5 (S8.rowMajor i))))))
      (ix2 r j) = qv scr 3 j.val := by
  refine TreeR.rstep 2 rfl rfl (by norm_num) gather_S32768x4_S8x1_S32768x8_0_1_n_n_1_1_327681_wf
    gather_S32768x1023_S8x1_S32768x8_0_1_n_n_1_1_327681_wf sc prev _ _ _ r scr hsc hprev ?_ ?_ ?_ j
  · intro j
    rw [TreeR.ridx_apply, rowMajor_ix1]
    exact RTables.col_3 j
  · intro j
    rw [TreeR.ridx_apply, rowMajor_ix1]
    exact RTables.par_3 j
  · intro j
    rw [TreeR.rsign_apply, rowMajor_ix1]
    exact sign_val _ _ (RTables.sgn_3 j)

/-- LEVEL 4 of the reference (16 nodes, read at row `r`, node `j`): the minimum of the parents' path values
    (level 3, gathered at columns `j / 2`) and the parents' scores (heap nodes `7 + j / 2`) times the children's
    signs is the path value `qv scr 4 j`. -/
theorem rlevel_4 (sc : FVec Ideal S32768x1023 .f32) (prev : FVec Ideal S32768x8 .f32) (r : Fin 32768) (scr : ℕ → EReal)
    (hsc : ∀ s : Fin 1023, sc (ix2 r s) = scr s.val) (hprev : ∀ i : Fin 8, prev (ix2 r i) = qv scr 3 i.val) (j : Fin 16) :
    minimumf
      (Host.gather gather_S32768x8_S16x1_S32768x16_0_1_n_n_1_1_327681 prev
        (broadcastInDim S16x1 ![0] bcast_S16_S16x1_0
          (select (constantI S16 1 0#1)
            (addi (fun i => lit9 (S16.rowMajor i)) (broadcastInDim S16 ![] bcast_S_S16 (constantI S_ 32 8#32)))
            (fun i => lit9 (S16.rowMajor i)))))
      (mulf
        (Host.gather gather_S32768x1023_S16x1_S32768x16_0_1_n_n_1_1_327681 sc
          (broadcastInDim S16x1 ![0] bcast_S16_S16x1_0
            (select (constantI S16 1 0#1)
              (addi (fun i => lit7 (S16.rowMajor i)) (broadcastInDim S16 ![] bcast_S_S16 (constantI S_ 32 1023#32)))
              (fun i => lit7 (S16.rowMajor i)))))
        (broadcastInDim S32768x16 ![0, 1] bcast_S1x16_S32768x16_0_1
          (broadcastInDim S1x16 ![1] bcast_S16_S1x16_1 (fun i => FloatOps.ofBits .f32 (lit8 (S16.rowMajor i))))))
      (ix2 r j) = qv scr 4 j.val := by
  refine TreeR.rstep 3 rfl rfl (by norm_num) gather_S32768x8_S16x1_S32768x16_0_1_n_n_1_1_327681_wf
    gather_S32768x1023_S16x1_S32768x16_0_1_n_n_1_1_327681_wf sc prev _ _ _ r scr hsc hprev ?_ ?_ ?_ j
  · intro j
    rw [TreeR.ridx_apply, rowMajor_ix1]
    exact RTables.col_4 j
  · intro j
    rw [TreeR.ridx_apply, rowMajor_ix1]
    exact RTables.par_4 j
  · intro j
    rw [TreeR.rsign_apply, rowMajor_ix1]
    exact sign_val _ _ (RTables.sgn_4 j)

/-- LEVEL 5 of the reference (32 nodes, read at row `r`, node `j`): the minimum of the parents' path values
    (level 4, gathered at columns `j / 2`) and the parents' scores (heap nodes `15 + j / 2`) times the children's
    signs is the path value `qv scr 5 j`. -/
theorem rlevel_5 (sc : FVec Ideal S32768x1023 .f32) (prev : FVec Ideal S32768x16 .f32) (r : Fin 32768) (scr : ℕ → EReal)
    (hsc : ∀ s : Fin 1023, sc (ix2 r s) = scr s.val) (hprev : ∀ i : Fin 16, prev (ix2 r i) = qv scr 4 i.val) (j : Fin 32) :
    minimumf
      (Host.gather gather_S32768x16_S32x1_S32768x32_0_1_n_n_1_1_327681 prev
        (broadcastInDim S32x1 ![0] bcast_S32_S32x1_0
          (select (constantI S32 1 0#1)
            (addi (fun i => lit12 (S32.rowMajor i)) (broadcastInDim S32 ![] bcast_S_S32 (constantI S_ 32 16#32)))
            (fun i => lit12 (S32.rowMajor i)))))
      (mulf
        (Host.gather gather_S32768x1023_S32x1_S32768x32_0_1_n_n_1_1_327681 sc
          (broadcastInDim S32x1 ![0] bcast_S32_S32x1_0
            (select (constantI S32 1 0#1)
              (addi (fun i => lit10 (S32.rowMajor i)) (broadcastInDim S32 ![] bcast_S_S32 (constantI S_ 32 1023#32)))
              (fun i => lit10 (S32.rowMajor i)))))
        (broadcastInDim S32768x32 ![0, 1] bcast_S1x32_S32768x32_0_1
          (broadcastInDim S1x32 ![1] bcast_S32_S1x32_1 (fun i => FloatOps.ofBits .f32 (lit11 (S32.rowMajor i))))))
      (ix2 r j) = qv scr 5 j.val := by
  refine TreeR.rstep 4 rfl rfl (by norm_num) gather_S32768x16_S32x1_S32768x32_0_1_n_n_1_1_327681_wf
    gather_S32768x1023_S32x1_S32768x32_0_1_n_n_1_1_327681_wf sc prev _ _ _ r scr hsc hprev ?_ ?_ ?_ j
  · intro j
    rw [TreeR.ridx_apply, rowMajor_ix1]
    exact RTables.col_5 j
  · intro j
    rw [TreeR.ridx_apply, rowMajor_ix1]
    exact RTables.par_5 j
  · intro j
    rw [TreeR.rsign_apply, rowMajor_ix1]
    exact sign_val _ _ (RTables.sgn_5 j)

/-- LEVEL 6 of the reference (64 nodes, read at row `r`, node `j`): the minimum of the parents' path values
    (level 5, gathered at columns `j / 2`) and the parents' scores (heap nodes `31 + j / 2`) times the children's
    signs is the path value `qv scr 6 j`. -/
theorem rlevel_6 (sc : FVec Ideal S32768x1023 .f32) (prev : FVec Ideal S32768x32 .f32) (r : Fin 32768) (scr : ℕ → EReal)
    (hsc : ∀ s : Fin 1023, sc (ix2 r s) = scr s.val) (hprev : ∀ i : Fin 32, prev (ix2 r i) = qv scr 5 i.val) (j : Fin 64) :
    minimumf
      (Host.gather gather_S32768x32_S64x1_S32768x64_0_1_n_n_1_1_327681 prev
        (broadcastInDim S64x1 ![0] bcast_S64_S64x1_0
          (select (constantI S64 1 0#1)
            (addi (fun i => lit15 (S64.rowMajor i)) (broadcastInDim S64 ![] bcast_S_S64 (constantI S_ 32 32#32)))
            (fun i => lit15 (S64.rowMajor i)))))
      (mulf
        (Host.gather gather_S32768x1023_S64x1_S32768x64_0_1_n_n_1_1_327681 sc
          (broadcastInDim S64x1 ![0] bcast_S64_S64x1_0
            (select (constantI S64 1 0#1)
              (addi (fun i => lit13 (S64.rowMajor i)) (broadcastInDim S64 ![] bcast_S_S64 (constantI S_ 32 1023#32)))
              (fun i => lit13 (S64.rowMajor i)))))
        (broadcastInDim S32768x64 ![0, 1] bcast_S1x64_S32768x64_0_1
          (broadcastInDim S1x64 ![1] bcast_S64_S1x64_1 (fun i => FloatOps.ofBits .f32 (lit14 (S64.rowMajor i))))))
      (ix2 r j) = qv scr 6 j.val := by
  refine TreeR.rstep 5 rfl rfl (by norm_num) gather_S32768x32_S64x1_S32768x64_0_1_n_n_1_1_327681_wf
    gather_S32768x1023_S64x1_S32768x64_0_1_n_n_1_1_327681_wf sc prev _ _ _ r scr hsc hprev ?_ ?_ ?_ j
  · intro j
    rw [TreeR.ridx_apply, rowMajor_ix1]
    exact RTables.col_6 j
  · intro j
    rw [TreeR.ridx_apply, rowMajor_ix1]
    exact RTables.par_6 j
  · intro j
    rw [TreeR.rsign_apply, rowMajor_ix1]
    exact sign_val _ _ (RTables.sgn_6 j)

/-- LEVEL 7 of the reference (128 nodes, read at row `r`, node `j`): the minimum of the parents' path values
    (level 6, gathered at columns `j / 2`) and the parents' scores (heap nodes `63 + j / 2`) times the children's
    signs is the path value `qv scr 7 j`. -/
theorem rlevel_7 (sc : FVec Ideal S32768x1023 .f32) (prev : FVec Ideal S32768x64 .f32) (r : Fin 32768) (scr : ℕ → EReal)
    (hsc : ∀ s : Fin 1023, sc (ix2 r s) = scr s.val) (hprev : ∀ i : Fin 64, prev (ix2 r i) = qv scr 6 i.val) (j : Fin 128) :
    minimumf
      (Host.gather gather_S32768x64_S128x1_S32768x128_0_1_n_n_1_1_327681 prev
        (broadcastInDim S128x1 ![0] bcast_S128_S128x1_0
          (select (constantI S128 1 0#1)
            (addi (fun i => lit18 (S128.rowMajor i)) (broadcastInDim S128 ![] bcast_S_S128 (constantI S_ 32 64#32)))
            (fun i => lit18 (S128.rowMajor i)))))
      (mulf
        (Host.gather gather_S32768x1023_S128x1_S32768x128_0_1_n_n_1_1_327681 sc
          (broadcastInDim S128x1 ![0] bcast_S128_S128x1_0
            (select (constantI S128 1 0#1)
              (addi (fun i => lit16 (S128.rowMajor i)) (broadcastInDim S128 ![] bcast_S_S128 (constantI S_ 32 1023#32)))
              (fun i => lit16 (S128.rowMajor i)))))
        (broadcastInDim S32768x128 ![0, 1] bcast_S1x128_S32768x128_0_1
          (broadcastInDim S1x128 ![1] bcast_S128_S1x128_1 (fun i => FloatOps.ofBits .f32 (lit17 (S128.rowMajor i))))))
      (ix2 r j) = qv scr 7 j.val := by
  refine TreeR.rstep 6 rfl rfl (by norm_num) gather_S32768x64_S128x1_S32768x128_0_1_n_n_1_1_327681_wf
    gather_S32768x1023_S128x1_S32768x128_0_1_n_n_1_1_327681_wf sc prev _ _ _ r scr hsc hprev ?_ ?_ ?_ j
  · intro j
    rw [TreeR.ridx_apply, rowMajor_ix1]
    exact RTables.col_7 j
  · intro j
    rw [TreeR.ridx_apply, rowMajor_ix1]
    exact RTables.par_7 j
  · intro j
    rw [TreeR.rsign_apply, rowMajor_ix1]
    exact sign_val _ _ (RTables.sgn_7 j)

/-- LEVEL 8 of the reference (256 nodes, read at row `r`, node `j`): the minimum of the parents' path values
    (level 7, gathered at columns `j / 2`) and the parents' scores (heap nodes `127 + j / 2`) times the children's
    signs is the path value `qv scr 8 j`. -/
theorem rlevel_8 (sc : FVec Ideal S32768x1023 .f32) (prev : FVec Ideal S32768x128 .f32) (r : Fin 32768) (scr : ℕ → EReal)
    (hsc : ∀ s : Fin 1023, sc (ix2 r s) = scr s.val) (hprev : ∀ i : Fin 128, prev (ix2 r i) = qv scr 7 i.val) (j : Fin 256) :
    minimumf
      (Host.gather gather_S32768x128_S256x1_S32768x256_0_1_n_n_1_1_327681 prev
        (broadcastInDim S256x1 ![0] bcast_S256_S256x1_0
          (select (constantI S256 1 0#1)
            (addi (fun i => lit21 (S256.rowMajor i)) (broadcastInDim S256 ![] bcast_S_S256 (constantI S_ 32 128#32)))
            (fun i => lit21 (S256.rowMajor i)))))
      (mulf
        (Host.gather gather_S32768x1023_S256x1_S32768x256_0_1_n_n_1_1_327681 sc
          (broadcastInDim S256x1 ![0] bcast_S256_S256x1_0
            (select (constantI S256 1 0#1)
              (addi (fun i => lit19 (S256.rowMajor i)) (broadcastInDim S256 ![] bcast_S_S256 (constantI S_ 32 1023#32)))
              (fun i => lit19 (S256.rowMajor i)))))
        (broadcastInDim S32768x256 ![0, 1] bcast_S1x256_S32768x256_0_1
          (broadcastInDim S1x256 ![1] bcast_S256_S1x256_1 (fun i => FloatOps.ofBits .f32 (lit20 (S256.rowMajor i))))))
      (ix2 r j) = qv scr 8 j.val := by
  refine TreeR.rstep 7 rfl rfl (by norm_num) gather_S32768x128_S256x1_S32768x256_0_1_n_n_1_1_327681_wf
    gather_S32768x1023_S256x1_S32768x256_0_1_n_n_1_1_327681_wf sc prev _ _ _ r scr hsc hprev ?_ ?_ ?_ j
  · intro j
    rw [TreeR.ridx_apply, rowMajor_ix1]
    exact RTables.col_8 j
  · intro j
    rw [TreeR.ridx_apply, rowMajor_ix1]
    exact RTables.par_8 j
  · intro j
    rw [TreeR.rsign_apply, rowMajor_ix1]
    exact sign_val _ _ (RTables.sgn_8 j)

/-- LEVEL 9 of the reference (512 nodes, read at row `r`, node `j`): the minimum of the parents' path values
    (level 8, gathered at columns `j / 2`) and the parents' scores (heap nodes `255 + j / 2`) times the children's
    signs is the path value `qv scr 9 j`. -/
theorem rlevel_9 (sc : FVec Ideal S32768x1023 .f32) (prev : FVec Ideal S32768x256 .f32) (r : Fin 32768) (scr : ℕ → EReal)
    (hsc : ∀ s : Fin 1023, sc (ix2 r s) = scr s.val) (hprev : ∀ i : Fin 256, prev (ix2 r i) = qv scr 8 i.val) (j : Fin 512) :
    minimumf
      (Host.gather gather_S32768x256_S512x1_S32768x512_0_1_n_n_1_1_327681 prev
        (broadcastInDim S512x1 ![0] bcast_S512_S512x1_0
          (select (constantI S512 1 0#1)
            (addi (fun i => lit24 (S512.rowMajor i)) (broadcastInDim S512 ![] bcast_S_S512 (constantI S_ 32 256#32)))
            (fun i => lit24 (S512.rowMajor i)))))
      (mulf
        (Host.gather gather_S32768x1023_S512x1_S32768x512_0_1_n_n_1_1_327681 sc
          (broadcastInDim S512x1 ![0] bcast_S512_S512x1_0
            (select (constantI S512 1 0#1)
              (addi (fun i => lit22 (S512.rowMajor i)) (broadcastInDim S512 ![] bcast_S_S512 (constantI S_ 32 1023#32)))
              (fun i => lit22 (S512.rowMajor i)))))
        (broadcastInDim S32768x512 ![0, 1] bcast_S1x512_S32768x512_0_1
          (broadcastInDim S1x512 ![1] bcast_S512_S1x512_1 (fun i => FloatOps.ofBits .f32 (lit23 (S512.rowMajor i))))))
      (ix2 r j) = qv scr 9 j.val := by
  refine TreeR.rstep 8 rfl rfl (by norm_num) gather_S32768x256_S512x1_S32768x512_0_1_n_n_1_1_327681_wf
    gather_S32768x1023_S512x1_S32768x512_0_1_n_n_1_1_327681_wf sc prev _ _ _ r scr hsc hprev ?_ ?_ ?_ j
  · intro j
    rw [TreeR.ridx_apply, rowMajor_ix1]
    exact RTables.col_9 j
  · intro j
    rw [TreeR.ridx_apply, rowMajor_ix1]
    exact RTables.par_9 j
  · intro j
    rw [TreeR.rsign_apply, rowMajor_ix1]
    exact sign_val _ _ (RTables.sgn_9 j)

/-- LEVEL 10 of the reference (1024 nodes, read at row `r`, node `j`): the minimum of the parents' path values
    (level 9, gathered at columns `j / 2`) and the parents' scores (heap nodes `511 + j / 2`) times the children's
    signs is the path value `qv scr 10 j`. -/
theorem rlevel_10 (sc : FVec Ideal S32768x1023 .f32) (prev : FVec Ideal S32768x512 .f32) (r : Fin 32768) (scr : ℕ → EReal)
    (hsc : ∀ s : Fin 1023, sc (ix2 r s) = scr s.val) (hprev : ∀ i : Fin 512, prev (ix2 r i) = qv scr 9 i.val) (j : Fin 1024) :
    minimumf
      (Host.gather gather_S32768x512_S1024x1_S32768x1024_0_1_n_n_1_1_327681 prev
        (broadcastInDim S1024x1 ![0] bcast_S1024_S1024x1_0
          (select (constantI S1024 1 0#1)
            (addi (fun i => lit27 (S1024.rowMajor i)) (broadcastInDim S1024 ![] bcast_S_S1024 (constantI S_ 32 512#32)))
            (fun i => lit27 (S1024.rowMajor i)))))
      (mulf
        (Host.gather gather_S32768x1023_S1024x1_S32768x1024_0_1_n_n_1_1_327681 sc
          (broadcastInDim S1024x1 ![0] bcast_S1024_S1024x1_0
            (select (constantI S1024 1 0#1)
              (addi (fun i => lit25 (S1024.rowMajor i)) (broadcastInDim S1024 ![] bcast_S_S1024 (constantI S_ 32 1023#32)))
              (fun i => lit25 (S1024.rowMajor i)))))
        (broadcastInDim S32768x1024 ![0, 1] bcast_S1x1024_S32768x1024_0_1
          (broadcastInDim S1x1024 ![1] bcast_S1024_S1x1024_1 (fun i => FloatOps.ofBits .f32 (lit26 (S1024.rowMajor i))))))
      (ix2 r j) = qv scr 10 j.val := by
  refine TreeR.rstep 9 rfl rfl (by norm_num) gather_S32768x512_S1024x1_S32768x1024_0_1_n_n_1_1_327681_wf
    gather_S32768x1023_S1024x1_S32768x1024_0_1_n_n_1_1_327681_wf sc prev _ _ _ r scr hsc hprev ?_ ?_ ?_ j
  · intro j
    rw [TreeR.ridx_apply, rowMajor_ix1]
    exact RTables.col_10 j
  · intro j
    rw [TreeR.ridx_apply, rowMajor_ix1]
    exact RTables.par_10 j
  · intro j
    rw [TreeR.rsign_apply, rowMajor_ix1]
    exact sign_val _ _ (RTables.sgn_10 j)

end Cert.ReferenceIdeal.RLevels

end
-- ==== Proof.RTail.lean ====
/-
  The reference's tail in closed form: the row with its bias column and the 2047 clipped path values laid side by
  side, one dot product with the weight row over all 2303 columns, the bias added, and the logistic spelled as
  negate, exponential, add one, divide.  Read at row r it is the logistic of the row's logit.
-/
import proofs.«154722_j25271587570083_1_alg».proof.Proof.Gen.ReferenceIdeal
import proofs.«154722_j25271587570083_1_alg».proof.Proof.Tree
import Idealize.ShloMosaic.Lib.StackMember
import Idealize.ShloMosaic.Lib.IdealHost
import Idealize.ShloMosaic.Lib.ValueLayout
import Idealize.ShloMosaic.Lib.Pipeline.Value

noncomputable section

namespace Cert.ReferenceIdeal.RTail

open Idealize.ShloMosaic Idealize.ShloMosaic.ValueIdx Cert.Tree Cert.ReferenceIdeal Cert.ReferenceIdeal.Facts₀

/-- A scalar one broadcast over a column reads one everywhere. -/
theorem ones_apply (i : S32768x1.Idx) :
    (broadcastInDim S32768x1 ![] bcast_S_S32768x1 (constant (F := Ideal) S_ .f32 0x3F800000#32)) i = 1 := by
  rw [broadcastInDim_scalar_apply, constant_apply, Ideal.ofBits_one_f32]

/-- Negate, exponential, add one, divide one by it: the logistic, element by element. -/
theorem logistic_apply (t : FVec Ideal S32768x1 .f32) (i : S32768x1.Idx) :
    Host.divf (broadcastInDim S32768x1 ![] bcast_S_S32768x1 (constant (F := Ideal) S_ .f32 0x3F800000#32))
      (addf (broadcastInDim S32768x1 ![] bcast_S_S32768x1 (constant (F := Ideal) S_ .f32 0x3F800000#32))
        (Host.exp (Host.negf t))) i = Ideal.logistic (t i) := by
  show Ideal.div ((broadcastInDim S32768x1 ![] bcast_S_S32768x1 (constant (F := Ideal) S_ .f32 0x3F800000#32)) i)
      ((broadcastInDim S32768x1 ![] bcast_S_S32768x1 (constant (F := Ideal) S_ .f32 0x3F800000#32)) i
        + Ideal.exp (-(t i))) = _
  rw [ones_apply]
  rfl

/-- The bias, given a leading unit axis and broadcast over the rows, reads the bias at every row. -/
theorem bias_apply (b : FVec Ideal S1 .f32) (r : Fin 32768) :
    (broadcastInDim S32768x1 ![0, 1] bcast_S1x1_S32768x1_0_1 (broadcastInDim S1x1 ![1] bcast_S1_S1x1_1 b))
      (ix2 r (0 : Fin 1)) = b (ix1 (0 : Fin 1)) := by
  rw [broadcastInDim_apply ![0, 1] bcast_S1x1_S32768x1_0_1 _ (ix2 r (0 : Fin 1)) (ix2 (0 : Fin 1) (0 : Fin 1))
    (fun a => by match a with | ⟨0, _⟩ => rfl | ⟨1, _⟩ => rfl)]
  exact broadcastInDim_apply ![1] bcast_S1_S1x1_1 b (ix2 (0 : Fin 1) (0 : Fin 1)) (ix1 (0 : Fin 1))
    (fun a => by match a with | ⟨0, _⟩ => rfl)

/-- ONE PIECE OF A CONCATENATION ALONG THE COLUMNS: the piece "k", whose columns start at "pre", read at its
    column "j", is the concatenation at column "pre + j". -/
theorem cat_piece {α : Type} {R C : ℕ} (xs : List ((s : Shape) × (s.Idx → α)))
    (h : Shape.Concatenates (xs.map (·.1)) ⟨2, ![R, C]⟩ 1) (k : ℕ) (hk : k < xs.length) (n : ℕ)
    (q : (⟨2, ![R, n]⟩ : Shape).Idx → α) (hxk : xs[k] = ⟨⟨2, ![R, n]⟩, q⟩) (pre : ℕ)
    (hpre : (((xs.take k).map (·.1)).map fun s =>
      if h : s.rank = (⟨2, ![R, C]⟩ : Shape).rank then s.size ((1 : Fin 2).cast h.symm) else 0).sum = pre)
    (r : Fin R) (j : Fin n) (c : Fin C) (hc : pre + j.val = c.val) :
    concatenate ⟨2, ![R, C]⟩ 1 xs h (ix2 r c) = q (ix2 r j) :=
  concatenate_apply_piece (t := ⟨2, ![R, C]⟩) (1 : Fin 2) xs h (ix2 r c) k hk ⟨2, ![R, n]⟩ q hxk rfl pre hpre (ix2 r j)
    (fun b hb => by
      match b with
      | ⟨0, _⟩ => rfl
      | ⟨1, _⟩ => exact absurd rfl hb) hc

/-- The row and the clipped path values side by side: the first 256 columns are the row's. -/
theorem xz_left (x : FVec Ideal S32768x256 .f32) (z : FVec Ideal S32768x2047 .f32) (r : Fin 32768) (k : Fin 256)
    (c : Fin 2303) (hc : c.val = k.val) :
    concatenate S32768x2303 1 [⟨S32768x256, x⟩, ⟨S32768x2047, z⟩] concatenates_S32768x256_S32768x2047_S32768x2303_d1
      (ix2 r c) = x (ix2 r k) :=
  concatenate_pair_apply_left (t := S32768x2303) (s₁ := S32768x256) (s₂ := S32768x2047) (1 : Fin 2) x z concatenates_S32768x256_S32768x2047_S32768x2303_d1 (ix2 r c) rfl
    (ix2 r k) (fun b => by
      match b with
      | ⟨0, _⟩ => rfl
      | ⟨1, _⟩ => exact hc.symm)

/-- … and the columns from 256 on are the path values'. -/
theorem xz_right (x : FVec Ideal S32768x256 .f32) (z : FVec Ideal S32768x2047 .f32) (r : Fin 32768) (k : Fin 2047)
    (c : Fin 2303) (hc : k.val + 256 = c.val) :
    concatenate S32768x2303 1 [⟨S32768x256, x⟩, ⟨S32768x2047, z⟩] concatenates_S32768x256_S32768x2047_S32768x2303_d1
      (ix2 r c) = z (ix2 r k) :=
  concatenate_pair_apply_right (t := S32768x2303) (s₁ := S32768x256) (s₂ := S32768x2047) (1 : Fin 2) x z concatenates_S32768x256_S32768x2047_S32768x2303_d1 (ix2 r c) rfl rfl
    (ix2 r k) (fun b hb => by
      match b with
      | ⟨0, _⟩ => rfl
      | ⟨1, _⟩ => exact absurd rfl hb) hc

/-- The maximum with a broadcast zero, then the minimum with a broadcast one: the clip to the unit interval. -/
theorem clip_apply (y : FVec Ideal S32768x2047 .f32) (i : S32768x2047.Idx) :
    minimumf (broadcastInDim S32768x2047 ![] bcast_S_S32768x2047 (constant (F := Ideal) S_ .f32 0x3F800000#32))
      (maximumf (broadcastInDim S32768x2047 ![] bcast_S_S32768x2047 (constant (F := Ideal) S_ .f32 0x00000000#32)) y) i
      = Tree.clip (y i) := by
  rw [minimumf_apply, maximumf_apply, broadcastInDim_scalar_apply, broadcastInDim_scalar_apply, constant_apply,
    constant_apply, Ideal.ofBits_one_f32, Ideal.ofBits_zero_f32]
  rfl

/-- The dot product with the transposed weight row, read at row "r": the sum over the 2303 columns. -/
theorem dot_apply (xz : FVec Ideal S32768x2303 .f32) (w : FVec Ideal S1x2303 .f32) (r : Fin 32768) :
    Host.dotGeneral dot_S32768x2303_S2303x1_S32768x1_1_0_0_1_n_n none xz
      (transpose S2303x1 [1, 0] w transposes_S1x2303_S2303x1_1_0) (ix2 r (0 : Fin 1))
      = ∑ k ∈ Finset.range 2303, Tree.nat2 xz r.val k * Tree.nat2 w 0 k := by
  have hD : dot_S32768x2303_S2303x1_S32768x1_1_0_0_1_n_n = DotDims.plain 32768 2303 1 := rfl
  rw [hD, StackMember.dotGeneral_plain_apply, Finset.sum_range]
  refine Finset.sum_congr rfl fun k _ => ?_
  rw [transpose_ix2_apply, Tree.nat2_val]
  exact congrArg (xz (ix2 r k) * ·) (Tree.nat2_val w (0 : Fin 1) k).symm

/-- THE REFERENCE'S TAIL: the row "x" (bias column included) and the clipped path values of the eleven levels laid
    side by side, against the transposed weight row, plus the bias, through the spelled-out logistic, is at row "r"
    the logistic of the row's logit. -/
theorem rtail (x : FVec Ideal S32768x256 .f32) (q0 : FVec Ideal S32768x1 .f32) (q1 : FVec Ideal S32768x2 .f32)
    (q2 : FVec Ideal S32768x4 .f32) (q3 : FVec Ideal S32768x8 .f32) (q4 : FVec Ideal S32768x16 .f32)
    (q5 : FVec Ideal S32768x32 .f32) (q6 : FVec Ideal S32768x64 .f32) (q7 : FVec Ideal S32768x128 .f32)
    (q8 : FVec Ideal S32768x256 .f32) (q9 : FVec Ideal S32768x512 .f32) (q10 : FVec Ideal S32768x1024 .f32)
    (w : FVec Ideal S1x2303 .f32) (b : FVec Ideal S1 .f32) (r : Fin 32768) (xr sc : ℕ → EReal)
    (hx : ∀ k : Fin 256, x (ix2 r k) = Tree.xrow xr k.val)
    (hq0 : ∀ j : Fin 1, q0 (ix2 r j) = qv sc 0 j.val) (hq1 : ∀ j : Fin 2, q1 (ix2 r j) = qv sc 1 j.val)
    (hq2 : ∀ j : Fin 4, q2 (ix2 r j) = qv sc 2 j.val) (hq3 : ∀ j : Fin 8, q3 (ix2 r j) = qv sc 3 j.val)
    (hq4 : ∀ j : Fin 16, q4 (ix2 r j) = qv sc 4 j.val) (hq5 : ∀ j : Fin 32, q5 (ix2 r j) = qv sc 5 j.val)
    (hq6 : ∀ j : Fin 64, q6 (ix2 r j) = qv sc 6 j.val) (hq7 : ∀ j : Fin 128, q7 (ix2 r j) = qv sc 7 j.val)
    (hq8 : ∀ j : Fin 256, q8 (ix2 r j) = qv sc 8 j.val) (hq9 : ∀ j : Fin 512, q9 (ix2 r j) = qv sc 9 j.val)
    (hq10 : ∀ j : Fin 1024, q10 (ix2 r j) = qv sc 10 j.val) :
    Host.divf (broadcastInDim S32768x1 ![] bcast_S_S32768x1 (constant (F := Ideal) S_ .f32 0x3F800000#32))
      (addf (broadcastInDim S32768x1 ![] bcast_S_S32768x1 (constant (F := Ideal) S_ .f32 0x3F800000#32))
        (Host.exp (Host.negf (addf
          (Host.dotGeneral dot_S32768x2303_S2303x1_S32768x1_1_0_0_1_n_n none
            (concatenate S32768x2303 1 [⟨S32768x256, x⟩, ⟨S32768x2047,
              minimumf (broadcastInDim S32768x2047 ![] bcast_S_S32768x2047 (constant (F := Ideal) S_ .f32 0x3F800000#32))
                (maximumf (broadcastInDim S32768x2047 ![] bcast_S_S32768x2047 (constant (F := Ideal) S_ .f32 0x00000000#32))
                  (concatenate S32768x2047 1 [⟨S32768x1, q0⟩, ⟨S32768x2, q1⟩, ⟨S32768x4, q2⟩, ⟨S32768x8, q3⟩,
                    ⟨S32768x16, q4⟩, ⟨S32768x32, q5⟩, ⟨S32768x64, q6⟩, ⟨S32768x128, q7⟩, ⟨S32768x256, q8⟩,
                    ⟨S32768x512, q9⟩, ⟨S32768x1024, q10⟩]
                    concatenates_S32768x1_S32768x2_S32768x4_S32768x8_S32768x16_S32768x32_S32768x64_S32768x128_S32768x256_S32768x512_S32768x1024_S32768x2047_d1))⟩]
              concatenates_S32768x256_S32768x2047_S32768x2303_d1)
            (transpose S2303x1 [1, 0] w transposes_S1x2303_S2303x1_1_0))
          (broadcastInDim S32768x1 ![0, 1] bcast_S1x1_S32768x1_0_1 (broadcastInDim S1x1 ![1] bcast_S1_S1x1_1 b))))))
      (ix2 r (0 : Fin 1))
      = Ideal.logistic (Tree.logit (Tree.xrow xr) sc (Tree.nat2 w 0) (b (ix1 (0 : Fin 1)))) := by
  refine (logistic_apply _ _).trans (congrArg Ideal.logistic ?_)
  refine (addf_apply _ _ _).trans ?_
  rw [bias_apply, dot_apply]
  refine Tree.logit_ref _ _ _ _ _ (fun k hk => ?_) (fun l hl j hj => ?_)
  · -- a column of the row
    refine (Tree.nat2_val _ r (⟨k, by omega⟩ : Fin 2303)).trans ?_
    exact (xz_left x _ r ⟨k, hk⟩ _ rfl).trans (hx ⟨k, hk⟩)
  · -- column "2^l - 1 + j" of the clipped path values: node "j" of level "l"
    have h2 : 2 ^ l ≤ 2 ^ 10 := Nat.pow_le_pow_right (by norm_num) (by omega)
    have hc : 2 ^ l - 1 + j < 2047 := by omega
    refine (Tree.nat2_val _ r (⟨256 + (2 ^ l - 1 + j), by omega⟩ : Fin 2303)).trans ?_
    refine (xz_right x _ r ⟨2 ^ l - 1 + j, hc⟩ _ (Nat.add_comm _ _)).trans ?_
    refine (clip_apply _ _).trans (congrArg Tree.clip ?_)
    interval_cases l
    · exact (cat_piece _ _ 0 (by simp) 1 q0 rfl 0 rfl r ⟨j, hj⟩ _ rfl).trans (hq0 ⟨j, hj⟩)
    · exact (cat_piece _ _ 1 (by simp) 2 q1 rfl 1 rfl r ⟨j, hj⟩ _ rfl).trans (hq1 ⟨j, hj⟩)
    · exact (cat_piece _ _ 2 (by simp) 4 q2 rfl 3 rfl r ⟨j, hj⟩ _ rfl).trans (hq2 ⟨j, hj⟩)
    · exact (cat_piece _ _ 3 (by simp) 8 q3 rfl 7 rfl r ⟨j, hj⟩ _ rfl).trans (hq3 ⟨j, hj⟩)
    · exact (cat_piece _ _ 4 (by simp) 16 q4 rfl 15 rfl r ⟨j, hj⟩ _ rfl).trans (hq4 ⟨j, hj⟩)
    · exact (cat_piece _ _ 5 (by simp) 32 q5 rfl 31 rfl r ⟨j, hj⟩ _ rfl).trans (hq5 ⟨j, hj⟩)
    · exact (cat_piece _ _ 6 (by simp) 64 q6 rfl 63 rfl r ⟨j, hj⟩ _ rfl).trans (hq6 ⟨j, hj⟩)
    · exact (cat_piece _ _ 7 (by simp) 128 q7 rfl 127 rfl r ⟨j, hj⟩ _ rfl).trans (hq7 ⟨j, hj⟩)
    · exact (cat_piece _ _ 8 (by simp) 256 q8 rfl 255 rfl r ⟨j, hj⟩ _ rfl).trans (hq8 ⟨j, hj⟩)
    · exact (cat_piece _ _ 9 (by simp) 512 q9 rfl 511 rfl r ⟨j, hj⟩ _ rfl).trans (hq9 ⟨j, hj⟩)
    · exact (cat_piece _ _ 10 (by simp) 1024 q10 rfl 1023 rfl r ⟨j, hj⟩ _ rfl).trans (hq10 ⟨j, hj⟩)

end Cert.ReferenceIdeal.RTail

end
-- ==== Proof.RVal.lean ====
/-
  The reference's value at a row.  On the final valuation every buffer is its operation's function of its operands'
  final contents (the equations of the run); rewriting a stretch of the program with them, users before operands,
  gives exactly the closed form of that stretch: the row with its bias column, the split scores, level 0, each of the
  ten levels from the level above, and the tail.  Chained, row "r" of the result is the logistic of the row's logit.
-/
import proofs.«154722_j25271587570083_1_alg».proof.Proof.RefEqs
import proofs.«154722_j25271587570083_1_alg».proof.Proof.RHead
import proofs.«154722_j25271587570083_1_alg».proof.Proof.RLevels
import proofs.«154722_j25271587570083_1_alg».proof.Proof.RTail

noncomputable section

namespace Cert.ReferenceIdeal.RVal

open Idealize.ShloMosaic Idealize.ShloMosaic.ValueIdx Idealize.SL.Sem Cert.Tree Cert.ReferenceIdeal Cert.ReferenceIdeal.Run

/-- Row "r" of the features. -/
def row (V : Valuation τ sig (Elt Ideal)) (r : Fin 32768) : ℕ → EReal :=
  Tree.nat2 (V (Proc.devRef .tc main_arg0) : FVec Ideal S32768x255 .f32) r.val

/-- The split scores of row "r". -/
def scores (V : Valuation τ sig (Elt Ideal)) (r : Fin 32768) : ℕ → EReal :=
  Tree.xa (row V r) (Tree.nat2 (V (Proc.devRef .tc main_arg1) : FVec Ideal S1023x256 .f32))

variable (V : Valuation τ sig (Elt Ideal)) (r : Fin 32768)

/-- The row with its bias column. -/
theorem x_apply (k : Fin 256) :
    (Vf V (Proc.devRef .tc main_v11) : FVec Ideal S32768x256 .f32) (ix2 r k) = Tree.xrow (row V r) k.val := by
  rw [e_main_v11, e_main_v10, e_main_cst_48, Vf_main_arg0]
  exact RHead.rx_apply _ r k

/-- The split scores. -/
theorem xa_apply (s : Fin 1023) :
    (Vf V (Proc.devRef .tc main_v13) : FVec Ideal S32768x1023 .f32) (ix2 r s) = scores V r s.val := by
  rw [e_main_v13, e_main_v12, Vf_main_arg1]
  exact RHead.rxa_apply _ r (row V r) _ (x_apply V r) s

/-- Level 0: the root. -/
theorem q0_apply (j : Fin 1) :
    (Vf V (Proc.devRef .tc main_v14) : FVec Ideal S32768x1 .f32) (ix2 r j) = qv (scores V r) 0 j.val := by
  rw [e_main_v14, e_main_cst_49]
  exact RHead.rq0_apply r (scores V r) j

/-- Level 1 from level 0. -/
theorem q1_apply (j : Fin 2) :
    (Vf V (Proc.devRef .tc main_v27) : FVec Ideal S32768x2 .f32) (ix2 r j) = qv (scores V r) 1 j.val := by
  rw [e_main_v27, e_main_v21, e_main_v20, e_main_v0, e_main_cst, e_main_v19, e_main_v18, e_main_v17,
      e_main_v16, e_main_v15, e_main_c_50, e_main_c, e_main_c_0, e_main_v26, e_main_v25, e_main_v24,
      e_main_v23, e_main_v22, e_main_c_51, e_main_c_1, e_main_c_2]
  exact RLevels.rlevel_1 _ _ r (scores V r) (xa_apply V r) (q0_apply V r) j

/-- Level 2 from level 1. -/
theorem q2_apply (j : Fin 4) :
    (Vf V (Proc.devRef .tc main_v40) : FVec Ideal S32768x4 .f32) (ix2 r j) = qv (scores V r) 2 j.val := by
  rw [e_main_v40, e_main_v34, e_main_v33, e_main_v1, e_main_cst_5, e_main_v32, e_main_v31, e_main_v30,
      e_main_v29, e_main_v28, e_main_c_52, e_main_c_3, e_main_c_4, e_main_v39, e_main_v38, e_main_v37,
      e_main_v36, e_main_v35, e_main_c_53, e_main_c_6, e_main_c_7]
  exact RLevels.rlevel_2 _ _ r (scores V r) (xa_apply V r) (q1_apply V r) j

/-- Level 3 from level 2. -/
theorem q3_apply (j : Fin 8) :
    (Vf V (Proc.devRef .tc main_v53) : FVec Ideal S32768x8 .f32) (ix2 r j) = qv (scores V r) 3 j.val := by
  rw [e_main_v53, e_main_v47, e_main_v46, e_main_v2, e_main_cst_10, e_main_v45, e_main_v44, e_main_v43,
      e_main_v42, e_main_v41, e_main_c_54, e_main_c_8, e_main_c_9, e_main_v52, e_main_v51, e_main_v50,
      e_main_v49, e_main_v48, e_main_c_55, e_main_c_11, e_main_c_12]
  exact RLevels.rlevel_3 _ _ r (scores V r) (xa_apply V r) (q2_apply V r) j

/-- Level 4 from level 3. -/
theorem q4_apply (j : Fin 16) :
    (Vf V (Proc.devRef .tc main_v66) : FVec Ideal S32768x16 .f32) (ix2 r j) = qv (scores V r) 4 j.val := by
  rw [e_main_v66, e_main_v60, e_main_v59, e_main_v3, e_main_cst_15, e_main_v58, e_main_v57, e_main_v56,
      e_main_v55, e_main_v54, e_main_c_56, e_main_c_13, e_main_c_14, e_main_v65, e_main_v64, e_main_v63,
      e_main_v62, e_main_v61, e_main_c_57, e_main_c_16, e_main_c_17]
  exact RLevels.rlevel_4 _ _ r (scores V r) (xa_apply V r) (q3_apply V r) j

/-- Level 5 from level 4. -/
theorem q5_apply (j : Fin 32) :
    (Vf V (Proc.devRef .tc main_v79) : FVec Ideal S32768x32 .f32) (ix2 r j) = qv (scores V r) 5 j.val := by
  rw [e_main_v79, e_main_v73, e_main_v72, e_main_v4, e_main_cst_20, e_main_v71, e_main_v70, e_main_v69,
      e_main_v68, e_main_v67, e_main_c_58, e_main_c_18, e_main_c_19, e_main_v78, e_main_v77, e_main_v76,
      e_main_v75, e_main_v74, e_main_c_59, e_main_c_21, e_main_c_22]
  exact RLevels.rlevel_5 _ _ r (scores V r) (xa_apply V r) (q4_apply V r) j

/-- Level 6 from level 5. -/
theorem q6_apply (j : Fin 64) :
    (Vf V (Proc.devRef .tc main_v92) : FVec Ideal S32768x64 .f32) (ix2 r j) = qv (scores V r) 6 j.val := by
  rw [e_main_v92, e_main_v86, e_main_v85, e_main_v5, e_main_cst_25, e_main_v84, e_main_v83, e_main_v82,
      e_main_v81, e_main_v80, e_main_c_60, e_main_c_23, e_main_c_24, e_main_v91, e_main_v90, e_main_v89,
      e_main_v88, e_main_v87, e_main_c_61, e_main_c_26, e_main_c_27]
  exact RLevels.rlevel_6 _ _ r (scores V r) (xa_apply V r) (q5_apply V r) j

/-- Level 7 from level 6. -/
theorem q7_apply (j : Fin 128) :
    (Vf V (Proc.devRef .tc main_v105) : FVec Ideal S32768x128 .f32) (ix2 r j) = qv (scores V r) 7 j.val := by
  rw [e_main_v105, e_main_v99, e_main_v98, e_main_v6, e_main_cst_30, e_main_v97, e_main_v96, e_main_v95,
      e_main_v94, e_main_v93, e_main_c_62, e_main_c_28, e_main_c_29, e_main_v104, e_main_v103, e_main_v102,
      e_main_v101, e_main_v100, e_main_c_63, e_main_c_31, e_main_c_32]
  exact RLevels.rlevel_7 _ _ r (scores V r) (xa_apply V r) (q6_apply V r) j

/-- Level 8 from level 7. -/
theorem q8_apply (j : Fin 256) :
    (Vf V (Proc.devRef .tc main_v118) : FVec Ideal S32768x256 .f32) (ix2 r j) = qv (scores V r) 8 j.val := by
  rw [e_main_v118, e_main_v112, e_main_v111, e_main_v7, e_main_cst_35, e_main_v110, e_main_v109, e_main_v108,
      e_main_v107, e_main_v106, e_main_c_64, e_main_c_33, e_main_c_34, e_main_v117, e_main_v116, e_main_v115,
      e_main_v114, e_main_v113, e_main_c_65, e_main_c_36, e_main_c_37]
  exact RLevels.rlevel_8 _ _ r (scores V r) (xa_apply V r) (q7_apply V r) j

/-- Level 9 from level 8. -/
theorem q9_apply (j : Fin 512) :
    (Vf V (Proc.devRef .tc main_v131) : FVec Ideal S32768x512 .f32) (ix2 r j) = qv (scores V r) 9 j.val := by
  rw [e_main_v131, e_main_v125, e_main_v124, e_main_v8, e_main_cst_40, e_main_v123, e_main_v122, e_main_v121,
      e_main_v120, e_main_v119, e_main_c_66, e_main_c_38, e_main_c_39, e_main_v130, e_main_v129, e_main_v128,
      e_main_v127, e_main_v126, e_main_c_67, e_main_c_41, e_main_c_42]
  exact RLevels.rlevel_9 _ _ r (scores V r) (xa_apply V r) (q8_apply V r) j

/-- Level 10 from level 9. -/
theorem q10_apply (j : Fin 1024) :
    (Vf V (Proc.devRef .tc main_v144) : FVec Ideal S32768x1024 .f32) (ix2 r j) = qv (scores V r) 10 j.val := by
  rw [e_main_v144, e_main_v138, e_main_v137, e_main_v9, e_main_cst_45, e_main_v136, e_main_v135, e_main_v134,
      e_main_v133, e_main_v132, e_main_c_68, e_main_c_43, e_main_c_44, e_main_v143, e_main_v142, e_main_v141,
      e_main_v140, e_main_v139, e_main_c_69, e_main_c_46, e_main_c_47]
  exact RLevels.rlevel_10 _ _ r (scores V r) (xa_apply V r) (q9_apply V r) j

/-- THE REFERENCE'S RESULT at row "r": the logistic of the row's logit. -/
theorem out_apply :
    (Vf V (Proc.devRef .tc main_v158) : FVec Ideal S32768x1 .f32) (ix2 r (0 : Fin 1))
      = Tree.outRow (Tree.nat2 (V (Proc.devRef .tc main_arg0) : FVec Ideal S32768x255 .f32) r.val)
          (Tree.nat2 (V (Proc.devRef .tc main_arg1) : FVec Ideal S1023x256 .f32))
          (Tree.nat2 (V (Proc.devRef .tc main_arg2) : FVec Ideal S1x2303 .f32) 0)
          ((V (Proc.devRef .tc main_arg3) : FVec Ideal S1 .f32) (ix1 (0 : Fin 1))) := by
  rw [e_main_v158, e_main_v156, e_main_v154, e_main_v153, e_main_v152, e_main_v151, e_main_v150,
      Vf_main_arg3, e_main_v149, e_main_v148, Vf_main_arg2, e_main_v147, e_main_v146, e_main_call0_v2,
      e_main_v145, e_main_call0_v1, e_main_call0_v0, e_main_cst_70, e_main_call0_v4, e_main_call0_v3,
      e_main_cst_71, e_main_v155, e_main_cst_72, e_main_v157, e_main_cst_73]
  exact RTail.rtail _ _ _ _ _ _ _ _ _ _ _ _ _ _ r (row V r) (scores V r) (x_apply V r) (q0_apply V r) (q1_apply V r)
    (q2_apply V r) (q3_apply V r) (q4_apply V r) (q5_apply V r) (q6_apply V r) (q7_apply V r) (q8_apply V r)
    (q9_apply V r) (q10_apply V r)

end Cert.ReferenceIdeal.RVal

end
-- ==== Proof.lean ====
/-
  A row's result is the logistic of a logit assembled along a complete binary tree of depth 10: the row (with a
  bias column of ones) against the first 256 weights, plus, for each of the 2047 tree nodes, its path value clipped
  to [0, 1] against the node's weight, plus the bias.  A node's path value is the minimum, along the path from
  the root, of the signed split scores (`+` score towards a left child, `-` score towards a right child), the
  scores being the row's products with the split nodes' weight rows.

  The kernel walks the tree level by level on blocks of 1024 rows: the children of a level are the two minima
  `min parent score` and `min parent (0 - score)` interleaved in heap order, each level's clipped values are summed
  against its slice of the weight row, and the eleven sums are added one after the other.  The reference gathers
  parents and scores through constant index tables, multiplies the scores by a constant row of signs `±1`, lays
  the row and all clipped path values side by side and takes ONE dot product over the 2303 columns.  At the ideal
  values the two agree: `0 - s = s · (-1)`, `s · 1 = s`, the matrix products are the same sums, and the logit is
  the same sum regrouped (commutativity and associativity of addition on the extended reals; no finiteness is
  needed, so the precondition is not opened).  The kernel's logistic is the reference's `1 / (1 + exp (-x))` by
  definition at the ideal values.

  Kernel side: the generated frames and blockwise value leg, a row's payload read at an index (KVal) and the 32
  blocks assembled into one function `G` of the arguments (KBlocks).  Reference side: its run written as one
  equation per operation on the final contents (RefOps, RefEqs*, RefRun over LibSsa), read level by level at an
  index (RTables, RLevels, RHead, RTail, RVal).  The mathematics shared by both is Tree.lean.
-/
import proofs.«154722_j25271587570083_1_alg».proof.Defs
import proofs.«154722_j25271587570083_1_alg».proof.Proof.Gen.Kernel
import proofs.«154722_j25271587570083_1_alg».proof.Proof.Gen.Kernel.Skeleton
import proofs.«154722_j25271587570083_1_alg».proof.Proof.Gen.Kernel.Launch
import proofs.«154722_j25271587570083_1_alg».proof.Proof.Gen.Kernel.Points
import proofs.«154722_j25271587570083_1_alg».proof.Proof.Gen.Kernel.Frame
import proofs.«154722_j25271587570083_1_alg».proof.Proof.Gen.KernelIdeal
import proofs.«154722_j25271587570083_1_alg».proof.Proof.Gen.KernelIdeal.Skeleton
import proofs.«154722_j25271587570083_1_alg».proof.Proof.Gen.KernelIdeal.Launch
import proofs.«154722_j25271587570083_1_alg».proof.Proof.Gen.KernelIdeal.Points
import proofs.«154722_j25271587570083_1_alg».proof.Proof.Gen.KernelIdeal.Frame
import proofs.«154722_j25271587570083_1_alg».proof.Proof.Gen.KernelIdeal.Value
import proofs.«154722_j25271587570083_1_alg».proof.Proof.Gen.ReferenceIdeal
import proofs.«154722_j25271587570083_1_alg».proof.Proof.Gen.Pre_finite_inputs
import proofs.«154722_j25271587570083_1_alg».proof.Proof.KBlocks
import proofs.«154722_j25271587570083_1_alg».proof.Proof.RefRun
import proofs.«154722_j25271587570083_1_alg».proof.Proof.RVal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: no operation writes them. -/
theorem frame_ri : Cert.frame_ReferenceIdeal := fun m ρ _ =>
  (θ_run Cert.ReferenceIdeal.defs _ _).mono
    (fun _ h c => ⟨(h c Cert.ReferenceIdeal.main_arg0).trans (Cert.ReferenceIdeal.Run.Vf_main_arg0 _),
      (h c Cert.ReferenceIdeal.main_arg1).trans (Cert.ReferenceIdeal.Run.Vf_main_arg1 _),
      (h c Cert.ReferenceIdeal.main_arg2).trans (Cert.ReferenceIdeal.Run.Vf_main_arg2 _),
      (h c Cert.ReferenceIdeal.main_arg3).trans (Cert.ReferenceIdeal.Run.Vf_main_arg3 _)⟩)
    (Cert.ReferenceIdeal.Run.run (F := Ideal) m ρ)

/-- The reference's result column is the same function `G` of its arguments, row by row. -/
theorem ref_result (V : Valuation Cert.ReferenceIdeal.τ Cert.ReferenceIdeal.sig (Elt Ideal)) :
    Cert.ReferenceIdeal.Run.Vf V (Proc.devRef .tc Cert.ReferenceIdeal.main_v158)
      = Cert.KernelIdeal.KBlocks.G (V (Proc.devRef .tc Cert.ReferenceIdeal.main_arg0)) (V (Proc.devRef .tc Cert.ReferenceIdeal.main_arg1))
          (V (Proc.devRef .tc Cert.ReferenceIdeal.main_arg2)) (V (Proc.devRef .tc Cert.ReferenceIdeal.main_arg3)) := by
  funext i
  obtain ⟨p, q, rfl⟩ : ∃ (p : Fin 32768) (q : Fin 1), i = ix2 p q := ⟨i 0, i 1, eq_ix2 i⟩
  obtain rfl : q = 0 := Subsingleton.elim _ _
  exact Cert.ReferenceIdeal.RVal.out_apply V p

/-- Both idealized programs end with the result column at `G` of the arguments. -/
theorem algebraic : Cert.algebraic_KernelIdeal_ReferenceIdeal := by
  intro m ρ m' ρ' _ hagree
  refine ⟨fun c => Cert.KernelIdeal.KBlocks.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KBlocks.run m ρ, ?_⟩
  refine (θ_run Cert.ReferenceIdeal.defs _ _).mono (fun _ h c => ⟨?_,
      (h c Cert.ReferenceIdeal.main_arg0).trans (Cert.ReferenceIdeal.Run.Vf_main_arg0 _),
      (h c Cert.ReferenceIdeal.main_arg1).trans (Cert.ReferenceIdeal.Run.Vf_main_arg1 _),
      (h c Cert.ReferenceIdeal.main_arg2).trans (Cert.ReferenceIdeal.Run.Vf_main_arg2 _),
      (h c Cert.ReferenceIdeal.main_arg3).trans (Cert.ReferenceIdeal.Run.Vf_main_arg3 _)⟩)
    (Cert.ReferenceIdeal.Run.run (F := Ideal) m' ρ')
  refine (h c Cert.ReferenceIdeal.main_v158).trans ((ref_result _).trans ?_)
  beta_reduce
  rw [← (hagree c).1, ← (hagree c).2.1, ← (hagree c).2.2.1, ← (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
